-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.truncf_extf.Statement Cert.KernelIdeal.S2000x64 .f32 .bf16
  ∧ IdealRules.truncf_extf.Statement Cert.KernelIdeal.S64x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S8000x16 .f32 .bf16
  ∧ IdealRules.truncf_extf.Statement Cert.KernelIdeal.S16x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S320000x16 : Shape := ⟨2, ![320000, 16]⟩
abbrev S2x320000 : Shape := ⟨2, ![2, 320000]⟩
abbrev S64x256 : Shape := ⟨2, ![64, 256]⟩
abbrev S256 : Shape := ⟨1, ![256]⟩
abbrev S16x256 : Shape := ⟨2, ![16, 256]⟩
abbrev S256x256 : Shape := ⟨2, ![256, 256]⟩
abbrev S_ : Shape := ⟨0, ![]⟩
abbrev S4 : Shape := ⟨1, ![4]⟩
abbrev S4x256x256 : Shape := ⟨3, ![4, 256, 256]⟩
abbrev S4x256 : Shape := ⟨2, ![4, 256]⟩
abbrev S256x10 : Shape := ⟨2, ![256, 10]⟩
abbrev S10 : Shape := ⟨1, ![10]⟩
abbrev S1x320000 : Shape := ⟨2, ![1, 320000]⟩
abbrev S320000 : Shape := ⟨1, ![320000]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S256x256 : S_.BroadcastsInDim S256x256 (![] : Fin 0 → Fin S256x256.rank)
  reducesTo_S256x256_S_d0_1 : S256x256.ReducesTo [0, 1] S_
  reducesTo_S_S_d : S_.ReducesTo [] S_
  bcast_S_S4 : S_.BroadcastsInDim S4 (![] : Fin 0 → Fin S4.rank)
  reducesTo_S4_S_d0 : S4.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_

variable [Facts]

def fn_part6 {F : FTy → Type} [FloatOps F] (main_v97 : IVec S_ 1) (main_v101 : IVec S320000 1) (main_v102 : IVec S1x320000 32) : IVec S_ 1 :=
  let main_v103 : IVec S320000 32 := shapeCast S320000 main_v102 shapeCasts_S1x320000_S320000
  let main_c_39 : IVec S_ 32 := constantI S_ 32 20000#32
  let main_v104 : IVec S320000 32 := broadcastInDim S320000 ![] bcast_S_S320000 main_c_39
  let main_v105 : IVec S320000 1 := cmpi .slt main_v103 main_v104
  let main_v106 : IVec S320000 1 := andi main_v101 main_v105
  let main_c_40 : IVec S_ 1 := constantI S_ 1 1#1
  let main_v107 : IVec S_ 1 := (fun x v => Host.reduce IntOp.andi x v reducesTo_S320000_S_d0 h_S_) main_v106 main_c_40
  let main_v108 : IVec S_ 1 := andi main_v97 main_v107
  main_v108

def fn_part5 {F : FTy → Type} [FloatOps F] (main_arg2 : IVec S2x320000 32) (main_arg19 : FVec F S256x10 .f32) (main_arg20 : FVec F S10 .f32) (main_v82 : IVec S_ 1) (main_v83 : FVec F S4x256 .f32) (main_v84 : FVec F S4x256 .f32) : IVec S_ 1 :=
  let main_v85 : IVec S4x256 1 := cmpf .olt main_v83 main_v84
  let main_c_33 : IVec S_ 1 := constantI S_ 1 1#1
  let main_v86 : IVec S_ 1 := (fun x v => Host.reduce IntOp.andi x v reducesTo_S4x256_S_d0_1 h_S_) main_v85 main_c_33
  let main_v87 : IVec S_ 1 := andi main_v82 main_v86
  let main_v88 : FVec F S256x10 .f32 := Host.absf main_arg19
  let main_cst_34 : FVec F S_ .f32 := constant S_ .f32 0x7F800000#32
  let main_v89 : FVec F S256x10 .f32 := broadcastInDim S256x10 ![] bcast_S_S256x10 main_cst_34
  let main_v90 : IVec S256x10 1 := cmpf .olt main_v88 main_v89
  let main_c_35 : IVec S_ 1 := constantI S_ 1 1#1
  let main_v91 : IVec S_ 1 := (fun x v => Host.reduce IntOp.andi x v reducesTo_S256x10_S_d0_1 h_S_) main_v90 main_c_35
  let main_v92 : IVec S_ 1 := andi main_v87 main_v91
  let main_v93 : FVec F S10 .f32 := Host.absf main_arg20
  let main_cst_36 : FVec F S_ .f32 := constant S_ .f32 0x7F800000#32
  let main_v94 : FVec F S10 .f32 := broadcastInDim S10 ![] bcast_S_S10 main_cst_36
  let main_v95 : IVec S10 1 := cmpf .olt main_v93 main_v94
  let main_c_37 : IVec S_ 1 := constantI S_ 1 1#1
  let main_v96 : IVec S_ 1 := (fun x v => Host.reduce IntOp.andi x v reducesTo_S10_S_d0 h_S_) main_v95 main_c_37
  let main_v97 : IVec S_ 1 := andi main_v92 main_v96
  let main_v98 : IVec S1x320000 32 := (extractStridedSlice S1x320000 ![0, 0] · slices_S2x320000_S1x320000_0_0) main_arg2
  let main_v99 : IVec S320000 32 := shapeCast S320000 main_v98 shapeCasts_S1x320000_S320000
  let main_c_38 : IVec S_ 32 := constantI S_ 32 4294947296#32
  let main_v100 : IVec S320000 32 := broadcastInDim S320000 ![] bcast_S_S320000 main_c_38
  let main_v101 : IVec S320000 1 := cmpi .sge main_v99 main_v100
  let main_v102 : IVec S1x320000 32 := (extractStridedSlice S1x320000 ![0, 0] · slices_S2x320000_S1x320000_0_0) main_arg2
  fn_part6 (F := F) main_v97 main_v101 main_v102

def fn_part4 {F : FTy → Type} [FloatOps F] (main_arg2 : IVec S2x320000 32) (main_arg15 : FVec F S4x256x256 .f32) (main_arg16 : FVec F S4x256 .f32) (main_arg17 : FVec F S4x256x256 .f32) (main_arg18 : FVec F S4x256 .f32) (main_arg19 : FVec F S256x10 .f32) (main_arg20 : FVec F S10 .f32) (main_v67 : IVec S_ 1) : IVec S_ 1 :=
  let main_v68 : FVec F S4x256x256 .f32 := Host.absf main_arg15
  let main_cst_26 : FVec F S_ .f32 := constant S_ .f32 0x7F800000#32
  let main_v69 : FVec F S4x256x256 .f32 := broadcastInDim S4x256x256 ![] bcast_S_S4x256x256 main_cst_26
  let main_v70 : IVec S4x256x256 1 := cmpf .olt main_v68 main_v69
  let main_c_27 : IVec S_ 1 := constantI S_ 1 1#1
  let main_v71 : IVec S_ 1 := (fun x v => Host.reduce IntOp.andi x v reducesTo_S4x256x256_S_d0_1_2 h_S_) main_v70 main_c_27
  let main_v72 : IVec S_ 1 := andi main_v67 main_v71
  let main_v73 : FVec F S4x256 .f32 := Host.absf main_arg16
  let main_cst_28 : FVec F S_ .f32 := constant S_ .f32 0x7F800000#32
  let main_v74 : FVec F S4x256 .f32 := broadcastInDim S4x256 ![] bcast_S_S4x256 main_cst_28
  let main_v75 : IVec S4x256 1 := cmpf .olt main_v73 main_v74
  let main_c_29 : IVec S_ 1 := constantI S_ 1 1#1
  let main_v76 : IVec S_ 1 := (fun x v => Host.reduce IntOp.andi x v reducesTo_S4x256_S_d0_1 h_S_) main_v75 main_c_29
  let main_v77 : IVec S_ 1 := andi main_v72 main_v76
  let main_v78 : FVec F S4x256x256 .f32 := Host.absf main_arg17
  let main_cst_30 : FVec F S_ .f32 := constant S_ .f32 0x7F800000#32
  let main_v79 : FVec F S4x256x256 .f32 := broadcastInDim S4x256x256 ![] bcast_S_S4x256x256 main_cst_30
  let main_v80 : IVec S4x256x256 1 := cmpf .olt main_v78 main_v79
  let main_c_31 : IVec S_ 1 := constantI S_ 1 1#1
  let main_v81 : IVec S_ 1 := (fun x v => Host.reduce IntOp.andi x v reducesTo_S4x256x256_S_d0_1_2 h_S_) main_v80 main_c_31
  let main_v82 : IVec S_ 1 := andi main_v77 main_v81
  let main_v83 : FVec F S4x256 .f32 := Host.absf main_arg18
  let main_cst_32 : FVec F S_ .f32 := constant S_ .f32 0x7F800000#32
  let main_v84 : FVec F S4x256 .f32 := broadcastInDim S4x256 ![] bcast_S_S4x256 main_cst_32
  fn_part5 (F := F) main_arg2 main_arg19 main_arg20 main_v82 main_v83 main_v84

def fn_part3 {F : FTy → Type} [FloatOps F] (main_arg2 : IVec S2x320000 32) (main_arg12 : FVec F S256x256 .f32) (main_arg13 : FVec F S256 .f32) (main_arg14 : FVec F S4 .f32) (main_arg15 : FVec F S4x256x256 .f32) (main_arg16 : FVec F S4x256 .f32) (main_arg17 : FVec F S4x256x256 .f32) (main_arg18 : FVec F S4x256 .f32) (main_arg19 : FVec F S256x10 .f32) (main_arg20 : FVec F S10 .f32) (main_v47 : IVec S_ 1) (main_v50 : IVec S256 1) : IVec S_ 1 :=
  let main_c_19 : IVec S_ 1 := constantI S_ 1 1#1
  let main_v51 : IVec S_ 1 := (fun x v => Host.reduce IntOp.andi x v reducesTo_S256_S_d0 h_S_) main_v50 main_c_19
  let main_v52 : IVec S_ 1 := andi main_v47 main_v51
  let main_v53 : FVec F S256x256 .f32 := Host.absf main_arg12
  let main_cst_20 : FVec F S_ .f32 := constant S_ .f32 0x7F800000#32
  let main_v54 : FVec F S256x256 .f32 := broadcastInDim S256x256 ![] bcast_S_S256x256 main_cst_20
  let main_v55 : IVec S256x256 1 := cmpf .olt main_v53 main_v54
  let main_c_21 : IVec S_ 1 := constantI S_ 1 1#1
  let main_v56 : IVec S_ 1 := (fun x v => Host.reduce IntOp.andi x v reducesTo_S256x256_S_d0_1 h_S_) main_v55 main_c_21
  let main_v57 : IVec S_ 1 := andi main_v52 main_v56
  let main_v58 : FVec F S256 .f32 := Host.absf main_arg13
  let main_cst_22 : FVec F S_ .f32 := constant S_ .f32 0x7F800000#32
  let main_v59 : FVec F S256 .f32 := broadcastInDim S256 ![] bcast_S_S256 main_cst_22
  let main_v60 : IVec S256 1 := cmpf .olt main_v58 main_v59
  let main_c_23 : IVec S_ 1 := constantI S_ 1 1#1
  let main_v61 : IVec S_ 1 := (fun x v => Host.reduce IntOp.andi x v reducesTo_S256_S_d0 h_S_) main_v60 main_c_23
  let main_v62 : IVec S_ 1 := andi main_v57 main_v61
  let main_v63 : FVec F S4 .f32 := Host.absf main_arg14
  let main_cst_24 : FVec F S_ .f32 := constant S_ .f32 0x7F800000#32
  let main_v64 : FVec F S4 .f32 := broadcastInDim S4 ![] bcast_S_S4 main_cst_24
  let main_v65 : IVec S4 1 := cmpf .olt main_v63 main_v64
  let main_c_25 : IVec S_ 1 := constantI S_ 1 1#1
  let main_v66 : IVec S_ 1 := (fun x v => Host.reduce IntOp.andi x v reducesTo_S4_S_d0 h_S_) main_v65 main_c_25
  let main_v67 : IVec S_ 1 := andi main_v62 main_v66
  fn_part4 (F := F) main_arg2 main_arg15 main_arg16 main_arg17 main_arg18 main_arg19 main_arg20 main_v67

def fn_part2 {F : FTy → Type} [FloatOps F] (main_arg2 : IVec S2x320000 32) (main_arg8 : FVec F S256 .f32) (main_arg9 : FVec F S_ .f32) (main_arg10 : FVec F S256x256 .f32) (main_arg11 : FVec F S256 .f32) (main_arg12 : FVec F S256x256 .f32) (main_arg13 : FVec F S256 .f32) (main_arg14 : FVec F S4 .f32) (main_arg15 : FVec F S4x256x256 .f32) (main_arg16 : FVec F S4x256 .f32) (main_arg17 : FVec F S4x256x256 .f32) (main_arg18 : FVec F S4x256 .f32) (main_arg19 : FVec F S256x10 .f32) (main_arg20 : FVec F S10 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S_ .f32 := Host.absf main_arg9
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_v43 : FVec F S256x256 .f32 := Host.absf main_arg10
  let main_cst_16 : FVec F S_ .f32 := constant S_ .f32 0x7F800000#32
  let main_v44 : FVec F S256x256 .f32 := broadcastInDim S256x256 ![] bcast_S_S256x256 main_cst_16
  let main_v45 : IVec S256x256 1 := cmpf .olt main_v43 main_v44
  let main_c_17 : IVec S_ 1 := constantI S_ 1 1#1
  let main_v46 : IVec S_ 1 := (fun x v => Host.reduce IntOp.andi x v reducesTo_S256x256_S_d0_1 h_S_) main_v45 main_c_17
  let main_v47 : IVec S_ 1 := andi main_v42 main_v46
  let main_v48 : FVec F S256 .f32 := Host.absf main_arg11
  let main_cst_18 : FVec F S_ .f32 := constant S_ .f32 0x7F800000#32
  let main_v49 : FVec F S256 .f32 := broadcastInDim S256 ![] bcast_S_S256 main_cst_18
  let main_v50 : IVec S256 1 := cmpf .olt main_v48 main_v49
  fn_part3 (F := F) main_arg2 main_arg12 main_arg13 main_arg14 main_arg15 main_arg16 main_arg17 main_arg18 main_arg19 main_arg20 main_v47 main_v50

def fn_part1 {F : FTy → Type} [FloatOps F] (main_arg2 : IVec S2x320000 32) (main_arg5 : FVec F S16x256 .f32) (main_arg6 : FVec F S256 .f32) (main_arg7 : FVec F S256x256 .f32) (main_arg8 : FVec F S256 .f32) (main_arg9 : FVec F S_ .f32) (main_arg10 : FVec F S256x256 .f32) (main_arg11 : FVec F S256 .f32) (main_arg12 : FVec F S256x256 .f32) (main_arg13 : FVec F S256 .f32) (main_arg14 : FVec F S4 .f32) (main_arg15 : FVec F S4x256x256 .f32) (main_arg16 : FVec F S4x256 .f32) (main_arg17 : FVec F S4x256x256 .f32) (main_arg18 : FVec F S4x256 .f32) (main_arg19 : FVec F S256x10 .f32) (main_arg20 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S16x256 .f32 := Host.absf main_arg5
  let main_cst_6 : FVec F S_ .f32 := constant S_ .f32 0x7F800000#32
  let main_v20 : FVec F S16x256 .f32 := broadcastInDim S16x256 ![] bcast_S_S16x256 main_cst_6
  let main_v21 : IVec S16x256 1 := cmpf .olt main_v19 main_v20
  let main_c_7 : IVec S_ 1 := constantI S_ 1 1#1
  let main_v22 : IVec S_ 1 := (fun x v => Host.reduce IntOp.andi x v reducesTo_S16x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_v33

def fn {F : FTy → Type} [FloatOps F] (main_arg0 : FVec F S20000x64 .f32) (main_arg1 : FVec F S320000x16 .f32) (main_arg2 : IVec S2x320000 32) (main_arg3 : FVec F S64x256 .f32) (main_arg4 : FVec F S256 .f32) (main_arg5 : FVec F S16x256 .f32) (main_arg6 : FVec F S256 .f32) (main_arg7 : FVec F S256x256 .f32) (main_arg8 : FVec F S256 .f32) (main_arg9 : FVec F S_ .f32) (main_arg10 : FVec F S256x256 .f32) (main_arg11 : FVec F S256 .f32) (main_arg12 : FVec F S256x256 .f32) (main_arg13 : FVec F S256 .f32) (main_arg14 : FVec F S4 .f32) (main_arg15 : FVec F S4x256x256 .f32) (main_arg16 : FVec F S4x256 .f32) (main_arg17 : FVec F S4x256x256 .f32) (main_arg18 : FVec F S4x256 .f32) (main_arg19 : FVec F S256x10 .f32) (main_arg20 : FVec F S10 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S320000x16 .f32 := Host.absf main_arg1
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S20000x64 : Shape := ⟨2, ![20000, 64]⟩
abbrev S320000x16 : Shape := ⟨2, ![320000, 16]⟩
abbrev S2x320000 : Shape := ⟨2, ![2, 320000]⟩
abbrev S64x256 : Shape := ⟨2, ![64, 256]⟩
abbrev S256 : Shape := ⟨1, ![256]⟩
abbrev S16x256 : Shape := ⟨2, ![16, 256]⟩
abbrev S256x256 : Shape := ⟨2, ![256, 256]⟩
abbrev S_ : Shape := ⟨0, ![]⟩
abbrev S4 : Shape := ⟨1, ![4]⟩
abbrev S4x256x256 : Shape := ⟨3, ![4, 256, 256]⟩
abbrev S4x256 : Shape := ⟨2, ![4, 256]⟩
abbrev S256x10 : Shape := ⟨2, ![256, 10]⟩
abbrev S10 : Shape := ⟨1, ![10]⟩
abbrev S1x320000 : Shape := ⟨2, ![1, 320000]⟩
abbrev S320000 : Shape := ⟨1, ![320000]⟩
abbrev S1x256 : Shape := ⟨2, ![1, 256]⟩
abbrev S20000x256 : Shape := ⟨2, ![20000, 256]⟩
abbrev S2000x64 : Shape := ⟨2, ![2000, 64]⟩
abbrev S2000x256 : Shape := ⟨2, ![2000, 256]⟩
abbrev S320000x256 : Shape := ⟨2, ![320000, 256]⟩
abbrev S8000x16 : Shape := ⟨2, ![8000, 16]⟩
abbrev S8000x256 : Shape := ⟨2, ![8000, 256]⟩
abbrev S320000x1 : Shape := ⟨2, ![320000, 1]⟩
abbrev S1 : Shape := ⟨1, ![1]⟩
abbrev S1x1 : Shape := ⟨2, ![1, 1]⟩
abbrev S256x128 : Shape := ⟨2, ![256, 128]⟩
abbrev S128 : Shape := ⟨1, ![128]⟩
abbrev S1x256x256 : Shape := ⟨3, ![1, 256, 256]⟩
abbrev S1x128 : Shape := ⟨2, ![1, 128]⟩
abbrev S20000x128 : Shape := ⟨2, ![20000, 128]⟩
abbrev S2000x128 : Shape := ⟨2, ![2000, 128]⟩
abbrev S20000x10 : Shape := ⟨2, ![20000, 10]⟩

abbrev nBuf : Space → Nat
  | .hbm => 262
  | .vmem => 71
  | .smem => 0
  | _ => 0

abbrev hbmTy0_0 (i : Nat) : BufTy := match i % 128 with
  | 0 => ⟨S20000x64, .f32⟩
  | 1 => ⟨S320000x16, .f32⟩
  | 2 => ⟨S2x320000, .i32⟩
  | 3 => ⟨S64x256, .f32⟩
  | 4 => ⟨S256, .f32⟩
  | 5 => ⟨S16x256, .f32⟩
  | 6 => ⟨S256, .f32⟩
  | 7 => ⟨S256x256, .f32⟩
  | 8 => ⟨S256, .f32⟩
  | 9 => ⟨S_, .f32⟩
  | 10 => ⟨S256x256, .f32⟩
  | 11 => ⟨S256, .f32⟩
  | 12 => ⟨S256x256, .f32⟩
  | 13 => ⟨S256, .f32⟩
  | 14 => ⟨S4, .f32⟩
  | 15 => ⟨S4x256x256, .f32⟩
  | 16 => ⟨S4x256, .f32⟩
  | 17 => ⟨S4x256x256, .f32⟩
  | 18 => ⟨S4x256, .f32⟩
  | 19 => ⟨S256x10, .f32⟩
  | 20 => ⟨S10, .f32⟩
  | 21 => ⟨S1x320000, .i32⟩
  | 22 => ⟨S320000, .i32⟩
  | 23 => ⟨S1x320000, .i32⟩
  | 24 => ⟨S320000, .i32⟩
  | 25 => ⟨S1x256, .f32⟩
  | 26 => ⟨S1x256, .f32⟩
  | 27 => ⟨S20000x256, .f32⟩
  | 28 => ⟨S1x256, .f32⟩
  | 29 => ⟨S320000x256, .bf16⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S1, .i32⟩
  | 39 => ⟨S_, .i32⟩
  | 40 => ⟨S320000x1, .i32⟩
  | 41 => ⟨S320000x1, .i1⟩
  | 42 => ⟨S1x1, .i32⟩
  | 43 => ⟨S320000x1, .i32⟩
  | 44 => ⟨S320000x1, .i1⟩
  | 45 => ⟨S320000x1, .i1⟩
  | 46 => ⟨S_, .i1⟩
  | 47 => ⟨S320000, .i1⟩
  | 48 => ⟨S320000x256, .f32⟩
  | 49 => ⟨S320000x256, .i1⟩
  | 50 => ⟨S_, .f32⟩
  | 51 => ⟨S320000x256, .f32⟩
  | 52 => ⟨S320000x256, .f32⟩
  | 53 => ⟨S320000x256, .f32⟩
  | 54 => ⟨S320000x256, .f32⟩
  | 55 => ⟨S_, .f32⟩
  | 56 => ⟨S320000x256, .f32⟩
  | 57 => ⟨S320000x256, .f32⟩
  | 58 => ⟨S_, .f32⟩
  | 59 => ⟨S20000x256, .f32⟩
  | 60 => ⟨S320000x1, .i32⟩
  | 61 => ⟨S20000x256, .f32⟩
  | 62 => ⟨S1x1, .f32⟩
  | 63 => ⟨S1x256, .f32⟩
  | 64 => ⟨S1x256, .f32⟩
  | 65 => ⟨S20000x256, .f32⟩
  | 66 => ⟨S_, .f32⟩
  | 67 => ⟨S256x128, .f32⟩
  | 68 => ⟨S_, .i32⟩
  | 69 => ⟨S1, .i32⟩
  | 70 => ⟨S256x128, .f32⟩
  | 71 => ⟨S_, .f32⟩
  | 72 => ⟨S128, .f32⟩
  | 73 => ⟨S_, .i32⟩
  | 74 => ⟨S1, .i32⟩
  | 75 => ⟨S128, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S1, .i32⟩
  | 85 => ⟨S_, .i32⟩
  | 86 => ⟨S320000x1, .i32⟩
  | 87 => ⟨S320000x1, .i1⟩
  | 88 => ⟨S1x1, .i32⟩
  | 89 => ⟨S320000x1, .i32⟩
  | 90 => ⟨S320000x1, .i1⟩
  | 91 => ⟨S320000x1, .i1⟩
  | 92 => ⟨S_, .i1⟩
  | 93 => ⟨S320000, .i1⟩
  | 94 => ⟨S320000x256, .f32⟩
  | 95 => ⟨S320000x256, .i1⟩
  | 96 => ⟨S_, .f32⟩
  | 97 => ⟨S320000x256, .f32⟩
  | 98 => ⟨S320000x256, .f32⟩
  | 99 => ⟨S320000x256, .f32⟩
  | 100 => ⟨S320000x256, .f32⟩
  | 101 => ⟨S_, .f32⟩
  | 102 => ⟨S320000x256, .f32⟩
  | 103 => ⟨S320000x256, .f32⟩
  | 104 => ⟨S_, .f32⟩
  | 105 => ⟨S20000x256, .f32⟩
  | 106 => ⟨S320000x1, .i32⟩
  | 107 => ⟨S20000x256, .f32⟩
  | 108 => ⟨S1, .f32⟩
  | 109 => ⟨S_, .f32⟩
  | 110 => ⟨S1x256x256, .f32⟩
  | 111 => ⟨S256x256, .f32⟩
  | 112 => ⟨S1x256, .f32⟩
  | 113 => ⟨S256, .f32⟩
  | 114 => ⟨S1x256x256, .f32⟩
  | 115 => ⟨S256x256, .f32⟩
  | 116 => ⟨S1x256, .f32⟩
  | 117 => ⟨S256, .f32⟩
  | 118 => ⟨S1x1, .f32⟩
  | 119 => ⟨S1x256, .f32⟩
  | 120 => ⟨S1x256, .f32⟩
  | 121 => ⟨S20000x256, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S20000x64, .f32⟩

abbrev hbmTy0_1 (i : Nat) : BufTy := match i % 128 with
  | 0 => ⟨S320000, .i32⟩
  | 1 => ⟨S320000x1, .i32⟩
  | 2 => ⟨S1, .i32⟩
  | 3 => ⟨S_, .i32⟩
  | 4 => ⟨S320000x1, .i32⟩
  | 5 => ⟨S320000x1, .i1⟩
  | 6 => ⟨S1x1, .i32⟩
  | 7 => ⟨S320000x1, .i32⟩
  | 8 => ⟨S320000x1, .i1⟩
  | 9 => ⟨S320000x1, .i1⟩
  | 10 => ⟨S_, .i1⟩
  | 11 => ⟨S320000, .i1⟩
  | 12 => ⟨S320000x256, .f32⟩
  | 13 => ⟨S320000x256, .i1⟩
  | 14 => ⟨S_, .f32⟩
  | 15 => ⟨S320000x256, .f32⟩
  | 16 => ⟨S320000x256, .f32⟩
  | 17 => ⟨S320000x256, .f32⟩
  | 18 => ⟨S320000x256, .f32⟩
  | 19 => ⟨S_, .f32⟩
  | 20 => ⟨S320000x256, .f32⟩
  | 21 => ⟨S320000x256, .f32⟩
  | 22 => ⟨S_, .f32⟩
  | 23 => ⟨S20000x256, .f32⟩
  | 24 => ⟨S320000x1, .i32⟩
  | 25 => ⟨S20000x256, .f32⟩
  | 26 => ⟨S1, .f32⟩
  | 27 => ⟨S_, .f32⟩
  | 28 => ⟨S1x256x256, .f32⟩
  | 29 => ⟨S256x256, .f32⟩
  | 30 => ⟨S1x256, .f32⟩
  | 31 => ⟨S256, .f32⟩
  | 32 => ⟨S1x256x256, .f32⟩
  | 33 => ⟨S256x256, .f32⟩
  | 34 => ⟨S1x256, .f32⟩
  | 35 => ⟨S256, .f32⟩
  | 36 => ⟨S1x1, .f32⟩
  | 37 => ⟨S1x256, .f32⟩
  | 38 => ⟨S1x256, .f32⟩
  | 39 => ⟨S20000x256, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S1, .i32⟩
  | 49 => ⟨S_, .i32⟩
  | 50 => ⟨S320000x1, .i32⟩
  | 51 => ⟨S320000x1, .i1⟩
  | 52 => ⟨S1x1, .i32⟩
  | 53 => ⟨S320000x1, .i32⟩
  | 54 => ⟨S320000x1, .i1⟩
  | 55 => ⟨S320000x1, .i1⟩
  | 56 => ⟨S_, .i1⟩
  | 57 => ⟨S320000, .i1⟩
  | 58 => ⟨S320000x256, .f32⟩
  | 59 => ⟨S320000x256, .i1⟩
  | 60 => ⟨S_, .f32⟩
  | 61 => ⟨S320000x256, .f32⟩
  | 62 => ⟨S320000x256, .f32⟩
  | 63 => ⟨S320000x256, .f32⟩
  | 64 => ⟨S320000x256, .f32⟩
  | 65 => ⟨S_, .f32⟩
  | 66 => ⟨S320000x256, .f32⟩
  | 67 => ⟨S320000x256, .f32⟩
  | 68 => ⟨S_, .f32⟩
  | 69 => ⟨S20000x256, .f32⟩
  | 70 => ⟨S320000x1, .i32⟩
  | 71 => ⟨S20000x256, .f32⟩
  | 72 => ⟨S1, .f32⟩
  | 73 => ⟨S_, .f32⟩
  | 74 => ⟨S1x256x256, .f32⟩
  | 75 => ⟨S256x256, .f32⟩
  | 76 => ⟨S1x256, .f32⟩
  | 77 => ⟨S256, .f32⟩
  | 78 => ⟨S1x256x256, .f32⟩
  | 79 => ⟨S256x256, .f32⟩
  | 80 => ⟨S1x256, .f32⟩
  | 81 => ⟨S256, .f32⟩
  | 82 => ⟨S1x1, .f32⟩
  | 83 => ⟨S1x256, .f32⟩
  | 84 => ⟨S1x256, .f32⟩
  | 85 => ⟨S20000x256, .f32⟩
  | 86 => ⟨S_, .i32⟩
  | 87 => ⟨S320000, .i32⟩
  | 88 => ⟨S320000, .i1⟩
  | 89 => ⟨S_, .i32⟩
  | 90 => ⟨S320000, .i32⟩
  | 91 => ⟨S320000, .i32⟩
  | 92 => ⟨S320000, .i32⟩
  | 93 => ⟨S320000x1, .i32⟩
  | 94 => ⟨S1, .i32⟩
  | 95 => ⟨S_, .i32⟩
  | 96 => ⟨S320000x1, .i32⟩
  | 97 => ⟨S320000x1, .i1⟩
  | 98 => ⟨S1x1, .i32⟩
  | 99 => ⟨S320000x1, .i32⟩
  | 100 => ⟨S320000x1, .i1⟩
  | 101 => ⟨S320000x1, .i1⟩
  | 102 => ⟨S_, .i1⟩
  | 103 => ⟨S320000, .i1⟩
  | 104 => ⟨S320000x256, .f32⟩
  | 105 => ⟨S320000x256, .i1⟩
  | 106 => ⟨S_, .f32⟩
  | 107 => ⟨S320000x256, .f32⟩
  | 108 => ⟨S320000x256, .f32⟩
  | 109 => ⟨S320000x256, .f32⟩
  | 110 => ⟨S320000x256, .f32⟩
  | 111 => ⟨S_, .f32⟩
  | 112 => ⟨S320000x256, .f32⟩
  | 113 => ⟨S320000x256, .f32⟩
  | 114 => ⟨S_, .f32⟩
  | 115 => ⟨S20000x256, .f32⟩
  | 116 => ⟨S320000x1, .i32⟩
  | 117 => ⟨S20000x256, .f32⟩
  | 118 => ⟨S1, .f32⟩
  | 119 => ⟨S_, .f32⟩
  | 120 => ⟨S1x256x256, .f32⟩
  | 121 => ⟨S256x256, .f32⟩
  | 122 => ⟨S1x256, .f32⟩
  | 123 => ⟨S256, .f32⟩
  | 124 => ⟨S1x256x256, .f32⟩
  | 125 => ⟨S256x256, .f32⟩
  | 126 => ⟨S1x256, .f32⟩
  | 127 => ⟨S256, .f32⟩
  | _ => ⟨S20000x64, .f32⟩

abbrev hbmTy0_2 (i : Nat) : BufTy := match i % 128 with
  | 0 => ⟨S1x1, .f32⟩
  | 1 => ⟨S1x256, .f32⟩
  | 2 => ⟨S1x256, .f32⟩
  | 3 => ⟨S1x128, .f32⟩
  | 4 => ⟨S20000x128, .f32⟩
  | 5 => ⟨S20000x10, .f32⟩
  | _ => ⟨S20000x64, .f32⟩

abbrev hbmTy (i : Nat) : BufTy := match i / 128 with
  | 0 => hbmTy0_0 i
  | 1 => hbmTy0_1 i
  | 2 => hbmTy0_2 i
  | _ => ⟨S20000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S8000x16, .f32⟩
  | .local _ .vmem, ⟨9, _⟩ => ⟨S8000x16, .f32⟩
  | .local _ .vmem, ⟨10, _⟩ => ⟨S16x256, .f32⟩
  | .local _ .vmem, ⟨11, _⟩ => ⟨S1x256, .f32⟩
  | .local _ .vmem, ⟨12, _⟩ => ⟨S8000x256, .bf16⟩
  | .local _ .vmem, ⟨13, _⟩ => ⟨S8000x256, .bf16⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S1x1, .f32⟩
  | .local _ .vmem, ⟨19, _⟩ => ⟨S256x256, .f32⟩
  | .local _ .vmem, ⟨20, _⟩ => ⟨S1x256, .f32⟩
  | .local _ .vmem, ⟨21, _⟩ => ⟨S256x256, .f32⟩
  | .local _ .vmem, ⟨22, _⟩ => ⟨S1x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S1x1, .f32⟩
  | .local _ .vmem, ⟨30, _⟩ => ⟨S256x256, .f32⟩
  | .local _ .vmem, ⟨31, _⟩ => ⟨S1x256, .f32⟩
  | .local _ .vmem, ⟨32, _⟩ => ⟨S256x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S1x1, .f32⟩
  | .local _ .vmem, ⟨41, _⟩ => ⟨S256x256, .f32⟩
  | .local _ .vmem, ⟨42, _⟩ => ⟨S1x256, .f32⟩
  | .local _ .vmem, ⟨43, _⟩ => ⟨S256x256, .f32⟩
  | .local _ .vmem, ⟨44, _⟩ => ⟨S1x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S1x1, .f32⟩
  | .local _ .vmem, ⟨52, _⟩ => ⟨S256x256, .f32⟩
  | .local _ .vmem, ⟨53, _⟩ => ⟨S1x256, .f32⟩
  | .local _ .vmem, ⟨54, _⟩ => ⟨S256x256, .f32⟩
  | .local _ .vmem, ⟨55, _⟩ => ⟨S1x256, .f32⟩
  | .local _ .vmem, ⟨56, _⟩ => ⟨S2000x256, .f32⟩
  | .local _ .vmem, ⟨57, _⟩ => ⟨S2000x256, .f32⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S1x1, .f32⟩
  | .local _ .vmem, ⟨63, _⟩ => ⟨S256x256, .f32⟩
  | .local _ .vmem, ⟨64, _⟩ => ⟨S1x256, .f32⟩
  | .local _ .vmem, ⟨65, _⟩ => ⟨S256x256, .f32⟩
  | .local _ .vmem, ⟨66, _⟩ => ⟨S1x256, .f32⟩
  | .local _ .vmem, ⟨67, _⟩ => ⟨S256x128, .f32⟩
  | .local _ .vmem, ⟨68, _⟩ => ⟨S1x128, .f32⟩
  | .local _ .vmem, ⟨69, _⟩ => ⟨S2000x128, .f32⟩
  | .local _ .vmem, ⟨70, _⟩ => ⟨S2000x128, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_cst : Ref sig .tc := ⟨.hbm, 55, rfl⟩
abbrev main_v12 : Ref sig .tc := ⟨.hbm, 56, rfl⟩
abbrev main_v13 : Ref sig .tc := ⟨.hbm, 57, rfl⟩
abbrev main_cst_0 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_1 : Ref sig .tc := ⟨.hbm, 66, rfl⟩
abbrev main_v21 : Ref sig .tc := ⟨.hbm, 67, rfl⟩
abbrev main_c : Ref sig .tc := ⟨.hbm, 68, rfl⟩
abbrev main_v22 : Ref sig .tc := ⟨.hbm, 69, rfl⟩
abbrev main_v23 : Ref sig .tc := ⟨.hbm, 70, rfl⟩
abbrev main_cst_2 : Ref sig .tc := ⟨.hbm, 71, rfl⟩
abbrev main_v24 : Ref sig .tc := ⟨.hbm, 72, rfl⟩
abbrev main_c_3 : Ref sig .tc := ⟨.hbm, 73, rfl⟩
abbrev main_v25 : Ref sig .tc := ⟨.hbm, 74, rfl⟩
abbrev main_v26 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_cst : Ref sig .tc := ⟨.hbm, 96, rfl⟩
abbrev main_call1_v15 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_cst_4 : Ref sig .tc := ⟨.hbm, 101, rfl⟩
abbrev main_v30 : Ref sig .tc := ⟨.hbm, 102, rfl⟩
abbrev main_v31 : Ref sig .tc := ⟨.hbm, 103, rfl⟩
abbrev main_cst_5 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_call2_c : Ref sig .tc := ⟨.hbm, 122, rfl⟩
abbrev main_call2_v0 : Ref sig .tc := ⟨.hbm, 123, rfl⟩
abbrev main_call2_v1 : Ref sig .tc := ⟨.hbm, 124, rfl⟩
abbrev main_call2_c_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_c_1 : Ref sig .tc := ⟨.hbm, 130, rfl⟩
abbrev main_call2_c_2 : Ref sig .tc := ⟨.hbm, 131, rfl⟩
abbrev main_call2_v6 : Ref sig .tc := ⟨.hbm, 132, rfl⟩
abbrev main_call2_v7 : Ref sig .tc := ⟨.hbm, 133, rfl⟩
abbrev main_call2_v8 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_3 : Ref sig .tc := ⟨.hbm, 138, rfl⟩
abbrev main_call2_v12 : Ref sig .tc := ⟨.hbm, 139, rfl⟩
abbrev main_call2_v13 : Ref sig .tc := ⟨.hbm, 140, rfl⟩
abbrev main_call2_v14 : Ref sig .tc := ⟨.hbm, 141, rfl⟩
abbrev main_call2_cst : Ref sig .tc := ⟨.hbm, 142, rfl⟩
abbrev main_call2_v15 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_cst_6 : Ref sig .tc := ⟨.hbm, 147, rfl⟩
abbrev main_v52 : Ref sig .tc := ⟨.hbm, 148, rfl⟩
abbrev main_v53 : Ref sig .tc := ⟨.hbm, 149, rfl⟩
abbrev main_cst_7 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_call3_c : Ref sig .tc := ⟨.hbm, 168, rfl⟩
abbrev main_call3_v0 : Ref sig .tc := ⟨.hbm, 169, rfl⟩
abbrev main_call3_v1 : Ref sig .tc := ⟨.hbm, 170, rfl⟩
abbrev main_call3_c_0 : Ref sig .tc := ⟨.hbm, 171, rfl⟩
abbrev main_call3_v2 : Ref sig .tc := ⟨.hbm, 172, rfl⟩
abbrev main_call3_v3 : Ref sig .tc := ⟨.hbm, 173, rfl⟩
abbrev main_call3_v4 : Ref sig .tc := ⟨.hbm, 174, rfl⟩
abbrev main_call3_v5 : Ref sig .tc := ⟨.hbm, 175, rfl⟩
abbrev main_call3_c_1 : Ref sig .tc := ⟨.hbm, 176, rfl⟩
abbrev main_call3_c_2 : Ref sig .tc := ⟨.hbm, 177, rfl⟩
abbrev main_call3_v6 : Ref sig .tc := ⟨.hbm, 178, rfl⟩
abbrev main_call3_v7 : Ref sig .tc := ⟨.hbm, 179, rfl⟩
abbrev main_call3_v8 : Ref sig .tc := ⟨.hbm, 180, rfl⟩
abbrev main_call3_v9 : Ref sig .tc := ⟨.hbm, 181, rfl⟩
abbrev main_call3_v10 : Ref sig .tc := ⟨.hbm, 182, rfl⟩
abbrev main_call3_v11 : Ref sig .tc := ⟨.hbm, 183, rfl⟩
abbrev main_call3_c_3 : Ref sig .tc := ⟨.hbm, 184, rfl⟩
abbrev main_call3_v12 : Ref sig .tc := ⟨.hbm, 185, rfl⟩
abbrev main_call3_v13 : Ref sig .tc := ⟨.hbm, 186, rfl⟩
abbrev main_call3_v14 : Ref sig .tc := ⟨.hbm, 187, rfl⟩
abbrev main_call3_cst : Ref sig .tc := ⟨.hbm, 188, rfl⟩
abbrev main_call3_v15 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_cst_8 : Ref sig .tc := ⟨.hbm, 193, rfl⟩
abbrev main_v74 : Ref sig .tc := ⟨.hbm, 194, rfl⟩
abbrev main_v75 : Ref sig .tc := ⟨.hbm, 195, rfl⟩
abbrev main_cst_9 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev main_v92 : Ref sig .tc := ⟨.hbm, 213, rfl⟩
abbrev main_call4_c : Ref sig .tc := ⟨.hbm, 214, rfl⟩
abbrev main_call4_v0 : Ref sig .tc := ⟨.hbm, 215, rfl⟩
abbrev main_call4_v1 : Ref sig .tc := ⟨.hbm, 216, rfl⟩
abbrev main_call4_c_0 : Ref sig .tc := ⟨.hbm, 217, rfl⟩
abbrev main_call4_v2 : Ref sig .tc := ⟨.hbm, 218, rfl⟩
abbrev main_call4_v3 : Ref sig .tc := ⟨.hbm, 219, rfl⟩
abbrev main_call4_v4 : Ref sig .tc := ⟨.hbm, 220, rfl⟩
abbrev main_call4_v5 : Ref sig .tc := ⟨.hbm, 221, rfl⟩
abbrev main_call4_c_1 : Ref sig .tc := ⟨.hbm, 222, rfl⟩
abbrev main_call4_c_2 : Ref sig .tc := ⟨.hbm, 223, rfl⟩
abbrev main_call4_v6 : Ref sig .tc := ⟨.hbm, 224, rfl⟩
abbrev main_call4_v7 : Ref sig .tc := ⟨.hbm, 225, rfl⟩
abbrev main_call4_v8 : Ref sig .tc := ⟨.hbm, 226, rfl⟩
abbrev main_call4_v9 : Ref sig .tc := ⟨.hbm, 227, rfl⟩
abbrev main_call4_v10 : Ref sig .tc := ⟨.hbm, 228, rfl⟩
abbrev main_call4_v11 : Ref sig .tc := ⟨.hbm, 229, rfl⟩
abbrev main_call4_c_3 : Ref sig .tc := ⟨.hbm, 230, rfl⟩
abbrev main_call4_v12 : Ref sig .tc := ⟨.hbm, 231, rfl⟩
abbrev main_call4_v13 : Ref sig .tc := ⟨.hbm, 232, rfl⟩
abbrev main_call4_v14 : Ref sig .tc := ⟨.hbm, 233, rfl⟩
abbrev main_call4_cst : Ref sig .tc := ⟨.hbm, 234, rfl⟩
abbrev main_call4_v15 : Ref sig .tc := ⟨.hbm, 235, rfl⟩
abbrev main_v93 : Ref sig .tc := ⟨.hbm, 236, rfl⟩
abbrev main_v94 : Ref sig .tc := ⟨.hbm, 237, rfl⟩
abbrev main_v95 : Ref sig .tc := ⟨.hbm, 238, rfl⟩
abbrev main_cst_10 : Ref sig .tc := ⟨.hbm, 239, rfl⟩
abbrev main_v96 : Ref sig .tc := ⟨.hbm, 240, rfl⟩
abbrev main_v97 : Ref sig .tc := ⟨.hbm, 241, rfl⟩
abbrev main_cst_11 : Ref sig .tc := ⟨.hbm, 242, rfl⟩
abbrev main_v98 : Ref sig .tc := ⟨.hbm, 243, rfl⟩
abbrev main_v99 : Ref sig .tc := ⟨.hbm, 244, rfl⟩
abbrev main_v100 : Ref sig .tc := ⟨.hbm, 245, rfl⟩
abbrev main_v101 : Ref sig .tc := ⟨.hbm, 246, rfl⟩
abbrev main_v102 : Ref sig .tc := ⟨.hbm, 247, rfl⟩
abbrev main_v103 : Ref sig .tc := ⟨.hbm, 248, rfl⟩
abbrev main_v104 : Ref sig .tc := ⟨.hbm, 249, rfl⟩
abbrev main_v105 : Ref sig .tc := ⟨.hbm, 250, rfl⟩
abbrev main_v106 : Ref sig .tc := ⟨.hbm, 251, rfl⟩
abbrev main_v107 : Ref sig .tc := ⟨.hbm, 252, rfl⟩
abbrev main_v108 : Ref sig .tc := ⟨.hbm, 253, rfl⟩
abbrev main_v109 : Ref sig .tc := ⟨.hbm, 254, rfl⟩
abbrev main_v110 : Ref sig .tc := ⟨.hbm, 255, rfl⟩
abbrev main_v111 : Ref sig .tc := ⟨.hbm, 256, rfl⟩
abbrev main_v112 : Ref sig .tc := ⟨.hbm, 257, rfl⟩
abbrev main_v113 : Ref sig .tc := ⟨.hbm, 258, rfl⟩
abbrev main_v114 : Ref sig .tc := ⟨.hbm, 259, rfl⟩
abbrev main_v115 : Ref sig .tc := ⟨.hbm, 260, rfl⟩
abbrev main_v116 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg7_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc5_stg7_0 : Ref sig .tc := ⟨.vmem, 56, rfl⟩
abbrev cc5_stg7_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc6_stg7_0 : Ref sig .tc := ⟨.vmem, 67, rfl⟩
abbrev cc6_stg8_0 : Ref sig .tc := ⟨.vmem, 68, rfl⟩
abbrev cc6_stg9_0 : Ref sig .tc := ⟨.vmem, 69, rfl⟩
abbrev cc6_stg9_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem7_0 : DmaSem sig := 56
abbrev cc5_sem7_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem6_0 : DmaSem sig := 66
abbrev cc6_sem7_0 : DmaSem sig := 67
abbrev cc6_sem8_0 : DmaSem sig := 68
abbrev cc6_sem9_0 : DmaSem sig := 69
abbrev cc6_sem9_1 : DmaSem sig := 70

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S256x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S2000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  inb_S64x256_S64x256_0_0 : ∀ a, (![0, 0] : Fin 2 → Nat) a + S64x256.size a ≤ S64x256.size a
  h_S64x256 : 0 < S64x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  inb_S8000x16_S8000x16_0_0 : ∀ a, (![0, 0] : Fin 2 → Nat) a + S8000x16.size a ≤ S8000x16.size a
  h_S8000x16 : 0 < S8000x16.numel
  inb_S16x256_S16x256_0_0 : ∀ a, (![0, 0] : Fin 2 → Nat) a + S16x256.size a ≤ S16x256.size a
  h_S16x256 : 0 < S16x256.numel
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  packedbf16_S8000x256_S8000x256_0_0 : (Rect.unit (s := S8000x256) ![0, 0] S8000x256.size inb_S8000x256_S8000x256_0_0).PackedRows (EltTy.packing .bf16)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  bcast_S_S20000x256 : S_.BroadcastsInDim S20000x256 (![] : Fin 0 → Fin S20000x256.rank)
  shapeCasts_S_S1x1 : S_.ShapeCasts S1x1
  shapeCasts_S2000x256_S2000x256 : S2000x256.ShapeCasts S2000x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x256 : S1x1.Broadcasts S2000x256
  bcast_S_S256x128 : S_.BroadcastsInDim S256x128 (![] : Fin 0 → Fin S256x128.rank)
  bcast_S_S1 : S_.BroadcastsInDim S1 (![] : Fin 0 → Fin S1.rank)
  bcast_S_S128 : S_.BroadcastsInDim S128 (![] : Fin 0 → Fin S128.rank)
  slices_S4_S1_0 : S4.Slices ![0] S1
  shapeCasts_S1_S_ : S1.ShapeCasts S_
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  shapeCasts_S256x256_S256x256 : S256x256.ShapeCasts S256x256
  slices_S4_S1_1 : S4.Slices ![1] S1
  slices_S4x256x256_S1x256x256_1_0_0 : S4x256x256.Slices ![1, 0, 0] S1x256x256
  slices_S4x256_S1x256_1_0 : S4x256.Slices ![1, 0] S1x256
  slices_S4_S1_2 : S4.Slices ![2] S1
  slices_S4x256x256_S1x256x256_2_0_0 : S4x256x256.Slices ![2, 0, 0] S1x256x256
  slices_S4x256_S1x256_2_0 : S4x256.Slices ![2, 0] S1x256
  slices_S4_S1_3 : S4.Slices ![3] S1
  slices_S4x256x256_S1x256x256_3_0_0 : S4x256x256.Slices ![3, 0, 0] S1x256x256
  slices_S4x256_S1x256_3_0 : S4x256.Slices ![3, 0] S1x256
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S20000x128_S20000x10_0_0 : S20000x128.Slices ![0, 0] S20000x10
  dot_S2000x64_S64x256_S2000x256_1_0_0_1_n_n_wf : DotDims.WF S2000x64 S64x256 S2000x256 [1] [0] [0] [1] [] []
  dot_S2000x256_S256x256_S2000x256_1_0_0_1_n_n_wf : DotDims.WF S2000x256 S256x256 S2000x256 [1] [0] [0] [1] [] []
  dot_S8000x16_S16x256_S8000x256_1_0_0_1_n_n_wf : DotDims.WF S8000x16 S16x256 S8000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S256x128_S1_S256x10_01_n_1_0_wf : ScatterDims.WF S256x128 S1 S256x10 [0, 1] [] [1] 0
  scatter_S128_S1_S10_0_n_0_0_wf : ScatterDims.WF S128 S1 S10 [0] [] [0] 0
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S20000x64.size a
  hwx0_0 : ∀ i : grid0.Coords, EltTy.bits .f32 = 32 ∨ (Rect.block (s := S20000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S320000x16.size a
  hwx1_0 : ∀ i : grid1.Coords, EltTy.bits .f32 = 32 ∨ (Rect.block (s := S320000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x256.size a ≤ S16x256.size a
  hwx1_1 : ∀ i : grid1.Coords, EltTy.bits .f32 = 32 ∨ (Rect.block (s := S16x256) S16x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x256.size a ≤ S320000x256.size a
  hwx1_3 : ∀ i : grid1.Coords, EltTy.bits .bf16 = 32 ∨ (Rect.block (s := S320000x256) S8000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S20000x256.size a
  hwx2_7 : ∀ i : grid2.Coords, EltTy.bits .f32 = 32 ∨ (Rect.block (s := S20000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S20000x256.size a
  hwx3_7 : ∀ i : grid3.Coords, EltTy.bits .f32 = 32 ∨ (Rect.block (s := S20000x256) S2000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S20000x256.size a
  hwx4_1 : ∀ i : grid4.Coords, EltTy.bits .f32 = 32 ∨ (Rect.block (s := S20000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x256.size a ≤ S20000x256.size a
  hwx4_7 : ∀ i : grid4.Coords, EltTy.bits .f32 = 32 ∨ (Rect.block (s := S20000x256) S2000x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S20000x256.size a
  hwx5_1 : ∀ i : grid5.Coords, EltTy.bits .f32 = 32 ∨ (Rect.block (s := S20000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .f32 = 32 ∨ (Rect.block (s := S256x256) S256x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x256.size a ≤ S20000x256.size a
  hwx5_7 : ∀ i : grid5.Coords, EltTy.bits .f32 = 32 ∨ (Rect.block (s := S20000x256) S2000x256.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S20000x256.size a
  hwx6_1 : ∀ i : grid6.Coords, EltTy.bits .f32 = 32 ∨ (Rect.block (s := S20000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x256.size a ≤ S256x256.size a
  hwx6_5 : ∀ i : grid6.Coords, EltTy.bits .f32 = 32 ∨ (Rect.block (s := S256x256) S256x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S256x128.size a ≤ S256x128.size a
  hwx6_7 : ∀ i : grid6.Coords, EltTy.bits .f32 = 32 ∨ (Rect.block (s := S256x128) S256x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2000x128.size a ≤ S20000x128.size a
  hwx6_9 : ∀ i : grid6.Coords, EltTy.bits .f32 = 32 ∨ (Rect.block (s := S20000x128) S2000x128.size (cc6_transform_9 i) (hinb6_9 i)).WholeWords (EltTy.packing .f32)

variable [Facts₀]

def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S8000x16_S16x256_S8000x256_1_0_0_1_n_n : DotDims S8000x16 S16x256 S8000x256 where
  lhsContracting := [1]
  rhsContracting := [0]
  lhsNonContracting := [0]
  rhsNonContracting := [1]
  lhsBatch := []
  rhsBatch := []
  wf := dot_S8000x16_S16x256_S8000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S256x128_S1_S256x10_01_n_1_0 : ScatterDims S256x128 S1 S256x10 where
  updateWindowDims := [0, 1]
  insertedWindowDims := []
  scatterDimsToOperandDims := [1]
  indexVectorDim := 0
  wf := scatter_S256x128_S1_S256x10_01_n_1_0_wf
def scatter_S128_S1_S10_0_n_0_0 : ScatterDims S128 S1 S10 where
  updateWindowDims := [0]
  insertedWindowDims := []
  scatterDimsToOperandDims := [0]
  indexVectorDim := 0
  wf := scatter_S128_S1_S10_0_n_0_0_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S8000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v20) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v20) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v48) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v48) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v69) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v70) S2000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v70) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v91) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v92) S2000x256.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v92) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v100) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v111) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v104) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v112) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v108) S256x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v113) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v23) S256x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v114) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v115) S2000x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S20000x64 : Shape := ⟨2, ![20000, 64]⟩
abbrev S320000x16 : Shape := ⟨2, ![320000, 16]⟩
abbrev S2x320000 : Shape := ⟨2, ![2, 320000]⟩
abbrev S64x256 : Shape := ⟨2, ![64, 256]⟩
abbrev S256 : Shape := ⟨1, ![256]⟩
abbrev S16x256 : Shape := ⟨2, ![16, 256]⟩
abbrev S256x256 : Shape := ⟨2, ![256, 256]⟩
abbrev S_ : Shape := ⟨0, ![]⟩
abbrev S4 : Shape := ⟨1, ![4]⟩
abbrev S4x256x256 : Shape := ⟨3, ![4, 256, 256]⟩
abbrev S4x256 : Shape := ⟨2, ![4, 256]⟩
abbrev S256x10 : Shape := ⟨2, ![256, 10]⟩
abbrev S10 : Shape := ⟨1, ![10]⟩
abbrev S1x320000 : Shape := ⟨2, ![1, 320000]⟩
abbrev S320000 : Shape := ⟨1, ![320000]⟩
abbrev S20000x256 : Shape := ⟨2, ![20000, 256]⟩
abbrev S1x256 : Shape := ⟨2, ![1, 256]⟩
abbrev S320000x256 : Shape := ⟨2, ![320000, 256]⟩
abbrev S320000x1 : Shape := ⟨2, ![320000, 1]⟩
abbrev S1 : Shape := ⟨1, ![1]⟩
abbrev S1x256x256 : Shape := ⟨3, ![1, 256, 256]⟩
abbrev S20000x10 : Shape := ⟨2, ![20000, 10]⟩
abbrev S1x10 : Shape := ⟨2, ![1, 10]⟩

abbrev nBuf : Space → Nat
  | .hbm => 253
  | .vmem => 0
  | .smem => 0
  | _ => 0

abbrev hbmTy0_0 (i : Nat) : BufTy := match i % 128 with
  | 0 => ⟨S20000x64, .f32⟩
  | 1 => ⟨S320000x16, .f32⟩
  | 2 => ⟨S2x320000, .i32⟩
  | 3 => ⟨S64x256, .f32⟩
  | 4 => ⟨S256, .f32⟩
  | 5 => ⟨S16x256, .f32⟩
  | 6 => ⟨S256, .f32⟩
  | 7 => ⟨S256x256, .f32⟩
  | 8 => ⟨S256, .f32⟩
  | 9 => ⟨S_, .f32⟩
  | 10 => ⟨S256x256, .f32⟩
  | 11 => ⟨S256, .f32⟩
  | 12 => ⟨S256x256, .f32⟩
  | 13 => ⟨S256, .f32⟩
  | 14 => ⟨S4, .f32⟩
  | 15 => ⟨S4x256x256, .f32⟩
  | 16 => ⟨S4x256, .f32⟩
  | 17 => ⟨S4x256x256, .f32⟩
  | 18 => ⟨S4x256, .f32⟩
  | 19 => ⟨S256x10, .f32⟩
  | 20 => ⟨S10, .f32⟩
  | 21 => ⟨S1x320000, .i32⟩
  | 22 => ⟨S320000, .i32⟩
  | 23 => ⟨S1x320000, .i32⟩
  | 24 => ⟨S320000, .i32⟩
  | 25 => ⟨S20000x256, .f32⟩
  | 26 => ⟨S1x256, .f32⟩
  | 27 => ⟨S20000x256, .f32⟩
  | 28 => ⟨S20000x256, .f32⟩
  | 29 => ⟨S320000x256, .f32⟩
  | 30 => ⟨S1x256, .f32⟩
  | 31 => ⟨S320000x256, .f32⟩
  | 32 => ⟨S320000x256, .f32⟩
  | 33 => ⟨S20000x256, .f32⟩
  | 34 => ⟨S1x256, .f32⟩
  | 35 => ⟨S20000x256, .f32⟩
  | 36 => ⟨S20000x256, .f32⟩
  | 37 => ⟨S_, .f32⟩
  | 38 => ⟨S20000x256, .f32⟩
  | 39 => ⟨S20000x256, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S320000x256, .f32⟩
  | 49 => ⟨S320000x256, .f32⟩
  | 50 => ⟨S_, .f32⟩
  | 51 => ⟨S320000x256, .f32⟩
  | 52 => ⟨S320000x256, .f32⟩
  | 53 => ⟨S_, .f32⟩
  | 54 => ⟨S20000x256, .f32⟩
  | 55 => ⟨S320000x1, .i32⟩
  | 56 => ⟨S20000x256, .f32⟩
  | 57 => ⟨S_, .f32⟩
  | 58 => ⟨S_, .f32⟩
  | 59 => ⟨S20000x256, .f32⟩
  | 60 => ⟨S20000x256, .f32⟩
  | 61 => ⟨S20000x256, .f32⟩
  | 62 => ⟨S20000x256, .f32⟩
  | 63 => ⟨S1x256, .f32⟩
  | 64 => ⟨S20000x256, .f32⟩
  | 65 => ⟨S20000x256, .f32⟩
  | 66 => ⟨S_, .f32⟩
  | 67 => ⟨S20000x256, .f32⟩
  | 68 => ⟨S20000x256, .f32⟩
  | 69 => ⟨S20000x256, .f32⟩
  | 70 => ⟨S1x256, .f32⟩
  | 71 => ⟨S20000x256, .f32⟩
  | 72 => ⟨S20000x256, .f32⟩
  | 73 => ⟨S1, .f32⟩
  | 74 => ⟨S_, .f32⟩
  | 75 => ⟨S1x256x256, .f32⟩
  | 76 => ⟨S256x256, .f32⟩
  | 77 => ⟨S1x256, .f32⟩
  | 78 => ⟨S256, .f32⟩
  | 79 => ⟨S1x256x256, .f32⟩
  | 80 => ⟨S256x256, .f32⟩
  | 81 => ⟨S1x256, .f32⟩
  | 82 => ⟨S256, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x256, .f32⟩
  | 92 => ⟨S320000x256, .f32⟩
  | 93 => ⟨S_, .f32⟩
  | 94 => ⟨S320000x256, .f32⟩
  | 95 => ⟨S320000x256, .f32⟩
  | 96 => ⟨S_, .f32⟩
  | 97 => ⟨S20000x256, .f32⟩
  | 98 => ⟨S320000x1, .i32⟩
  | 99 => ⟨S20000x256, .f32⟩
  | 100 => ⟨S_, .f32⟩
  | 101 => ⟨S_, .f32⟩
  | 102 => ⟨S20000x256, .f32⟩
  | 103 => ⟨S20000x256, .f32⟩
  | 104 => ⟨S20000x256, .f32⟩
  | 105 => ⟨S20000x256, .f32⟩
  | 106 => ⟨S1x256, .f32⟩
  | 107 => ⟨S20000x256, .f32⟩
  | 108 => ⟨S20000x256, .f32⟩
  | 109 => ⟨S_, .f32⟩
  | 110 => ⟨S20000x256, .f32⟩
  | 111 => ⟨S20000x256, .f32⟩
  | 112 => ⟨S20000x256, .f32⟩
  | 113 => ⟨S1x256, .f32⟩
  | 114 => ⟨S20000x256, .f32⟩
  | 115 => ⟨S20000x256, .f32⟩
  | 116 => ⟨S20000x256, .f32⟩
  | 117 => ⟨S1, .f32⟩
  | 118 => ⟨S_, .f32⟩
  | 119 => ⟨S1x256x256, .f32⟩
  | 120 => ⟨S256x256, .f32⟩
  | 121 => ⟨S1x256, .f32⟩
  | 122 => ⟨S256, .f32⟩
  | 123 => ⟨S1x256x256, .f32⟩
  | 124 => ⟨S256x256, .f32⟩
  | 125 => ⟨S1x256, .f32⟩
  | 126 => ⟨S256, .f32⟩
  | 127 => ⟨S_, .i32⟩
  | _ => ⟨S20000x64, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x256, .f32⟩
  | 8 => ⟨S320000x256, .f32⟩
  | 9 => ⟨S_, .f32⟩
  | 10 => ⟨S320000x256, .f32⟩
  | 11 => ⟨S320000x256, .f32⟩
  | 12 => ⟨S_, .f32⟩
  | 13 => ⟨S20000x256, .f32⟩
  | 14 => ⟨S320000x1, .i32⟩
  | 15 => ⟨S20000x256, .f32⟩
  | 16 => ⟨S_, .f32⟩
  | 17 => ⟨S_, .f32⟩
  | 18 => ⟨S20000x256, .f32⟩
  | 19 => ⟨S20000x256, .f32⟩
  | 20 => ⟨S20000x256, .f32⟩
  | 21 => ⟨S20000x256, .f32⟩
  | 22 => ⟨S1x256, .f32⟩
  | 23 => ⟨S20000x256, .f32⟩
  | 24 => ⟨S20000x256, .f32⟩
  | 25 => ⟨S_, .f32⟩
  | 26 => ⟨S20000x256, .f32⟩
  | 27 => ⟨S20000x256, .f32⟩
  | 28 => ⟨S20000x256, .f32⟩
  | 29 => ⟨S1x256, .f32⟩
  | 30 => ⟨S20000x256, .f32⟩
  | 31 => ⟨S20000x256, .f32⟩
  | 32 => ⟨S20000x256, .f32⟩
  | 33 => ⟨S1, .f32⟩
  | 34 => ⟨S_, .f32⟩
  | 35 => ⟨S1x256x256, .f32⟩
  | 36 => ⟨S256x256, .f32⟩
  | 37 => ⟨S1x256, .f32⟩
  | 38 => ⟨S256, .f32⟩
  | 39 => ⟨S1x256x256, .f32⟩
  | 40 => ⟨S256x256, .f32⟩
  | 41 => ⟨S1x256, .f32⟩
  | 42 => ⟨S256, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x256, .f32⟩
  | 52 => ⟨S320000x256, .f32⟩
  | 53 => ⟨S_, .f32⟩
  | 54 => ⟨S320000x256, .f32⟩
  | 55 => ⟨S320000x256, .f32⟩
  | 56 => ⟨S_, .f32⟩
  | 57 => ⟨S20000x256, .f32⟩
  | 58 => ⟨S320000x1, .i32⟩
  | 59 => ⟨S20000x256, .f32⟩
  | 60 => ⟨S_, .f32⟩
  | 61 => ⟨S_, .f32⟩
  | 62 => ⟨S20000x256, .f32⟩
  | 63 => ⟨S20000x256, .f32⟩
  | 64 => ⟨S20000x256, .f32⟩
  | 65 => ⟨S20000x256, .f32⟩
  | 66 => ⟨S1x256, .f32⟩
  | 67 => ⟨S20000x256, .f32⟩
  | 68 => ⟨S20000x256, .f32⟩
  | 69 => ⟨S_, .f32⟩
  | 70 => ⟨S20000x256, .f32⟩
  | 71 => ⟨S20000x256, .f32⟩
  | 72 => ⟨S20000x256, .f32⟩
  | 73 => ⟨S1x256, .f32⟩
  | 74 => ⟨S20000x256, .f32⟩
  | 75 => ⟨S20000x256, .f32⟩
  | 76 => ⟨S20000x256, .f32⟩
  | 77 => ⟨S1, .f32⟩
  | 78 => ⟨S_, .f32⟩
  | 79 => ⟨S1x256x256, .f32⟩
  | 80 => ⟨S256x256, .f32⟩
  | 81 => ⟨S1x256, .f32⟩
  | 82 => ⟨S256, .f32⟩
  | 83 => ⟨S1x256x256, .f32⟩
  | 84 => ⟨S256x256, .f32⟩
  | 85 => ⟨S1x256, .f32⟩
  | 86 => ⟨S256, .f32⟩
  | 87 => ⟨S_, .i32⟩
  | 88 => ⟨S320000, .i32⟩
  | 89 => ⟨S320000, .i1⟩
  | 90 => ⟨S_, .i32⟩
  | 91 => ⟨S320000, .i32⟩
  | 92 => ⟨S320000, .i32⟩
  | 93 => ⟨S320000, .i32⟩
  | 94 => ⟨S320000x1, .i32⟩
  | 95 => ⟨S320000x256, .f32⟩
  | 96 => ⟨S320000x256, .f32⟩
  | 97 => ⟨S_, .f32⟩
  | 98 => ⟨S320000x256, .f32⟩
  | 99 => ⟨S320000x256, .f32⟩
  | 100 => ⟨S_, .f32⟩
  | 101 => ⟨S20000x256, .f32⟩
  | 102 => ⟨S320000x1, .i32⟩
  | 103 => ⟨S20000x256, .f32⟩
  | 104 => ⟨S_, .f32⟩
  | 105 => ⟨S_, .f32⟩
  | 106 => ⟨S20000x256, .f32⟩
  | 107 => ⟨S20000x256, .f32⟩
  | 108 => ⟨S20000x256, .f32⟩
  | 109 => ⟨S20000x256, .f32⟩
  | 110 => ⟨S1x256, .f32⟩
  | 111 => ⟨S20000x256, .f32⟩
  | 112 => ⟨S20000x256, .f32⟩
  | 113 => ⟨S_, .f32⟩
  | 114 => ⟨S20000x256, .f32⟩
  | 115 => ⟨S20000x256, .f32⟩
  | 116 => ⟨S20000x256, .f32⟩
  | 117 => ⟨S1x256, .f32⟩
  | 118 => ⟨S20000x256, .f32⟩
  | 119 => ⟨S20000x256, .f32⟩
  | 120 => ⟨S20000x256, .f32⟩
  | 121 => ⟨S20000x10, .f32⟩
  | 122 => ⟨S1x10, .f32⟩
  | 123 => ⟨S20000x10, .f32⟩
  | 124 => ⟨S20000x10, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_cst : Ref sig .tc := ⟨.hbm, 37, rfl⟩
abbrev main_call0_v0 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call1_cst : Ref sig .tc := ⟨.hbm, 50, rfl⟩
abbrev main_call1_v0 : Ref sig .tc := ⟨.hbm, 51, rfl⟩
abbrev main_v25 : Ref sig .tc := ⟨.hbm, 52, rfl⟩
abbrev main_cst : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call2_cst : Ref sig .tc := ⟨.hbm, 66, rfl⟩
abbrev main_call2_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_2 : Ref sig .tc := ⟨.hbm, 83, rfl⟩
abbrev main_v52 : Ref sig .tc := ⟨.hbm, 84, rfl⟩
abbrev main_v53 : Ref sig .tc := ⟨.hbm, 85, rfl⟩
abbrev main_c_3 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call3_cst : Ref sig .tc := ⟨.hbm, 93, rfl⟩
abbrev main_call3_v0 : Ref sig .tc := ⟨.hbm, 94, rfl⟩
abbrev main_v60 : Ref sig .tc := ⟨.hbm, 95, rfl⟩
abbrev main_cst_4 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_5 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_call4_cst : Ref sig .tc := ⟨.hbm, 109, rfl⟩
abbrev main_call4_v0 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_6 : Ref sig .tc := ⟨.hbm, 127, rfl⟩
abbrev main_v88 : Ref sig .tc := ⟨.hbm, 128, rfl⟩
abbrev main_v89 : Ref sig .tc := ⟨.hbm, 129, rfl⟩
abbrev main_c_7 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_call5_cst : Ref sig .tc := ⟨.hbm, 137, rfl⟩
abbrev main_call5_v0 : Ref sig .tc := ⟨.hbm, 138, rfl⟩
abbrev main_v96 : Ref sig .tc := ⟨.hbm, 139, rfl⟩
abbrev main_cst_8 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_9 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_call6_cst : Ref sig .tc := ⟨.hbm, 153, rfl⟩
abbrev main_call6_v0 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_10 : Ref sig .tc := ⟨.hbm, 171, rfl⟩
abbrev main_v124 : Ref sig .tc := ⟨.hbm, 172, rfl⟩
abbrev main_v125 : Ref sig .tc := ⟨.hbm, 173, rfl⟩
abbrev main_c_11 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_call7_cst : Ref sig .tc := ⟨.hbm, 181, rfl⟩
abbrev main_call7_v0 : Ref sig .tc := ⟨.hbm, 182, rfl⟩
abbrev main_v132 : Ref sig .tc := ⟨.hbm, 183, rfl⟩
abbrev main_cst_12 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_13 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_call8_cst : Ref sig .tc := ⟨.hbm, 197, rfl⟩
abbrev main_call8_v0 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_c_14 : Ref sig .tc := ⟨.hbm, 215, rfl⟩
abbrev main_v160 : Ref sig .tc := ⟨.hbm, 216, rfl⟩
abbrev main_v161 : Ref sig .tc := ⟨.hbm, 217, rfl⟩
abbrev main_c_15 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_call9_cst : Ref sig .tc := ⟨.hbm, 225, rfl⟩
abbrev main_call9_v0 : Ref sig .tc := ⟨.hbm, 226, rfl⟩
abbrev main_v168 : Ref sig .tc := ⟨.hbm, 227, rfl⟩
abbrev main_cst_16 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_17 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_call10_cst : Ref sig .tc := ⟨.hbm, 241, rfl⟩
abbrev main_call10_v0 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S1x256_S320000x256_0_1 : S1x256.BroadcastsInDim S320000x256 (![0, 1] : Fin 2 → Fin S320000x256.rank)
  bcast_S_S20000x256 : S_.BroadcastsInDim S20000x256 (![] : Fin 0 → Fin S20000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x256 : S_.BroadcastsInDim S320000x256 (![] : Fin 0 → Fin S320000x256.rank)
  slices_S4_S1_0 : S4.Slices ![0] S1
  shapeCasts_S1_S_ : S1.ShapeCasts S_
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  slices_S4_S1_1 : S4.Slices ![1] S1
  slices_S4x256x256_S1x256x256_1_0_0 : S4x256x256.Slices ![1, 0, 0] S1x256x256
  slices_S4x256_S1x256_1_0 : S4x256.Slices ![1, 0] S1x256
  slices_S4_S1_2 : S4.Slices ![2] S1
  slices_S4x256x256_S1x256x256_2_0_0 : S4x256x256.Slices ![2, 0, 0] S1x256x256
  slices_S4x256_S1x256_2_0 : S4x256.Slices ![2, 0] S1x256
  slices_S4_S1_3 : S4.Slices ![3] S1
  slices_S4x256x256_S1x256x256_3_0_0 : S4x256x256.Slices ![3, 0, 0] S1x256x256
  slices_S4x256_S1x256_3_0 : S4x256.Slices ![3, 0] S1x256
  bcast_S10_S1x10_1 : S10.BroadcastsInDim S1x10 (![1] : Fin 1 → Fin S1x10.rank)
  bcast_S1x10_S20000x10_0_1 : S1x10.BroadcastsInDim S20000x10 (![0, 1] : Fin 2 → Fin S20000x10.rank)
  dot_S20000x64_S64x256_S20000x256_1_0_0_1_n_n_wf : DotDims.WF S20000x64 S64x256 S20000x256 [1] [0] [0] [1] [] []
  dot_S320000x16_S16x256_S320000x256_1_0_0_1_n_n_wf : DotDims.WF S320000x16 S16x256 S320000x256 [1] [0] [0] [1] [] []
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x10_S20000x10_1_0_0_1_n_n_wf : DotDims.WF S20000x256 S256x10 S20000x10 [1] [0] [0] [1] [] []

variable [Facts₀]

def dot_S20000x64_S64x256_S20000x256_1_0_0_1_n_n : DotDims S20000x64 S64x256 S20000x256 where
  lhsContracting := [1]
  rhsContracting := [0]
  lhsNonContracting := [0]
  rhsNonContracting := [1]
  lhsBatch := []
  rhsBatch := []
  wf := dot_S20000x64_S64x256_S20000x256_1_0_0_1_n_n_wf
def dot_S320000x16_S16x256_S320000x256_1_0_0_1_n_n : DotDims S320000x16 S16x256 S320000x256 where
  lhsContracting := [1]
  rhsContracting := [0]
  lhsNonContracting := [0]
  rhsNonContracting := [1]
  lhsBatch := []
  rhsBatch := []
  wf := dot_S320000x16_S16x256_S320000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x10_S20000x10_1_0_0_1_n_n : DotDims S20000x256 S256x10 S20000x10 where
  lhsContracting := [1]
  rhsContracting := [0]
  lhsNonContracting := [0]
  rhsNonContracting := [1]
  lhsBatch := []
  rhsBatch := []
  wf := dot_S20000x256_S256x10_S20000x10_1_0_0_1_n_n_wf

class Facts : Prop extends Facts₀ where

variable [Facts]
-- ==== Proof.Spec.lean ====
/-
  The two programs' arithmetic as plain finite sums over the extended reals, and the laws that join them.

  A layer of the network is a matrix product plus a bias row. The reference takes the product once,
  `∑ k, a i k * w k j`. The kernel splits each operand into a leading part and a remainder and adds three
  products; once every change of float format is the identity the leading part IS the operand and the remainder
  is `x - x`, so the kernel's product reads `(∑ a·w + ∑ a·(w - w)) + ∑ (a - a)·w`. On the extended reals
  `x - x = 0` holds exactly when `x` is a real number (`⊤ - ⊤ = ⊥`), and then both extra sums vanish. So the
  two products agree on real operands, and every layer keeps real operands real (sums, products and maxima of
  reals are reals): this is where finiteness of the inputs is used, and the only place.
-/
import Mathlib.Data.EReal.Operations
import Mathlib.Algebra.BigOperators.Group.Finset.Basic
import Mathlib.Algebra.BigOperators.Fin

noncomputable section

namespace Gnn

open Finset

/-- An extended real that is a real number. -/
def Re (x : EReal) : Prop := ∃ r : ℝ, x = (r : EReal)

theorem Re.zero : Re 0 := ⟨0, rfl⟩
theorem Re.one : Re 1 := ⟨1, rfl⟩

theorem Re.add {x y : EReal} (hx : Re x) (hy : Re y) : Re (x + y) := by
  obtain ⟨a, rfl⟩ := hx; obtain ⟨b, rfl⟩ := hy; exact ⟨a + b, (EReal.coe_add a b).symm⟩

theorem Re.mul {x y : EReal} (hx : Re x) (hy : Re y) : Re (x * y) := by
  obtain ⟨a, rfl⟩ := hx; obtain ⟨b, rfl⟩ := hy; exact ⟨a * b, (EReal.coe_mul a b).symm⟩

theorem Re.max {x y : EReal} (hx : Re x) (hy : Re y) : Re (max x y) := by
  rcases le_total x y with h | h
  · rw [max_eq_right h]; exact hy
  · rw [max_eq_left h]; exact hx

/-- A real number less itself is zero; at an infinity it is not. -/
theorem Re.sub_self {x : EReal} (hx : Re x) : x - x = 0 := by
  obtain ⟨a, rfl⟩ := hx
  rw [← EReal.coe_sub, _root_.sub_self, EReal.coe_zero]

/-- A finite sum of real numbers is a real number. -/
theorem Re.sum {ι : Type*} (s : Finset ι) (f : ι → EReal) (h : ∀ i ∈ s, Re (f i)) : Re (∑ i ∈ s, f i) := by
  classical
  induction s using Finset.induction_on with
  | empty => rw [Finset.sum_empty]; exact Re.zero
  | insert a s ha ih =>
    rw [Finset.sum_insert ha]
    exact (h a (Finset.mem_insert_self _ _)).add (ih fun i hi => h i (Finset.mem_insert_of_mem hi))

/-- A matrix of extended reals, by row and column. -/
abbrev Mat (M N : ℕ) := Fin M → Fin N → EReal
/-- A row of extended reals. -/
abbrev Row (N : ℕ) := Fin N → EReal

variable {M K N : ℕ}

/-- Every entry is a real number. -/
def ReM (a : Mat M N) : Prop := ∀ i j, Re (a i j)
def ReV (b : Row N) : Prop := ∀ j, Re (b j)

/-- The matrix product. -/
def mm (a : Mat M K) (w : Mat K N) : Mat M N := fun i j => ∑ k, a i k * w k j

/-- The product in three passes: the operands' product, the left operand against the right one's remainder
    `w - w`, and the left one's remainder `a - a` against the right operand, added in that order. -/
def mm3 (a : Mat M K) (w : Mat K N) : Mat M N := fun i j =>
  (∑ k, a i k * w k j + ∑ k, a i k * (w k j - w k j)) + ∑ k, (a i k - a i k) * w k j

/-- On real operands both remainders are zero, so the three passes add up to the one product. -/
theorem mm3_eq_mm {a : Mat M K} {w : Mat K N} (ha : ReM a) (hw : ReM w) : mm3 a w = mm a w := by
  funext i j
  unfold mm3 mm
  have h1 : ∑ k, a i k * (w k j - w k j) = 0 :=
    Finset.sum_eq_zero fun k _ => by rw [(hw k j).sub_self, mul_zero]
  have h2 : ∑ k, (a i k - a i k) * w k j = 0 :=
    Finset.sum_eq_zero fun k _ => by rw [(ha i k).sub_self, zero_mul]
  rw [h1, h2, add_zero, add_zero]

theorem mm_re {a : Mat M K} {w : Mat K N} (ha : ReM a) (hw : ReM w) : ReM (mm a w) :=
  fun i j => by
    unfold mm
    exact Re.sum _ _ fun k _ => (ha i k).mul (hw k j)

/-! ## One layer: a product plus a bias row -/

/-- The kernel's layer: the three-pass product plus the bias. -/
def linK (a : Mat M K) (w : Mat K N) (b : Row N) : Mat M N := fun i j => mm3 a w i j + b j
/-- The reference's layer: the product plus the bias. -/
def linR (a : Mat M K) (w : Mat K N) (b : Row N) : Mat M N := fun i j => mm a w i j + b j

theorem linK_eq {a : Mat M K} {w : Mat K N} (b : Row N) (ha : ReM a) (hw : ReM w) : linK a w b = linR a w b := by
  unfold linK linR; rw [mm3_eq_mm ha hw]

theorem linR_re {a : Mat M K} {w : Mat K N} {b : Row N} (ha : ReM a) (hw : ReM w) (hb : ReV b) : ReM (linR a w b) :=
  fun i j => (mm_re ha hw i j).add (hb j)

/-- The positive part, entry by entry. -/
def relu (a : Mat M N) : Mat M N := fun i j => max (a i j) 0

theorem relu_re {a : Mat M N} (ha : ReM a) : ReM (relu a) := fun i j => (ha i j).max Re.zero

/-- What a graph layer feeds its two products: `(1 + eps) · h + agg`. -/
def mix (h agg : Mat M N) (eps : EReal) : Mat M N := fun i j => (1 + eps) * h i j + agg i j

theorem mix_re {h agg : Mat M N} {eps : EReal} (hh : ReM h) (ha : ReM agg) (he : Re eps) : ReM (mix h agg eps) :=
  fun i j => ((Re.one.add he).mul (hh i j)).add (ha i j)

/-! ## The node encoder followed by the pre-message layer -/

def encK {D : ℕ} (x : Mat M K) (wne : Mat K N) (bne : Row N) (wpre : Mat N D) (bpre : Row D) : Mat M D :=
  relu (linK (linK x wne bne) wpre bpre)
def encR {D : ℕ} (x : Mat M K) (wne : Mat K N) (bne : Row N) (wpre : Mat N D) (bpre : Row D) : Mat M D :=
  relu (linR (linR x wne bne) wpre bpre)

theorem encK_eq {D : ℕ} {x : Mat M K} {wne : Mat K N} {bne : Row N} {wpre : Mat N D} (bpre : Row D)
    (hx : ReM x) (hwne : ReM wne) (hbne : ReV bne) (hwpre : ReM wpre) :
    encK x wne bne wpre bpre = encR x wne bne wpre bpre := by
  unfold encK encR
  rw [linK_eq bne hx hwne, linK_eq bpre (linR_re hx hwne hbne) hwpre]

theorem encR_re {D : ℕ} {x : Mat M K} {wne : Mat K N} {bne : Row N} {wpre : Mat N D} {bpre : Row D}
    (hx : ReM x) (hwne : ReM wne) (hbne : ReV bne) (hwpre : ReM wpre) (hbpre : ReV bpre) :
    ReM (encR x wne bne wpre bpre) :=
  relu_re (linR_re (linR_re hx hwne hbne) hwpre hbpre)

/-! ## A graph layer's two-product update -/

def gineK {D E : ℕ} (h agg : Mat M N) (eps : EReal) (w1 : Mat N D) (b1 : Row D) (w2 : Mat D E) (b2 : Row E) : Mat M E :=
  linK (relu (linK (mix h agg eps) w1 b1)) w2 b2
def gineR {D E : ℕ} (h agg : Mat M N) (eps : EReal) (w1 : Mat N D) (b1 : Row D) (w2 : Mat D E) (b2 : Row E) : Mat M E :=
  linR (relu (linR (mix h agg eps) w1 b1)) w2 b2

theorem gineK_eq {D E : ℕ} {h agg : Mat M N} {eps : EReal} {w1 : Mat N D} {b1 : Row D} {w2 : Mat D E} (b2 : Row E)
    (hh : ReM h) (ha : ReM agg) (he : Re eps) (hw1 : ReM w1) (hb1 : ReV b1) (hw2 : ReM w2) :
    gineK h agg eps w1 b1 w2 b2 = gineR h agg eps w1 b1 w2 b2 := by
  unfold gineK gineR
  rw [linK_eq b1 (mix_re hh ha he) hw1, linK_eq b2 (relu_re (linR_re (mix_re hh ha he) hw1 hb1)) hw2]

theorem gineR_re {D E : ℕ} {h agg : Mat M N} {eps : EReal} {w1 : Mat N D} {b1 : Row D} {w2 : Mat D E} {b2 : Row E}
    (hh : ReM h) (ha : ReM agg) (he : Re eps) (hw1 : ReM w1) (hb1 : ReV b1) (hw2 : ReM w2) (hb2 : ReV b2) :
    ReM (gineR h agg eps w1 b1 w2 b2) :=
  linR_re (relu_re (linR_re (mix_re hh ha he) hw1 hb1)) hw2 hb2

/-- The kernel's residual layer adds the input last; the reference adds the update to the input. -/
def resK {D : ℕ} (h agg : Mat M N) (eps : EReal) (w1 : Mat N D) (b1 : Row D) (w2 : Mat D N) (b2 : Row N) : Mat M N :=
  fun i j => gineK h agg eps w1 b1 w2 b2 i j + h i j
def resR {D : ℕ} (h agg : Mat M N) (eps : EReal) (w1 : Mat N D) (b1 : Row D) (w2 : Mat D N) (b2 : Row N) : Mat M N :=
  fun i j => h i j + gineR h agg eps w1 b1 w2 b2 i j

theorem resK_eq {D : ℕ} {h agg : Mat M N} {eps : EReal} {w1 : Mat N D} {b1 : Row D} {w2 : Mat D N} (b2 : Row N)
    (hh : ReM h) (ha : ReM agg) (he : Re eps) (hw1 : ReM w1) (hb1 : ReV b1) (hw2 : ReM w2) :
    resK h agg eps w1 b1 w2 b2 = resR h agg eps w1 b1 w2 b2 := by
  funext i j
  unfold resK resR
  rw [gineK_eq b2 hh ha he hw1 hb1 hw2, add_comm]

theorem resR_re {D : ℕ} {h agg : Mat M N} {eps : EReal} {w1 : Mat N D} {b1 : Row D} {w2 : Mat D N} {b2 : Row N}
    (hh : ReM h) (ha : ReM agg) (he : Re eps) (hw1 : ReM w1) (hb1 : ReV b1) (hw2 : ReM w2) (hb2 : ReV b2) :
    ReM (resR h agg eps w1 b1 w2 b2) :=
  fun i j => (hh i j).add (gineR_re hh ha he hw1 hb1 hw2 hb2 i j)

/-! ## Rows: an entry of a layer depends on one row of the left operand only

A kernel works on a block of rows at a time; row `i` of a block is row `i'` of the array, and every layer's entry
at that row is the same function of it. -/

section Rows
variable {M' : ℕ}

theorem mm3_row {a : Mat M K} {a' : Mat M' K} (w : Mat K N) {i : Fin M} {i' : Fin M'} (h : ∀ k, a i k = a' i' k) (j : Fin N) :
    mm3 a w i j = mm3 a' w i' j := by
  unfold mm3; simp only [h]

theorem linK_row {a : Mat M K} {a' : Mat M' K} (w : Mat K N) (b : Row N) {i : Fin M} {i' : Fin M'} (h : ∀ k, a i k = a' i' k)
    (j : Fin N) : linK a w b i j = linK a' w b i' j := by
  unfold linK; rw [mm3_row w h j]

theorem relu_row {a : Mat M N} {a' : Mat M' N} {i : Fin M} {i' : Fin M'} (h : ∀ k, a i k = a' i' k) (j : Fin N) :
    relu a i j = relu a' i' j := by
  unfold relu; rw [h j]

theorem mix_row {h agg : Mat M N} {h' agg' : Mat M' N} (eps : EReal) {i : Fin M} {i' : Fin M'}
    (hh : ∀ k, h i k = h' i' k) (ha : ∀ k, agg i k = agg' i' k) (j : Fin N) : mix h agg eps i j = mix h' agg' eps i' j := by
  unfold mix; rw [hh j, ha j]

theorem encK_row {D : ℕ} {x : Mat M K} {x' : Mat M' K} (wne : Mat K N) (bne : Row N) (wpre : Mat N D) (bpre : Row D)
    {i : Fin M} {i' : Fin M'} (h : ∀ k, x i k = x' i' k) (j : Fin D) :
    encK x wne bne wpre bpre i j = encK x' wne bne wpre bpre i' j := by
  unfold encK
  exact relu_row (fun k => linK_row wpre bpre (fun k' => linK_row wne bne h k') k) j

theorem gineK_row {D E : ℕ} {h agg : Mat M N} {h' agg' : Mat M' N} (eps : EReal) (w1 : Mat N D) (b1 : Row D) (w2 : Mat D E) (b2 : Row E)
    {i : Fin M} {i' : Fin M'} (hh : ∀ k, h i k = h' i' k) (ha : ∀ k, agg i k = agg' i' k) (j : Fin E) :
    gineK h agg eps w1 b1 w2 b2 i j = gineK h' agg' eps w1 b1 w2 b2 i' j := by
  unfold gineK
  exact linK_row w2 b2 (fun k => relu_row (fun k' => linK_row w1 b1 (fun k'' => mix_row eps hh ha k'') k') k) j

theorem resK_row {D : ℕ} {h agg : Mat M N} {h' agg' : Mat M' N} (eps : EReal) (w1 : Mat N D) (b1 : Row D) (w2 : Mat D N) (b2 : Row N)
    {i : Fin M} {i' : Fin M'} (hh : ∀ k, h i k = h' i' k) (ha : ∀ k, agg i k = agg' i' k) (j : Fin N) :
    resK h agg eps w1 b1 w2 b2 i j = resK h' agg' eps w1 b1 w2 b2 i' j := by
  unfold resK; rw [gineK_row eps w1 b1 w2 b2 hh ha j, hh j]

end Rows

/-! ## The head: a product against a weight padded with zero columns, read on the columns that are kept -/

/-- The kernel multiplies by a weight with `P ≥ Q` columns and a bias of `P` entries whose first `Q` columns
    are the reference's weight and bias; on those columns, for real operands, its layer is the reference's. -/
theorem head_eq {P Q : ℕ} (hPQ : Q ≤ P) {out : Mat M K} {wp : Mat K P} {bp : Row P} {w : Mat K Q} {b : Row Q}
    (hout : ReM out) (hwp : ReM wp)
    (hw : ∀ k (j : Fin Q), wp k (Fin.castLE hPQ j) = w k j) (hb : ∀ j : Fin Q, bp (Fin.castLE hPQ j) = b j)
    (i : Fin M) (j : Fin Q) : linK out wp bp i (Fin.castLE hPQ j) = linR out w b i j := by
  rw [linK_eq bp hout hwp]
  show mm out wp i (Fin.castLE hPQ j) + bp (Fin.castLE hPQ j) = mm out w i j + b j
  have hs : mm out wp i (Fin.castLE hPQ j) = mm out w i j :=
    show ∑ k, out i k * wp k (Fin.castLE hPQ j) = ∑ k, out i k * w k j from
      Finset.sum_congr rfl fun k _ => by rw [hw k j]
  rw [hb j, hs]

end Gnn

end
-- ==== Proof.Mats.lean ====
/-
  Between the programs' arrays and the specification's matrices. An array of shape [A, B] is read as the matrix
  `p q ↦ v (p, q)`, a [1, B] array or a rank-1 array of extent B as a row; and a matrix product printed over a dot
  record's own contraction index is the sum over `Fin K` of the left operand along row `p` against the right
  operand along column `q`, once the record's four index facts (which coordinate of each operand the output index
  and the contraction index give) are known.
-/
import proofs.«414264_j73976516706834_2_alg».proof.Proof.Spec
import Idealize.ShloMosaic.Lib.ValueIdx
import Idealize.ShloMosaic.Lib.Pipeline.Value
import Idealize.ShloMosaic.PureOps.Ideal.Laws

noncomputable section

namespace Gnn

open Idealize.ShloMosaic Idealize.ShloMosaic.ValueIdx

/-- An array of extended reals of shape [A, B]. -/
abbrev Arr (A B : ℕ) := (⟨2, ![A, B]⟩ : Shape).Idx → EReal
/-- An array of extended reals of shape [B]. -/
abbrev Arr1 (B : ℕ) := (⟨1, ![B]⟩ : Shape).Idx → EReal

/-- The matrix an [A, B] array is. -/
def toM {A B : ℕ} (v : Arr A B) : Mat A B := fun p q => v (ix2 p q)
/-- The array a matrix is. -/
def ofM {A B : ℕ} (f : Mat A B) : Arr A B := fun i => f (i 0) (i 1)
/-- The row a [1, B] array is. -/
def toRow1 {B : ℕ} (v : Arr 1 B) : Row B := fun q => v (ix2 0 q)
/-- The row a rank-1 array is. -/
def toRow {B : ℕ} (v : Arr1 B) : Row B := fun q => v (ix1 q)

theorem toM_ofM {A B : ℕ} (f : Mat A B) : toM (ofM f) = f := rfl

theorem ofM_toM {A B : ℕ} (v : Arr A B) : ofM (toM v) = v :=
  funext fun i => congrArg v (eq_ix2 i).symm

theorem ofM_apply {A B : ℕ} (f : Mat A B) (p : Fin A) (q : Fin B) : ofM f (ix2 p q) = f p q := rfl

/-- Two [A, B] arrays with the same matrix are the same array. -/
theorem arr_ext {A B : ℕ} {u v : Arr A B} (h : toM u = toM v) : u = v := by
  rw [← ofM_toM u, ← ofM_toM v, h]

/-- Every entry of an array, of any shape, is a real number. -/
def ReA {s : Shape} (v : s.Idx → EReal) : Prop := ∀ i, Re (v i)

theorem reM_toM {A B : ℕ} {v : Arr A B} (h : ReA v) : ReM (toM v) := fun p q => h (ix2 p q)
theorem reA_ofM {A B : ℕ} {f : Mat A B} (h : ReM f) : ReA (ofM f) := fun i => h (i 0) (i 1)
theorem reV_toRow1 {B : ℕ} {v : Arr 1 B} (h : ReA v) : ReV (toRow1 v) := fun q => h (ix2 0 q)
theorem reV_toRow {B : ℕ} {v : Arr1 B} (h : ReA v) : ReV (toRow v) := fun q => h (ix1 q)

/-- A product's sum over a dot record's contraction index, at output index (p, q), is the sum over `k : Fin K` of
    the left operand at (p, k) times the right operand at (k, q): the record contracts the left operand's axis 1
    against the right one's axis 0 and keeps the left's axis 0 and the right's axis 1 (the four facts `l0 l1 r0 r1`). -/
theorem dot_sum {A K B : ℕ} (d : DotDims (⟨2, ![A, K]⟩ : Shape) (⟨2, ![K, B]⟩ : Shape) (⟨2, ![A, B]⟩ : Shape))
    (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (l : Arr A K) (r : Arr K B) (p : Fin A) (q : Fin B) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Gnn

end
-- ==== Proof.Net.lean ====
/-
  The whole network, twice: with the kernel's three-pass layers and with the reference's plain ones, over the same
  parameters and the same aggregation step `agg` (the gather of source rows, the edge encoding added, the positive
  part, summed into destination rows: one function of the node features and the edge encoding, the same in both
  programs). The node encoder feeds one graph layer without a residual and four with one; the head is a last product.
  The kernel's head multiplies by a weight of 128 columns of which the reference's 10 are the first.

  On real parameters, with an aggregation step that keeps real arrays real, the two networks agree on the kept
  columns: layer by layer the three-pass product is the product (its remainders vanish on reals) and every layer's
  result is again real.
-/
import proofs.«414264_j73976516706834_2_alg».proof.Proof.Spec

noncomputable section

namespace Gnn

/-- The network's parameters and inputs, as matrices and rows. -/
structure Params where
  x : Mat 20000 64
  ea : Mat 320000 16
  wne : Mat 64 256
  bne : Row 256
  wee : Mat 16 256
  bee : Row 256
  wpre : Mat 256 256
  bpre : Row 256
  epsA : EReal
  w1a : Mat 256 256
  b1a : Row 256
  w2a : Mat 256 256
  b2a : Row 256
  epsL : Fin 4 → EReal
  w1L : Fin 4 → Mat 256 256
  b1L : Fin 4 → Row 256
  w2L : Fin 4 → Mat 256 256
  b2L : Fin 4 → Row 256
  wh : Mat 256 10
  bh : Row 10

/-- Every parameter and input is a real number. -/
structure Params.Real (P : Params) : Prop where
  x : ReM P.x
  ea : ReM P.ea
  wne : ReM P.wne
  bne : ReV P.bne
  wee : ReM P.wee
  bee : ReV P.bee
  wpre : ReM P.wpre
  bpre : ReV P.bpre
  epsA : Re P.epsA
  w1a : ReM P.w1a
  b1a : ReV P.b1a
  w2a : ReM P.w2a
  b2a : ReV P.b2a
  epsL : ∀ l, Re (P.epsL l)
  w1L : ∀ l, ReM (P.w1L l)
  b1L : ∀ l, ReV (P.b1L l)
  w2L : ∀ l, ReM (P.w2L l)
  b2L : ∀ l, ReV (P.b2L l)
  wh : ReM P.wh
  bh : ReV P.bh

/-- The aggregation step: node features and edge encoding to the per-node sums. -/
abbrev Agg := Mat 20000 256 → Mat 320000 256 → Mat 20000 256

/-! ## The kernel's network -/

def h0K (P : Params) : Mat 20000 256 := encK P.x P.wne P.bne P.wpre P.bpre
def eK (P : Params) : Mat 320000 256 := linK P.ea P.wee P.bee
def h1K (P : Params) (agg : Agg) : Mat 20000 256 :=
  gineK (h0K P) (agg (h0K P) (eK P)) P.epsA P.w1a P.b1a P.w2a P.b2a
/-- Residual layer `l` applied to node features `h`. -/
def layK (P : Params) (agg : Agg) (l : Fin 4) (h : Mat 20000 256) : Mat 20000 256 :=
  resK h (agg h (eK P)) (P.epsL l) (P.w1L l) (P.b1L l) (P.w2L l) (P.b2L l)
def h5K (P : Params) (agg : Agg) : Mat 20000 256 :=
  layK P agg 3 (layK P agg 2 (layK P agg 1 (layK P agg 0 (h1K P agg))))
/-- The kernel's result before its last slice: the head against the padded weight and bias. -/
def outK (P : Params) (agg : Agg) (whp : Mat 256 128) (bhp : Row 128) : Mat 20000 128 := linK (h5K P agg) whp bhp

/-! ## The reference's network -/

def h0R (P : Params) : Mat 20000 256 := encR P.x P.wne P.bne P.wpre P.bpre
def eR (P : Params) : Mat 320000 256 := linR P.ea P.wee P.bee
def h1R (P : Params) (agg : Agg) : Mat 20000 256 :=
  gineR (h0R P) (agg (h0R P) (eR P)) P.epsA P.w1a P.b1a P.w2a P.b2a
def layR (P : Params) (agg : Agg) (l : Fin 4) (h : Mat 20000 256) : Mat 20000 256 :=
  resR h (agg h (eR P)) (P.epsL l) (P.w1L l) (P.b1L l) (P.w2L l) (P.b2L l)
def h5R (P : Params) (agg : Agg) : Mat 20000 256 :=
  layR P agg 3 (layR P agg 2 (layR P agg 1 (layR P agg 0 (h1R P agg))))
def outR (P : Params) (agg : Agg) : Mat 20000 10 := linR (h5R P agg) P.wh P.bh

/-! ## They agree -/

/-- The encoded node features agree: both of the encoder's products have real operands. -/
theorem h0_eq (P : Params) (hP : P.Real) : h0K P = h0R P :=
  encK_eq P.bpre hP.x hP.wne hP.bne hP.wpre

theorem h0R_re (P : Params) (hP : P.Real) : ReM (h0R P) :=
  encR_re hP.x hP.wne hP.bne hP.wpre hP.bpre

/-- The edge encodings agree. -/
theorem e_eq (P : Params) (hP : P.Real) : eK P = eR P :=
  linK_eq P.bee hP.ea hP.wee

theorem eR_re (P : Params) (hP : P.Real) : ReM (eR P) :=
  linR_re hP.ea hP.wee hP.bee

section Layers
variable (P : Params) (hP : P.Real) (agg : Agg) (hagg : ∀ h e, ReM h → ReM e → ReM (agg h e))
include hP hagg

/-- The first graph layer agrees: its inputs are the same real arrays, and the aggregate of real arrays is real. -/
theorem h1_eq : h1K P agg = h1R P agg := by
  unfold h1K h1R
  rw [h0_eq P hP, e_eq P hP]
  exact gineK_eq P.b2a (h0R_re P hP) (hagg _ _ (h0R_re P hP) (eR_re P hP)) hP.epsA hP.w1a hP.b1a hP.w2a

theorem h1R_re : ReM (h1R P agg) :=
  gineR_re (h0R_re P hP) (hagg _ _ (h0R_re P hP) (eR_re P hP)) hP.epsA hP.w1a hP.b1a hP.w2a hP.b2a

/-- A residual layer agrees on real node features. -/
theorem lay_eq (l : Fin 4) (h : Mat 20000 256) (hh : ReM h) : layK P agg l h = layR P agg l h := by
  unfold layK layR
  rw [e_eq P hP]
  exact resK_eq (P.b2L l) hh (hagg _ _ hh (eR_re P hP)) (hP.epsL l) (hP.w1L l) (hP.b1L l) (hP.w2L l)

theorem layR_re (l : Fin 4) (h : Mat 20000 256) (hh : ReM h) : ReM (layR P agg l h) :=
  resR_re hh (hagg _ _ hh (eR_re P hP)) (hP.epsL l) (hP.w1L l) (hP.b1L l) (hP.w2L l) (hP.b2L l)

/-- The node features after all five graph layers agree and are real: each layer in turn, on the real result of
    the one before. -/
theorem h5_eq_re : h5K P agg = h5R P agg ∧ ReM (h5R P agg) := by
  have r1 : ReM (h1R P agg) := h1R_re P hP agg hagg
  have r2 := layR_re P hP agg hagg 0 _ r1
  have r3 := layR_re P hP agg hagg 1 _ r2
  have r4 := layR_re P hP agg hagg 2 _ r3
  have r5 := layR_re P hP agg hagg 3 _ r4
  refine ⟨?_, r5⟩
  unfold h5K h5R
  rw [h1_eq P hP agg hagg, lay_eq P hP agg hagg 0 _ r1, lay_eq P hP agg hagg 1 _ r2,
    lay_eq P hP agg hagg 2 _ r3, lay_eq P hP agg hagg 3 _ r4]

end Layers

/-- On real parameters, with an aggregation step that keeps real arrays real and a padded head whose first ten
    columns are the reference's, the kernel's result on those columns is the reference's. -/
theorem out_eq (P : Params) (hP : P.Real) (agg : Agg) (hagg : ∀ h e, ReM h → ReM e → ReM (agg h e))
    (whp : Mat 256 128) (bhp : Row 128) (hwhp : ReM whp)
    (hw : ∀ k (j : Fin 10), whp k (Fin.castLE (by decide) j) = P.wh k j)
    (hb : ∀ j : Fin 10, bhp (Fin.castLE (by decide) j) = P.bh j) (i : Fin 20000) (j : Fin 10) :
    outK P agg whp bhp i (Fin.castLE (by decide) j) = outR P agg i j := by
  obtain ⟨h5, r5⟩ := h5_eq_re P hP agg hagg
  unfold outK outR
  rw [h5]
  exact head_eq (by decide) r5 hwhp hw hb i j

end Gnn

end
-- ==== Proof.Inputs.lean ====
/-
  The network's parameters read off the twenty-one argument arrays (argument 2, the edge index, is not a parameter:
  the aggregation step reads it), and the range the source indices are assumed to lie in.

  Rank-1 bias arrays are rows; the scalar `eps` of the first graph layer is a rank-0 array read at its one index;
  the four residual layers' parameters are stacked along a leading axis of extent 4 and layer `l` reads its slice.
-/
import proofs.«414264_j73976516706834_2_alg».proof.Proof.Mats
import proofs.«414264_j73976516706834_2_alg».proof.Proof.Net

noncomputable section

namespace Gnn

open Idealize.ShloMosaic Idealize.ShloMosaic.ValueIdx

/-- A rank-0 array of extended reals. -/
abbrev Arr0 := (⟨0, ![]⟩ : Shape).Idx → EReal
/-- An array of extended reals of shape [A, B, C]. -/
abbrev Arr3 (A B C : ℕ) := (⟨3, ![A, B, C]⟩ : Shape).Idx → EReal

/-- The parameters, from the argument arrays in the entry point's order (argument 2 left out). -/
def mkParams (a0 : Arr 20000 64) (a1 : Arr 320000 16) (a3 : Arr 64 256) (a4 : Arr1 256) (a5 : Arr 16 256) (a6 : Arr1 256)
    (a7 : Arr 256 256) (a8 : Arr1 256) (a9 : Arr0) (a10 : Arr 256 256) (a11 : Arr1 256) (a12 : Arr 256 256) (a13 : Arr1 256)
    (a14 : Arr1 4) (a15 : Arr3 4 256 256) (a16 : Arr 4 256) (a17 : Arr3 4 256 256) (a18 : Arr 4 256)
    (a19 : Arr 256 10) (a20 : Arr1 10) : Params where
  x := toM a0
  ea := toM a1
  wne := toM a3
  bne := toRow a4
  wee := toM a5
  bee := toRow a6
  wpre := toM a7
  bpre := toRow a8
  epsA := a9 ix0
  w1a := toM a10
  b1a := toRow a11
  w2a := toM a12
  b2a := toRow a13
  epsL := fun l => a14 (ix1 l)
  w1L := fun l k j => a15 (ix3 l k j)
  b1L := fun l j => a16 (ix2 l j)
  w2L := fun l k j => a17 (ix3 l k j)
  b2L := fun l j => a18 (ix2 l j)
  wh := toM a19
  bh := toRow a20

/-- Real argument arrays give real parameters. -/
theorem mkParams_real {a0 : Arr 20000 64} {a1 : Arr 320000 16} {a3 : Arr 64 256} {a4 : Arr1 256} {a5 : Arr 16 256} {a6 : Arr1 256}
    {a7 : Arr 256 256} {a8 : Arr1 256} {a9 : Arr0} {a10 : Arr 256 256} {a11 : Arr1 256} {a12 : Arr 256 256} {a13 : Arr1 256}
    {a14 : Arr1 4} {a15 : Arr3 4 256 256} {a16 : Arr 4 256} {a17 : Arr3 4 256 256} {a18 : Arr 4 256}
    {a19 : Arr 256 10} {a20 : Arr1 10}
    (h0 : ReA a0) (h1 : ReA a1) (h3 : ReA a3) (h4 : ReA a4) (h5 : ReA a5) (h6 : ReA a6) (h7 : ReA a7) (h8 : ReA a8) (h9 : ReA a9)
    (h10 : ReA a10) (h11 : ReA a11) (h12 : ReA a12) (h13 : ReA a13) (h14 : ReA a14) (h15 : ReA a15) (h16 : ReA a16)
    (h17 : ReA a17) (h18 : ReA a18) (h19 : ReA a19) (h20 : ReA a20) :
    (mkParams a0 a1 a3 a4 a5 a6 a7 a8 a9 a10 a11 a12 a13 a14 a15 a16 a17 a18 a19 a20).Real where
  x := reM_toM h0
  ea := reM_toM h1
  wne := reM_toM h3
  bne := reV_toRow h4
  wee := reM_toM h5
  bee := reV_toRow h6
  wpre := reM_toM h7
  bpre := reV_toRow h8
  epsA := h9 ix0
  w1a := reM_toM h10
  b1a := reV_toRow h11
  w2a := reM_toM h12
  b2a := reV_toRow h13
  epsL := fun l => h14 (ix1 l)
  w1L := fun l k j => h15 (ix3 l k j)
  b1L := fun l j => h16 (ix2 l j)
  w2L := fun l k j => h17 (ix3 l k j)
  b2L := fun l j => h18 (ix2 l j)
  wh := reM_toM h19
  bh := reV_toRow h20

/-- The edge index: row 0 the source nodes, row 1 the destination nodes. -/
abbrev EdgeIdx := (⟨2, ![2, 320000]⟩ : Shape).Idx → BitVec 32

/-- Every source index, read as a signed integer, names a node row directly or counted back from the end. -/
def SrcRange (ei : EdgeIdx) : Prop :=
  ∀ e : Fin 320000, -20000 ≤ (ei (ix2 0 e)).toInt ∧ (ei (ix2 0 e)).toInt < 20000

end Gnn

end
-- ==== Proof.Pad.lean ====
/-
  The head's padded weight and bias.

  The kernel multiplies by a weight of 128 columns and adds a bias of 128 entries. The host builds both by writing
  the network's weight [256, 10] into an array of zeros [256, 128], and its bias [10] into zeros [128], with one
  scatter whose body returns the update: update element j is written at the operand index "start plus window
  coordinate", the start read off the one scatter index, which is 0. The scatter is a left fold over the update
  elements, each step replacing one element of the running result.

  Such a fold, read at an index: if no step writes there the operand's element is still there; if the steps write
  at pairwise different places, the place of update element n holds that element at the end; and in every case the
  element at an index is the operand's or one of the updates'. So the padded arrays carry the network's weight and
  bias on the first 10 columns, and are real wherever those are (the other columns hold the zero they were filled with).
-/
import proofs.«414264_j73976516706834_2_alg».proof.KernelIdeal
import proofs.«414264_j73976516706834_2_alg».proof.Proof.Mats
import Idealize.ShloMosaic.PureOps.ShapeOps
import Idealize.ShloMosaic.PureOps.Dims
import Idealize.ShloMosaic.PureOps.Ideal.Laws
import Idealize.ShloMosaic.Lib.ValueIdx

noncomputable section

namespace Cert.KernelIdeal.Pad

open Cert.KernelIdeal Idealize.ShloMosaic Idealize.ShloMosaic.ValueIdx Gnn

/-! ## A fold of writes, read at an index -/

section Fold
variable {α β γ : Type} [DecidableEq β]

/-- One step: element n is written at the place g n names, when it names one. -/
def setStep (g : γ → Option β) (v : γ → α) (r : β → α) (n : γ) : β → α :=
  match g n with
  | some i => fun i' => if i' = i then v n else r i'
  | none => r

theorem setStep_some {g : γ → Option β} {v : γ → α} (r : β → α) {n : γ} {i : β} (h : g n = some i) (i' : β) :
    setStep g v r n i' = if i' = i then v n else r i' := by
  unfold setStep; rw [h]

theorem setStep_none {g : γ → Option β} {v : γ → α} (r : β → α) {n : γ} (h : g n = none) :
    setStep g v r n = r := by
  unfold setStep; rw [h]

/-- Whatever holds of the start's element at i and of every written element holds of the result's element at i. -/
theorem foldl_pred (g : γ → Option β) (v : γ → α) (P : α → Prop) (L : List γ) (hv : ∀ n ∈ L, P (v n)) (i : β) :
    ∀ x : β → α, P (x i) → P (L.foldl (setStep g v) x i) := by
  induction L with
  | nil => intro x h; exact h
  | cons a L ih =>
    intro x h
    rw [List.foldl_cons]
    refine ih (fun n hn => hv n (List.mem_cons_of_mem _ hn)) _ ?_
    cases hg : g a with
    | none => rw [setStep_none x hg]; exact h
    | some k =>
      rw [setStep_some x hg]
      split
      · exact hv a List.mem_cons_self
      · exact h

/-- An index no step writes at keeps the start's element. -/
theorem foldl_miss (g : γ → Option β) (v : γ → α) (L : List γ) (i : β) (h : ∀ n ∈ L, g n ≠ some i) :
    ∀ x : β → α, L.foldl (setStep g v) x i = x i := by
  induction L with
  | nil => intro x; rfl
  | cons a L ih =>
    intro x
    rw [List.foldl_cons, ih fun n hn => h n (List.mem_cons_of_mem _ hn)]
    cases hg : g a with
    | none => rw [setStep_none x hg]
    | some k =>
      rw [setStep_some x hg, if_neg]
      intro e
      exact h a List.mem_cons_self (by rw [hg, e])

/-- When the steps write at pairwise different places τ n, the place of element n holds it at the end: its own
    step writes it and no later step writes there. -/
theorem foldl_hit (g : γ → Option β) (v : γ → α) (τ : γ → β) (L : List γ) (hnd : L.Nodup)
    (hg : ∀ n ∈ L, g n = some (τ n)) (hinj : ∀ n ∈ L, ∀ m ∈ L, τ n = τ m → n = m) :
    ∀ (x : β → α) (n : γ), n ∈ L → L.foldl (setStep g v) x (τ n) = v n := by
  induction L with
  | nil => intro x n hn; exact absurd hn List.not_mem_nil
  | cons a L ih =>
    intro x n hn
    rw [List.foldl_cons]
    rcases List.mem_cons.1 hn with rfl | hn'
    · rw [foldl_miss g v L (τ n) ?_, setStep_some x (hg n List.mem_cons_self), if_pos rfl]
      intro m hm e
      have e' : τ m = τ n := Option.some.inj ((hg m (List.mem_cons_of_mem _ hm)).symm.trans e)
      have : m = n := hinj m (List.mem_cons_of_mem _ hm) n List.mem_cons_self e'
      subst this
      exact (List.nodup_cons.1 hnd).1 hm
    · exact ih (List.nodup_cons.1 hnd).2 (fun m hm => hg m (List.mem_cons_of_mem _ hm))
        (fun n hn m hm => hinj n (List.mem_cons_of_mem _ hn) m (List.mem_cons_of_mem _ hm)) _ n hn'

end Fold

/-! ## The scatter whose body returns the update -/

section Scatter
variable {α : Type} {s si u : Shape} {w : Nat}

/-- The scatter is the fold of writes over the update elements in row-major order. -/
theorem scatter_set_eq (d : ScatterDims s si u) (x : s.Idx → α) (idx : IVec si w) (upd : u.Idx → α) :
    Host.scatter d (fun _ b => b) x idx upd =
      (List.finRange u.numel).foldl
        (setStep (fun n => d.resultIdx? (u.rowMajor.symm n) idx) (fun n => upd (u.rowMajor.symm n))) x := by
  unfold Host.scatter
  congr 1
  funext r n
  unfold setStep
  beta_reduce
  cases d.resultIdx? (u.rowMajor.symm n) idx with
  | none => rfl
  | some i =>
    funext i'
    show (if i' = i then _ else _) = if i' = i then _ else _
    by_cases e : i' = i
    · rw [if_pos e]
    · rw [if_neg e]

/-- What holds of the operand's element at i and of every update holds of the result's element at i. -/
theorem scatter_set_pred (d : ScatterDims s si u) (x : s.Idx → α) (idx : IVec si w) (upd : u.Idx → α)
    (P : α → Prop) (i : s.Idx) (hx : P (x i)) (hu : ∀ j, P (upd j)) :
    P (Host.scatter d (fun _ b => b) x idx upd i) := by
  rw [scatter_set_eq]
  exact foldl_pred _ _ P _ (fun n _ => hu _) i x hx

/-- When update element j lands at ι j, inside the operand, and ι is injective, the result holds it there. -/
theorem scatter_set_at (d : ScatterDims s si u) (x : s.Idx → α) (idx : IVec si w) (upd : u.Idx → α)
    (ι : u.Idx → s.Idx) (hι : Function.Injective ι) (h : ∀ j, d.resultIdx? j idx = some (ι j)) (j : u.Idx) :
    Host.scatter d (fun _ b => b) x idx upd (ι j) = upd j := by
  rw [scatter_set_eq]
  have key := foldl_hit (fun n => d.resultIdx? (u.rowMajor.symm n) idx) (fun n => upd (u.rowMajor.symm n))
    (fun n => ι (u.rowMajor.symm n)) (List.finRange u.numel) (List.nodup_finRange _) (fun n _ => h _)
    (fun n _ m _ e => u.rowMajor.symm.injective (hι e)) x (u.rowMajor j) (List.mem_finRange _)
  simp only [Equiv.symm_apply_apply] at key
  exact key

/-- A start read off scatter indices that are all zero is zero on every axis. -/
theorem start_zero (d : ScatterDims s si u) (j : u.Idx) (idx : IVec si w) (h : ∀ k, (idx k).toInt = 0)
    (a : Fin s.rank) : d.start j idx a = 0 := by
  unfold ScatterDims.start
  split
  · exact h _
  · rfl

end Scatter

/-! ## The two pads

The dimension numbers of the two scatters in closed form (the printed ones carry their side conditions as a fact of
the program; the conditions are decided again here, so that the index arithmetic below is over closed terms). -/

/-- The weight scatter: both update axes are window axes, none inserted, the one index component is the start on axis 1. -/
def dW : ScatterDims S256x128 S1 S256x10 where
  updateWindowDims := [0, 1]
  insertedWindowDims := []
  scatterDimsToOperandDims := [1]
  indexVectorDim := 0

/-- The bias scatter: the update's axis is the window axis, the one index component the start on axis 0. -/
def dB : ScatterDims S128 S1 S10 where
  updateWindowDims := [0]
  insertedWindowDims := []
  scatterDimsToOperandDims := [0]
  indexVectorDim := 0

/-- Where weight element (k, j) lands: row k, column j of the 128. -/
def ιW (j : S256x10.Idx) : S256x128.Idx := ix2 (n0 := 256) (n1 := 128) (j 0) (Fin.castLE (by decide) (j 1 : Fin 10))

/-- Where bias element j lands: entry j of the 128. -/
def ιB (j : S10.Idx) : S128.Idx := ix1 (n := 128) (Fin.castLE (by decide) (j 0 : Fin 10))

theorem ιW_inj : Function.Injective ιW := fun j j' h => by
  have h0 : j 0 = j' 0 := congrFun h 0
  have h1 : (j 1).val = (j' 1).val := congrArg (fun i : S256x128.Idx => (i 1).val) h
  rw [eq_ix2 j, eq_ix2 j', h0, Fin.ext h1]

theorem ιB_inj : Function.Injective ιB := fun j j' h => by
  have h0 : (j 0).val = (j' 0).val := congrArg (fun i : S128.Idx => (i 0).val) h
  rw [eq_ix1 j, eq_ix1 j', Fin.ext h0]

/-- The weight's window coordinate on each operand axis is the update's coordinate on that axis. -/
theorem windowW (j : S256x10.Idx) : ∀ a, dW.window j a = (ιW j a).val := by
  have h0 : dW.window j 0 = (ιW j 0).val := by
    unfold ScatterDims.window
    rw [dif_pos (by decide)]
    rfl
  have h1 : dW.window j 1 = (ιW j 1).val := by
    unfold ScatterDims.window
    rw [dif_pos (by decide)]
    rfl
  intro a
  match a with
  | ⟨0, _⟩ => exact h0
  | ⟨1, _⟩ => exact h1

theorem windowB (j : S10.Idx) : ∀ a, dB.window j a = (ιB j a).val := by
  have h0 : dB.window j 0 = (ιB j 0).val := by
    unfold ScatterDims.window
    rw [dif_pos (by decide)]
    rfl
  intro a
  match a with
  | ⟨0, _⟩ => exact h0

/-- With every scatter index zero, weight element j lands at ιW j, inside the operand. -/
theorem resW (j : S256x10.Idx) (idx : IVec S1 32) (h : ∀ k, (idx k).toInt = 0) : dW.resultIdx? j idx = some (ιW j) := by
  have hs := start_zero dW j idx h
  have hw := windowW j
  have hin : ∀ a, 0 ≤ dW.start j idx a + dW.window j a ∧ dW.start j idx a + dW.window j a < S256x128.size a := fun a => by
    rw [hs a, hw a]; have := (ιW j a).isLt; omega
  unfold ScatterDims.resultIdx?
  rw [dif_pos hin]
  congr 1
  funext a
  apply Fin.ext
  show (dW.start j idx a + dW.window j a).toNat = (ιW j a).val
  rw [hs a, hw a]; omega

theorem resB (j : S10.Idx) (idx : IVec S1 32) (h : ∀ k, (idx k).toInt = 0) : dB.resultIdx? j idx = some (ιB j) := by
  have hs := start_zero dB j idx h
  have hw := windowB j
  have hin : ∀ a, 0 ≤ dB.start j idx a + dB.window j a ∧ dB.start j idx a + dB.window j a < S128.size a := fun a => by
    rw [hs a, hw a]; have := (ιB j a).isLt; omega
  unfold ScatterDims.resultIdx?
  rw [dif_pos hin]
  congr 1
  funext a
  apply Fin.ext
  show (dB.start j idx a + dB.window j a).toNat = (ιB j a).val
  rw [hs a, hw a]; omega

section Pads
variable [Facts₀]
open Facts₀

/-- The head weight written into the first 10 of 128 columns of zeros. -/
def whPad (wh : Arr 256 10) : Arr 256 128 :=
  Host.scatter scatter_S256x128_S1_S256x10_01_n_1_0 (fun _ b => b)
    (broadcastInDim S256x128 ![] bcast_S_S256x128 (constant (F := Ideal) S_ .f32 0x00000000#32))
    (broadcastInDim S1 ![] bcast_S_S1 (constantI S_ 32 0#32)) wh

/-- The head bias written into the first 10 of 128 zeros. -/
def bhPad (bh : Arr1 10) : Arr1 128 :=
  Host.scatter scatter_S128_S1_S10_0_n_0_0 (fun _ b => b)
    (broadcastInDim S128 ![] bcast_S_S128 (constant (F := Ideal) S_ .f32 0x00000000#32))
    (broadcastInDim S1 ![] bcast_S_S1 (constantI S_ 32 0#32)) bh

/-- On the first 10 columns the padded weight is the weight. -/
theorem whPad_kept (wh : Arr 256 10) (k : Fin 256) (j : Fin 10) :
    whPad wh (ix2 k (Fin.castLE (by decide) j)) = wh (ix2 k j) := by
  have hd : scatter_S256x128_S1_S256x10_01_n_1_0 = dW := rfl
  unfold whPad
  rw [hd]
  exact scatter_set_at dW _ _ wh ιW ιW_inj (fun j' => resW j' _ fun _ => rfl) (ix2 k j)

/-- A real weight pads to a real array: every entry is a zero or an entry of the weight. -/
theorem whPad_re (wh : Arr 256 10) (h : ReA wh) : ReA (whPad wh) := fun i => by
  unfold whPad
  refine scatter_set_pred _ _ _ wh Re i ?_ (fun j => h j)
  show Re (Ideal.ofBits .f32 0x00000000#32)
  rw [Ideal.ofBits_zero_f32]; exact Re.zero

/-- On the first 10 entries the padded bias is the bias. -/
theorem bhPad_kept (bh : Arr1 10) (j : Fin 10) : bhPad bh (ix1 (Fin.castLE (by decide) j)) = bh (ix1 j) := by
  have hd : scatter_S128_S1_S10_0_n_0_0 = dB := rfl
  unfold bhPad
  rw [hd]
  exact scatter_set_at dB _ _ bh ιB ιB_inj (fun j' => resB j' _ fun _ => rfl) (ix1 j)

/-- A real bias pads to a real array. -/
theorem bhPad_re (bh : Arr1 10) (h : ReA bh) : ReA (bhPad bh) := fun i => by
  unfold bhPad
  refine scatter_set_pred _ _ _ bh Re i ?_ (fun j => h j)
  show Re (Ideal.ofBits .f32 0x00000000#32)
  rw [Ideal.ofBits_zero_f32]; exact Re.zero

end Pads

end Cert.KernelIdeal.Pad

end
-- ==== Proof.PreDecode.lean ====
/-
  What the precondition says, decoded. The claim's precondition is a printed predicate over the twenty-one argument
  arrays: for each of the twenty float arrays, "every entry's absolute value is below plus infinity", and for the
  edge index, "every entry of row 0 is at least -20000 and below 20000", all conjoined, and the claim states that the
  conjunction is 1.

  A conjunction of bits is 1 exactly when each is; an "all" over an array (a fold of the array's bits by "and", from 1)
  is 1 only if every bit is 1; on the extended reals |x| = max x (-x) is below the top element exactly when x is
  neither infinity, that is, x is a real number; and a signed comparison of 32-bit words is the comparison of the
  integers they denote, the word 4294947296 denoting -20000. So every float argument is an array of real numbers, and
  every source index, read signed, lies in [-20000, 20000).
-/
import proofs.«414264_j73976516706834_2_alg».proof.Defs
import proofs.«414264_j73976516706834_2_alg».proof.Proof.Gen.Pre_finite_inputs
import proofs.«414264_j73976516706834_2_alg».proof.Proof.Inputs
import Idealize.ShloMosaic.Lib.ReduceAll
import Idealize.ShloMosaic.Lib.Affine
import Idealize.ShloMosaic.Lib.ValueIdx
import Idealize.ShloMosaic.Lib.Pipeline.Value

noncomputable section

namespace Cert.KernelIdeal.PreDecode

open Idealize.ShloMosaic Idealize.ShloMosaic.ValueIdx Idealize.SL.Sem Gnn
open Cert.Pre_finite_inputs

/-- A rank-0 shape has one index. -/
instance : Subsingleton S_.Idx := ⟨fun a b => funext fun d => d.elim0⟩

/-! ## One float entry -/

/-- The pattern of plus infinity denotes the top element. -/
theorem top_f32 : FloatOps.ofBits (F := Ideal) .f32 0x7F800000#32 = (⊤ : EReal) := by
  show Ideal.ofBits .f32 0x7F800000#32 = ⊤
  simp [Ideal.ofBits, Ideal.ieee]

/-- An extended real whose absolute value is below the top element is a real number. -/
theorem re_of_abs_lt_top (x : EReal)
    (h : FloatOps.cmpf (F := Ideal) (φ := .f32) .olt (FloatOps.hostAbsf (F := Ideal) (φ := .f32) x) (⊤ : EReal) = 1#1) : Re x := by
  have h' : Ideal.cmp .olt (max x (-x)) ⊤ = 1#1 := h
  unfold Ideal.cmp at h'
  induction x using EReal.rec with
  | bot => simp at h'
  | coe r => exact ⟨r, rfl⟩
  | top => simp at h'

/-- "Every entry's absolute value is below plus infinity", over an array of any shape: every entry is a real number.
    The bound is any array that is the top element everywhere (a broadcast constant; for a rank-0 array the constant). -/
theorem reA_of_all {s u : Shape} {axes : List (Fin s.rank)} (x y : FVec Ideal s .f32) (hy : ∀ i, y i = (⊤ : EReal))
    (hr : s.ReducesTo axes S_) (hu : 0 < u.numel) (init : u.Idx → BitVec 1)
    (e : Host.reduce IntOp.andi (cmpf .olt (Host.absf x) y) init hr hu ix0 = 1#1) : ReA (s := s) x := fun i => by
  have h := Host.reduce_andi_all _ init hr hu ix0 e i
  refine re_of_abs_lt_top (x i) ?_
  rw [← hy i]
  exact h

/-! ## One source index -/

/-- A word at least the word of -20000 and below the word of 20000, both signed, denotes an integer in [-20000, 20000). -/
theorem range_of_cmp (w : BitVec 32)
    (h : IntOp.andi (IntOp.cmpi .sge w 4294947296#32) (IntOp.cmpi .slt w 20000#32) = 1#1) :
    -20000 ≤ w.toInt ∧ w.toInt < 20000 := by
  obtain ⟨h1, h2⟩ := IntOp.andi_eq_one.1 h
  have a := IntOp.cmpi_sge.1 h1
  have b := IntOp.cmpi_slt.1 h2
  have ea : (4294947296#32 : BitVec 32).toInt = -20000 := by decide
  have eb : (20000#32 : BitVec 32).toInt = 20000 := by decide
  rw [ea] at a
  rw [eb] at b
  exact ⟨a, b⟩

/-- Row 0 of a [2, n] array, sliced out as a [1, n] array and reshaped to rank 1, read at e: the array at (0, e). -/
theorem row0_apply {n : ℕ} (v : IVec (⟨2, ![2, n]⟩ : Shape) 32)
    (hs : (⟨2, ![2, n]⟩ : Shape).Slices ![0, 0] (⟨2, ![1, n]⟩ : Shape))
    (hc : (⟨2, ![1, n]⟩ : Shape).ShapeCasts (⟨1, ![n]⟩ : Shape)) (e : Fin n) :
    shapeCast (⟨1, ![n]⟩ : Shape) (extractStridedSlice (⟨2, ![1, n]⟩ : Shape) ![0, 0] v hs) hc (ix1 e) = v (ix2 0 e) := by
  refine (shapeCast_apply _ hc (ix1 e) (ix2 0 e) ?_).trans (extractStridedSlice_apply ![0, 0] v hs (ix2 0 e) (ix2 0 e) ?_)
  · rw [Shape.rowMajor_val_two, Shape.rowMajor_val_one]
    show 0 * n + e.val = e.val
    omega
  · intro a
    match a with
    | ⟨0, _⟩ => rfl
    | ⟨1, _⟩ => exact (Nat.zero_add _).symm

/-- "Every entry of row 0 is at least -20000 and below 20000", decoded. -/
theorem srcRange_of_all {u : Shape} (v : IVec S2x320000 32) (hs : S2x320000.Slices ![0, 0] S1x320000)
    (hc : S1x320000.ShapeCasts S320000) (hb : S_.BroadcastsInDim S320000 (![] : Fin 0 → Fin S320000.rank))
    (hr : S320000.ReducesTo [0] S_) (hu : 0 < u.numel) (init : u.Idx → BitVec 1)
    (e : Host.reduce IntOp.andi
        (andi (cmpi .sge (shapeCast S320000 (extractStridedSlice S1x320000 ![0, 0] v hs) hc)
                (broadcastInDim S320000 ![] hb (constantI S_ 32 4294947296#32)))
              (cmpi .slt (shapeCast S320000 (extractStridedSlice S1x320000 ![0, 0] v hs) hc)
                (broadcastInDim S320000 ![] hb (constantI S_ 32 20000#32))))
        init hr hu ix0 = 1#1) : SrcRange v := fun k => by
  have h := Host.reduce_andi_all _ init hr hu ix0 e (ix1 k)
  have h' : IntOp.andi
      (IntOp.cmpi .sge (shapeCast S320000 (extractStridedSlice S1x320000 ![0, 0] v hs) hc (ix1 k)) 4294947296#32)
      (IntOp.cmpi .slt (shapeCast S320000 (extractStridedSlice S1x320000 ![0, 0] v hs) hc (ix1 k)) 20000#32) = 1#1 := h
  rw [row0_apply (n := 320000) v hs hc k] at h'
  exact range_of_cmp _ h'

/-! ## The printed predicate -/

variable [hPre_finite_inputs : Cert.Pre_finite_inputs.Facts]

/-- The printed predicate, all ones on twenty-one arrays: the twenty float arrays are real, the source indices in range. -/
theorem decode_fn (a0 : FVec Ideal S20000x64 .f32) (a1 : FVec Ideal S320000x16 .f32) (a2 : IVec S2x320000 32)
    (a3 : FVec Ideal S64x256 .f32) (a4 : FVec Ideal S256 .f32) (a5 : FVec Ideal S16x256 .f32) (a6 : FVec Ideal S256 .f32)
    (a7 : FVec Ideal S256x256 .f32) (a8 : FVec Ideal S256 .f32) (a9 : FVec Ideal S_ .f32) (a10 : FVec Ideal S256x256 .f32)
    (a11 : FVec Ideal S256 .f32) (a12 : FVec Ideal S256x256 .f32) (a13 : FVec Ideal S256 .f32) (a14 : FVec Ideal S4 .f32)
    (a15 : FVec Ideal S4x256x256 .f32) (a16 : FVec Ideal S4x256 .f32) (a17 : FVec Ideal S4x256x256 .f32)
    (a18 : FVec Ideal S4x256 .f32) (a19 : FVec Ideal S256x10 .f32) (a20 : FVec Ideal S10 .f32)
    (h : Cert.Pre_finite_inputs.fn (F := Ideal) a0 a1 a2 a3 a4 a5 a6 a7 a8 a9 a10 a11 a12 a13 a14 a15 a16 a17 a18 a19 a20
      = fun _ => 1#1) :
    ReA (s := S20000x64) a0 ∧ ReA (s := S320000x16) a1 ∧ ReA (s := S64x256) a3 ∧ ReA (s := S256) a4 ∧ ReA (s := S16x256) a5
    ∧ ReA (s := S256) a6 ∧ ReA (s := S256x256) a7 ∧ ReA (s := S256) a8 ∧ ReA (s := S_) a9 ∧ ReA (s := S256x256) a10
    ∧ ReA (s := S256) a11 ∧ ReA (s := S256x256) a12 ∧ ReA (s := S256) a13 ∧ ReA (s := S4) a14 ∧ ReA (s := S4x256x256) a15
    ∧ ReA (s := S4x256) a16 ∧ ReA (s := S4x256x256) a17 ∧ ReA (s := S4x256) a18 ∧ ReA (s := S256x10) a19 ∧ ReA (s := S10) a20
    ∧ SrcRange a2 := by
  have e := congrFun h ix0
  dsimp only [fn, fn_part1, fn_part2, fn_part3, fn_part4, fn_part5, fn_part6] at e
  obtain ⟨e, h2⟩ := IntOp.andi_eq_one.1 e
  obtain ⟨e, h20⟩ := IntOp.andi_eq_one.1 e
  obtain ⟨e, h19⟩ := IntOp.andi_eq_one.1 e
  obtain ⟨e, h18⟩ := IntOp.andi_eq_one.1 e
  obtain ⟨e, h17⟩ := IntOp.andi_eq_one.1 e
  obtain ⟨e, h16⟩ := IntOp.andi_eq_one.1 e
  obtain ⟨e, h15⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h1⟩ := IntOp.andi_eq_one.1 e
  exact ⟨reA_of_all a0 _ (fun _ => top_f32) _ _ _ h0, reA_of_all a1 _ (fun _ => top_f32) _ _ _ h1,
    reA_of_all a3 _ (fun _ => top_f32) _ _ _ h3, reA_of_all a4 _ (fun _ => top_f32) _ _ _ h4,
    reA_of_all a5 _ (fun _ => top_f32) _ _ _ h5, reA_of_all a6 _ (fun _ => top_f32) _ _ _ h6,
    reA_of_all a7 _ (fun _ => top_f32) _ _ _ h7, reA_of_all a8 _ (fun _ => top_f32) _ _ _ h8,
    reA_of_all a9 _ (fun _ => top_f32) _ _ _ h9, reA_of_all a10 _ (fun _ => top_f32) _ _ _ h10,
    reA_of_all a11 _ (fun _ => top_f32) _ _ _ h11, reA_of_all a12 _ (fun _ => top_f32) _ _ _ h12,
    reA_of_all a13 _ (fun _ => top_f32) _ _ _ h13, reA_of_all a14 _ (fun _ => top_f32) _ _ _ h14,
    reA_of_all a15 _ (fun _ => top_f32) _ _ _ h15, reA_of_all a16 _ (fun _ => top_f32) _ _ _ h16,
    reA_of_all a17 _ (fun _ => top_f32) _ _ _ h17, reA_of_all a18 _ (fun _ => top_f32) _ _ _ h18,
    reA_of_all a19 _ (fun _ => top_f32) _ _ _ h19, reA_of_all a20 _ (fun _ => top_f32) _ _ _ h20,
    srcRange_of_all a2 _ _ _ _ _ _ h2⟩

/-- The precondition of the kernel program on a launch memory, decoded on each device: every float argument array holds
    real numbers only, and the edge index's source row is in range. -/
theorem decode (m : (ℓ : Loc Cert.KernelIdeal.nD Cert.KernelIdeal.τ Cert.KernelIdeal.sig) → Buf (Elt Ideal) ℓ)
    (h : Cert.Pre_KernelIdeal m) (c : Dev Cert.KernelIdeal.nD) :
    ReA (m ((c.tc : Thread Cert.KernelIdeal.nD Cert.KernelIdeal.τ).loc Cert.KernelIdeal.main_arg0) : Arr 20000 64)
    ∧ ReA (m ((c.tc : Thread Cert.KernelIdeal.nD Cert.KernelIdeal.τ).loc Cert.KernelIdeal.main_arg1) : Arr 320000 16)
    ∧ ReA (m ((c.tc : Thread Cert.KernelIdeal.nD Cert.KernelIdeal.τ).loc Cert.KernelIdeal.main_arg3) : Arr 64 256)
    ∧ ReA (m ((c.tc : Thread Cert.KernelIdeal.nD Cert.KernelIdeal.τ).loc Cert.KernelIdeal.main_arg4) : Arr1 256)
    ∧ ReA (m ((c.tc : Thread Cert.KernelIdeal.nD Cert.KernelIdeal.τ).loc Cert.KernelIdeal.main_arg5) : Arr 16 256)
    ∧ ReA (m ((c.tc : Thread Cert.KernelIdeal.nD Cert.KernelIdeal.τ).loc Cert.KernelIdeal.main_arg6) : Arr1 256)
    ∧ ReA (m ((c.tc : Thread Cert.KernelIdeal.nD Cert.KernelIdeal.τ).loc Cert.KernelIdeal.main_arg7) : Arr 256 256)
    ∧ ReA (m ((c.tc : Thread Cert.KernelIdeal.nD Cert.KernelIdeal.τ).loc Cert.KernelIdeal.main_arg8) : Arr1 256)
    ∧ ReA (m ((c.tc : Thread Cert.KernelIdeal.nD Cert.KernelIdeal.τ).loc Cert.KernelIdeal.main_arg9) : Arr0)
    ∧ ReA (m ((c.tc : Thread Cert.KernelIdeal.nD Cert.KernelIdeal.τ).loc Cert.KernelIdeal.main_arg10) : Arr 256 256)
    ∧ ReA (m ((c.tc : Thread Cert.KernelIdeal.nD Cert.KernelIdeal.τ).loc Cert.KernelIdeal.main_arg11) : Arr1 256)
    ∧ ReA (m ((c.tc : Thread Cert.KernelIdeal.nD Cert.KernelIdeal.τ).loc Cert.KernelIdeal.main_arg12) : Arr 256 256)
    ∧ ReA (m ((c.tc : Thread Cert.KernelIdeal.nD Cert.KernelIdeal.τ).loc Cert.KernelIdeal.main_arg13) : Arr1 256)
    ∧ ReA (m ((c.tc : Thread Cert.KernelIdeal.nD Cert.KernelIdeal.τ).loc Cert.KernelIdeal.main_arg14) : Arr1 4)
    ∧ ReA (m ((c.tc : Thread Cert.KernelIdeal.nD Cert.KernelIdeal.τ).loc Cert.KernelIdeal.main_arg15) : Arr3 4 256 256)
    ∧ ReA (m ((c.tc : Thread Cert.KernelIdeal.nD Cert.KernelIdeal.τ).loc Cert.KernelIdeal.main_arg16) : Arr 4 256)
    ∧ ReA (m ((c.tc : Thread Cert.KernelIdeal.nD Cert.KernelIdeal.τ).loc Cert.KernelIdeal.main_arg17) : Arr3 4 256 256)
    ∧ ReA (m ((c.tc : Thread Cert.KernelIdeal.nD Cert.KernelIdeal.τ).loc Cert.KernelIdeal.main_arg18) : Arr 4 256)
    ∧ ReA (m ((c.tc : Thread Cert.KernelIdeal.nD Cert.KernelIdeal.τ).loc Cert.KernelIdeal.main_arg19) : Arr 256 10)
    ∧ ReA (m ((c.tc : Thread Cert.KernelIdeal.nD Cert.KernelIdeal.τ).loc Cert.KernelIdeal.main_arg20) : Arr1 10)
    ∧ SrcRange (m ((c.tc : Thread Cert.KernelIdeal.nD Cert.KernelIdeal.τ).loc Cert.KernelIdeal.main_arg2)) :=
  decode_fn _ _ _ _ _ _ _ _ _ _ _ _ _ _ _ _ _ _ _ _ _ (h c)

end Cert.KernelIdeal.PreDecode

end
-- ==== Proof.Reg0.lean ====
/-
  The node encoder's region: what its output array holds after the run.

  The region walks the 20000 node rows in 10 blocks of 2000. At each block the body takes the block of node
  features through two layers, one after the other: each multiplies its input by the whole weight in three passes
  and adds the bias row, and the second layer's result is cut off below at zero. The block's row `p` is the array's
  row `2000 · t + p`, and an entry of the two layers depends on that one row only. So the array ends holding the
  encoding of the whole feature array, entry by entry.
-/
import proofs.«414264_j73976516706834_2_alg».proof.Proof.Gen.KernelIdeal.Frame
import proofs.«414264_j73976516706834_2_alg».proof.Proof.Mats

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Gnn

/-! ## The body's two products at an entry -/

-- the first layer's product: a block of 2000 rows of 64 features against the 64 × 256 weight
theorem a_l0 (i : S2000x256.Idx) (q : dot_S2000x64_S64x256_S2000x256_1_0_0_1_n_n.contr.Idx) : (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem a_l1 (i : S2000x256.Idx) (q : dot_S2000x64_S64x256_S2000x256_1_0_0_1_n_n.contr.Idx) : (dot_S2000x64_S64x256_S2000x256_1_0_0_1_n_n.lhsIdx i q 1).val = (q ⟨0, by decide⟩).val :=
  dot_S2000x64_S64x256_S2000x256_1_0_0_1_n_n.lhsIdx_val_of_single rfl i q
theorem a_r0 (i : S2000x256.Idx) (q : dot_S2000x64_S64x256_S2000x256_1_0_0_1_n_n.contr.Idx) : (dot_S2000x64_S64x256_S2000x256_1_0_0_1_n_n.rhsIdx i q 0).val = (q ⟨0, by decide⟩).val :=
  dot_S2000x64_S64x256_S2000x256_1_0_0_1_n_n.rhsIdx_val_of_single rfl i q
theorem a_r1 (i : S2000x256.Idx) (q : dot_S2000x64_S64x256_S2000x256_1_0_0_1_n_n.contr.Idx) : (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

-- the second layer's product: the first layer's 2000 × 256 block against the 256 × 256 weight
theorem b_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem b_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem b_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem b_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The first layer's product into the zero accumulator, at entry (p, q): the sum over the 64 feature columns. -/
theorem mmA_at (a : FVec Ideal S2000x64 .bf16) (b : FVec Ideal S64x256 .bf16) (p : Fin 2000) (q : Fin 256) :
    matmul (F := Ideal) dot_S2000x64_S64x256_S2000x256_1_0_0_1_n_n none a b (constant S2000x256 .f32 0x00000000#32) (ix2 p q) = ∑ k : Fin 64, a (ix2 p k) * b (ix2 k q) :=
  (Ideal.matmul_constant_zero_apply dot_S2000x64_S64x256_S2000x256_1_0_0_1_n_n none a b (ix2 p q)).trans
    (dot_sum dot_S2000x64_S64x256_S2000x256_1_0_0_1_n_n rfl rfl a_l0 a_l1 a_r0 a_r1 a b p q)

/-- The second layer's product into the zero accumulator, at entry (p, q): the sum over the 256 hidden columns. -/
theorem mmB_at (a : FVec Ideal S2000x256 .bf16) (b : FVec Ideal S256x256 .bf16) (p : Fin 2000) (q : Fin 256) :
    matmul (F := Ideal) dot_S2000x256_S256x256_S2000x256_1_0_0_1_n_n none a b (constant S2000x256 .f32 0x00000000#32) (ix2 p q) = ∑ k : Fin 256, a (ix2 p k) * b (ix2 k q) :=
  (Ideal.matmul_constant_zero_apply dot_S2000x256_S256x256_S2000x256_1_0_0_1_n_n none a b (ix2 p q)).trans
    (dot_sum dot_S2000x256_S256x256_S2000x256_1_0_0_1_n_n rfl rfl b_l0 b_l1 b_r0 b_r1 a b p q)

/-- A bias row, spread over the block's rows, at entry (p, q). -/
theorem bias_at (x2 : Arr 1 256) (p : Fin 2000) (q : Fin 256) :
    broadcastTo S2000x256 (shapeCast S1x256 x2 shapeCasts_S1x256_S1x256) broadcasts_S1x256_S2000x256 (ix2 p q) = x2 (ix2 0 q) := by
  rw [shapeCast_self]
  exact broadcastTo_apply x2 broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- The zero scalar, spread over the block, at any entry. -/
theorem zero_at (i : S2000x256.Idx) :
    broadcast S2000x256 (Scalar.ofBits (F := Ideal) .f32 0x00000000#32) i = 0 :=
  Ideal.ofBits_zero_f32

/-! ## The body's two layers -/

/-- The first layer as the body writes it: three products into zero, added, plus the bias row. -/
def lay1 (x0 : Arr 2000 64) (x1 : Arr 64 256) (x2 : Arr 1 256) : FVec Ideal S2000x256 .f32 :=
  addf (addf (addf
      (matmul dot_S2000x64_S64x256_S2000x256_1_0_0_1_n_n none (truncf .bf16 x0 bitsLt_bf16_f32) (truncf .bf16 x1 bitsLt_bf16_f32) (constant S2000x256 .f32 0x00000000#32))
      (matmul dot_S2000x64_S64x256_S2000x256_1_0_0_1_n_n none (truncf .bf16 x0 bitsLt_bf16_f32) (truncf .bf16 (subf x1 x1) bitsLt_bf16_f32) (constant S2000x256 .f32 0x00000000#32)))
      (matmul dot_S2000x64_S64x256_S2000x256_1_0_0_1_n_n none (truncf .bf16 (subf x0 x0) bitsLt_bf16_f32) (truncf .bf16 x1 bitsLt_bf16_f32) (constant S2000x256 .f32 0x00000000#32)))
    (broadcastTo S2000x256 (shapeCast S1x256 x2 shapeCasts_S1x256_S1x256) broadcasts_S1x256_S2000x256)

/-- The second layer as the body writes it, over any 2000 × 256 input: three products into zero, added, plus the
    bias row, and the maximum with the zero block. -/
def lay2 (h : FVec Ideal S2000x256 .f32) (x3 : Arr 256 256) (x4 : Arr 1 256) : FVec Ideal S2000x256 .f32 :=
  maximumf (addf (addf (addf
      (matmul dot_S2000x256_S256x256_S2000x256_1_0_0_1_n_n none (truncf .bf16 h bitsLt_bf16_f32) (truncf .bf16 x3 bitsLt_bf16_f32) (constant S2000x256 .f32 0x00000000#32))
      (matmul dot_S2000x256_S256x256_S2000x256_1_0_0_1_n_n none (truncf .bf16 h bitsLt_bf16_f32) (truncf .bf16 (subf x3 x3) bitsLt_bf16_f32) (constant S2000x256 .f32 0x00000000#32)))
      (matmul dot_S2000x256_S256x256_S2000x256_1_0_0_1_n_n none (truncf .bf16 (subf h h) bitsLt_bf16_f32) (truncf .bf16 x3 bitsLt_bf16_f32) (constant S2000x256 .f32 0x00000000#32)))
    (broadcastTo S2000x256 (shapeCast S1x256 x4 shapeCasts_S1x256_S1x256) broadcasts_S1x256_S2000x256))
    (broadcast S2000x256 (Scalar.ofBits .f32 0x00000000#32))

/-- The body's stored value is the second layer of the first. -/
theorem pay_split (x0 : Arr 2000 64) (x1 : Arr 64 256) (x2 : Arr 1 256) (x3 : Arr 256 256) (x4 : Arr 1 256) :
    k0_pay1 (F := Ideal) x0 x1 x2 x3 x4 = lay2 (lay1 x0 x1 x2) x3 x4 := rfl

/-- The first layer at entry (p, k): the three-pass layer of the block's row `p`. -/
theorem lay1_at (x0 : Arr 2000 64) (x1 : Arr 64 256) (x2 : Arr 1 256) (p : Fin 2000) (k : Fin 256) :
    lay1 x0 x1 x2 (ix2 p k) = linK (toM x0) (toM x1) (toRow1 x2) p k := by
  unfold lay1
  rw [addf_apply, addf_apply, addf_apply, mmA_at, mmA_at, mmA_at, bias_at]
  rfl

/-- The second layer at entry (p, q): the positive part of the three-pass layer of its input's row `p`. -/
theorem lay2_at (h : FVec Ideal S2000x256 .f32) (x3 : Arr 256 256) (x4 : Arr 1 256) (p : Fin 2000) (q : Fin 256) :
    lay2 h x3 x4 (ix2 p q) = relu (linK (toM h) (toM x3) (toRow1 x4)) p q := by
  unfold lay2
  rw [maximumf_apply, zero_at, addf_apply, addf_apply, addf_apply, mmB_at, mmB_at, mmB_at, bias_at]
  rfl

/-- The body's stored value at entry (p, q) of the block: the encoding of the block's row `p`. -/
theorem pay_at (x0 : Arr 2000 64) (x1 : Arr 64 256) (x2 : Arr 1 256) (x3 : Arr 256 256) (x4 : Arr 1 256) (p : Fin 2000) (q : Fin 256) :
    k0_pay1 (F := Ideal) x0 x1 x2 x3 x4 (ix2 p q) = encK (toM x0) (toM x1) (toRow1 x2) (toM x3) (toRow1 x4) p q := by
  rw [pay_split]
  refine (lay2_at (lay1 x0 x1 x2) x3 x4 p q).trans ?_
  have h1 : toM (lay1 x0 x1 x2) = linK (toM x0) (toM x1) (toRow1 x2) := by
    funext p' k
    exact lay1_at x0 x1 x2 p' k
  rw [h1]
  rfl

/-! ## From blocks to the array -/

variable (V : (c : Dev nD) → (b : Ref sig .tc) → Buf (Elt Ideal) ((c : Thread nD τ).loc b))

/-- What the output array ends holding: the kernel's encoding of the whole feature array. -/
def G (c : Dev nD) : Arr 20000 256 := ofM (encK (toM (V c main_arg0 : Arr 20000 64)) (toM (V c main_arg3 : Arr 64 256)) (toRow1 (V c main_v4 : Arr 1 256)) (toM (V c main_arg7 : Arr 256 256)) (toRow1 (V c main_v5 : Arr 1 256)))

theorem hz : (![0, 0] : Fin 2 → Nat) = fun _ => 0 := funext fun a => by fin_cases a <;> rfl

/-- The index maps over the grid: the feature and output blocks move down the rows with the point, the two weights
    and the two bias rows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S2000x64) hz, View.ld_unit_zero (S := S64x256) hz, View.ld_unit_zero (S := S1x256) hz, View.ld_unit_zero (S := S256x256) hz]
  obtain ⟨e0, e1, e2, e3, e4, e5, e6, e7, e8, e9, e10, e11⟩ := idx_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  refine (pay_at (iblk0 V c 0 t) (iblk0 V c 1 t) (iblk0 V c 2 t) (iblk0 V c 3 t) (iblk0 V c 4 t) p q).trans ?_
  -- the weights' and the bias rows' blocks are the whole arrays
  have hw1 : toM (iblk0 V c 1 t) = toM (V c main_arg3 : Arr 64 256) := by
    funext k q'
    show V c main_arg3 (((cfg0.win 1).blk t).view.emb (ix2 k q')) = V c main_arg3 (ix2 k q')
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 256 + 1 * q'.val = q'.val; omega
  have hb1 : toRow1 (iblk0 V c 2 t) = toRow1 (V c main_v4 : Arr 1 256) := by
    funext q'
    show V c main_v4 (((cfg0.win 2).blk t).view.emb (ix2 0 q')) = V c main_v4 (ix2 0 q')
    refine congrArg (V c main_v4) (funext fun a => Fin.ext ?_)
    match a with
    | ⟨0, _⟩ => show win0_2.index t (0 : Fin 2) * 1 + 1 * 0 = 0; omega
    | ⟨1, _⟩ => show win0_2.index t (1 : Fin 2) * 256 + 1 * q'.val = q'.val; omega
  have hw2 : toM (iblk0 V c 3 t) = toM (V c main_arg7 : Arr 256 256) := by
    funext k q'
    show V c main_arg7 (((cfg0.win 3).blk t).view.emb (ix2 k q')) = V c main_arg7 (ix2 k q')
    refine congrArg (V c main_arg7) (funext fun a => Fin.ext ?_)
    match a with
    | ⟨0, _⟩ => show win0_3.index t (0 : Fin 2) * 256 + 1 * k.val = k.val; omega
    | ⟨1, _⟩ => show win0_3.index t (1 : Fin 2) * 256 + 1 * q'.val = q'.val; omega
  have hb2 : toRow1 (iblk0 V c 4 t) = toRow1 (V c main_v5 : Arr 1 256) := by
    funext q'
    show V c main_v5 (((cfg0.win 4).blk t).view.emb (ix2 0 q')) = V c main_v5 (ix2 0 q')
    refine congrArg (V c main_v5) (funext fun a => Fin.ext ?_)
    match a with
    | ⟨0, _⟩ => show win0_4.index t (0 : Fin 2) * 1 + 1 * 0 = 0; omega
    | ⟨1, _⟩ => show win0_4.index t (1 : Fin 2) * 256 + 1 * q'.val = q'.val; omega
  rw [hw1, hb1, hw2, hb2]
  -- the block's row p is the array's row under the output block
  show encK (toM (iblk0 V c 0 t)) (toM (V c main_arg3 : Arr 64 256)) (toRow1 (V c main_v4 : Arr 1 256)) (toM (V c main_arg7 : Arr 256 256)) (toRow1 (V c main_v5 : Arr 1 256)) p q
    = encK (toM (V c main_arg0 : Arr 20000 64)) (toM (V c main_arg3 : Arr 64 256)) (toRow1 (V c main_v4 : Arr 1 256)) (toM (V c main_arg7 : Arr 256 256)) (toRow1 (V c main_v5 : Arr 1 256)) ((((cfg0.win 5).blk t).view.emb (ix2 p q)) 0) ((((cfg0.win 5).blk t).view.emb (ix2 p q)) 1)
  have hq : ((((cfg0.win 5).blk t).view.emb (ix2 p q)) 1 : Fin 256) = q := Fin.ext (by
    show win0_5.index t (1 : Fin 2) * 256 + 1 * q.val = q.val; omega)
  rw [hq]
  refine encK_row _ _ _ _ (fun k => ?_) q
  show V c main_arg0 (((cfg0.win 0).blk t).view.emb (ix2 p k)) = V c main_arg0 (ix2 ((((cfg0.win 5).blk t).view.emb (ix2 p q)) 0) k)
  refine congrArg (V c main_arg0) (funext fun a => Fin.ext ?_)
  match a with
  | ⟨0, _⟩ => show win0_0.index t (0 : Fin 2) * 2000 + 1 * p.val = win0_5.index t (0 : Fin 2) * 2000 + 1 * p.val; omega
  | ⟨1, _⟩ => show win0_0.index t (1 : Fin 2) * 64 + 1 * k.val = k.val; omega

theorem mem_blk (t : Fin cfg0.N) (i : S20000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v6).slice (win0_5.rect t)).set ↔ _
  rw [View.set_slice_whole, Rect.mem_set_unit]
  exact Iff.rfl

/-- Every row of the array lies in the block of the point `row / 2000`. -/
theorem cover (i : S20000x256.Idx) : ∃ t : Fin cfg0.N, (cfg0.win 5).flush t = true ∧ i ∈ ((cfg0.win 5).blk t).view.set := by
  have hi0 : (i 0).val < 20000 := (i 0).isLt
  have hi1 : (i 1).val < 256 := (i 1).isLt
  have hN : cfg0.N = 10 := N_0
  have ht : (i 0).val / 2000 < cfg0.N := by rw [hN]; omega
  refine ⟨⟨(i 0).val / 2000, ht⟩, flush0_5 _, ?_⟩
  rw [mem_blk]
  obtain ⟨-, -, -, -, -, -, -, -, -, -, e10, e11⟩ := idx_facts ⟨(i 0).val / 2000, ht⟩
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e10]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [e11]; omega

/-- The node encoding after the region: the kernel's two layers of the node features, whatever the entry contents. -/
theorem final (c : Dev nD) : (dat0 (F := Ideal) V c).arrAt 5 cfg0.N = G V c :=
  (dat0 (F := Ideal) V c).arrAt_eq_of_cover 5 (G V c) (fun t _ => flushed_eq V c t) (cover)

end Cert.KernelIdeal.Reg0

end
-- ==== Proof.Reg1.lean ====
/-
  The edge encoder's region: what its output array holds after the run.

  The region walks the 320000 edge rows in 40 blocks of 8000. At each block the body multiplies the block of edge
  attributes by the whole weight in three passes and adds the bias row; the block's row `p` is the array's row
  `8000 · t + p`, and an entry of the layer depends on that one row only. So the array ends holding the layer of the
  whole attribute array, entry by entry.
-/
import proofs.«414264_j73976516706834_2_alg».proof.Proof.Gen.KernelIdeal.Frame
import proofs.«414264_j73976516706834_2_alg».proof.Proof.Mats

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Gnn

/-! ## The body's product at an entry -/

theorem d_l0 (i : S8000x256.Idx) (q : dot_S8000x16_S16x256_S8000x256_1_0_0_1_n_n.contr.Idx) : (dot_S8000x16_S16x256_S8000x256_1_0_0_1_n_n.lhsIdx i q 0).val = (i 0).val := by
  unfold DotDims.lhsIdx
  rw [dif_neg (show ¬(0 : Fin S8000x16.rank) ∈ dot_S8000x16_S16x256_S8000x256_1_0_0_1_n_n.lhsBatch by decide), dif_pos (show (0 : Fin S8000x16.rank) ∈ dot_S8000x16_S16x256_S8000x256_1_0_0_1_n_n.lhsNonContracting by decide)]
  rfl
theorem d_l1 (i : S8000x256.Idx) (q : dot_S8000x16_S16x256_S8000x256_1_0_0_1_n_n.contr.Idx) : (dot_S8000x16_S16x256_S8000x256_1_0_0_1_n_n.lhsIdx i q 1).val = (q ⟨0, by decide⟩).val :=
  dot_S8000x16_S16x256_S8000x256_1_0_0_1_n_n.lhsIdx_val_of_single rfl i q
theorem d_r0 (i : S8000x256.Idx) (q : dot_S8000x16_S16x256_S8000x256_1_0_0_1_n_n.contr.Idx) : (dot_S8000x16_S16x256_S8000x256_1_0_0_1_n_n.rhsIdx i q 0).val = (q ⟨0, by decide⟩).val :=
  dot_S8000x16_S16x256_S8000x256_1_0_0_1_n_n.rhsIdx_val_of_single rfl i q
theorem d_r1 (i : S8000x256.Idx) (q : dot_S8000x16_S16x256_S8000x256_1_0_0_1_n_n.contr.Idx) : (dot_S8000x16_S16x256_S8000x256_1_0_0_1_n_n.rhsIdx i q 1).val = (i 1).val := by
  unfold DotDims.rhsIdx
  rw [dif_neg (show ¬(1 : Fin S16x256.rank) ∈ dot_S8000x16_S16x256_S8000x256_1_0_0_1_n_n.rhsBatch by decide), dif_pos (show (1 : Fin S16x256.rank) ∈ dot_S8000x16_S16x256_S8000x256_1_0_0_1_n_n.rhsNonContracting by decide)]
  rfl

/-- A product into the zero accumulator, at entry (p, q): the sum over the 16 attribute columns. -/
theorem mm_at (a : FVec Ideal S8000x16 .bf16) (b : FVec Ideal S16x256 .bf16) (p : Fin 8000) (q : Fin 256) :
    matmul (F := Ideal) dot_S8000x16_S16x256_S8000x256_1_0_0_1_n_n none a b (constant S8000x256 .f32 0x00000000#32) (ix2 p q) = ∑ k : Fin 16, a (ix2 p k) * b (ix2 k q) :=
  (Ideal.matmul_constant_zero_apply dot_S8000x16_S16x256_S8000x256_1_0_0_1_n_n none a b (ix2 p q)).trans
    (dot_sum dot_S8000x16_S16x256_S8000x256_1_0_0_1_n_n rfl rfl d_l0 d_l1 d_r0 d_r1 a b p q)

/-- The bias row, spread over the block's rows, at entry (p, q). -/
theorem bias_at (x2 : Arr 1 256) (p : Fin 8000) (q : Fin 256) :
    broadcastTo S8000x256 (shapeCast S1x256 x2 shapeCasts_S1x256_S1x256) broadcasts_S1x256_S8000x256 (ix2 p q) = x2 (ix2 0 q) := by
  rw [shapeCast_self]
  exact broadcastTo_apply x2 broadcasts_S1x256_S8000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- The body's stored value at entry (p, q) of the block: the three-pass layer of the block's row `p`. -/
theorem pay_at (x0 : Arr 8000 16) (x1 : Arr 16 256) (x2 : Arr 1 256) (p : Fin 8000) (q : Fin 256) :
    k1_pay1 (F := Ideal) x0 x1 x2 (ix2 p q) = linK (toM x0) (toM x1) (toRow1 x2) p q := by
  unfold k1_pay1
  rw [truncf_apply, addf_apply, addf_apply, addf_apply, mm_at, mm_at, mm_at, bias_at]
  rfl

/-! ## From blocks to the array -/

variable (V : (c : Dev nD) → (b : Ref sig .tc) → Buf (Elt Ideal) ((c : Thread nD τ).loc b))

/-- The edge attributes, the weight and the bias row as the region finds them. -/
abbrev ea (c : Dev nD) : Arr 320000 16 := V c main_arg1
abbrev wee (c : Dev nD) : Arr 16 256 := V c main_arg5
abbrev bee (c : Dev nD) : Arr 1 256 := V c main_v7

/-- What the output array ends holding: the kernel's layer of the whole attribute array. -/
def G (c : Dev nD) : Arr 320000 256 := ofM (linK (toM (ea V c)) (toM (wee V c)) (toRow1 (bee V c)))

theorem hz : (![0, 0] : Fin 2 → Nat) = fun _ => 0 := funext fun a => by fin_cases a <;> rfl

/-- The index maps over the grid: the attribute and output blocks move down the rows with the point, the weight
    and the bias stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero hz]
  simp only [View.ld_unit_zero (S := S8000x16) hz, View.ld_unit_zero (S := S16x256) hz, View.ld_unit_zero (S := S1x256) hz]
  obtain ⟨e0, e1, e2, e3, e4, e5, e6, e7⟩ := idx_facts t
  funext j
  obtain ⟨p, q, rfl⟩ : ∃ (p : Fin 8000) (q : Fin 256), j = ix2 p q := ⟨j 0, j 1, eq_ix2 j⟩
  show k1_pay1 (F := Ideal) (iblk1 V c 0 t) (iblk1 V c 1 t) (iblk1 V c 2 t) (ix2 p q)
    = G V c (((cfg1.win 3).blk t).view.emb (ix2 p q))
  refine (pay_at (iblk1 V c 0 t) (iblk1 V c 1 t) (iblk1 V c 2 t) p q).trans ?_
  -- the weight's and the bias's blocks are the whole arrays
  have hw : toM (iblk1 V c 1 t) = toM (wee V c) := by
    funext k q'
    show V c main_arg5 (((cfg1.win 1).blk t).view.emb (ix2 k q')) = V c main_arg5 (ix2 k q')
    refine congrArg (V c main_arg5) (funext fun a => Fin.ext ?_)
    match a with
    | ⟨0, _⟩ => show win1_1.index t (0 : Fin 2) * 16 + 1 * k.val = k.val; omega
    | ⟨1, _⟩ => show win1_1.index t (1 : Fin 2) * 256 + 1 * q'.val = q'.val; omega
  have hb : toRow1 (iblk1 V c 2 t) = toRow1 (bee V c) := by
    funext q'
    show V c main_v7 (((cfg1.win 2).blk t).view.emb (ix2 0 q')) = V c main_v7 (ix2 0 q')
    refine congrArg (V c main_v7) (funext fun a => Fin.ext ?_)
    match a with
    | ⟨0, _⟩ => show win1_2.index t (0 : Fin 2) * 1 + 1 * 0 = 0; omega
    | ⟨1, _⟩ => show win1_2.index t (1 : Fin 2) * 256 + 1 * q'.val = q'.val; omega
  rw [hw, hb]
  -- the block's row p is the array's row under the output block
  show linK (toM (iblk1 V c 0 t)) (toM (wee V c)) (toRow1 (bee V c)) p q
    = linK (toM (ea V c)) (toM (wee V c)) (toRow1 (bee V c)) ((((cfg1.win 3).blk t).view.emb (ix2 p q)) 0) ((((cfg1.win 3).blk t).view.emb (ix2 p q)) 1)
  have hq : ((((cfg1.win 3).blk t).view.emb (ix2 p q)) 1 : Fin 256) = q := Fin.ext (by
    show win1_3.index t (1 : Fin 2) * 256 + 1 * q.val = q.val; omega)
  rw [hq]
  refine linK_row _ _ (fun k => ?_) q
  show V c main_arg1 (((cfg1.win 0).blk t).view.emb (ix2 p k)) = V c main_arg1 (ix2 ((((cfg1.win 3).blk t).view.emb (ix2 p q)) 0) k)
  refine congrArg (V c main_arg1) (funext fun a => Fin.ext ?_)
  match a with
  | ⟨0, _⟩ => show win1_0.index t (0 : Fin 2) * 8000 + 1 * p.val = win1_3.index t (0 : Fin 2) * 8000 + 1 * p.val; omega
  | ⟨1, _⟩ => show win1_0.index t (1 : Fin 2) * 16 + 1 * k.val = k.val; omega

theorem mem_blk (t : Fin cfg1.N) (i : S320000x256.Idx) :
    i ∈ ((cfg1.win 3).blk t).view.set ↔ ∀ a : Fin 2, win1_3.index t a * S8000x256.size a ≤ (i a).val ∧ (i a).val < win1_3.index t a * S8000x256.size a + S8000x256.size a := by
  show i ∈ ((View.whole main_v8).slice (win1_3.rect t)).set ↔ _
  rw [View.set_slice_whole, Rect.mem_set_unit]
  exact Iff.rfl

/-- Every row of the array lies in the block of the point `row / 8000`. -/
theorem cover (i : S320000x256.Idx) : ∃ t : Fin cfg1.N, (cfg1.win 3).flush t = true ∧ i ∈ ((cfg1.win 3).blk t).view.set := by
  have hi0 : (i 0).val < 320000 := (i 0).isLt
  have hi1 : (i 1).val < 256 := (i 1).isLt
  have hN : cfg1.N = 40 := N_1
  have ht : (i 0).val / 8000 < cfg1.N := by rw [hN]; omega
  refine ⟨⟨(i 0).val / 8000, ht⟩, flush1_3 _, ?_⟩
  rw [mem_blk]
  obtain ⟨-, -, -, -, -, -, e6, e7⟩ := idx_facts ⟨(i 0).val / 8000, ht⟩
  intro a
  match a with
  | ⟨0, _⟩ =>
    show win1_3.index ⟨(i 0).val / 8000, ht⟩ (0 : Fin 2) * 8000 ≤ (i 0).val ∧ (i 0).val < win1_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win1_3.index ⟨(i 0).val / 8000, ht⟩ (1 : Fin 2) * 256 ≤ (i 1).val ∧ (i 1).val < win1_3.index ⟨(i 0).val / 8000, ht⟩ (1 : Fin 2) * 256 + 256
    rw [e7]; omega

/-- The edge encoding after the region: the kernel's layer of the edge attributes, whatever the entry contents. -/
theorem final (c : Dev nD) : (dat1 (F := Ideal) V c).arrAt 3 cfg1.N = G V c :=
  (dat1 (F := Ideal) V c).arrAt_eq_of_cover 3 (G V c) (fun t _ => flushed_eq V c t) (cover)

end Cert.KernelIdeal.Reg1

end
-- ==== Proof.Reg2.lean ====
/-
  The first graph layer's region: what its output array holds after the run.

  The region walks the 20000 node rows in 10 blocks of 2000. At each block the body forms `(1 + eps) · h + agg` from the
  blocks of node features and aggregates, multiplies it by the first weight in three passes, adds the first bias row and
  takes the positive part; that block is multiplied by the second weight in three passes again and the second bias row
  is added. The block's row `p` is the array's row `2000 · t + p`, and an entry of the update depends on that one row
  only. So the array ends holding the update of the whole feature and aggregate arrays, entry by entry.
-/
import proofs.«414264_j73976516706834_2_alg».proof.Proof.Gen.KernelIdeal.Frame
import proofs.«414264_j73976516706834_2_alg».proof.Proof.Mats
import Idealize.ShloMosaic.Lib.IdealHost

set_option maxRecDepth 16384

noncomputable section

namespace Cert.KernelIdeal.Reg2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Gnn

/-! ## The body's products at an entry -/

theorem d_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem d_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem d_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product into the zero accumulator, at entry (p, q): the sum over the 256 hidden columns. -/
theorem mm_at (a : FVec Ideal S2000x256 .bf16) (b : FVec Ideal S256x256 .bf16) (p : Fin 2000) (q : Fin 256) :
    matmul (F := Ideal) dot_S2000x256_S256x256_S2000x256_1_0_0_1_n_n none a b (constant S2000x256 .f32 0x00000000#32) (ix2 p q) = ∑ k : Fin 256, a (ix2 p k) * b (ix2 k q) :=
  (Ideal.matmul_constant_zero_apply dot_S2000x256_S256x256_S2000x256_1_0_0_1_n_n none a b (ix2 p q)).trans
    (dot_sum dot_S2000x256_S256x256_S2000x256_1_0_0_1_n_n rfl rfl d_l0 d_l1 d_r0 d_r1 a b p q)

/-- A bias row, spread over the block's rows, at entry (p, q). -/
theorem bias_at (x : Arr 1 256) (p : Fin 2000) (q : Fin 256) :
    broadcastTo S2000x256 (shapeCast S1x256 x shapeCasts_S1x256_S1x256) broadcasts_S1x256_S2000x256 (ix2 p q) = x (ix2 0 q) := by
  rw [shapeCast_self]
  exact broadcastTo_apply x broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- A one-entry block, spread over the whole block, at entry (p, q). -/
theorem one_at (x : Arr 1 1) (p : Fin 2000) (q : Fin 256) :
    broadcastTo S2000x256 x broadcasts_S1x1_S2000x256 (ix2 p q) = x (ix2 0 0) :=
  broadcastTo_apply x broadcasts_S1x1_S2000x256 (ix2 p q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- The block `(1 + eps) · h + agg` as the body spells it, at entry (p, k), for any spelling `c` of the constant. -/
theorem mix_at (c : EReal) (x0 x1 : Arr 2000 256) (x2 : Arr 1 1) (p : Fin 2000) (k : Fin 256) :
    addf (F := Ideal) (φ := .f32) (mulf (broadcastTo S2000x256 (addf (F := Ideal) (φ := .f32) (broadcast S1x1 c) (shapeCast S1x1 x2 shapeCasts_S1x1_S1x1)) broadcasts_S1x1_S2000x256)
        (shapeCast S2000x256 x0 shapeCasts_S2000x256_S2000x256)) (shapeCast S2000x256 x1 shapeCasts_S2000x256_S2000x256) (ix2 p k)
      = (c + x2 (ix2 0 0)) * x0 (ix2 p k) + x1 (ix2 p k) := by
  rw [addf_apply, mulf_apply, one_at, addf_apply, broadcast_apply, shapeCast_self, shapeCast_self, shapeCast_self]

/-- The first layer's block at entry (p, q): the positive part of the three-pass layer of `(1 + eps) · h + agg`. -/
theorem pay2_at (x0 x1 : Arr 2000 256) (x2 : Arr 1 1) (x3 : Arr 256 256) (x4 : Arr 1 256) (p : Fin 2000) (q : Fin 256) :
    k2_pay2 (F := Ideal) x0 x1 x2 x3 x4 (ix2 p q) = relu (linK (mix (toM x0) (toM x1) (x2 (ix2 0 0))) (toM x3) (toRow1 x4)) p q := by
  unfold k2_pay2
  rw [maximumf_apply, addf_apply, addf_apply, addf_apply, mm_at, mm_at, mm_at, bias_at, broadcast_apply]
  simp only [truncf_apply, subf_apply, mix_at]
  rw [show FloatOps.ofBits (F := Ideal) FTy.f32 0#32 = (0 : EReal) from Ideal.ofBits_zero_f32,
    show FloatOps.ofBits (F := Ideal) FTy.f32 1065353216#32 = (1 : EReal) from Ideal.ofBits_one_f32]
  rfl

/-- The second layer's left operand is the first layer's block … -/
theorem pay3_at (x0 x1 : Arr 2000 256) (x2 : Arr 1 1) (x3 : Arr 256 256) (x4 : Arr 1 256) (i : S2000x256.Idx) :
    k2_pay3 (F := Ideal) x0 x1 x2 x3 x4 i = k2_pay2 (F := Ideal) x0 x1 x2 x3 x4 i := rfl
/-- … its remainder that block less itself … -/
theorem pay4_at (x0 x1 : Arr 2000 256) (x2 : Arr 1 1) (x3 : Arr 256 256) (x4 : Arr 1 256) (i : S2000x256.Idx) :
    k2_pay4 (F := Ideal) x0 x1 x2 x3 x4 i = k2_pay2 (F := Ideal) x0 x1 x2 x3 x4 i - k2_pay2 (F := Ideal) x0 x1 x2 x3 x4 i := rfl
/-- … the right operand is the second weight, and its remainder the weight less itself. -/
theorem pay5_at (x5 : Arr 256 256) (i : S256x256.Idx) : k2_pay5 (F := Ideal) x5 i = x5 i := rfl
theorem pay6_at (x5 : Arr 256 256) (i : S256x256.Idx) : k2_pay6 (F := Ideal) x5 i = x5 i - x5 i := rfl

/-- The second layer's first pass at entry (p, q). -/
theorem pay7_at (x0 x1 : Arr 2000 256) (x2 : Arr 1 1) (x3 : Arr 256 256) (x4 : Arr 1 256) (x5 : Arr 256 256) (p : Fin 2000) (q : Fin 256) :
    k2_pay7 (F := Ideal) x0 x1 x2 x3 x4 x5 (ix2 p q)
      = ∑ k : Fin 256, k2_pay3 (F := Ideal) x0 x1 x2 x3 x4 (ix2 p k) * k2_pay5 (F := Ideal) x5 (ix2 k q) := by
  unfold k2_pay7
  rw [mm_at]

/-- The stored value at entry (p, q), from its six operands: the first pass, plus the left operand against the right
    one's remainder, plus the left one's remainder against the right operand, plus the bias row. -/
theorem pay1_at (v32 v35 : FVec Ideal S2000x256 .bf16) (v36 v39 : FVec Ideal S256x256 .bf16) (v40 : FVec Ideal S2000x256 .f32)
    (v45 : Arr 1 256) (p : Fin 2000) (q : Fin 256) :
    k2_pay1 (F := Ideal) v32 v35 v36 v39 v40 v45 (ix2 p q)
      = ((v40 (ix2 p q) + ∑ k : Fin 256, v32 (ix2 p k) * v39 (ix2 k q)) + ∑ k : Fin 256, v35 (ix2 p k) * v36 (ix2 k q)) + v45 (ix2 0 q) := by
  unfold k2_pay1
  rw [addf_apply, addf_apply, addf_apply, mm_at, mm_at, bias_at]

/-- The body's stored value at entry (p, q) of the block: the two-layer update of the blocks' row `p`. -/
theorem pay_at (x0 x1 : Arr 2000 256) (x2 : Arr 1 1) (x3 : Arr 256 256) (x4 : Arr 1 256) (x5 : Arr 256 256) (x6 : Arr 1 256)
    (p : Fin 2000) (q : Fin 256) :
    k2_pay1 (F := Ideal) (k2_pay3 x0 x1 x2 x3 x4) (k2_pay4 x0 x1 x2 x3 x4) (k2_pay5 x5) (k2_pay6 x5) (k2_pay7 x0 x1 x2 x3 x4 x5) x6 (ix2 p q)
      = gineK (toM x0) (toM x1) (x2 (ix2 0 0)) (toM x3) (toRow1 x4) (toM x5) (toRow1 x6) p q := by
  rw [pay1_at, pay7_at]
  simp only [pay3_at, pay4_at, pay5_at, pay6_at, pay2_at]
  rfl

/-! ## From blocks to the array -/

variable (V : (c : Dev nD) → (b : Ref sig .tc) → Buf (Elt Ideal) ((c : Thread nD τ).loc b))

/-- The node features, the aggregates, eps, the two weights and the two bias rows as the region finds them. -/
abbrev hh (c : Dev nD) : Arr 20000 256 := V c main_v6
abbrev agg (c : Dev nD) : Arr 20000 256 := V c main_v16
abbrev eps (c : Dev nD) : Arr 1 1 := V c main_v17
abbrev w1 (c : Dev nD) : Arr 256 256 := V c main_arg10
abbrev b1 (c : Dev nD) : Arr 1 256 := V c main_v18
abbrev w2 (c : Dev nD) : Arr 256 256 := V c main_arg12
abbrev b2 (c : Dev nD) : Arr 1 256 := V c main_v19

/-- What the output array ends holding: the kernel's two-layer update of the whole feature and aggregate arrays. -/
def G (c : Dev nD) : Arr 20000 256 := ofM (gineK (toM (V c main_v6 : Arr 20000 256)) (toM (V c main_v16 : Arr 20000 256)) ((V c main_v17 : Arr 1 1) (ix2 0 0)) (toM (V c main_arg10 : Arr 256 256)) (toRow1 (V c main_v18 : Arr 1 256)) (toM (V c main_arg12 : Arr 256 256)) (toRow1 (V c main_v19 : Arr 1 256)))

theorem hz : (![0, 0] : Fin 2 → Nat) = fun _ => 0 := funext fun a => by fin_cases a <;> rfl

/-- The index maps over the grid: the feature, aggregate and output blocks move down the rows with the point; eps, the
    weights and the bias rows stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem flushed_eq (c : Dev nD) (t : Fin cfg2.N) :
    (dat2 (F := Ideal) V c).flushed 7 t = ((cfg2.win 7).blk t).view.read (Elt Ideal) (G V c) := by
  show (cfg2.win 7).cut (grid2.coords t) ((dat2 (F := Ideal) V c).after 7 t) = _
  rw [after2_7]
  unfold out2_7
  rw [View.canon_unit_zero hz]
  simp only [View.ld_unit_zero (S := S2000x256) hz, View.ld_unit_zero (S := S1x1) hz, View.ld_unit_zero (S := S256x256) hz, View.ld_unit_zero (S := S1x256) hz]
  obtain ⟨e00, e01, e10, e11, e20, e21, e30, e31, e40, e41, e50, e51, e60, e61, e70, e71⟩ := idx_facts t
  funext j
  obtain ⟨p, q, rfl⟩ : ∃ (p : Fin 2000) (q : Fin 256), j = ix2 p q := ⟨j 0, j 1, eq_ix2 j⟩
  show k2_pay1 (F := Ideal) (k2_pay3 (iblk2 V c 0 t) (iblk2 V c 1 t) (iblk2 V c 2 t) (iblk2 V c 3 t) (iblk2 V c 4 t))
      (k2_pay4 (iblk2 V c 0 t) (iblk2 V c 1 t) (iblk2 V c 2 t) (iblk2 V c 3 t) (iblk2 V c 4 t))
      (k2_pay5 (iblk2 V c 5 t)) (k2_pay6 (iblk2 V c 5 t))
      (k2_pay7 (iblk2 V c 0 t) (iblk2 V c 1 t) (iblk2 V c 2 t) (iblk2 V c 3 t) (iblk2 V c 4 t) (iblk2 V c 5 t)) (iblk2 V c 6 t) (ix2 p q)
    = G V c (((cfg2.win 7).blk t).view.emb (ix2 p q))
  refine (pay_at (iblk2 V c 0 t) (iblk2 V c 1 t) (iblk2 V c 2 t) (iblk2 V c 3 t) (iblk2 V c 4 t) (iblk2 V c 5 t) (iblk2 V c 6 t) p q).trans ?_
  -- eps's, the weights' and the bias rows' blocks are the whole arrays
  have he : (iblk2 V c 2 t : Arr 1 1) (ix2 0 0) = (V c main_v17 : Arr 1 1) (ix2 0 0) := by
    show V c main_v17 (((cfg2.win 2).blk t).view.emb (ix2 0 0)) = V c main_v17 (ix2 0 0)
    refine congrArg (V c main_v17) (funext fun a => Fin.ext ?_)
    match a with
    | ⟨0, _⟩ => show win2_2.index t (0 : Fin 2) * 1 + 1 * 0 = 0; omega
    | ⟨1, _⟩ => show win2_2.index t (1 : Fin 2) * 1 + 1 * 0 = 0; omega
  have hw1 : toM (iblk2 V c 3 t) = toM (w1 V c) := by
    funext k q'
    show V c main_arg10 (((cfg2.win 3).blk t).view.emb (ix2 k q')) = V c main_arg10 (ix2 k q')
    refine congrArg (V c main_arg10) (funext fun a => Fin.ext ?_)
    match a with
    | ⟨0, _⟩ => show win2_3.index t (0 : Fin 2) * 256 + 1 * k.val = k.val; omega
    | ⟨1, _⟩ => show win2_3.index t (1 : Fin 2) * 256 + 1 * q'.val = q'.val; omega
  have hb1 : toRow1 (iblk2 V c 4 t) = toRow1 (b1 V c) := by
    funext q'
    show V c main_v18 (((cfg2.win 4).blk t).view.emb (ix2 0 q')) = V c main_v18 (ix2 0 q')
    refine congrArg (V c main_v18) (funext fun a => Fin.ext ?_)
    match a with
    | ⟨0, _⟩ => show win2_4.index t (0 : Fin 2) * 1 + 1 * 0 = 0; omega
    | ⟨1, _⟩ => show win2_4.index t (1 : Fin 2) * 256 + 1 * q'.val = q'.val; omega
  have hw2 : toM (iblk2 V c 5 t) = toM (w2 V c) := by
    funext k q'
    show V c main_arg12 (((cfg2.win 5).blk t).view.emb (ix2 k q')) = V c main_arg12 (ix2 k q')
    refine congrArg (V c main_arg12) (funext fun a => Fin.ext ?_)
    match a with
    | ⟨0, _⟩ => show win2_5.index t (0 : Fin 2) * 256 + 1 * k.val = k.val; omega
    | ⟨1, _⟩ => show win2_5.index t (1 : Fin 2) * 256 + 1 * q'.val = q'.val; omega
  have hb2 : toRow1 (iblk2 V c 6 t) = toRow1 (b2 V c) := by
    funext q'
    show V c main_v19 (((cfg2.win 6).blk t).view.emb (ix2 0 q')) = V c main_v19 (ix2 0 q')
    refine congrArg (V c main_v19) (funext fun a => Fin.ext ?_)
    match a with
    | ⟨0, _⟩ => show win2_6.index t (0 : Fin 2) * 1 + 1 * 0 = 0; omega
    | ⟨1, _⟩ => show win2_6.index t (1 : Fin 2) * 256 + 1 * q'.val = q'.val; omega
  rw [he, hw1, hb1, hw2, hb2]
  -- the blocks' row p is the arrays' row under the output block
  show gineK (toM (iblk2 V c 0 t)) (toM (iblk2 V c 1 t)) ((V c main_v17 : Arr 1 1) (ix2 0 0)) (toM (w1 V c)) (toRow1 (b1 V c)) (toM (w2 V c)) (toRow1 (b2 V c)) p q
    = gineK (toM (hh V c)) (toM (agg V c)) ((V c main_v17 : Arr 1 1) (ix2 0 0)) (toM (w1 V c)) (toRow1 (b1 V c)) (toM (w2 V c)) (toRow1 (b2 V c))
        ((((cfg2.win 7).blk t).view.emb (ix2 p q)) 0) ((((cfg2.win 7).blk t).view.emb (ix2 p q)) 1)
  have hq : ((((cfg2.win 7).blk t).view.emb (ix2 p q)) 1 : Fin 256) = q := Fin.ext (by
    show win2_7.index t (1 : Fin 2) * 256 + 1 * q.val = q.val; omega)
  rw [hq]
  refine gineK_row _ _ _ _ _ (fun k => ?_) (fun k => ?_) q
  · show V c main_v6 (((cfg2.win 0).blk t).view.emb (ix2 p k)) = V c main_v6 (ix2 ((((cfg2.win 7).blk t).view.emb (ix2 p q)) 0) k)
    refine congrArg (V c main_v6) (funext fun a => Fin.ext ?_)
    match a with
    | ⟨0, _⟩ => show win2_0.index t (0 : Fin 2) * 2000 + 1 * p.val = win2_7.index t (0 : Fin 2) * 2000 + 1 * p.val; omega
    | ⟨1, _⟩ => show win2_0.index t (1 : Fin 2) * 256 + 1 * k.val = k.val; omega
  · show V c main_v16 (((cfg2.win 1).blk t).view.emb (ix2 p k)) = V c main_v16 (ix2 ((((cfg2.win 7).blk t).view.emb (ix2 p q)) 0) k)
    refine congrArg (V c main_v16) (funext fun a => Fin.ext ?_)
    match a with
    | ⟨0, _⟩ => show win2_1.index t (0 : Fin 2) * 2000 + 1 * p.val = win2_7.index t (0 : Fin 2) * 2000 + 1 * p.val; omega
    | ⟨1, _⟩ => show win2_1.index t (1 : Fin 2) * 256 + 1 * k.val = k.val; omega

theorem mem_blk (t : Fin cfg2.N) (i : S20000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v20).slice (win2_7.rect t)).set ↔ _
  rw [View.set_slice_whole, Rect.mem_set_unit]
  exact Iff.rfl

/-- Every row of the array lies in the block of the point `row / 2000`. -/
theorem cover (i : S20000x256.Idx) : ∃ t : Fin cfg2.N, (cfg2.win 7).flush t = true ∧ i ∈ ((cfg2.win 7).blk t).view.set := by
  have hi0 : (i 0).val < 20000 := (i 0).isLt
  have hi1 : (i 1).val < 256 := (i 1).isLt
  have hN : cfg2.N = 10 := N_2
  have ht : (i 0).val / 2000 < cfg2.N := by rw [hN]; omega
  refine ⟨⟨(i 0).val / 2000, ht⟩, flush2_7 _, ?_⟩
  rw [mem_blk]
  obtain ⟨-, -, -, -, -, -, -, -, -, -, -, -, -, -, e70, e71⟩ := idx_facts ⟨(i 0).val / 2000, ht⟩
  intro a
  match a with
  | ⟨0, _⟩ =>
    show win2_7.index ⟨(i 0).val / 2000, ht⟩ (0 : Fin 2) * 2000 ≤ (i 0).val ∧ (i 0).val < win2_7.index ⟨(i 0).val / 2000, ht⟩ (0 : Fin 2) * 2000 + 2000
    rw [e70]; show (i 0).val / 2000 * 2000 ≤ (i 0).val ∧ (i 0).val < (i 0).val / 2000 * 2000 + 2000; omega
  | ⟨1, _⟩ =>
    show win2_7.index ⟨(i 0).val / 2000, ht⟩ (1 : Fin 2) * 256 ≤ (i 1).val ∧ (i 1).val < win2_7.index ⟨(i 0).val / 2000, ht⟩ (1 : Fin 2) * 256 + 256
    rw [e71]; omega

/-- The node features after the region: the kernel's two-layer update of the features and aggregates it found,
    whatever the entry contents. -/
theorem final (c : Dev nD) : (dat2 (F := Ideal) V c).arrAt 7 cfg2.N = G V c :=
  (dat2 (F := Ideal) V c).arrAt_eq_of_cover 7 (G V c) (fun t _ => flushed_eq V c t) (cover)

end Cert.KernelIdeal.Reg2

end
-- ==== Proof.Reg3.lean ====
/-
  A graph layer with residual, as one region: what its output array holds after the run.

  The region walks the 20000 node rows in 10 blocks of 2000. At each block the body forms the mix
  `(1 + eps) · h + agg` of the block of features and the block of aggregates, multiplies it by the whole first weight
  in three passes, adds the first bias row and takes the positive part; multiplies that by the whole second weight in
  three passes, adds the second bias row, and last adds the block of features back. The block's row `p` is the
  array's row `2000 · t + p`, and an entry of the layer depends on that one row of the features and of the aggregates
  only. So the array ends holding the residual layer of the whole arrays, entry by entry.
-/
import proofs.«414264_j73976516706834_2_alg».proof.Proof.Gen.KernelIdeal.Frame
import proofs.«414264_j73976516706834_2_alg».proof.Proof.Mats
import Idealize.ShloMosaic.PureOps.IdealRules

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Gnn

/-! ## The body's products at an entry -/

theorem d_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem d_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem d_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product into the zero accumulator, at entry (p, q): the sum over the 256 inner columns. -/
theorem mm_at (a : FVec Ideal S2000x256 .bf16) (b : FVec Ideal S256x256 .bf16) (p : Fin 2000) (q : Fin 256) :
    matmul (F := Ideal) dot_S2000x256_S256x256_S2000x256_1_0_0_1_n_n none a b (constant S2000x256 .f32 0x00000000#32) (ix2 p q) = ∑ k : Fin 256, a (ix2 p k) * b (ix2 k q) :=
  (Ideal.matmul_constant_zero_apply dot_S2000x256_S256x256_S2000x256_1_0_0_1_n_n none a b (ix2 p q)).trans
    (dot_sum dot_S2000x256_S256x256_S2000x256_1_0_0_1_n_n rfl rfl d_l0 d_l1 d_r0 d_r1 a b p q)

/-! ## The layout operations at an entry -/

/-- A bias row, spread over the block's rows, at entry (p, q). -/
theorem bias_at (x : Arr 1 256) (p : Fin 2000) (q : Fin 256) :
    broadcastTo S2000x256 (shapeCast S1x256 x shapeCasts_S1x256_S1x256) broadcasts_S1x256_S2000x256 (ix2 p q) = x (ix2 0 q) := by
  rw [shapeCast_self]
  exact broadcastTo_apply x broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- A one-entry array, spread over the whole block, at entry (p, q): its one entry. -/
theorem one_at (y : Arr 1 1) (p : Fin 2000) (q : Fin 256) :
    broadcastTo S2000x256 y broadcasts_S1x1_S2000x256 (ix2 p q) = y (ix2 0 0) :=
  broadcastTo_apply y broadcasts_S1x1_S2000x256 (ix2 p q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- The single-precision word of one is the number one. -/
theorem one_f32 : (Scalar.ofBits .f32 0x3F800000#32 : Ideal .f32) = 1 :=
  IdealRules.sign_bit.ideal_onePat .f32

/-- The single-precision word of zero is the number zero. -/
theorem zero_f32 : (Scalar.ofBits .f32 0x00000000#32 : Ideal .f32) = 0 :=
  Ideal.ofBits_zero_f32

/-! ## The body's values at an entry -/

/-- The features' block as the body reads it. -/
theorem pay2_eq (x0 : Arr 2000 256) : k3_pay2 (F := Ideal) x0 = x0 := by
  unfold k3_pay2
  exact shapeCast_self x0 _

/-- The second weight as the body reads it. -/
theorem pay4_eq (x5 : Arr 256 256) : k3_pay4 (F := Ideal) x5 = x5 := by
  unfold k3_pay4
  exact shapeCast_self x5 _

/-- The hidden value at entry (p, q) of the block: the positive part of the three-pass first layer of the mix's row `p`. -/
theorem pay3_at (x0 x1 : Arr 2000 256) (x2 : Arr 1 1) (x3 : Arr 256 256) (x4 : Arr 1 256) (p : Fin 2000) (q : Fin 256) :
    k3_pay3 (F := Ideal) x0 x1 x2 x3 x4 (ix2 p q)
      = relu (linK (mix (toM x0) (toM x1) (x2 (ix2 0 0))) (toM x3) (toRow1 x4)) p q := by
  unfold k3_pay3
  rw [maximumf_apply, addf_apply, addf_apply, addf_apply, mm_at, mm_at, mm_at, bias_at, broadcast_apply]
  simp only [truncf_apply, subf_apply, addf_apply, mulf_apply, one_at, broadcast_apply, shapeCast_self, pay2_eq, one_f32, zero_f32]
  rfl

/-- The hidden value, in the format the second product takes it. -/
theorem pay5_at (x0 x1 : Arr 2000 256) (x2 : Arr 1 1) (x3 : Arr 256 256) (x4 : Arr 1 256) (p : Fin 2000) (q : Fin 256) :
    k3_pay5 (F := Ideal) x0 x1 x2 x3 x4 (ix2 p q)
      = relu (linK (mix (toM x0) (toM x1) (x2 (ix2 0 0))) (toM x3) (toRow1 x4)) p q := by
  unfold k3_pay5
  rw [truncf_apply, pay3_at]

/-- The hidden value's remainder. -/
theorem pay6_at (x0 x1 : Arr 2000 256) (x2 : Arr 1 1) (x3 : Arr 256 256) (x4 : Arr 1 256) (p : Fin 2000) (q : Fin 256) :
    k3_pay6 (F := Ideal) x0 x1 x2 x3 x4 (ix2 p q)
      = relu (linK (mix (toM x0) (toM x1) (x2 (ix2 0 0))) (toM x3) (toRow1 x4)) p q
        - relu (linK (mix (toM x0) (toM x1) (x2 (ix2 0 0))) (toM x3) (toRow1 x4)) p q := by
  unfold k3_pay6
  rw [truncf_apply, subf_apply, pay3_at]

/-- The second weight, in the format the second product takes it. -/
theorem pay7_at (x5 : Arr 256 256) (k : Fin 256) (q : Fin 256) : k3_pay7 (F := Ideal) x5 (ix2 k q) = x5 (ix2 k q) := by
  unfold k3_pay7
  rw [truncf_apply, pay4_eq]

/-- The second weight's remainder. -/
theorem pay8_at (x5 : Arr 256 256) (k : Fin 256) (q : Fin 256) :
    k3_pay8 (F := Ideal) x5 (ix2 k q) = x5 (ix2 k q) - x5 (ix2 k q) := by
  unfold k3_pay8
  rw [truncf_apply, subf_apply, pay4_eq]

/-- The stored value at entry (p, q), over any operands: three products, the bias row, and the first operand last. -/
theorem pay1_at (v1 : Arr 2000 256) (v34 v37 : Arr 2000 256) (v38 v41 : Arr 256 256) (v47 : Arr 1 256) (p : Fin 2000) (q : Fin 256) :
    k3_pay1 (F := Ideal) v1 v34 v37 v38 v41 v47 (ix2 p q)
      = ((((∑ k : Fin 256, v34 (ix2 p k) * v38 (ix2 k q)) + ∑ k : Fin 256, v34 (ix2 p k) * v41 (ix2 k q))
          + ∑ k : Fin 256, v37 (ix2 p k) * v38 (ix2 k q)) + v47 (ix2 0 q)) + v1 (ix2 p q) := by
  unfold k3_pay1
  rw [addf_apply, addf_apply, addf_apply, addf_apply, mm_at, mm_at, mm_at, bias_at]

/-- The body's stored value at entry (p, q) of the block: the residual layer of the blocks' row `p`. -/
theorem pay_at (x0 x1 : Arr 2000 256) (x2 : Arr 1 1) (x3 : Arr 256 256) (x4 : Arr 1 256) (x5 : Arr 256 256) (x6 : Arr 1 256)
    (p : Fin 2000) (q : Fin 256) :
    k3_pay1 (F := Ideal) (k3_pay2 x0) (k3_pay5 x0 x1 x2 x3 x4) (k3_pay6 x0 x1 x2 x3 x4) (k3_pay7 x5) (k3_pay8 x5) x6 (ix2 p q)
      = resK (toM x0) (toM x1) (x2 (ix2 0 0)) (toM x3) (toRow1 x4) (toM x5) (toRow1 x6) p q := by
  rw [pay1_at]
  simp only [pay5_at, pay6_at, pay7_at, pay8_at, pay2_eq]
  rfl

/-! ## From blocks to the array -/

variable (V : (c : Dev nD) → (b : Ref sig .tc) → Buf (Elt Ideal) ((c : Thread nD τ).loc b))

/-- What the output array ends holding: the kernel's residual layer of the whole feature and aggregate arrays. -/
def G (c : Dev nD) : Arr 20000 256 := ofM (resK (toM (V c main_v20 : Arr 20000 256)) (toM (V c main_v34 : Arr 20000 256)) ((V c main_v45 : Arr 1 1) (ix2 0 0)) (toM (V c main_v38 : Arr 256 256)) (toRow1 (V c main_v46 : Arr 1 256)) (toM (V c main_v42 : Arr 256 256)) (toRow1 (V c main_v47 : Arr 1 256)))

theorem hz : (![0, 0] : Fin 2 → Nat) = fun _ => 0 := funext fun a => by fin_cases a <;> rfl

/-- The index maps over the grid: the feature, aggregate and output blocks move down the rows with the point; the
    scalar, the two weights and the two bias rows stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-! The scalar's, the weights' and the bias rows' blocks are the whole arrays, at every point. -/

theorem blk2 (c : Dev nD) (t : Fin cfg3.N) : (iblk3 V c 2 t : Arr 1 1) (ix2 0 0) = (V c main_v45 : Arr 1 1) (ix2 0 0) := by
  obtain ⟨-, -, -, -, e20, e21, -⟩ := idx_facts t
  show V c main_v45 (((cfg3.win 2).blk t).view.emb (ix2 0 0)) = V c main_v45 (ix2 0 0)
  refine congrArg (V c main_v45) (funext fun a => Fin.ext ?_)
  match a with
  | ⟨0, _⟩ => show win3_2.index t (0 : Fin 2) * 1 + 1 * 0 = 0; omega
  | ⟨1, _⟩ => show win3_2.index t (1 : Fin 2) * 1 + 1 * 0 = 0; omega

theorem blk3 (c : Dev nD) (t : Fin cfg3.N) : toM (iblk3 V c 3 t) = toM (V c main_v38 : Arr 256 256) := by
  obtain ⟨-, -, -, -, -, -, e30, e31, -⟩ := idx_facts t
  funext k q'
  show V c main_v38 (((cfg3.win 3).blk t).view.emb (ix2 k q')) = V c main_v38 (ix2 k q')
  refine congrArg (V c main_v38) (funext fun a => Fin.ext ?_)
  match a with
  | ⟨0, _⟩ => show win3_3.index t (0 : Fin 2) * 256 + 1 * k.val = k.val; omega
  | ⟨1, _⟩ => show win3_3.index t (1 : Fin 2) * 256 + 1 * q'.val = q'.val; omega

theorem blk4 (c : Dev nD) (t : Fin cfg3.N) : toRow1 (iblk3 V c 4 t) = toRow1 (V c main_v46 : Arr 1 256) := by
  obtain ⟨-, -, -, -, -, -, -, -, e40, e41, -⟩ := idx_facts t
  funext q'
  show V c main_v46 (((cfg3.win 4).blk t).view.emb (ix2 0 q')) = V c main_v46 (ix2 0 q')
  refine congrArg (V c main_v46) (funext fun a => Fin.ext ?_)
  match a with
  | ⟨0, _⟩ => show win3_4.index t (0 : Fin 2) * 1 + 1 * 0 = 0; omega
  | ⟨1, _⟩ => show win3_4.index t (1 : Fin 2) * 256 + 1 * q'.val = q'.val; omega

theorem blk5 (c : Dev nD) (t : Fin cfg3.N) : toM (iblk3 V c 5 t) = toM (V c main_v42 : Arr 256 256) := by
  obtain ⟨-, -, -, -, -, -, -, -, -, -, e50, e51, -⟩ := idx_facts t
  funext k q'
  show V c main_v42 (((cfg3.win 5).blk t).view.emb (ix2 k q')) = V c main_v42 (ix2 k q')
  refine congrArg (V c main_v42) (funext fun a => Fin.ext ?_)
  match a with
  | ⟨0, _⟩ => show win3_5.index t (0 : Fin 2) * 256 + 1 * k.val = k.val; omega
  | ⟨1, _⟩ => show win3_5.index t (1 : Fin 2) * 256 + 1 * q'.val = q'.val; omega

theorem blk6 (c : Dev nD) (t : Fin cfg3.N) : toRow1 (iblk3 V c 6 t) = toRow1 (V c main_v47 : Arr 1 256) := by
  obtain ⟨-, -, -, -, -, -, -, -, -, -, -, -, e60, e61, -⟩ := idx_facts t
  funext q'
  show V c main_v47 (((cfg3.win 6).blk t).view.emb (ix2 0 q')) = V c main_v47 (ix2 0 q')
  refine congrArg (V c main_v47) (funext fun a => Fin.ext ?_)
  match a with
  | ⟨0, _⟩ => show win3_6.index t (0 : Fin 2) * 1 + 1 * 0 = 0; omega
  | ⟨1, _⟩ => show win3_6.index t (1 : Fin 2) * 256 + 1 * q'.val = q'.val; omega

/-! The feature and aggregate blocks' row `p` is the arrays' row under the output block; the output block's column
    `q` is the array's column `q`. -/

theorem col7 (t : Fin cfg3.N) (p : Fin 2000) (q : Fin 256) : ((((cfg3.win 7).blk t).view.emb (ix2 p q)) 1 : Fin 256) = q := by
  obtain ⟨-, -, -, -, -, -, -, -, -, -, -, -, -, -, e70, e71⟩ := idx_facts t
  exact Fin.ext (by show win3_7.index t (1 : Fin 2) * 256 + 1 * q.val = q.val; omega)

theorem row0 (c : Dev nD) (t : Fin cfg3.N) (p : Fin 2000) (q k : Fin 256) :
    toM (iblk3 V c 0 t) p k = toM (V c main_v20 : Arr 20000 256) ((((cfg3.win 7).blk t).view.emb (ix2 p q)) 0) k := by
  obtain ⟨e00, e01, -, -, -, -, -, -, -, -, -, -, -, -, e70, e71⟩ := idx_facts t
  show V c main_v20 (((cfg3.win 0).blk t).view.emb (ix2 p k)) = V c main_v20 (ix2 ((((cfg3.win 7).blk t).view.emb (ix2 p q)) 0) k)
  refine congrArg (V c main_v20) (funext fun a => Fin.ext ?_)
  match a with
  | ⟨0, _⟩ => show win3_0.index t (0 : Fin 2) * 2000 + 1 * p.val = win3_7.index t (0 : Fin 2) * 2000 + 1 * p.val; omega
  | ⟨1, _⟩ => show win3_0.index t (1 : Fin 2) * 256 + 1 * k.val = k.val; omega

theorem row1 (c : Dev nD) (t : Fin cfg3.N) (p : Fin 2000) (q k : Fin 256) :
    toM (iblk3 V c 1 t) p k = toM (V c main_v34 : Arr 20000 256) ((((cfg3.win 7).blk t).view.emb (ix2 p q)) 0) k := by
  obtain ⟨-, -, e10, e11, -, -, -, -, -, -, -, -, -, -, e70, e71⟩ := idx_facts t
  show V c main_v34 (((cfg3.win 1).blk t).view.emb (ix2 p k)) = V c main_v34 (ix2 ((((cfg3.win 7).blk t).view.emb (ix2 p q)) 0) k)
  refine congrArg (V c main_v34) (funext fun a => Fin.ext ?_)
  match a with
  | ⟨0, _⟩ => show win3_1.index t (0 : Fin 2) * 2000 + 1 * p.val = win3_7.index t (0 : Fin 2) * 2000 + 1 * p.val; omega
  | ⟨1, _⟩ => show win3_1.index t (1 : Fin 2) * 256 + 1 * k.val = k.val; omega

theorem flushed_eq (c : Dev nD) (t : Fin cfg3.N) :
    (dat3 (F := Ideal) V c).flushed 7 t = ((cfg3.win 7).blk t).view.read (Elt Ideal) (G V c) := by
  show (cfg3.win 7).cut (grid3.coords t) ((dat3 (F := Ideal) V c).after 7 t) = _
  rw [after3_7]
  unfold out3_7
  rw [View.canon_unit_zero hz]
  simp only [View.ld_unit_zero (S := S2000x256) hz, View.ld_unit_zero (S := S1x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k3_pay1 (F := Ideal) (k3_pay2 (iblk3 V c 0 t)) (k3_pay5 (iblk3 V c 0 t) (iblk3 V c 1 t) (iblk3 V c 2 t) (iblk3 V c 3 t) (iblk3 V c 4 t))
      (k3_pay6 (iblk3 V c 0 t) (iblk3 V c 1 t) (iblk3 V c 2 t) (iblk3 V c 3 t) (iblk3 V c 4 t)) (k3_pay7 (iblk3 V c 5 t)) (k3_pay8 (iblk3 V c 5 t))
      (iblk3 V c 6 t) (ix2 p q)
    = G V c (((cfg3.win 7).blk t).view.emb (ix2 p q))
  refine (pay_at (iblk3 V c 0 t) (iblk3 V c 1 t) (iblk3 V c 2 t) (iblk3 V c 3 t) (iblk3 V c 4 t) (iblk3 V c 5 t) (iblk3 V c 6 t) p q).trans ?_
  rw [blk2 V c t, blk3 V c t, blk4 V c t, blk5 V c t, blk6 V c t]
  show resK (toM (iblk3 V c 0 t)) (toM (iblk3 V c 1 t)) ((V c main_v45 : Arr 1 1) (ix2 0 0)) (toM (V c main_v38 : Arr 256 256)) (toRow1 (V c main_v46 : Arr 1 256)) (toM (V c main_v42 : Arr 256 256)) (toRow1 (V c main_v47 : Arr 1 256)) p q
    = resK (toM (V c main_v20 : Arr 20000 256)) (toM (V c main_v34 : Arr 20000 256)) ((V c main_v45 : Arr 1 1) (ix2 0 0)) (toM (V c main_v38 : Arr 256 256)) (toRow1 (V c main_v46 : Arr 1 256)) (toM (V c main_v42 : Arr 256 256)) (toRow1 (V c main_v47 : Arr 1 256))
        ((((cfg3.win 7).blk t).view.emb (ix2 p q)) 0) ((((cfg3.win 7).blk t).view.emb (ix2 p q)) 1)
  rw [col7 t p q]
  exact resK_row _ _ _ _ _ (fun k => row0 V c t p q k) (fun k => row1 V c t p q k) q

theorem mem_blk (t : Fin cfg3.N) (i : S20000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v48).slice (win3_7.rect t)).set ↔ _
  rw [View.set_slice_whole, Rect.mem_set_unit]
  exact Iff.rfl

/-- Every row of the array lies in the block of the point `row / 2000`. -/
theorem cover (i : S20000x256.Idx) : ∃ t : Fin cfg3.N, (cfg3.win 7).flush t = true ∧ i ∈ ((cfg3.win 7).blk t).view.set := by
  have hi0 : (i 0).val < 20000 := (i 0).isLt
  have hi1 : (i 1).val < 256 := (i 1).isLt
  have hN : cfg3.N = 10 := N_3
  have ht : (i 0).val / 2000 < cfg3.N := by rw [hN]; omega
  refine ⟨⟨(i 0).val / 2000, ht⟩, flush3_7 _, ?_⟩
  rw [mem_blk]
  obtain ⟨-, -, -, -, -, -, -, -, -, -, -, -, -, -, e70, e71⟩ := idx_facts ⟨(i 0).val / 2000, ht⟩
  intro a
  match a with
  | ⟨0, _⟩ =>
    show win3_7.index ⟨(i 0).val / 2000, ht⟩ (0 : Fin 2) * 2000 ≤ (i 0).val ∧ (i 0).val < win3_7.index ⟨(i 0).val / 2000, ht⟩ (0 : Fin 2) * 2000 + 2000
    rw [e70]; show (i 0).val / 2000 * 2000 ≤ (i 0).val ∧ (i 0).val < (i 0).val / 2000 * 2000 + 2000; omega
  | ⟨1, _⟩ =>
    show win3_7.index ⟨(i 0).val / 2000, ht⟩ (1 : Fin 2) * 256 ≤ (i 1).val ∧ (i 1).val < win3_7.index ⟨(i 0).val / 2000, ht⟩ (1 : Fin 2) * 256 + 256
    rw [e71]; omega

/-- The features after the region: the kernel's residual layer of the features and the aggregates, whatever the
    entry contents. -/
theorem final (c : Dev nD) : (dat3 (F := Ideal) V c).arrAt 7 cfg3.N = G V c :=
  (dat3 (F := Ideal) V c).arrAt_eq_of_cover 7 (G V c) (fun t _ => flushed_eq V c t) (cover)

end Cert.KernelIdeal.Reg3

end
-- ==== Proof.Reg4.lean ====
/-
  A graph layer with residual, as one region: what its output array holds after the run.

  The region walks the 20000 node rows in 10 blocks of 2000. At each block the body forms the mix
  `(1 + eps) · h + agg` of the block of features and the block of aggregates, multiplies it by the whole first weight
  in three passes, adds the first bias row and takes the positive part; multiplies that by the whole second weight in
  three passes, adds the second bias row, and last adds the block of features back. The block's row `p` is the
  array's row `2000 · t + p`, and an entry of the layer depends on that one row of the features and of the aggregates
  only. So the array ends holding the residual layer of the whole arrays, entry by entry.
-/
import proofs.«414264_j73976516706834_2_alg».proof.Proof.Gen.KernelIdeal.Frame
import proofs.«414264_j73976516706834_2_alg».proof.Proof.Mats
import Idealize.ShloMosaic.PureOps.IdealRules

set_option maxRecDepth 16384

noncomputable section

namespace Cert.KernelIdeal.Reg4

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Gnn

/-! ## The body's products at an entry -/

theorem d_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem d_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem d_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product into the zero accumulator, at entry (p, q): the sum over the 256 inner columns. -/
theorem mm_at (a : FVec Ideal S2000x256 .bf16) (b : FVec Ideal S256x256 .bf16) (p : Fin 2000) (q : Fin 256) :
    matmul (F := Ideal) dot_S2000x256_S256x256_S2000x256_1_0_0_1_n_n none a b (constant S2000x256 .f32 0x00000000#32) (ix2 p q) = ∑ k : Fin 256, a (ix2 p k) * b (ix2 k q) :=
  (Ideal.matmul_constant_zero_apply dot_S2000x256_S256x256_S2000x256_1_0_0_1_n_n none a b (ix2 p q)).trans
    (dot_sum dot_S2000x256_S256x256_S2000x256_1_0_0_1_n_n rfl rfl d_l0 d_l1 d_r0 d_r1 a b p q)

/-! ## The layout operations at an entry -/

/-- A bias row, spread over the block's rows, at entry (p, q). -/
theorem bias_at (x : Arr 1 256) (p : Fin 2000) (q : Fin 256) :
    broadcastTo S2000x256 (shapeCast S1x256 x shapeCasts_S1x256_S1x256) broadcasts_S1x256_S2000x256 (ix2 p q) = x (ix2 0 q) := by
  rw [shapeCast_self]
  exact broadcastTo_apply x broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- A one-entry array, spread over the whole block, at entry (p, q): its one entry. -/
theorem one_at (y : Arr 1 1) (p : Fin 2000) (q : Fin 256) :
    broadcastTo S2000x256 y broadcasts_S1x1_S2000x256 (ix2 p q) = y (ix2 0 0) :=
  broadcastTo_apply y broadcasts_S1x1_S2000x256 (ix2 p q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- The single-precision word of one is the number one. -/
theorem one_f32 : (Scalar.ofBits .f32 0x3F800000#32 : Ideal .f32) = 1 :=
  IdealRules.sign_bit.ideal_onePat .f32

/-- The single-precision word of zero is the number zero. -/
theorem zero_f32 : (Scalar.ofBits .f32 0x00000000#32 : Ideal .f32) = 0 :=
  Ideal.ofBits_zero_f32

/-! ## The body's values at an entry -/

/-- The features' block as the body reads it. -/
theorem pay2_eq (x0 : Arr 2000 256) : k4_pay2 (F := Ideal) x0 = x0 := by
  unfold k4_pay2
  exact shapeCast_self x0 _

/-- The second weight as the body reads it. -/
theorem pay4_eq (x5 : Arr 256 256) : k4_pay4 (F := Ideal) x5 = x5 := by
  unfold k4_pay4
  exact shapeCast_self x5 _

/-- The hidden value at entry (p, q) of the block: the positive part of the three-pass first layer of the mix's row `p`. -/
theorem pay3_at (x0 x1 : Arr 2000 256) (x2 : Arr 1 1) (x3 : Arr 256 256) (x4 : Arr 1 256) (p : Fin 2000) (q : Fin 256) :
    k4_pay3 (F := Ideal) x0 x1 x2 x3 x4 (ix2 p q)
      = relu (linK (mix (toM x0) (toM x1) (x2 (ix2 0 0))) (toM x3) (toRow1 x4)) p q := by
  unfold k4_pay3
  rw [maximumf_apply, addf_apply, addf_apply, addf_apply, mm_at, mm_at, mm_at, bias_at, broadcast_apply]
  simp only [truncf_apply, subf_apply, addf_apply, mulf_apply, one_at, broadcast_apply, shapeCast_self, pay2_eq, one_f32, zero_f32]
  rfl

/-- The hidden value, in the format the second product takes it. -/
theorem pay5_at (x0 x1 : Arr 2000 256) (x2 : Arr 1 1) (x3 : Arr 256 256) (x4 : Arr 1 256) (p : Fin 2000) (q : Fin 256) :
    k4_pay5 (F := Ideal) x0 x1 x2 x3 x4 (ix2 p q)
      = relu (linK (mix (toM x0) (toM x1) (x2 (ix2 0 0))) (toM x3) (toRow1 x4)) p q := by
  unfold k4_pay5
  rw [truncf_apply, pay3_at]

/-- The hidden value's remainder. -/
theorem pay6_at (x0 x1 : Arr 2000 256) (x2 : Arr 1 1) (x3 : Arr 256 256) (x4 : Arr 1 256) (p : Fin 2000) (q : Fin 256) :
    k4_pay6 (F := Ideal) x0 x1 x2 x3 x4 (ix2 p q)
      = relu (linK (mix (toM x0) (toM x1) (x2 (ix2 0 0))) (toM x3) (toRow1 x4)) p q
        - relu (linK (mix (toM x0) (toM x1) (x2 (ix2 0 0))) (toM x3) (toRow1 x4)) p q := by
  unfold k4_pay6
  rw [truncf_apply, subf_apply, pay3_at]

/-- The second weight, in the format the second product takes it. -/
theorem pay7_at (x5 : Arr 256 256) (k : Fin 256) (q : Fin 256) : k4_pay7 (F := Ideal) x5 (ix2 k q) = x5 (ix2 k q) := by
  unfold k4_pay7
  rw [truncf_apply, pay4_eq]

/-- The second weight's remainder. -/
theorem pay8_at (x5 : Arr 256 256) (k : Fin 256) (q : Fin 256) :
    k4_pay8 (F := Ideal) x5 (ix2 k q) = x5 (ix2 k q) - x5 (ix2 k q) := by
  unfold k4_pay8
  rw [truncf_apply, subf_apply, pay4_eq]

/-- The stored value at entry (p, q), over any operands: three products, the bias row, and the first operand last. -/
theorem pay1_at (v1 : Arr 2000 256) (v34 v37 : Arr 2000 256) (v38 v41 : Arr 256 256) (v47 : Arr 1 256) (p : Fin 2000) (q : Fin 256) :
    k4_pay1 (F := Ideal) v1 v34 v37 v38 v41 v47 (ix2 p q)
      = ((((∑ k : Fin 256, v34 (ix2 p k) * v38 (ix2 k q)) + ∑ k : Fin 256, v34 (ix2 p k) * v41 (ix2 k q))
          + ∑ k : Fin 256, v37 (ix2 p k) * v38 (ix2 k q)) + v47 (ix2 0 q)) + v1 (ix2 p q) := by
  unfold k4_pay1
  rw [addf_apply, addf_apply, addf_apply, addf_apply, mm_at, mm_at, mm_at, bias_at]

/-- The body's stored value at entry (p, q) of the block: the residual layer of the blocks' row `p`. -/
theorem pay_at (x0 x1 : Arr 2000 256) (x2 : Arr 1 1) (x3 : Arr 256 256) (x4 : Arr 1 256) (x5 : Arr 256 256) (x6 : Arr 1 256)
    (p : Fin 2000) (q : Fin 256) :
    k4_pay1 (F := Ideal) (k4_pay2 x0) (k4_pay5 x0 x1 x2 x3 x4) (k4_pay6 x0 x1 x2 x3 x4) (k4_pay7 x5) (k4_pay8 x5) x6 (ix2 p q)
      = resK (toM x0) (toM x1) (x2 (ix2 0 0)) (toM x3) (toRow1 x4) (toM x5) (toRow1 x6) p q := by
  rw [pay1_at]
  simp only [pay5_at, pay6_at, pay7_at, pay8_at, pay2_eq]
  rfl

/-! ## From blocks to the array -/

variable (V : (c : Dev nD) → (b : Ref sig .tc) → Buf (Elt Ideal) ((c : Thread nD τ).loc b))

/-- What the output array ends holding: the kernel's residual layer of the whole feature and aggregate arrays. -/
def G (c : Dev nD) : Arr 20000 256 := ofM (resK (toM (V c main_v48 : Arr 20000 256)) (toM (V c main_v56 : Arr 20000 256)) ((V c main_v67 : Arr 1 1) (ix2 0 0)) (toM (V c main_v60 : Arr 256 256)) (toRow1 (V c main_v68 : Arr 1 256)) (toM (V c main_v64 : Arr 256 256)) (toRow1 (V c main_v69 : Arr 1 256)))

theorem hz : (![0, 0] : Fin 2 → Nat) = fun _ => 0 := funext fun a => by fin_cases a <;> rfl

/-- The index maps over the grid: the feature, aggregate and output blocks move down the rows with the point; the
    scalar, the two weights and the two bias rows stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-! The scalar's, the weights' and the bias rows' blocks are the whole arrays, at every point. -/

theorem blk2 (c : Dev nD) (t : Fin cfg4.N) : (iblk4 V c 2 t : Arr 1 1) (ix2 0 0) = (V c main_v67 : Arr 1 1) (ix2 0 0) := by
  obtain ⟨-, -, -, -, e20, e21, -⟩ := idx_facts t
  show V c main_v67 (((cfg4.win 2).blk t).view.emb (ix2 0 0)) = V c main_v67 (ix2 0 0)
  refine congrArg (V c main_v67) (funext fun a => Fin.ext ?_)
  match a with
  | ⟨0, _⟩ => show win4_2.index t (0 : Fin 2) * 1 + 1 * 0 = 0; omega
  | ⟨1, _⟩ => show win4_2.index t (1 : Fin 2) * 1 + 1 * 0 = 0; omega

theorem blk3 (c : Dev nD) (t : Fin cfg4.N) : toM (iblk4 V c 3 t) = toM (V c main_v60 : Arr 256 256) := by
  obtain ⟨-, -, -, -, -, -, e30, e31, -⟩ := idx_facts t
  funext k q'
  show V c main_v60 (((cfg4.win 3).blk t).view.emb (ix2 k q')) = V c main_v60 (ix2 k q')
  refine congrArg (V c main_v60) (funext fun a => Fin.ext ?_)
  match a with
  | ⟨0, _⟩ => show win4_3.index t (0 : Fin 2) * 256 + 1 * k.val = k.val; omega
  | ⟨1, _⟩ => show win4_3.index t (1 : Fin 2) * 256 + 1 * q'.val = q'.val; omega

theorem blk4 (c : Dev nD) (t : Fin cfg4.N) : toRow1 (iblk4 V c 4 t) = toRow1 (V c main_v68 : Arr 1 256) := by
  obtain ⟨-, -, -, -, -, -, -, -, e40, e41, -⟩ := idx_facts t
  funext q'
  show V c main_v68 (((cfg4.win 4).blk t).view.emb (ix2 0 q')) = V c main_v68 (ix2 0 q')
  refine congrArg (V c main_v68) (funext fun a => Fin.ext ?_)
  match a with
  | ⟨0, _⟩ => show win4_4.index t (0 : Fin 2) * 1 + 1 * 0 = 0; omega
  | ⟨1, _⟩ => show win4_4.index t (1 : Fin 2) * 256 + 1 * q'.val = q'.val; omega

theorem blk5 (c : Dev nD) (t : Fin cfg4.N) : toM (iblk4 V c 5 t) = toM (V c main_v64 : Arr 256 256) := by
  obtain ⟨-, -, -, -, -, -, -, -, -, -, e50, e51, -⟩ := idx_facts t
  funext k q'
  show V c main_v64 (((cfg4.win 5).blk t).view.emb (ix2 k q')) = V c main_v64 (ix2 k q')
  refine congrArg (V c main_v64) (funext fun a => Fin.ext ?_)
  match a with
  | ⟨0, _⟩ => show win4_5.index t (0 : Fin 2) * 256 + 1 * k.val = k.val; omega
  | ⟨1, _⟩ => show win4_5.index t (1 : Fin 2) * 256 + 1 * q'.val = q'.val; omega

theorem blk6 (c : Dev nD) (t : Fin cfg4.N) : toRow1 (iblk4 V c 6 t) = toRow1 (V c main_v69 : Arr 1 256) := by
  obtain ⟨-, -, -, -, -, -, -, -, -, -, -, -, e60, e61, -⟩ := idx_facts t
  funext q'
  show V c main_v69 (((cfg4.win 6).blk t).view.emb (ix2 0 q')) = V c main_v69 (ix2 0 q')
  refine congrArg (V c main_v69) (funext fun a => Fin.ext ?_)
  match a with
  | ⟨0, _⟩ => show win4_6.index t (0 : Fin 2) * 1 + 1 * 0 = 0; omega
  | ⟨1, _⟩ => show win4_6.index t (1 : Fin 2) * 256 + 1 * q'.val = q'.val; omega

/-! The feature and aggregate blocks' row `p` is the arrays' row under the output block; the output block's column
    `q` is the array's column `q`. -/

theorem col7 (t : Fin cfg4.N) (p : Fin 2000) (q : Fin 256) : ((((cfg4.win 7).blk t).view.emb (ix2 p q)) 1 : Fin 256) = q := by
  obtain ⟨-, -, -, -, -, -, -, -, -, -, -, -, -, -, e70, e71⟩ := idx_facts t
  exact Fin.ext (by show win4_7.index t (1 : Fin 2) * 256 + 1 * q.val = q.val; omega)

theorem row0 (c : Dev nD) (t : Fin cfg4.N) (p : Fin 2000) (q k : Fin 256) :
    toM (iblk4 V c 0 t) p k = toM (V c main_v48 : Arr 20000 256) ((((cfg4.win 7).blk t).view.emb (ix2 p q)) 0) k := by
  obtain ⟨e00, e01, -, -, -, -, -, -, -, -, -, -, -, -, e70, e71⟩ := idx_facts t
  show V c main_v48 (((cfg4.win 0).blk t).view.emb (ix2 p k)) = V c main_v48 (ix2 ((((cfg4.win 7).blk t).view.emb (ix2 p q)) 0) k)
  refine congrArg (V c main_v48) (funext fun a => Fin.ext ?_)
  match a with
  | ⟨0, _⟩ => show win4_0.index t (0 : Fin 2) * 2000 + 1 * p.val = win4_7.index t (0 : Fin 2) * 2000 + 1 * p.val; omega
  | ⟨1, _⟩ => show win4_0.index t (1 : Fin 2) * 256 + 1 * k.val = k.val; omega

theorem row1 (c : Dev nD) (t : Fin cfg4.N) (p : Fin 2000) (q k : Fin 256) :
    toM (iblk4 V c 1 t) p k = toM (V c main_v56 : Arr 20000 256) ((((cfg4.win 7).blk t).view.emb (ix2 p q)) 0) k := by
  obtain ⟨-, -, e10, e11, -, -, -, -, -, -, -, -, -, -, e70, e71⟩ := idx_facts t
  show V c main_v56 (((cfg4.win 1).blk t).view.emb (ix2 p k)) = V c main_v56 (ix2 ((((cfg4.win 7).blk t).view.emb (ix2 p q)) 0) k)
  refine congrArg (V c main_v56) (funext fun a => Fin.ext ?_)
  match a with
  | ⟨0, _⟩ => show win4_1.index t (0 : Fin 2) * 2000 + 1 * p.val = win4_7.index t (0 : Fin 2) * 2000 + 1 * p.val; omega
  | ⟨1, _⟩ => show win4_1.index t (1 : Fin 2) * 256 + 1 * k.val = k.val; omega

theorem flushed_eq (c : Dev nD) (t : Fin cfg4.N) :
    (dat4 (F := Ideal) V c).flushed 7 t = ((cfg4.win 7).blk t).view.read (Elt Ideal) (G V c) := by
  show (cfg4.win 7).cut (grid4.coords t) ((dat4 (F := Ideal) V c).after 7 t) = _
  rw [after4_7]
  unfold out4_7
  rw [View.canon_unit_zero hz]
  simp only [View.ld_unit_zero (S := S2000x256) hz, View.ld_unit_zero (S := S1x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k4_pay1 (F := Ideal) (k4_pay2 (iblk4 V c 0 t)) (k4_pay5 (iblk4 V c 0 t) (iblk4 V c 1 t) (iblk4 V c 2 t) (iblk4 V c 3 t) (iblk4 V c 4 t))
      (k4_pay6 (iblk4 V c 0 t) (iblk4 V c 1 t) (iblk4 V c 2 t) (iblk4 V c 3 t) (iblk4 V c 4 t)) (k4_pay7 (iblk4 V c 5 t)) (k4_pay8 (iblk4 V c 5 t))
      (iblk4 V c 6 t) (ix2 p q)
    = G V c (((cfg4.win 7).blk t).view.emb (ix2 p q))
  refine (pay_at (iblk4 V c 0 t) (iblk4 V c 1 t) (iblk4 V c 2 t) (iblk4 V c 3 t) (iblk4 V c 4 t) (iblk4 V c 5 t) (iblk4 V c 6 t) p q).trans ?_
  rw [blk2 V c t, blk3 V c t, blk4 V c t, blk5 V c t, blk6 V c t]
  show resK (toM (iblk4 V c 0 t)) (toM (iblk4 V c 1 t)) ((V c main_v67 : Arr 1 1) (ix2 0 0)) (toM (V c main_v60 : Arr 256 256)) (toRow1 (V c main_v68 : Arr 1 256)) (toM (V c main_v64 : Arr 256 256)) (toRow1 (V c main_v69 : Arr 1 256)) p q
    = resK (toM (V c main_v48 : Arr 20000 256)) (toM (V c main_v56 : Arr 20000 256)) ((V c main_v67 : Arr 1 1) (ix2 0 0)) (toM (V c main_v60 : Arr 256 256)) (toRow1 (V c main_v68 : Arr 1 256)) (toM (V c main_v64 : Arr 256 256)) (toRow1 (V c main_v69 : Arr 1 256))
        ((((cfg4.win 7).blk t).view.emb (ix2 p q)) 0) ((((cfg4.win 7).blk t).view.emb (ix2 p q)) 1)
  rw [col7 t p q]
  exact resK_row _ _ _ _ _ (fun k => row0 V c t p q k) (fun k => row1 V c t p q k) q

theorem mem_blk (t : Fin cfg4.N) (i : S20000x256.Idx) :
    i ∈ ((cfg4.win 7).blk t).view.set ↔ ∀ a : Fin 2, win4_7.index t a * S2000x256.size a ≤ (i a).val ∧ (i a).val < win4_7.index t a * S2000x256.size a + S2000x256.size a := by
  show i ∈ ((View.whole main_v70).slice (win4_7.rect t)).set ↔ _
  rw [View.set_slice_whole, Rect.mem_set_unit]
  exact Iff.rfl

/-- Every row of the array lies in the block of the point `row / 2000`. -/
theorem cover (i : S20000x256.Idx) : ∃ t : Fin cfg4.N, (cfg4.win 7).flush t = true ∧ i ∈ ((cfg4.win 7).blk t).view.set := by
  have hi0 : (i 0).val < 20000 := (i 0).isLt
  have hi1 : (i 1).val < 256 := (i 1).isLt
  have hN : cfg4.N = 10 := N_4
  have ht : (i 0).val / 2000 < cfg4.N := by rw [hN]; omega
  refine ⟨⟨(i 0).val / 2000, ht⟩, flush4_7 _, ?_⟩
  rw [mem_blk]
  obtain ⟨-, -, -, -, -, -, -, -, -, -, -, -, -, -, e70, e71⟩ := idx_facts ⟨(i 0).val / 2000, ht⟩
  intro a
  match a with
  | ⟨0, _⟩ =>
    show win4_7.index ⟨(i 0).val / 2000, ht⟩ (0 : Fin 2) * 2000 ≤ (i 0).val ∧ (i 0).val < win4_7.index ⟨(i 0).val / 2000, ht⟩ (0 : Fin 2) * 2000 + 2000
    rw [e70]; show (i 0).val / 2000 * 2000 ≤ (i 0).val ∧ (i 0).val < (i 0).val / 2000 * 2000 + 2000; omega
  | ⟨1, _⟩ =>
    show win4_7.index ⟨(i 0).val / 2000, ht⟩ (1 : Fin 2) * 256 ≤ (i 1).val ∧ (i 1).val < win4_7.index ⟨(i 0).val / 2000, ht⟩ (1 : Fin 2) * 256 + 256
    rw [e71]; omega

/-- The features after the region: the kernel's residual layer of the features and the aggregates, whatever the
    entry contents. -/
theorem final (c : Dev nD) : (dat4 (F := Ideal) V c).arrAt 7 cfg4.N = G V c :=
  (dat4 (F := Ideal) V c).arrAt_eq_of_cover 7 (G V c) (fun t _ => flushed_eq V c t) (cover)

end Cert.KernelIdeal.Reg4

end
-- ==== Proof.Reg5.lean ====
/-
  A graph layer with residual, as one region: what its output array holds after the run.

  The region walks the 20000 node rows in 10 blocks of 2000. At each block the body forms the mix
  `(1 + eps) · h + agg` of the block of features and the block of aggregates, multiplies it by the whole first weight
  in three passes, adds the first bias row and takes the positive part; multiplies that by the whole second weight in
  three passes, adds the second bias row, and last adds the block of features back. The block's row `p` is the
  array's row `2000 · t + p`, and an entry of the layer depends on that one row of the features and of the aggregates
  only. So the array ends holding the residual layer of the whole arrays, entry by entry.
-/
import proofs.«414264_j73976516706834_2_alg».proof.Proof.Gen.KernelIdeal.Frame
import proofs.«414264_j73976516706834_2_alg».proof.Proof.Mats
import Idealize.ShloMosaic.PureOps.IdealRules

set_option maxRecDepth 16384

noncomputable section

namespace Cert.KernelIdeal.Reg5

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Gnn

/-! ## The body's products at an entry -/

theorem d_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem d_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem d_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product into the zero accumulator, at entry (p, q): the sum over the 256 inner columns. -/
theorem mm_at (a : FVec Ideal S2000x256 .bf16) (b : FVec Ideal S256x256 .bf16) (p : Fin 2000) (q : Fin 256) :
    matmul (F := Ideal) dot_S2000x256_S256x256_S2000x256_1_0_0_1_n_n none a b (constant S2000x256 .f32 0x00000000#32) (ix2 p q) = ∑ k : Fin 256, a (ix2 p k) * b (ix2 k q) :=
  (Ideal.matmul_constant_zero_apply dot_S2000x256_S256x256_S2000x256_1_0_0_1_n_n none a b (ix2 p q)).trans
    (dot_sum dot_S2000x256_S256x256_S2000x256_1_0_0_1_n_n rfl rfl d_l0 d_l1 d_r0 d_r1 a b p q)

/-! ## The layout operations at an entry -/

/-- A bias row, spread over the block's rows, at entry (p, q). -/
theorem bias_at (x : Arr 1 256) (p : Fin 2000) (q : Fin 256) :
    broadcastTo S2000x256 (shapeCast S1x256 x shapeCasts_S1x256_S1x256) broadcasts_S1x256_S2000x256 (ix2 p q) = x (ix2 0 q) := by
  rw [shapeCast_self]
  exact broadcastTo_apply x broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- A one-entry array, spread over the whole block, at entry (p, q): its one entry. -/
theorem one_at (y : Arr 1 1) (p : Fin 2000) (q : Fin 256) :
    broadcastTo S2000x256 y broadcasts_S1x1_S2000x256 (ix2 p q) = y (ix2 0 0) :=
  broadcastTo_apply y broadcasts_S1x1_S2000x256 (ix2 p q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- The single-precision word of one is the number one. -/
theorem one_f32 : (Scalar.ofBits .f32 0x3F800000#32 : Ideal .f32) = 1 :=
  IdealRules.sign_bit.ideal_onePat .f32

/-- The single-precision word of zero is the number zero. -/
theorem zero_f32 : (Scalar.ofBits .f32 0x00000000#32 : Ideal .f32) = 0 :=
  Ideal.ofBits_zero_f32

/-! ## The body's values at an entry -/

/-- The features' block as the body reads it. -/
theorem pay2_eq (x0 : Arr 2000 256) : k5_pay2 (F := Ideal) x0 = x0 := by
  unfold k5_pay2
  exact shapeCast_self x0 _

/-- The second weight as the body reads it. -/
theorem pay4_eq (x5 : Arr 256 256) : k5_pay4 (F := Ideal) x5 = x5 := by
  unfold k5_pay4
  exact shapeCast_self x5 _

/-- The hidden value at entry (p, q) of the block: the positive part of the three-pass first layer of the mix's row `p`. -/
theorem pay3_at (x0 x1 : Arr 2000 256) (x2 : Arr 1 1) (x3 : Arr 256 256) (x4 : Arr 1 256) (p : Fin 2000) (q : Fin 256) :
    k5_pay3 (F := Ideal) x0 x1 x2 x3 x4 (ix2 p q)
      = relu (linK (mix (toM x0) (toM x1) (x2 (ix2 0 0))) (toM x3) (toRow1 x4)) p q := by
  unfold k5_pay3
  rw [maximumf_apply, addf_apply, addf_apply, addf_apply, mm_at, mm_at, mm_at, bias_at, broadcast_apply]
  simp only [truncf_apply, subf_apply, addf_apply, mulf_apply, one_at, broadcast_apply, shapeCast_self, pay2_eq, one_f32, zero_f32]
  rfl

/-- The hidden value, in the format the second product takes it. -/
theorem pay5_at (x0 x1 : Arr 2000 256) (x2 : Arr 1 1) (x3 : Arr 256 256) (x4 : Arr 1 256) (p : Fin 2000) (q : Fin 256) :
    k5_pay5 (F := Ideal) x0 x1 x2 x3 x4 (ix2 p q)
      = relu (linK (mix (toM x0) (toM x1) (x2 (ix2 0 0))) (toM x3) (toRow1 x4)) p q := by
  unfold k5_pay5
  rw [truncf_apply, pay3_at]

/-- The hidden value's remainder. -/
theorem pay6_at (x0 x1 : Arr 2000 256) (x2 : Arr 1 1) (x3 : Arr 256 256) (x4 : Arr 1 256) (p : Fin 2000) (q : Fin 256) :
    k5_pay6 (F := Ideal) x0 x1 x2 x3 x4 (ix2 p q)
      = relu (linK (mix (toM x0) (toM x1) (x2 (ix2 0 0))) (toM x3) (toRow1 x4)) p q
        - relu (linK (mix (toM x0) (toM x1) (x2 (ix2 0 0))) (toM x3) (toRow1 x4)) p q := by
  unfold k5_pay6
  rw [truncf_apply, subf_apply, pay3_at]

/-- The second weight, in the format the second product takes it. -/
theorem pay7_at (x5 : Arr 256 256) (k : Fin 256) (q : Fin 256) : k5_pay7 (F := Ideal) x5 (ix2 k q) = x5 (ix2 k q) := by
  unfold k5_pay7
  rw [truncf_apply, pay4_eq]

/-- The second weight's remainder. -/
theorem pay8_at (x5 : Arr 256 256) (k : Fin 256) (q : Fin 256) :
    k5_pay8 (F := Ideal) x5 (ix2 k q) = x5 (ix2 k q) - x5 (ix2 k q) := by
  unfold k5_pay8
  rw [truncf_apply, subf_apply, pay4_eq]

/-- The stored value at entry (p, q), over any operands: three products, the bias row, and the first operand last. -/
theorem pay1_at (v1 : Arr 2000 256) (v34 v37 : Arr 2000 256) (v38 v41 : Arr 256 256) (v47 : Arr 1 256) (p : Fin 2000) (q : Fin 256) :
    k5_pay1 (F := Ideal) v1 v34 v37 v38 v41 v47 (ix2 p q)
      = ((((∑ k : Fin 256, v34 (ix2 p k) * v38 (ix2 k q)) + ∑ k : Fin 256, v34 (ix2 p k) * v41 (ix2 k q))
          + ∑ k : Fin 256, v37 (ix2 p k) * v38 (ix2 k q)) + v47 (ix2 0 q)) + v1 (ix2 p q) := by
  unfold k5_pay1
  rw [addf_apply, addf_apply, addf_apply, addf_apply, mm_at, mm_at, mm_at, bias_at]

/-- The body's stored value at entry (p, q) of the block: the residual layer of the blocks' row `p`. -/
theorem pay_at (x0 x1 : Arr 2000 256) (x2 : Arr 1 1) (x3 : Arr 256 256) (x4 : Arr 1 256) (x5 : Arr 256 256) (x6 : Arr 1 256)
    (p : Fin 2000) (q : Fin 256) :
    k5_pay1 (F := Ideal) (k5_pay2 x0) (k5_pay5 x0 x1 x2 x3 x4) (k5_pay6 x0 x1 x2 x3 x4) (k5_pay7 x5) (k5_pay8 x5) x6 (ix2 p q)
      = resK (toM x0) (toM x1) (x2 (ix2 0 0)) (toM x3) (toRow1 x4) (toM x5) (toRow1 x6) p q := by
  rw [pay1_at]
  simp only [pay5_at, pay6_at, pay7_at, pay8_at, pay2_eq]
  rfl

/-! ## From blocks to the array -/

variable (V : (c : Dev nD) → (b : Ref sig .tc) → Buf (Elt Ideal) ((c : Thread nD τ).loc b))

/-- What the output array ends holding: the kernel's residual layer of the whole feature and aggregate arrays. -/
def G (c : Dev nD) : Arr 20000 256 := ofM (resK (toM (V c main_v70 : Arr 20000 256)) (toM (V c main_v78 : Arr 20000 256)) ((V c main_v89 : Arr 1 1) (ix2 0 0)) (toM (V c main_v82 : Arr 256 256)) (toRow1 (V c main_v90 : Arr 1 256)) (toM (V c main_v86 : Arr 256 256)) (toRow1 (V c main_v91 : Arr 1 256)))

theorem hz : (![0, 0] : Fin 2 → Nat) = fun _ => 0 := funext fun a => by fin_cases a <;> rfl

/-- The index maps over the grid: the feature, aggregate and output blocks move down the rows with the point; the
    scalar, the two weights and the two bias rows stay. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-! The scalar's, the weights' and the bias rows' blocks are the whole arrays, at every point. -/

theorem blk2 (c : Dev nD) (t : Fin cfg5.N) : (iblk5 V c 2 t : Arr 1 1) (ix2 0 0) = (V c main_v89 : Arr 1 1) (ix2 0 0) := by
  obtain ⟨-, -, -, -, e20, e21, -⟩ := idx_facts t
  show V c main_v89 (((cfg5.win 2).blk t).view.emb (ix2 0 0)) = V c main_v89 (ix2 0 0)
  refine congrArg (V c main_v89) (funext fun a => Fin.ext ?_)
  match a with
  | ⟨0, _⟩ => show win5_2.index t (0 : Fin 2) * 1 + 1 * 0 = 0; omega
  | ⟨1, _⟩ => show win5_2.index t (1 : Fin 2) * 1 + 1 * 0 = 0; omega

theorem blk3 (c : Dev nD) (t : Fin cfg5.N) : toM (iblk5 V c 3 t) = toM (V c main_v82 : Arr 256 256) := by
  obtain ⟨-, -, -, -, -, -, e30, e31, -⟩ := idx_facts t
  funext k q'
  show V c main_v82 (((cfg5.win 3).blk t).view.emb (ix2 k q')) = V c main_v82 (ix2 k q')
  refine congrArg (V c main_v82) (funext fun a => Fin.ext ?_)
  match a with
  | ⟨0, _⟩ => show win5_3.index t (0 : Fin 2) * 256 + 1 * k.val = k.val; omega
  | ⟨1, _⟩ => show win5_3.index t (1 : Fin 2) * 256 + 1 * q'.val = q'.val; omega

theorem blk4 (c : Dev nD) (t : Fin cfg5.N) : toRow1 (iblk5 V c 4 t) = toRow1 (V c main_v90 : Arr 1 256) := by
  obtain ⟨-, -, -, -, -, -, -, -, e40, e41, -⟩ := idx_facts t
  funext q'
  show V c main_v90 (((cfg5.win 4).blk t).view.emb (ix2 0 q')) = V c main_v90 (ix2 0 q')
  refine congrArg (V c main_v90) (funext fun a => Fin.ext ?_)
  match a with
  | ⟨0, _⟩ => show win5_4.index t (0 : Fin 2) * 1 + 1 * 0 = 0; omega
  | ⟨1, _⟩ => show win5_4.index t (1 : Fin 2) * 256 + 1 * q'.val = q'.val; omega

theorem blk5 (c : Dev nD) (t : Fin cfg5.N) : toM (iblk5 V c 5 t) = toM (V c main_v86 : Arr 256 256) := by
  obtain ⟨-, -, -, -, -, -, -, -, -, -, e50, e51, -⟩ := idx_facts t
  funext k q'
  show V c main_v86 (((cfg5.win 5).blk t).view.emb (ix2 k q')) = V c main_v86 (ix2 k q')
  refine congrArg (V c main_v86) (funext fun a => Fin.ext ?_)
  match a with
  | ⟨0, _⟩ => show win5_5.index t (0 : Fin 2) * 256 + 1 * k.val = k.val; omega
  | ⟨1, _⟩ => show win5_5.index t (1 : Fin 2) * 256 + 1 * q'.val = q'.val; omega

theorem blk6 (c : Dev nD) (t : Fin cfg5.N) : toRow1 (iblk5 V c 6 t) = toRow1 (V c main_v91 : Arr 1 256) := by
  obtain ⟨-, -, -, -, -, -, -, -, -, -, -, -, e60, e61, -⟩ := idx_facts t
  funext q'
  show V c main_v91 (((cfg5.win 6).blk t).view.emb (ix2 0 q')) = V c main_v91 (ix2 0 q')
  refine congrArg (V c main_v91) (funext fun a => Fin.ext ?_)
  match a with
  | ⟨0, _⟩ => show win5_6.index t (0 : Fin 2) * 1 + 1 * 0 = 0; omega
  | ⟨1, _⟩ => show win5_6.index t (1 : Fin 2) * 256 + 1 * q'.val = q'.val; omega

/-! The feature and aggregate blocks' row `p` is the arrays' row under the output block; the output block's column
    `q` is the array's column `q`. -/

theorem col7 (t : Fin cfg5.N) (p : Fin 2000) (q : Fin 256) : ((((cfg5.win 7).blk t).view.emb (ix2 p q)) 1 : Fin 256) = q := by
  obtain ⟨-, -, -, -, -, -, -, -, -, -, -, -, -, -, e70, e71⟩ := idx_facts t
  exact Fin.ext (by show win5_7.index t (1 : Fin 2) * 256 + 1 * q.val = q.val; omega)

theorem row0 (c : Dev nD) (t : Fin cfg5.N) (p : Fin 2000) (q k : Fin 256) :
    toM (iblk5 V c 0 t) p k = toM (V c main_v70 : Arr 20000 256) ((((cfg5.win 7).blk t).view.emb (ix2 p q)) 0) k := by
  obtain ⟨e00, e01, -, -, -, -, -, -, -, -, -, -, -, -, e70, e71⟩ := idx_facts t
  show V c main_v70 (((cfg5.win 0).blk t).view.emb (ix2 p k)) = V c main_v70 (ix2 ((((cfg5.win 7).blk t).view.emb (ix2 p q)) 0) k)
  refine congrArg (V c main_v70) (funext fun a => Fin.ext ?_)
  match a with
  | ⟨0, _⟩ => show win5_0.index t (0 : Fin 2) * 2000 + 1 * p.val = win5_7.index t (0 : Fin 2) * 2000 + 1 * p.val; omega
  | ⟨1, _⟩ => show win5_0.index t (1 : Fin 2) * 256 + 1 * k.val = k.val; omega

theorem row1 (c : Dev nD) (t : Fin cfg5.N) (p : Fin 2000) (q k : Fin 256) :
    toM (iblk5 V c 1 t) p k = toM (V c main_v78 : Arr 20000 256) ((((cfg5.win 7).blk t).view.emb (ix2 p q)) 0) k := by
  obtain ⟨-, -, e10, e11, -, -, -, -, -, -, -, -, -, -, e70, e71⟩ := idx_facts t
  show V c main_v78 (((cfg5.win 1).blk t).view.emb (ix2 p k)) = V c main_v78 (ix2 ((((cfg5.win 7).blk t).view.emb (ix2 p q)) 0) k)
  refine congrArg (V c main_v78) (funext fun a => Fin.ext ?_)
  match a with
  | ⟨0, _⟩ => show win5_1.index t (0 : Fin 2) * 2000 + 1 * p.val = win5_7.index t (0 : Fin 2) * 2000 + 1 * p.val; omega
  | ⟨1, _⟩ => show win5_1.index t (1 : Fin 2) * 256 + 1 * k.val = k.val; omega

theorem flushed_eq (c : Dev nD) (t : Fin cfg5.N) :
    (dat5 (F := Ideal) V c).flushed 7 t = ((cfg5.win 7).blk t).view.read (Elt Ideal) (G V c) := by
  show (cfg5.win 7).cut (grid5.coords t) ((dat5 (F := Ideal) V c).after 7 t) = _
  rw [after5_7]
  unfold out5_7
  rw [View.canon_unit_zero hz]
  simp only [View.ld_unit_zero (S := S2000x256) hz, View.ld_unit_zero (S := S1x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k5_pay1 (F := Ideal) (k5_pay2 (iblk5 V c 0 t)) (k5_pay5 (iblk5 V c 0 t) (iblk5 V c 1 t) (iblk5 V c 2 t) (iblk5 V c 3 t) (iblk5 V c 4 t))
      (k5_pay6 (iblk5 V c 0 t) (iblk5 V c 1 t) (iblk5 V c 2 t) (iblk5 V c 3 t) (iblk5 V c 4 t)) (k5_pay7 (iblk5 V c 5 t)) (k5_pay8 (iblk5 V c 5 t))
      (iblk5 V c 6 t) (ix2 p q)
    = G V c (((cfg5.win 7).blk t).view.emb (ix2 p q))
  refine (pay_at (iblk5 V c 0 t) (iblk5 V c 1 t) (iblk5 V c 2 t) (iblk5 V c 3 t) (iblk5 V c 4 t) (iblk5 V c 5 t) (iblk5 V c 6 t) p q).trans ?_
  rw [blk2 V c t, blk3 V c t, blk4 V c t, blk5 V c t, blk6 V c t]
  show resK (toM (iblk5 V c 0 t)) (toM (iblk5 V c 1 t)) ((V c main_v89 : Arr 1 1) (ix2 0 0)) (toM (V c main_v82 : Arr 256 256)) (toRow1 (V c main_v90 : Arr 1 256)) (toM (V c main_v86 : Arr 256 256)) (toRow1 (V c main_v91 : Arr 1 256)) p q
    = resK (toM (V c main_v70 : Arr 20000 256)) (toM (V c main_v78 : Arr 20000 256)) ((V c main_v89 : Arr 1 1) (ix2 0 0)) (toM (V c main_v82 : Arr 256 256)) (toRow1 (V c main_v90 : Arr 1 256)) (toM (V c main_v86 : Arr 256 256)) (toRow1 (V c main_v91 : Arr 1 256))
        ((((cfg5.win 7).blk t).view.emb (ix2 p q)) 0) ((((cfg5.win 7).blk t).view.emb (ix2 p q)) 1)
  rw [col7 t p q]
  exact resK_row _ _ _ _ _ (fun k => row0 V c t p q k) (fun k => row1 V c t p q k) q

theorem mem_blk (t : Fin cfg5.N) (i : S20000x256.Idx) :
    i ∈ ((cfg5.win 7).blk t).view.set ↔ ∀ a : Fin 2, win5_7.index t a * S2000x256.size a ≤ (i a).val ∧ (i a).val < win5_7.index t a * S2000x256.size a + S2000x256.size a := by
  show i ∈ ((View.whole main_v92).slice (win5_7.rect t)).set ↔ _
  rw [View.set_slice_whole, Rect.mem_set_unit]
  exact Iff.rfl

/-- Every row of the array lies in the block of the point `row / 2000`. -/
theorem cover (i : S20000x256.Idx) : ∃ t : Fin cfg5.N, (cfg5.win 7).flush t = true ∧ i ∈ ((cfg5.win 7).blk t).view.set := by
  have hi0 : (i 0).val < 20000 := (i 0).isLt
  have hi1 : (i 1).val < 256 := (i 1).isLt
  have hN : cfg5.N = 10 := N_5
  have ht : (i 0).val / 2000 < cfg5.N := by rw [hN]; omega
  refine ⟨⟨(i 0).val / 2000, ht⟩, flush5_7 _, ?_⟩
  rw [mem_blk]
  obtain ⟨-, -, -, -, -, -, -, -, -, -, -, -, -, -, e70, e71⟩ := idx_facts ⟨(i 0).val / 2000, ht⟩
  intro a
  match a with
  | ⟨0, _⟩ =>
    show win5_7.index ⟨(i 0).val / 2000, ht⟩ (0 : Fin 2) * 2000 ≤ (i 0).val ∧ (i 0).val < win5_7.index ⟨(i 0).val / 2000, ht⟩ (0 : Fin 2) * 2000 + 2000
    rw [e70]; show (i 0).val / 2000 * 2000 ≤ (i 0).val ∧ (i 0).val < (i 0).val / 2000 * 2000 + 2000; omega
  | ⟨1, _⟩ =>
    show win5_7.index ⟨(i 0).val / 2000, ht⟩ (1 : Fin 2) * 256 ≤ (i 1).val ∧ (i 1).val < win5_7.index ⟨(i 0).val / 2000, ht⟩ (1 : Fin 2) * 256 + 256
    rw [e71]; omega

/-- The features after the region: the kernel's residual layer of the features and the aggregates, whatever the
    entry contents. -/
theorem final (c : Dev nD) : (dat5 (F := Ideal) V c).arrAt 7 cfg5.N = G V c :=
  (dat5 (F := Ideal) V c).arrAt_eq_of_cover 7 (G V c) (fun t _ => flushed_eq V c t) (cover)

end Cert.KernelIdeal.Reg5

end
-- ==== Proof.Reg6.lean ====
/-
  The last residual graph layer fused with the head: what the region's output array holds after the run.

  The region walks the 20000 node rows in 10 blocks of 2000. At each block the body forms (1 + eps) times the node
  block plus the aggregate block, multiplies it by the first weight in three passes and adds the first bias row, takes
  the positive part, multiplies by the second weight in three passes and adds the second bias row, adds the node block
  back, and multiplies the result by the head's padded weight of 128 columns in three passes and adds the head's padded
  bias row. Every change of float format is the identity on extended reals, so each three-pass product is the
  specification's, remainders `x - x` included. The block's row `p` is the arrays' row `2000 · t + p`, and an entry
  of each layer depends on that one row of the node and aggregate arrays only. So the array ends holding the head's
  layer of the residual layer of the whole arrays, entry by entry.
-/
import proofs.«414264_j73976516706834_2_alg».proof.Proof.Gen.KernelIdeal.Frame
import proofs.«414264_j73976516706834_2_alg».proof.Proof.Mats

set_option maxRecDepth 16384

noncomputable section

namespace Cert.KernelIdeal.Reg6

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Gnn

/-! ## The body's products at an entry -/

theorem dA_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dA_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem dA_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem dA_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem dH_l0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dH_l1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem dH_r0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem dH_r1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A product of a block of node rows with a square weight into the zero accumulator, at entry (p, q): the sum
    over the 256 feature columns. -/
theorem mmA_at (a : FVec Ideal S2000x256 .bf16) (b : FVec Ideal S256x256 .bf16) (p : Fin 2000) (q : Fin 256) :
    matmul (F := Ideal) dot_S2000x256_S256x256_S2000x256_1_0_0_1_n_n none a b (constant S2000x256 .f32 0x00000000#32) (ix2 p q) = ∑ k : Fin 256, a (ix2 p k) * b (ix2 k q) :=
  (Ideal.matmul_constant_zero_apply dot_S2000x256_S256x256_S2000x256_1_0_0_1_n_n none a b (ix2 p q)).trans
    (dot_sum dot_S2000x256_S256x256_S2000x256_1_0_0_1_n_n rfl rfl dA_l0 dA_l1 dA_r0 dA_r1 a b p q)

/-- The same against the head's weight of 128 columns. -/
theorem mmH_at (a : FVec Ideal S2000x256 .bf16) (b : FVec Ideal S256x128 .bf16) (p : Fin 2000) (q : Fin 128) :
    matmul (F := Ideal) dot_S2000x256_S256x128_S2000x128_1_0_0_1_n_n none a b (constant S2000x128 .f32 0x00000000#32) (ix2 p q) = ∑ k : Fin 256, a (ix2 p k) * b (ix2 k q) :=
  (Ideal.matmul_constant_zero_apply dot_S2000x256_S256x128_S2000x128_1_0_0_1_n_n none a b (ix2 p q)).trans
    (dot_sum dot_S2000x256_S256x128_S2000x128_1_0_0_1_n_n rfl rfl dH_l0 dH_l1 dH_r0 dH_r1 a b p q)

/-- A bias row of 256 entries, spread over the block's rows, at entry (p, q). -/
theorem biasA_at (x : Arr 1 256) (p : Fin 2000) (q : Fin 256) :
    broadcastTo S2000x256 x broadcasts_S1x256_S2000x256 (ix2 p q) = x (ix2 0 q) :=
  broadcastTo_apply x broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- The head's bias row of 128 entries, spread over the block's rows, at entry (p, q). -/
theorem biasH_at (x : Arr 1 128) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- A [1, 1] block spread over the whole block, at entry (p, q): its one entry. -/
theorem one_at (x : Arr 1 1) (p : Fin 2000) (q : Fin 256) :
    broadcastTo S2000x256 x broadcasts_S1x1_S2000x256 (ix2 p q) = x (ix2 0 0) :=
  broadcastTo_apply x broadcasts_S1x1_S2000x256 (ix2 p q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- The single-precision word of 1.0 reads the number one. -/
theorem one_word : (Scalar.ofBits .f32 0x3F800000#32 : Ideal .f32) = 1 :=
  IdealRules.sign_bit.ideal_onePat .f32

/-! ## A layer in three passes, as a whole block

The body forms a layer as three products into zero accumulators — the operands, the left operand against the right
one's remainder, the left one's remainder against the right operand — added in that order, plus the bias row spread
over the rows. Every change of float format is the identity on extended reals, so the block it leaves is the
specification's three-pass layer of the operands' matrices. -/

/-- The three products and the bias at entry (p, q), for any four operands standing for leading parts and remainders. -/
theorem threeA_at (a a' : FVec Ideal S2000x256 .bf16) (w w' : FVec Ideal S256x256 .bf16) (b : FVec Ideal S1x256 .f32) (p : Fin 2000) (q : Fin 256) :
    addf (addf (addf (matmul (F := Ideal) dot_S2000x256_S256x256_S2000x256_1_0_0_1_n_n none a w (constant S2000x256 .f32 0x00000000#32)) (matmul (F := Ideal) dot_S2000x256_S256x256_S2000x256_1_0_0_1_n_n none a w' (constant S2000x256 .f32 0x00000000#32))) (matmul (F := Ideal) dot_S2000x256_S256x256_S2000x256_1_0_0_1_n_n none a' w (constant S2000x256 .f32 0x00000000#32))) (broadcastTo S2000x256 b broadcasts_S1x256_S2000x256) (ix2 p q)
      = ((∑ k : Fin 256, a (ix2 p k) * w (ix2 k q) + ∑ k : Fin 256, a (ix2 p k) * w' (ix2 k q)) + ∑ k : Fin 256, a' (ix2 p k) * w (ix2 k q)) + b (ix2 0 q) := by
  rw [addf_apply, addf_apply, addf_apply, mmA_at, mmA_at, mmA_at, biasA_at]

theorem threeH_at (a a' : FVec Ideal S2000x256 .bf16) (w w' : FVec Ideal S256x128 .bf16) (b : FVec Ideal S1x128 .f32) (p : Fin 2000) (q : Fin 128) :
    addf (addf (addf (matmul (F := Ideal) dot_S2000x256_S256x128_S2000x128_1_0_0_1_n_n none a w (constant S2000x128 .f32 0x00000000#32)) (matmul (F := Ideal) dot_S2000x256_S256x128_S2000x128_1_0_0_1_n_n none a w' (constant S2000x128 .f32 0x00000000#32))) (matmul (F := Ideal) dot_S2000x256_S256x128_S2000x128_1_0_0_1_n_n none a' w (constant S2000x128 .f32 0x00000000#32))) (broadcastTo S2000x128 b broadcasts_S1x128_S2000x128) (ix2 p q)
      = ((∑ k : Fin 256, a (ix2 p k) * w (ix2 k q) + ∑ k : Fin 256, a (ix2 p k) * w' (ix2 k q)) + ∑ k : Fin 256, a' (ix2 p k) * w (ix2 k q)) + b (ix2 0 q) := by
  rw [addf_apply, addf_apply, addf_apply, mmH_at, mmH_at, mmH_at, biasH_at]

/-- A layer against a square weight: the block the three passes leave is the three-pass layer of the matrices. -/
theorem linA_fn (X : FVec Ideal S2000x256 .f32) (W : FVec Ideal S256x256 .f32) (b : FVec Ideal S1x256 .f32) :
    addf (addf (addf (matmul (F := Ideal) dot_S2000x256_S256x256_S2000x256_1_0_0_1_n_n none (truncf .bf16 X bitsLt_bf16_f32) (truncf .bf16 W bitsLt_bf16_f32) (constant S2000x256 .f32 0x00000000#32))
          (matmul (F := Ideal) dot_S2000x256_S256x256_S2000x256_1_0_0_1_n_n none (truncf .bf16 X bitsLt_bf16_f32) (truncf .bf16 (subf W W) bitsLt_bf16_f32) (constant S2000x256 .f32 0x00000000#32)))
        (matmul (F := Ideal) dot_S2000x256_S256x256_S2000x256_1_0_0_1_n_n none (truncf .bf16 (subf X X) bitsLt_bf16_f32) (truncf .bf16 W bitsLt_bf16_f32) (constant S2000x256 .f32 0x00000000#32)))
      (broadcastTo S2000x256 b broadcasts_S1x256_S2000x256)
      = ofM (linK (toM X) (toM W) (toRow1 b)) := by
  funext j
  obtain ⟨p, q, rfl⟩ : ∃ (p : Fin 2000) (q : Fin 256), j = ix2 p q := ⟨j 0, j 1, eq_ix2 j⟩
  exact (threeA_at _ _ _ _ b p q).trans rfl

/-- The head's layer, against the weight of 128 columns. -/
theorem linH_fn (X : FVec Ideal S2000x256 .f32) (W : FVec Ideal S256x128 .f32) (b : FVec Ideal S1x128 .f32) :
    addf (addf (addf (matmul (F := Ideal) dot_S2000x256_S256x128_S2000x128_1_0_0_1_n_n none (truncf .bf16 X bitsLt_bf16_f32) (truncf .bf16 W bitsLt_bf16_f32) (constant S2000x128 .f32 0x00000000#32))
          (matmul (F := Ideal) dot_S2000x256_S256x128_S2000x128_1_0_0_1_n_n none (truncf .bf16 X bitsLt_bf16_f32) (truncf .bf16 (subf W W) bitsLt_bf16_f32) (constant S2000x128 .f32 0x00000000#32)))
        (matmul (F := Ideal) dot_S2000x256_S256x128_S2000x128_1_0_0_1_n_n none (truncf .bf16 (subf X X) bitsLt_bf16_f32) (truncf .bf16 W bitsLt_bf16_f32) (constant S2000x128 .f32 0x00000000#32)))
      (broadcastTo S2000x128 b broadcasts_S1x128_S2000x128)
      = ofM (linK (toM X) (toM W) (toRow1 b)) := by
  funext j
  obtain ⟨p, q, rfl⟩ : ∃ (p : Fin 2000) (q : Fin 128), j = ix2 p q := ⟨j 0, j 1, eq_ix2 j⟩
  exact (threeH_at _ _ _ _ b p q).trans rfl

/-- What the layer's products are fed: (1 + eps) times the node block plus the aggregate block. -/
theorem mix_fn (h g : FVec Ideal S2000x256 .f32) (e : FVec Ideal S1x1 .f32) :
    addf (mulf (broadcastTo S2000x256 (addf (broadcast S1x1 (Scalar.ofBits .f32 0x3F800000#32 : Ideal .f32)) e) broadcasts_S1x1_S2000x256) h) g
      = ofM (mix (toM h) (toM g) (e (ix2 0 0))) := by
  funext j
  obtain ⟨p, q, rfl⟩ : ∃ (p : Fin 2000) (q : Fin 256), j = ix2 p q := ⟨j 0, j 1, eq_ix2 j⟩
  rw [addf_apply, mulf_apply, one_at, addf_apply, broadcast_apply, one_word]
  rfl

/-- The positive part of a block: the maximum with a block of zeros. -/
theorem relu_fn (X : FVec Ideal S2000x256 .f32) :
    maximumf X (broadcast S2000x256 (Scalar.ofBits .f32 0x00000000#32 : Ideal .f32)) = ofM (relu (toM X)) := by
  funext j
  obtain ⟨p, q, rfl⟩ : ∃ (p : Fin 2000) (q : Fin 256), j = ix2 p q := ⟨j 0, j 1, eq_ix2 j⟩
  rw [maximumf_apply, broadcast_apply]
  show max (X (ix2 p q)) (Ideal.ofBits .f32 0x00000000#32) = max (X (ix2 p q)) 0
  rw [Ideal.ofBits_zero_f32]

/-- Adding the node block to a block given as a matrix: entry by entry. -/
theorem res_fn (g : Mat 2000 256) (h : FVec Ideal S2000x256 .f32) :
    addf (ofM g : FVec Ideal S2000x256 .f32) h = ofM (fun i j => g i j + toM h i j) := by
  funext j
  obtain ⟨p, q, rfl⟩ : ∃ (p : Fin 2000) (q : Fin 256), j = ix2 p q := ⟨j 0, j 1, eq_ix2 j⟩
  rfl

/-! ## The body's values -/

/-- The first layer's positive part, as the body holds it before the second product. -/
theorem pay3_fn (x0 x1 : FVec Ideal S2000x256 .f32) (x2 : FVec Ideal S1x1 .f32) (x3 : FVec Ideal S256x256 .f32) (x4 : FVec Ideal S1x256 .f32) :
    k6_pay3 (F := Ideal) x0 x1 x2 x3 x4 = ofM (relu (linK (mix (toM x0) (toM x1) (x2 (ix2 0 0))) (toM x3) (toRow1 x4))) := by
  unfold k6_pay3 k6_pay2
  dsimp only
  rw [shapeCast_self, shapeCast_self, shapeCast_self, shapeCast_self, shapeCast_self]
  rw [mix_fn, linA_fn, relu_fn]
  rfl

/-- The value the body stores, as a whole block: the head's three-pass layer of the residual layer of the blocks'
    matrices. The second layer's operands arrive as the first layer's positive part and its remainder, the second
    weight and its remainder; the node block is added after the second bias, and the head's layer follows. -/
theorem pay_fn (x0 x1 : FVec Ideal S2000x256 .f32) (x2 : FVec Ideal S1x1 .f32) (x3 : FVec Ideal S256x256 .f32) (x4 : FVec Ideal S1x256 .f32)
    (x5 : FVec Ideal S256x256 .f32) (x6 : FVec Ideal S1x256 .f32) (x7 : FVec Ideal S256x128 .f32) (x8 : FVec Ideal S1x128 .f32) :
    k6_pay1 (F := Ideal) (k6_pay2 x0) (k6_pay5 x0 x1 x2 x3 x4) (k6_pay6 x0 x1 x2 x3 x4) (k6_pay7 x5) (k6_pay8 x5) x6 x7 x8
      = ofM (linK (resK (toM x0) (toM x1) (x2 (ix2 0 0)) (toM x3) (toRow1 x4) (toM x5) (toRow1 x6)) (toM x7) (toRow1 x8)) := by
  unfold k6_pay1 k6_pay2 k6_pay5 k6_pay6 k6_pay7 k6_pay8 k6_pay4
  dsimp only
  rw [shapeCast_self, shapeCast_self, shapeCast_self, shapeCast_self, shapeCast_self]
  rw [pay3_fn, linA_fn, res_fn, linH_fn]
  rfl

/-- The body's stored value at entry (p, q) of the block. -/
theorem pay_at (x0 x1 : Arr 2000 256) (x2 : Arr 1 1) (x3 : Arr 256 256) (x4 : Arr 1 256) (x5 : Arr 256 256) (x6 : Arr 1 256)
    (x7 : Arr 256 128) (x8 : Arr 1 128) (p : Fin 2000) (q : Fin 128) :
    k6_pay1 (F := Ideal) (k6_pay2 x0) (k6_pay5 x0 x1 x2 x3 x4) (k6_pay6 x0 x1 x2 x3 x4) (k6_pay7 x5) (k6_pay8 x5) x6 x7 x8 (ix2 p q)
      = linK (resK (toM x0) (toM x1) (x2 (ix2 0 0)) (toM x3) (toRow1 x4) (toM x5) (toRow1 x6)) (toM x7) (toRow1 x8) p q :=
  congrFun (pay_fn x0 x1 x2 x3 x4 x5 x6 x7 x8) (ix2 p q)

/-! ## From blocks to the array -/

variable (V : (c : Dev nD) → (b : Ref sig .tc) → Buf (Elt Ideal) ((c : Thread nD τ).loc b))

/-- What the output array ends holding: the head's layer of the last residual layer of the whole node and
    aggregate arrays, against the weights, bias rows and the scalar as the region finds them. -/
def G (c : Dev nD) : Arr 20000 128 := ofM (linK (resK (toM (V c main_v92 : Arr 20000 256)) (toM (V c main_v100 : Arr 20000 256)) ((V c main_v111 : Arr 1 1) (ix2 0 0)) (toM (V c main_v104 : Arr 256 256)) (toRow1 (V c main_v112 : Arr 1 256)) (toM (V c main_v108 : Arr 256 256)) (toRow1 (V c main_v113 : Arr 1 256))) (toM (V c main_v23 : Arr 256 128)) (toRow1 (V c main_v114 : Arr 1 128)))

theorem hz : (![0, 0] : Fin 2 → Nat) = fun _ => 0 := funext fun a => by fin_cases a <;> rfl

/-- The index maps over the grid: the node, aggregate and output blocks move down the rows with the point; the
    scalar, the weights and the bias rows stay. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = t.val ∧ win6_9.index t (1 : Fin 2) = 0 :=
  (by decide +kernel : ∀ t : Fin grid6.N, _)

theorem flushed_eq (c : Dev nD) (t : Fin cfg6.N) :
    (dat6 (F := Ideal) V c).flushed 9 t = ((cfg6.win 9).blk t).view.read (Elt Ideal) (G V c) := by
  show (cfg6.win 9).cut (grid6.coords t) ((dat6 (F := Ideal) V c).after 9 t) = _
  rw [after6_9]
  unfold out6_9
  rw [View.canon_unit_zero hz]
  simp only [View.ld_unit_zero (S := S2000x256) hz, View.ld_unit_zero (S := S1x1) hz, View.ld_unit_zero (S := S256x256) hz, View.ld_unit_zero (S := S1x256) hz, View.ld_unit_zero (S := S256x128) hz, View.ld_unit_zero (S := S1x128) hz]
  obtain ⟨a0, b0, a1, b1, a2, b2, a3, b3, a4, b4, a5, b5, a6, b6, a7, b7, a8, b8, a9, b9⟩ := idx_facts t
  funext j
  obtain ⟨p, q, rfl⟩ : ∃ (p : Fin 2000) (q : Fin 128), j = ix2 p q := ⟨j 0, j 1, eq_ix2 j⟩
  show k6_pay1 (F := Ideal) (k6_pay2 (iblk6 V c 0 t)) (k6_pay5 (iblk6 V c 0 t) (iblk6 V c 1 t) (iblk6 V c 2 t) (iblk6 V c 3 t) (iblk6 V c 4 t)) (k6_pay6 (iblk6 V c 0 t) (iblk6 V c 1 t) (iblk6 V c 2 t) (iblk6 V c 3 t) (iblk6 V c 4 t)) (k6_pay7 (iblk6 V c 5 t)) (k6_pay8 (iblk6 V c 5 t)) (iblk6 V c 6 t) (iblk6 V c 7 t) (iblk6 V c 8 t) (ix2 p q)
    = G V c (((cfg6.win 9).blk t).view.emb (ix2 p q))
  refine (pay_at (iblk6 V c 0 t) (iblk6 V c 1 t) (iblk6 V c 2 t) (iblk6 V c 3 t) (iblk6 V c 4 t) (iblk6 V c 5 t) (iblk6 V c 6 t) (iblk6 V c 7 t) (iblk6 V c 8 t) p q).trans ?_
  -- the scalar's, the weights' and the bias rows' blocks are the whole arrays
  have he : (iblk6 V c 2 t) (ix2 0 0) = (V c main_v111 : Arr 1 1) (ix2 0 0) := by
    show V c main_v111 (((cfg6.win 2).blk t).view.emb (ix2 0 0)) = V c main_v111 (ix2 0 0)
    refine congrArg (V c main_v111) (funext fun a => Fin.ext ?_)
    match a with
    | ⟨0, _⟩ => show win6_2.index t (0 : Fin 2) * 1 + 1 * 0 = 0; omega
    | ⟨1, _⟩ => show win6_2.index t (1 : Fin 2) * 1 + 1 * 0 = 0; omega
  have hw1 : toM (iblk6 V c 3 t) = toM (V c main_v104 : Arr 256 256) := by
    funext k q'
    show V c main_v104 (((cfg6.win 3).blk t).view.emb (ix2 k q')) = V c main_v104 (ix2 k q')
    refine congrArg (V c main_v104) (funext fun a => Fin.ext ?_)
    match a with
    | ⟨0, _⟩ => show win6_3.index t (0 : Fin 2) * 256 + 1 * k.val = k.val; omega
    | ⟨1, _⟩ => show win6_3.index t (1 : Fin 2) * 256 + 1 * q'.val = q'.val; omega
  have hb1 : toRow1 (iblk6 V c 4 t) = toRow1 (V c main_v112 : Arr 1 256) := by
    funext q'
    show V c main_v112 (((cfg6.win 4).blk t).view.emb (ix2 0 q')) = V c main_v112 (ix2 0 q')
    refine congrArg (V c main_v112) (funext fun a => Fin.ext ?_)
    match a with
    | ⟨0, _⟩ => show win6_4.index t (0 : Fin 2) * 1 + 1 * 0 = 0; omega
    | ⟨1, _⟩ => show win6_4.index t (1 : Fin 2) * 256 + 1 * q'.val = q'.val; omega
  have hw2 : toM (iblk6 V c 5 t) = toM (V c main_v108 : Arr 256 256) := by
    funext k q'
    show V c main_v108 (((cfg6.win 5).blk t).view.emb (ix2 k q')) = V c main_v108 (ix2 k q')
    refine congrArg (V c main_v108) (funext fun a => Fin.ext ?_)
    match a with
    | ⟨0, _⟩ => show win6_5.index t (0 : Fin 2) * 256 + 1 * k.val = k.val; omega
    | ⟨1, _⟩ => show win6_5.index t (1 : Fin 2) * 256 + 1 * q'.val = q'.val; omega
  have hb2 : toRow1 (iblk6 V c 6 t) = toRow1 (V c main_v113 : Arr 1 256) := by
    funext q'
    show V c main_v113 (((cfg6.win 6).blk t).view.emb (ix2 0 q')) = V c main_v113 (ix2 0 q')
    refine congrArg (V c main_v113) (funext fun a => Fin.ext ?_)
    match a with
    | ⟨0, _⟩ => show win6_6.index t (0 : Fin 2) * 1 + 1 * 0 = 0; omega
    | ⟨1, _⟩ => show win6_6.index t (1 : Fin 2) * 256 + 1 * q'.val = q'.val; omega
  have hwh : toM (iblk6 V c 7 t) = toM (V c main_v23 : Arr 256 128) := by
    funext k q'
    show V c main_v23 (((cfg6.win 7).blk t).view.emb (ix2 k q')) = V c main_v23 (ix2 k q')
    refine congrArg (V c main_v23) (funext fun a => Fin.ext ?_)
    match a with
    | ⟨0, _⟩ => show win6_7.index t (0 : Fin 2) * 256 + 1 * k.val = k.val; omega
    | ⟨1, _⟩ => show win6_7.index t (1 : Fin 2) * 128 + 1 * q'.val = q'.val; omega
  have hbh : toRow1 (iblk6 V c 8 t) = toRow1 (V c main_v114 : Arr 1 128) := by
    funext q'
    show V c main_v114 (((cfg6.win 8).blk t).view.emb (ix2 0 q')) = V c main_v114 (ix2 0 q')
    refine congrArg (V c main_v114) (funext fun a => Fin.ext ?_)
    match a with
    | ⟨0, _⟩ => show win6_8.index t (0 : Fin 2) * 1 + 1 * 0 = 0; omega
    | ⟨1, _⟩ => show win6_8.index t (1 : Fin 2) * 128 + 1 * q'.val = q'.val; omega
  rw [he, hw1, hb1, hw2, hb2, hwh, hbh]
  -- the blocks' row p is the arrays' row under the output block
  show linK (resK (toM (iblk6 V c 0 t)) (toM (iblk6 V c 1 t)) ((V c main_v111 : Arr 1 1) (ix2 0 0)) (toM (V c main_v104 : Arr 256 256)) (toRow1 (V c main_v112 : Arr 1 256)) (toM (V c main_v108 : Arr 256 256)) (toRow1 (V c main_v113 : Arr 1 256))) (toM (V c main_v23 : Arr 256 128)) (toRow1 (V c main_v114 : Arr 1 128)) p q
    = linK (resK (toM (V c main_v92 : Arr 20000 256)) (toM (V c main_v100 : Arr 20000 256)) ((V c main_v111 : Arr 1 1) (ix2 0 0)) (toM (V c main_v104 : Arr 256 256)) (toRow1 (V c main_v112 : Arr 1 256)) (toM (V c main_v108 : Arr 256 256)) (toRow1 (V c main_v113 : Arr 1 256))) (toM (V c main_v23 : Arr 256 128)) (toRow1 (V c main_v114 : Arr 1 128)) ((((cfg6.win 9).blk t).view.emb (ix2 p q)) 0) ((((cfg6.win 9).blk t).view.emb (ix2 p q)) 1)
  have hq : ((((cfg6.win 9).blk t).view.emb (ix2 p q)) 1 : Fin 128) = q := Fin.ext (by
    show win6_9.index t (1 : Fin 2) * 128 + 1 * q.val = q.val; omega)
  rw [hq]
  refine linK_row _ _ (fun k => resK_row _ _ _ _ _ (fun k' => ?_) (fun k' => ?_) k) q
  · show V c main_v92 (((cfg6.win 0).blk t).view.emb (ix2 p k')) = V c main_v92 (ix2 ((((cfg6.win 9).blk t).view.emb (ix2 p q)) 0) k')
    refine congrArg (V c main_v92) (funext fun a => Fin.ext ?_)
    match a with
    | ⟨0, _⟩ => show win6_0.index t (0 : Fin 2) * 2000 + 1 * p.val = win6_9.index t (0 : Fin 2) * 2000 + 1 * p.val; omega
    | ⟨1, _⟩ => show win6_0.index t (1 : Fin 2) * 256 + 1 * k'.val = k'.val; omega
  · show V c main_v100 (((cfg6.win 1).blk t).view.emb (ix2 p k')) = V c main_v100 (ix2 ((((cfg6.win 9).blk t).view.emb (ix2 p q)) 0) k')
    refine congrArg (V c main_v100) (funext fun a => Fin.ext ?_)
    match a with
    | ⟨0, _⟩ => show win6_1.index t (0 : Fin 2) * 2000 + 1 * p.val = win6_9.index t (0 : Fin 2) * 2000 + 1 * p.val; omega
    | ⟨1, _⟩ => show win6_1.index t (1 : Fin 2) * 256 + 1 * k'.val = k'.val; omega

theorem mem_blk (t : Fin cfg6.N) (i : S20000x128.Idx) :
    i ∈ ((cfg6.win 9).blk t).view.set ↔ ∀ a : Fin 2, win6_9.index t a * S2000x128.size a ≤ (i a).val ∧ (i a).val < win6_9.index t a * S2000x128.size a + S2000x128.size a := by
  show i ∈ ((View.whole main_v115).slice (win6_9.rect t)).set ↔ _
  rw [View.set_slice_whole, Rect.mem_set_unit]
  exact Iff.rfl

/-- Every row of the array lies in the block of the point `row / 2000`. -/
theorem cover (i : S20000x128.Idx) : ∃ t : Fin cfg6.N, (cfg6.win 9).flush t = true ∧ i ∈ ((cfg6.win 9).blk t).view.set := by
  have hi0 : (i 0).val < 20000 := (i 0).isLt
  have hi1 : (i 1).val < 128 := (i 1).isLt
  have hN : cfg6.N = 10 := N_6
  have ht : (i 0).val / 2000 < cfg6.N := by rw [hN]; omega
  refine ⟨⟨(i 0).val / 2000, ht⟩, flush6_9 _, ?_⟩
  rw [mem_blk]
  obtain ⟨-, -, -, -, -, -, -, -, -, -, -, -, -, -, -, -, -, -, e0, e1⟩ := idx_facts ⟨(i 0).val / 2000, ht⟩
  intro a
  match a with
  | ⟨0, _⟩ =>
    show win6_9.index ⟨(i 0).val / 2000, ht⟩ (0 : Fin 2) * 2000 ≤ (i 0).val ∧ (i 0).val < win6_9.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win6_9.index ⟨(i 0).val / 2000, ht⟩ (1 : Fin 2) * 128 ≤ (i 1).val ∧ (i 1).val < win6_9.index ⟨(i 0).val / 2000, ht⟩ (1 : Fin 2) * 128 + 128
    rw [e1]; omega

/-- The head's output after the region: the kernel's head layer of its last residual layer, whatever the entry contents. -/
theorem final (c : Dev nD) : (dat6 (F := Ideal) V c).arrAt 9 cfg6.N = G V c :=
  (dat6 (F := Ideal) V c).arrAt_eq_of_cover 9 (G V c) (fun t _ => flushed_eq V c t) (cover)

end Cert.KernelIdeal.Reg6

end
-- ==== Proof.KGlueAgg.lean ====
/-
  The aggregation step of the kernel program's host code. Between two regions the host code computes, from the node
  features `h` the last region left, the edge encoding `e` (bf16, read exactly as reals here) and the edge index,

      agg = segment_sum (max (take h src + e) 0) dst,

  where `src` is row 0 and `dst` row 1 of the edge index, `take` reads the row of `h` named by an index wrapped by
  `+ 20000` where negative (and fills a row with the word `0x7FC00000` where the wrapped index is still outside
  `[0, 19999]`), and `segment_sum` adds each edge's row into the row of its destination node, from zero.

  `srcOf`, `dstOf`, `takeVec`, `aggVec` are these functions as the program prints them, over plain arrays; `aggK` is the
  step on matrices. The theorems read the program's buffers at the boundaries of its run: the two index vectors after
  the first stretch of host operations, and the aggregate at each of the five places the step occurs, as `aggVec` of
  the buffers at the previous region's exit.
-/
import proofs.«414264_j73976516706834_2_alg».proof.Proof.KRun
import proofs.«414264_j73976516706834_2_alg».proof.Proof.Inputs
import Idealize.ShloMosaic.Lib.StableHlo.Run
import Idealize.ShloMosaic.PureOps.Ideal.Laws

set_option maxRecDepth 16384

noncomputable section

namespace Cert.KernelIdeal.KGlue

open Cert.KernelIdeal Cert.KernelIdeal.Gen
open Idealize.ShloMosaic Idealize.ShloMosaic.TcCoe Idealize.ShloMosaic.StableHlo Idealize.ShloMosaic.ValueIdx
open Idealize.SL.Sem Gnn

/-- Row 0 of the edge index as a vector over the edges: the source node of each edge. -/
def srcOf (ei : EdgeIdx) : IVec S320000 32 :=
  shapeCast S320000 (extractStridedSlice S1x320000 ![0, 0] ei slices_S2x320000_S1x320000_0_0) shapeCasts_S1x320000_S320000

/-- Row 1 of the edge index as a vector over the edges: the destination node of each edge. -/
def dstOf (ei : EdgeIdx) : IVec S320000 32 :=
  shapeCast S320000 (extractStridedSlice S1x320000 ![1, 0] ei slices_S2x320000_S1x320000_1_0) shapeCasts_S1x320000_S320000

/-- A row index with a negative value counted back from the end: `i + 20000` where `i < 0`, else `i`; as a column. -/
def wrapIdx (src : IVec S320000 32) : IVec S320000x1 32 :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 20000#32)))
      src)

/-- The rows of `h` named by `src` (wrapped), one per edge; a row whose wrapped index is outside `[0, 19999]` is
    filled with the word `0x7FC00000`. -/
def takeVec (h : Arr 20000 256) (src : IVec S320000 32) : Arr 320000 256 :=
  select
    (broadcastInDim S320000x256 ![0] bcast_S320000_S320000x256_0
      (Host.reduce IntOp.andi
        (andi
          (cmpi .sge (wrapIdx src) (broadcastInDim S320000x1 ![] bcast_S_S320000x1 (constantI S_ 32 0#32)))
          (cmpi .sle (wrapIdx src)
            (broadcastInDim S320000x1 ![0, 1] bcast_S1x1_S320000x1_0_1
              (broadcastInDim S1x1 ![1] bcast_S1_S1x1_1 (constantI S1 32 19999#32)))))
        (constantI S_ 1 1#1) reducesTo_S320000x1_S320000_d1 h_S_))
    (Host.gather gather_S20000x256_S320000x1_S320000x256_1_0_n_n_0_1_1256 h (wrapIdx src))
    (broadcastInDim S320000x256 ![] bcast_S_S320000x256 (constant (F := Ideal) S_ .f32 0x7FC00000#32))

/-- The aggregation: per destination node, the sum over its incoming edges of `max (h[src] + e) 0`. -/
def aggVec (h : Arr 20000 256) (e : FVec Ideal S320000x256 .bf16) (src dst : IVec S320000 32) : Arr 20000 256 :=
  Host.scatterAdd scatter_S20000x256_S320000x1_S320000x256_1_0_0_1
    (broadcastInDim S20000x256 ![] bcast_S_S20000x256 (constant (F := Ideal) S_ .f32 0#32))
    (broadcastInDim S320000x1 ![0] bcast_S320000_S320000x1_0 dst)
    (maximumf (φ := .f32)
      (addf (φ := .f32) (takeVec h src) (extf .f32 e bitsLt_bf16_f32))
      (broadcastInDim S320000x256 ![] bcast_S_S320000x256 (constant (F := Ideal) S_ .f32 0#32)))

/-- The aggregation step on matrices, at an edge index. -/
def aggK (ei : EdgeIdx) : Agg := fun h e => toM (aggVec (ofM h) (ofM e) (srcOf ei) (dstOf ei))

variable (m : (ℓ : Loc nD τ sig) → Buf (Elt Ideal) ℓ) (ρ : Dev nD → PrngReg) (c : Dev nD)

/-- After the first stretch of host operations the buffer of `%1` holds row 0 of the edge index. -/
theorem src_eq : W1 (F := Ideal) m ρ c (Proc.devRef .tc main_v1) = srcOf (m ((c : Thread nD τ).loc main_arg2)) := by
  show StableHlo.after hostOps0 (W0 (F := Ideal) m ρ c) (Proc.devRef .tc main_v1) = _
  simp only [hostOps0, List.flatten_cons, List.flatten_nil, List.append_nil, List.cons_append, List.nil_append]
  after_results_simp
  rfl

/-- After the first stretch of host operations the buffer of `%3` holds row 1 of the edge index. -/
theorem dst_eq : W1 (F := Ideal) m ρ c (Proc.devRef .tc main_v3) = dstOf (m ((c : Thread nD τ).loc main_arg2)) := by
  show StableHlo.after hostOps0 (W0 (F := Ideal) m ρ c) (Proc.devRef .tc main_v3) = _
  simp only [hostOps0, List.flatten_cons, List.flatten_nil, List.append_nil, List.cons_append, List.nil_append]
  after_results_simp
  rfl

/-! The five occurrences of the step. Each stretch's operations are unfolded to their pure functions applied to the
    buffers at the previous region's exit; the typed references' transports are along equations that hold by
    computation, so they are removed, and what is left is `aggVec` unfolded. -/

/-- The aggregate entering region 2 (`%16`), from the buffers at region 1's exit. -/
theorem agg0 : W6 (F := Ideal) m ρ c (Proc.devRef .tc main_v16)
    = aggVec (W4 (F := Ideal) m ρ c (Proc.devRef .tc main_v6)) (W4 (F := Ideal) m ρ c (Proc.devRef .tc main_v8))
        (W4 (F := Ideal) m ρ c (Proc.devRef .tc main_v1)) (W4 (F := Ideal) m ρ c (Proc.devRef .tc main_v3)) := by
  show StableHlo.after hostOps2_1 (StableHlo.after hostOps2 (W4 (F := Ideal) m ρ c)) (Proc.devRef .tc main_v16) = _
  simp only [hostOps2_1, hostOps2, List.flatten_cons, List.flatten_nil, List.append_nil, List.cons_append, List.nil_append]
  after_results_simp
  simp only [TRef.toBuf, TRef.ofBuf, cast_eq]
  rfl

/-- The aggregate entering region 3 (`%34`), from the buffers at region 2's exit. -/
theorem agg1 : W10 (F := Ideal) m ρ c (Proc.devRef .tc main_v34)
    = aggVec (W7 (F := Ideal) m ρ c (Proc.devRef .tc main_v20)) (W7 (F := Ideal) m ρ c (Proc.devRef .tc main_v8))
        (W7 (F := Ideal) m ρ c (Proc.devRef .tc main_v1)) (W7 (F := Ideal) m ρ c (Proc.devRef .tc main_v3)) := by
  show StableHlo.after hostOps3_2 (StableHlo.after hostOps3_1 (StableHlo.after hostOps3 (W7 (F := Ideal) m ρ c))) (Proc.devRef .tc main_v34) = _
  simp only [hostOps3_2, hostOps3_1, hostOps3, List.flatten_cons, List.flatten_nil, List.append_nil, List.cons_append, List.nil_append]
  after_results_simp
  simp only [TRef.toBuf, TRef.ofBuf, cast_eq]
  rfl

/-- The aggregate entering region 4 (`%56`), from the buffers at region 3's exit. -/
theorem agg2 : W13 (F := Ideal) m ρ c (Proc.devRef .tc main_v56)
    = aggVec (W11 (F := Ideal) m ρ c (Proc.devRef .tc main_v48)) (W11 (F := Ideal) m ρ c (Proc.devRef .tc main_v8))
        (W11 (F := Ideal) m ρ c (Proc.devRef .tc main_v1)) (W11 (F := Ideal) m ρ c (Proc.devRef .tc main_v3)) := by
  show StableHlo.after hostOps4_1 (StableHlo.after hostOps4 (W11 (F := Ideal) m ρ c)) (Proc.devRef .tc main_v56) = _
  simp only [hostOps4_1, hostOps4, List.flatten_cons, List.flatten_nil, List.append_nil, List.cons_append, List.nil_append]
  after_results_simp
  simp only [TRef.toBuf, TRef.ofBuf, cast_eq]
  rfl

/-- The aggregate entering region 5 (`%78`), from the buffers at region 4's exit. -/
theorem agg3 : W16 (F := Ideal) m ρ c (Proc.devRef .tc main_v78)
    = aggVec (W14 (F := Ideal) m ρ c (Proc.devRef .tc main_v70)) (W14 (F := Ideal) m ρ c (Proc.devRef .tc main_v8))
        (W14 (F := Ideal) m ρ c (Proc.devRef .tc main_v1)) (W14 (F := Ideal) m ρ c (Proc.devRef .tc main_v3)) := by
  show StableHlo.after hostOps5_1 (StableHlo.after hostOps5 (W14 (F := Ideal) m ρ c)) (Proc.devRef .tc main_v78) = _
  simp only [hostOps5_1, hostOps5, List.flatten_cons, List.flatten_nil, List.append_nil, List.cons_append, List.nil_append]
  after_results_simp
  simp only [TRef.toBuf, TRef.ofBuf, cast_eq]
  rfl

/-- The aggregate entering region 6 (`%100`), from the buffers at region 5's exit. -/
theorem agg4 : W19 (F := Ideal) m ρ c (Proc.devRef .tc main_v100)
    = aggVec (W17 (F := Ideal) m ρ c (Proc.devRef .tc main_v92)) (W17 (F := Ideal) m ρ c (Proc.devRef .tc main_v8))
        (W17 (F := Ideal) m ρ c (Proc.devRef .tc main_v1)) (W17 (F := Ideal) m ρ c (Proc.devRef .tc main_v3)) := by
  show StableHlo.after hostOps6_1 (StableHlo.after hostOps6 (W17 (F := Ideal) m ρ c)) (Proc.devRef .tc main_v100) = _
  simp only [hostOps6_1, hostOps6, List.flatten_cons, List.flatten_nil, List.append_nil, List.cons_append, List.nil_append]
  after_results_simp
  simp only [TRef.toBuf, TRef.ofBuf, cast_eq]
  rfl

end Cert.KernelIdeal.KGlue

end
-- ==== Proof.KGlueParams.lean ====
/-
  What each of the first four kernel regions finds in its parameter windows, read back to the argument arrays
  of the launch memory, and the final slice of the result.

  Before a region the host code views a bias of extent 256 as a 1 x 256 matrix and a scalar as a 1 x 1 matrix;
  for a residual layer it first cuts layer l out of the stacked parameters (a unit-extent slice along the leading
  axis) and drops that axis. Each such view or slice, read at an index, is the argument array read at the
  corresponding index. No host operation and no region writes an argument array, so at every boundary of the run
  an argument's buffer still holds what the launch memory holds.
-/
import proofs.«414264_j73976516706834_2_alg».proof.Proof.KRun
import proofs.«414264_j73976516706834_2_alg».proof.Proof.Inputs
import Idealize.ShloMosaic.Lib.StableHlo.Run
import Idealize.ShloMosaic.PureOps.Ideal.Laws

set_option maxRecDepth 16384

noncomputable section

namespace Cert.KernelIdeal.KParams

open Cert.KernelIdeal Cert.KernelIdeal.Gen
open Idealize.ShloMosaic Idealize.ShloMosaic.TcCoe Idealize.ShloMosaic.StableHlo Idealize.ShloMosaic.ValueIdx
open Idealize.SL.Sem Gnn

/-! ## Views and slices read at an index -/

section Reads

/-- Every index of a one-element rank-1 shape is the index 0. -/
theorem idx_S1 (k : (⟨1, ![1]⟩ : Shape).Idx) : k = ix1 0 := by
  have h0 : (k 0).val = 0 := by have := (k 0).isLt; simp at this; omega
  exact (eq_ix1 k).trans (congrArg (ix1 (n := 1)) (Fin.ext h0))

/-- A rank-1 array viewed as a one-row matrix: the row is the array. -/
theorem toRow1_shapeCast {B : ℕ} (v : Arr1 B) (h : (⟨1, ![B]⟩ : Shape).ShapeCasts ⟨2, ![1, B]⟩) :
    toRow1 (shapeCast ⟨2, ![1, B]⟩ v h) = toRow v := by
  funext q
  refine shapeCast_apply v h (ix2 0 q) (ix1 q) ?_
  rw [Shape.rowMajor_val_one, Shape.rowMajor_val_two]
  show q.val = (0 : Fin 1).val * B + q.val
  simp

/-- A rank-0 array viewed as a 1 x 1 matrix: its one entry is the scalar. -/
theorem scalar_shapeCast (v : Arr0) (h : (⟨0, ![]⟩ : Shape).ShapeCasts ⟨2, ![1, 1]⟩) :
    shapeCast ⟨2, ![1, 1]⟩ v h (ix2 0 0) = v ix0 := by
  unfold shapeCast
  exact congrArg v (eq_ix0 _)

/-- Entry l of a stacked scalar, cut out as a one-element slice, its axis dropped, then viewed 1 x 1. -/
theorem eps_read (v : Arr1 4) (l : ℕ) (hl : l < 4) (hs : (⟨1, ![4]⟩ : Shape).Slices ![l] ⟨1, ![1]⟩)
    (h1 : (⟨1, ![1]⟩ : Shape).ShapeCasts ⟨0, ![]⟩) (h2 : (⟨0, ![]⟩ : Shape).ShapeCasts ⟨2, ![1, 1]⟩) :
    shapeCast ⟨2, ![1, 1]⟩ (shapeCast ⟨0, ![]⟩ (extractStridedSlice ⟨1, ![1]⟩ ![l] v hs) h1) h2 (ix2 0 0)
      = v (ix1 ⟨l, hl⟩) := by
  refine (scalar_shapeCast _ h2).trans ?_
  unfold shapeCast
  rw [idx_S1 (Shape.reshapeEquiv _ _)]
  refine extractStridedSlice_apply ![l] v hs (ix1 0) (ix1 ⟨l, hl⟩) fun a => ?_
  match a with
  | ⟨0, _⟩ => rfl

/-- Layer l of a stacked weight, cut out as a unit slice along the leading axis, that axis dropped. -/
theorem w_read (v : Arr3 4 256 256) (l : ℕ) (hl : l < 4)
    (hs : (⟨3, ![4, 256, 256]⟩ : Shape).Slices ![l, 0, 0] ⟨3, ![1, 256, 256]⟩)
    (h : (⟨3, ![1, 256, 256]⟩ : Shape).ShapeCasts ⟨2, ![256, 256]⟩) :
    toM (shapeCast ⟨2, ![256, 256]⟩ (extractStridedSlice ⟨3, ![1, 256, 256]⟩ ![l, 0, 0] v hs) h)
      = fun k j => v (ix3 ⟨l, hl⟩ k j) := by
  funext k j
  refine (shapeCast_apply _ h (ix2 k j) (ix3 0 k j) ?_).trans ?_
  · rw [Shape.rowMajor_val_three, Shape.rowMajor_val_two]
    show ((0 : Fin 1).val * 256 + k.val) * 256 + j.val = k.val * 256 + j.val
    simp
  · refine extractStridedSlice_apply ![l, 0, 0] v hs (ix3 0 k j) (ix3 ⟨l, hl⟩ k j) fun a => ?_
    match a with
    | ⟨0, _⟩ => rfl
    | ⟨1, _⟩ => show k.val = 0 + k.val; omega
    | ⟨2, _⟩ => show j.val = 0 + j.val; omega

/-- Layer l of a stacked bias, cut out as a unit slice, flattened to extent 256, then viewed as one row. -/
theorem b_read (v : Arr 4 256) (l : ℕ) (hl : l < 4) (hs : (⟨2, ![4, 256]⟩ : Shape).Slices ![l, 0] ⟨2, ![1, 256]⟩)
    (h1 : (⟨2, ![1, 256]⟩ : Shape).ShapeCasts ⟨1, ![256]⟩) (h2 : (⟨1, ![256]⟩ : Shape).ShapeCasts ⟨2, ![1, 256]⟩) :
    toRow1 (shapeCast ⟨2, ![1, 256]⟩ (shapeCast ⟨1, ![256]⟩ (extractStridedSlice ⟨2, ![1, 256]⟩ ![l, 0] v hs) h1) h2)
      = fun j => v (ix2 ⟨l, hl⟩ j) := by
  rw [shapeCast_shapeCast]
  funext j
  refine extractStridedSlice_apply ![l, 0] v hs (ix2 0 j) (ix2 ⟨l, hl⟩ j) fun a => ?_
  match a with
  | ⟨0, _⟩ => rfl
  | ⟨1, _⟩ => show j.val = 0 + j.val; omega

/-- The leading 10 columns of a 20000 x 128 array. -/
theorem cols_read (v : Arr 20000 128) (hs : (⟨2, ![20000, 128]⟩ : Shape).Slices ![0, 0] ⟨2, ![20000, 10]⟩)
    (i : Fin 20000) (j : Fin 10) :
    extractStridedSlice ⟨2, ![20000, 10]⟩ ![0, 0] v hs (ix2 i j) = v (ix2 i (Fin.castLE (by decide) j)) := by
  refine extractStridedSlice_apply ![0, 0] v hs (ix2 i j) (ix2 i (Fin.castLE (by decide) j)) fun a => ?_
  match a with
  | ⟨0, _⟩ => show i.val = 0 + i.val; omega
  | ⟨1, _⟩ => show j.val = 0 + j.val; omega

end Reads

/-! ## What each host stretch writes -/

section Writes

/-- The buffers written by the host operations before region 0, -/
abbrev wr0 : List (Ref sig .tc) := [main_v0, main_v1, main_v2, main_v3, main_v4, main_v5]
/-- between regions 0 and 1, -/
abbrev wr1 : List (Ref sig .tc) := [main_v7]
/-- by the first gather of node rows along the edges, -/
abbrev wr2 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v9]
/-- by the rest of the host code before region 2, -/
abbrev wr21 : List (Ref sig .tc) := [main_v10, main_v11, main_cst, main_v12, main_v13, main_cst_0, main_v14, main_v15, main_v16, main_v17, main_v18, main_v19]
/-- by the padding of the head's weight and bias, -/
abbrev wr3 : List (Ref sig .tc) := [main_cst_1, main_v21, main_c, main_v22, main_v23, main_cst_2, main_v24, main_c_3, main_v25, main_v26]
/-- by the second gather, -/
abbrev wr31 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v27]
/-- and by the rest of the host code before region 3. -/
abbrev wr32 : List (Ref sig .tc) :=
  [main_v28, main_v29, main_cst_4, main_v30, main_v31, main_cst_5, main_v32, main_v33, main_v34, main_v35, main_v36, main_v37, main_v38, main_v39, main_v40, main_v41, main_v42, main_v43, main_v44, main_v45, main_v46, main_v47]

theorem writes0 : (hostOps0 : List (HloOp τ sig (Elt Ideal))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

theorem writes1 : (hostOps1 : List (HloOp τ sig (Elt Ideal))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

theorem writes2 : (hostOps2 : List (HloOp τ sig (Elt Ideal))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

theorem writes21 : (hostOps2_1 : List (HloOp τ sig (Elt Ideal))).Forall fun op =>
    op.writes ⊆ (wr21.map (Proc.devRef (τ := τ) .tc)).toFinset := by
  simp only [hostOps2_1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

theorem writes3 : (hostOps3 : List (HloOp τ sig (Elt Ideal))).Forall fun op =>
    op.writes ⊆ (wr3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

theorem writes31 : (hostOps3_1 : List (HloOp τ sig (Elt Ideal))).Forall fun op =>
    op.writes ⊆ (wr31.map (Proc.devRef (τ := τ) .tc)).toFinset := by
  simp only [hostOps3_1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

theorem writes32 : (hostOps3_2 : List (HloOp τ sig (Elt Ideal))).Forall fun op =>
    op.writes ⊆ (wr32.map (Proc.devRef (τ := τ) .tc)).toFinset := by
  simp only [hostOps3_2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

end Writes

variable (m : (ℓ : Loc nD τ sig) → Buf (Elt Ideal) ℓ) (ρ : Dev nD → PrngReg) (c : Dev nD)

/-! ## A buffer nothing writes holds, at each boundary, what the launch memory holds -/

section Keep

variable (b : Ref sig .tc)

theorem keep1 (h0 : b ∉ wr0) :
    W1 (F := Ideal) m ρ c (Proc.devRef .tc b) = m ((c : Thread nD τ).loc b) :=
  StableHlo.after_of_writes_sub hostOps0 _ writes0 h0

theorem keep2 (h0 : b ∉ wr0) (g0 : ∀ w, Pipeline.arrRef spec0 w ≠ b) :
    W2 (F := Ideal) m ρ c (Proc.devRef .tc b) = m ((c : Thread nD τ).loc b) :=
  (W2_of_ne m ρ c b g0).trans (keep1 m ρ c b h0)

theorem keep3 (h0 : b ∉ wr0) (g0 : ∀ w, Pipeline.arrRef spec0 w ≠ b) (h1 : b ∉ wr1) :
    W3 (F := Ideal) m ρ c (Proc.devRef .tc b) = m ((c : Thread nD τ).loc b) :=
  (StableHlo.after_of_writes_sub hostOps1 _ writes1 h1).trans (keep2 m ρ c b h0 g0)

theorem keep4 (h0 : b ∉ wr0) (g0 : ∀ w, Pipeline.arrRef spec0 w ≠ b) (h1 : b ∉ wr1)
    (g1 : ∀ w, Pipeline.arrRef spec1 w ≠ b) :
    W4 (F := Ideal) m ρ c (Proc.devRef .tc b) = m ((c : Thread nD τ).loc b) :=
  (W4_of_ne m ρ c b g1).trans (keep3 m ρ c b h0 g0 h1)

theorem keep5 (h0 : b ∉ wr0) (g0 : ∀ w, Pipeline.arrRef spec0 w ≠ b) (h1 : b ∉ wr1)
    (g1 : ∀ w, Pipeline.arrRef spec1 w ≠ b) (h2 : b ∉ wr2) :
    W5 (F := Ideal) m ρ c (Proc.devRef .tc b) = m ((c : Thread nD τ).loc b) :=
  (StableHlo.after_of_writes_sub hostOps2 _ writes2 h2).trans (keep4 m ρ c b h0 g0 h1 g1)

theorem keep6 (h0 : b ∉ wr0) (g0 : ∀ w, Pipeline.arrRef spec0 w ≠ b) (h1 : b ∉ wr1)
    (g1 : ∀ w, Pipeline.arrRef spec1 w ≠ b) (h2 : b ∉ wr2) (h21 : b ∉ wr21) :
    W6 (F := Ideal) m ρ c (Proc.devRef .tc b) = m ((c : Thread nD τ).loc b) :=
  (StableHlo.after_of_writes_sub hostOps2_1 _ writes21 h21).trans (keep5 m ρ c b h0 g0 h1 g1 h2)

theorem keep7 (h0 : b ∉ wr0) (g0 : ∀ w, Pipeline.arrRef spec0 w ≠ b) (h1 : b ∉ wr1)
    (g1 : ∀ w, Pipeline.arrRef spec1 w ≠ b) (h2 : b ∉ wr2) (h21 : b ∉ wr21)
    (g2 : ∀ w, Pipeline.arrRef spec2 w ≠ b) :
    W7 (F := Ideal) m ρ c (Proc.devRef .tc b) = m ((c : Thread nD τ).loc b) :=
  (W7_of_ne m ρ c b g2).trans (keep6 m ρ c b h0 g0 h1 g1 h2 h21)

theorem keep8 (h0 : b ∉ wr0) (g0 : ∀ w, Pipeline.arrRef spec0 w ≠ b) (h1 : b ∉ wr1)
    (g1 : ∀ w, Pipeline.arrRef spec1 w ≠ b) (h2 : b ∉ wr2) (h21 : b ∉ wr21)
    (g2 : ∀ w, Pipeline.arrRef spec2 w ≠ b) (h3 : b ∉ wr3) :
    W8 (F := Ideal) m ρ c (Proc.devRef .tc b) = m ((c : Thread nD τ).loc b) :=
  (StableHlo.after_of_writes_sub hostOps3 _ writes3 h3).trans (keep7 m ρ c b h0 g0 h1 g1 h2 h21 g2)

theorem keep9 (h0 : b ∉ wr0) (g0 : ∀ w, Pipeline.arrRef spec0 w ≠ b) (h1 : b ∉ wr1)
    (g1 : ∀ w, Pipeline.arrRef spec1 w ≠ b) (h2 : b ∉ wr2) (h21 : b ∉ wr21)
    (g2 : ∀ w, Pipeline.arrRef spec2 w ≠ b) (h3 : b ∉ wr3) (h31 : b ∉ wr31) :
    W9 (F := Ideal) m ρ c (Proc.devRef .tc b) = m ((c : Thread nD τ).loc b) :=
  (StableHlo.after_of_writes_sub hostOps3_1 _ writes31 h31).trans (keep8 m ρ c b h0 g0 h1 g1 h2 h21 g2 h3)

theorem keep10 (h0 : b ∉ wr0) (g0 : ∀ w, Pipeline.arrRef spec0 w ≠ b) (h1 : b ∉ wr1)
    (g1 : ∀ w, Pipeline.arrRef spec1 w ≠ b) (h2 : b ∉ wr2) (h21 : b ∉ wr21)
    (g2 : ∀ w, Pipeline.arrRef spec2 w ≠ b) (h3 : b ∉ wr3) (h31 : b ∉ wr31) (h32 : b ∉ wr32) :
    W10 (F := Ideal) m ρ c (Proc.devRef .tc b) = m ((c : Thread nD τ).loc b) :=
  (StableHlo.after_of_writes_sub hostOps3_2 _ writes32 h32).trans (keep9 m ρ c b h0 g0 h1 g1 h2 h21 g2 h3 h31)

end Keep

/-! ## Region 0: node features, node-encoder weight and bias, first pre-mix weight and bias -/

section Region0

theorem r0_arg0 : W1 (F := Ideal) m ρ c (Proc.devRef .tc main_arg0) = m ((c : Thread nD τ).loc main_arg0) :=
  keep1 m ρ c main_arg0 (by decide)

theorem r0_arg3 : W1 (F := Ideal) m ρ c (Proc.devRef .tc main_arg3) = m ((c : Thread nD τ).loc main_arg3) :=
  keep1 m ρ c main_arg3 (by decide)

theorem r0_arg7 : W1 (F := Ideal) m ρ c (Proc.devRef .tc main_arg7) = m ((c : Thread nD τ).loc main_arg7) :=
  keep1 m ρ c main_arg7 (by decide)

theorem r0_v4 : toRow1 (W1 (F := Ideal) m ρ c (Proc.devRef .tc main_v4) : Arr 1 256) = toRow (m ((c : Thread nD τ).loc main_arg4) : Arr1 256) := by
  have e : W1 (F := Ideal) m ρ c (Proc.devRef .tc main_v4)
      = shapeCast S1x256 (W0 (F := Ideal) m ρ c (Proc.devRef .tc main_arg4) : Arr1 256) shapeCasts_S256_S1x256 := by
    show StableHlo.after hostOps0 (W0 (F := Ideal) m ρ c) (Proc.devRef .tc main_v4) = _
    simp only [hostOps0, List.flatten_cons, List.flatten_nil, List.append_nil, List.cons_append, List.nil_append]
    after_results_simp
    rfl
  rw [e]
  exact toRow1_shapeCast _ _

theorem r0_v5 : toRow1 (W1 (F := Ideal) m ρ c (Proc.devRef .tc main_v5) : Arr 1 256) = toRow (m ((c : Thread nD τ).loc main_arg8) : Arr1 256) := by
  have e : W1 (F := Ideal) m ρ c (Proc.devRef .tc main_v5)
      = shapeCast S1x256 (W0 (F := Ideal) m ρ c (Proc.devRef .tc main_arg8) : Arr1 256) shapeCasts_S256_S1x256 := by
    show StableHlo.after hostOps0 (W0 (F := Ideal) m ρ c) (Proc.devRef .tc main_v5) = _
    simp only [hostOps0, List.flatten_cons, List.flatten_nil, List.append_nil, List.cons_append, List.nil_append]
    after_results_simp
    rfl
  rw [e]
  exact toRow1_shapeCast _ _

end Region0

/-! ## Region 1: edge features, edge-encoder weight and bias -/

section Region1

theorem r1_arg1 : W3 (F := Ideal) m ρ c (Proc.devRef .tc main_arg1) = m ((c : Thread nD τ).loc main_arg1) :=
  keep3 m ρ c main_arg1 (by decide) (by decide) (by decide)

theorem r1_arg5 : W3 (F := Ideal) m ρ c (Proc.devRef .tc main_arg5) = m ((c : Thread nD τ).loc main_arg5) :=
  keep3 m ρ c main_arg5 (by decide) (by decide) (by decide)

theorem r1_v7 : toRow1 (W3 (F := Ideal) m ρ c (Proc.devRef .tc main_v7) : Arr 1 256) = toRow (m ((c : Thread nD τ).loc main_arg6) : Arr1 256) := by
  have e : W3 (F := Ideal) m ρ c (Proc.devRef .tc main_v7)
      = shapeCast S1x256 (W2 (F := Ideal) m ρ c (Proc.devRef .tc main_arg6) : Arr1 256) shapeCasts_S256_S1x256 := by
    show StableHlo.after hostOps1 (W2 (F := Ideal) m ρ c) (Proc.devRef .tc main_v7) = _
    simp only [hostOps1, List.flatten_cons, List.flatten_nil, List.append_nil, List.cons_append, List.nil_append]
    after_results_simp
    rfl
  rw [e, keep2 m ρ c main_arg6 (by decide) (by decide)]
  exact toRow1_shapeCast _ _

end Region1

/-! ## Region 2: the first graph layer's eps, weights and biases -/

section Region2

theorem r2_v17 : (W6 (F := Ideal) m ρ c (Proc.devRef .tc main_v17) : Arr 1 1) (ix2 0 0) = (m ((c : Thread nD τ).loc main_arg9) : Arr0) ix0 := by
  have e : W6 (F := Ideal) m ρ c (Proc.devRef .tc main_v17)
      = shapeCast S1x1 (W5 (F := Ideal) m ρ c (Proc.devRef .tc main_arg9) : Arr0) shapeCasts_S_S1x1 := by
    show StableHlo.after hostOps2_1 (W5 (F := Ideal) m ρ c) (Proc.devRef .tc main_v17) = _
    simp only [hostOps2_1, List.flatten_cons, List.flatten_nil, List.append_nil, List.cons_append, List.nil_append]
    after_results_simp
    rfl
  rw [e, keep5 m ρ c main_arg9 (by decide) (by decide) (by decide) (by decide) (by decide)]
  exact scalar_shapeCast _ _

theorem r2_arg10 : W6 (F := Ideal) m ρ c (Proc.devRef .tc main_arg10) = m ((c : Thread nD τ).loc main_arg10) :=
  keep6 m ρ c main_arg10 (by decide) (by decide) (by decide) (by decide) (by decide) (by decide)

theorem r2_v18 : toRow1 (W6 (F := Ideal) m ρ c (Proc.devRef .tc main_v18) : Arr 1 256) = toRow (m ((c : Thread nD τ).loc main_arg11) : Arr1 256) := by
  have e : W6 (F := Ideal) m ρ c (Proc.devRef .tc main_v18)
      = shapeCast S1x256 (W5 (F := Ideal) m ρ c (Proc.devRef .tc main_arg11) : Arr1 256) shapeCasts_S256_S1x256 := by
    show StableHlo.after hostOps2_1 (W5 (F := Ideal) m ρ c) (Proc.devRef .tc main_v18) = _
    simp only [hostOps2_1, List.flatten_cons, List.flatten_nil, List.append_nil, List.cons_append, List.nil_append]
    after_results_simp
    rfl
  rw [e, keep5 m ρ c main_arg11 (by decide) (by decide) (by decide) (by decide) (by decide)]
  exact toRow1_shapeCast _ _

theorem r2_arg12 : W6 (F := Ideal) m ρ c (Proc.devRef .tc main_arg12) = m ((c : Thread nD τ).loc main_arg12) :=
  keep6 m ρ c main_arg12 (by decide) (by decide) (by decide) (by decide) (by decide) (by decide)

theorem r2_v19 : toRow1 (W6 (F := Ideal) m ρ c (Proc.devRef .tc main_v19) : Arr 1 256) = toRow (m ((c : Thread nD τ).loc main_arg13) : Arr1 256) := by
  have e : W6 (F := Ideal) m ρ c (Proc.devRef .tc main_v19)
      = shapeCast S1x256 (W5 (F := Ideal) m ρ c (Proc.devRef .tc main_arg13) : Arr1 256) shapeCasts_S256_S1x256 := by
    show StableHlo.after hostOps2_1 (W5 (F := Ideal) m ρ c) (Proc.devRef .tc main_v19) = _
    simp only [hostOps2_1, List.flatten_cons, List.flatten_nil, List.append_nil, List.cons_append, List.nil_append]
    after_results_simp
    rfl
  rw [e, keep5 m ρ c main_arg13 (by decide) (by decide) (by decide) (by decide) (by decide)]
  exact toRow1_shapeCast _ _

end Region2

/-! ## Region 3: residual layer 0's eps, weights and biases, cut out of the stacked arguments -/

section Region3

theorem r3_v45 : (W10 (F := Ideal) m ρ c (Proc.devRef .tc main_v45) : Arr 1 1) (ix2 0 0) = (m ((c : Thread nD τ).loc main_arg14) : Arr1 4) (ix1 0) := by
  have e : W10 (F := Ideal) m ρ c (Proc.devRef .tc main_v45)
      = shapeCast S1x1 (shapeCast S_ (extractStridedSlice S1 ![0]
          (W9 (F := Ideal) m ρ c (Proc.devRef .tc main_arg14) : Arr1 4) slices_S4_S1_0) shapeCasts_S1_S_) shapeCasts_S_S1x1 := by
    show StableHlo.after hostOps3_2 (W9 (F := Ideal) m ρ c) (Proc.devRef .tc main_v45) = _
    simp only [hostOps3_2, List.flatten_cons, List.flatten_nil, List.append_nil, List.cons_append, List.nil_append]
    after_results_simp
    rfl
  rw [e, keep9 m ρ c main_arg14 (by decide) (by decide) (by decide) (by decide) (by decide) (by decide) (by decide) (by decide) (by decide)]
  exact eps_read _ 0 (by decide) _ _ _

theorem r3_v38 : toM (W10 (F := Ideal) m ρ c (Proc.devRef .tc main_v38) : Arr 256 256)
    = fun k j => (m ((c : Thread nD τ).loc main_arg15) : Arr3 4 256 256) (ix3 0 k j) := by
  have e : W10 (F := Ideal) m ρ c (Proc.devRef .tc main_v38)
      = shapeCast S256x256 (extractStridedSlice S1x256x256 ![0, 0, 0]
          (W9 (F := Ideal) m ρ c (Proc.devRef .tc main_arg15) : Arr3 4 256 256) slices_S4x256x256_S1x256x256_0_0_0) shapeCasts_S1x256x256_S256x256 := by
    show StableHlo.after hostOps3_2 (W9 (F := Ideal) m ρ c) (Proc.devRef .tc main_v38) = _
    simp only [hostOps3_2, List.flatten_cons, List.flatten_nil, List.append_nil, List.cons_append, List.nil_append]
    after_results_simp
    rfl
  rw [e, keep9 m ρ c main_arg15 (by decide) (by decide) (by decide) (by decide) (by decide) (by decide) (by decide) (by decide) (by decide)]
  exact w_read _ 0 (by decide) _ _

theorem r3_v46 : toRow1 (W10 (F := Ideal) m ρ c (Proc.devRef .tc main_v46) : Arr 1 256)
    = fun j => (m ((c : Thread nD τ).loc main_arg16) : Arr 4 256) (ix2 0 j) := by
  have e : W10 (F := Ideal) m ρ c (Proc.devRef .tc main_v46)
      = shapeCast S1x256 (shapeCast S256 (extractStridedSlice S1x256 ![0, 0]
          (W9 (F := Ideal) m ρ c (Proc.devRef .tc main_arg16) : Arr 4 256) slices_S4x256_S1x256_0_0) shapeCasts_S1x256_S256) shapeCasts_S256_S1x256 := by
    show StableHlo.after hostOps3_2 (W9 (F := Ideal) m ρ c) (Proc.devRef .tc main_v46) = _
    simp only [hostOps3_2, List.flatten_cons, List.flatten_nil, List.append_nil, List.cons_append, List.nil_append]
    after_results_simp
    rfl
  rw [e, keep9 m ρ c main_arg16 (by decide) (by decide) (by decide) (by decide) (by decide) (by decide) (by decide) (by decide) (by decide)]
  exact b_read _ 0 (by decide) _ _ _

theorem r3_v42 : toM (W10 (F := Ideal) m ρ c (Proc.devRef .tc main_v42) : Arr 256 256)
    = fun k j => (m ((c : Thread nD τ).loc main_arg17) : Arr3 4 256 256) (ix3 0 k j) := by
  have e : W10 (F := Ideal) m ρ c (Proc.devRef .tc main_v42)
      = shapeCast S256x256 (extractStridedSlice S1x256x256 ![0, 0, 0]
          (W9 (F := Ideal) m ρ c (Proc.devRef .tc main_arg17) : Arr3 4 256 256) slices_S4x256x256_S1x256x256_0_0_0) shapeCasts_S1x256x256_S256x256 := by
    show StableHlo.after hostOps3_2 (W9 (F := Ideal) m ρ c) (Proc.devRef .tc main_v42) = _
    simp only [hostOps3_2, List.flatten_cons, List.flatten_nil, List.append_nil, List.cons_append, List.nil_append]
    after_results_simp
    rfl
  rw [e, keep9 m ρ c main_arg17 (by decide) (by decide) (by decide) (by decide) (by decide) (by decide) (by decide) (by decide) (by decide)]
  exact w_read _ 0 (by decide) _ _

theorem r3_v47 : toRow1 (W10 (F := Ideal) m ρ c (Proc.devRef .tc main_v47) : Arr 1 256)
    = fun j => (m ((c : Thread nD τ).loc main_arg18) : Arr 4 256) (ix2 0 j) := by
  have e : W10 (F := Ideal) m ρ c (Proc.devRef .tc main_v47)
      = shapeCast S1x256 (shapeCast S256 (extractStridedSlice S1x256 ![0, 0]
          (W9 (F := Ideal) m ρ c (Proc.devRef .tc main_arg18) : Arr 4 256) slices_S4x256_S1x256_0_0) shapeCasts_S1x256_S256) shapeCasts_S256_S1x256 := by
    show StableHlo.after hostOps3_2 (W9 (F := Ideal) m ρ c) (Proc.devRef .tc main_v47) = _
    simp only [hostOps3_2, List.flatten_cons, List.flatten_nil, List.append_nil, List.cons_append, List.nil_append]
    after_results_simp
    rfl
  rw [e, keep9 m ρ c main_arg18 (by decide) (by decide) (by decide) (by decide) (by decide) (by decide) (by decide) (by decide) (by decide)]
  exact b_read _ 0 (by decide) _ _ _

end Region3

/-! ## The result: the leading 10 columns of the last region's 128-column output -/

section Result

theorem out_slice (i : Fin 20000) (j : Fin 10) :
    (W21 (F := Ideal) m ρ c (Proc.devRef .tc main_v116) : Arr 20000 10) (ix2 i j)
      = (W20 (F := Ideal) m ρ c (Proc.devRef .tc main_v115) : Arr 20000 128) (ix2 i (Fin.castLE (by decide) j)) := by
  have e : W21 (F := Ideal) m ρ c (Proc.devRef .tc main_v116)
      = extractStridedSlice S20000x10 ![0, 0] (W20 (F := Ideal) m ρ c (Proc.devRef .tc main_v115) : Arr 20000 128) slices_S20000x128_S20000x10_0_0 := by
    show StableHlo.after hostOps7 (W20 (F := Ideal) m ρ c) (Proc.devRef .tc main_v116) = _
    simp only [hostOps7, List.flatten_cons, List.flatten_nil, List.append_nil, List.cons_append, List.nil_append]
    after_results_simp
  rw [e]
  exact cols_read _ _ i j

end Result

end Cert.KernelIdeal.KParams

end
-- ==== Proof.KGlueParams2.lean ====
/-
  What the last three residual layers' regions and the head find in their parameter windows, read back to the launch
  memory's argument arrays.

  Each of these windows' arrays is made by the host stretch just before its region from an argument array: a slice of a
  stacked parameter, reshaped; the head's weight and bias are padded with zero columns earlier and carried. Nothing
  writes an argument array, so wherever a stretch reads one it reads what was launched.
-/
import proofs.«414264_j73976516706834_2_alg».proof.Proof.KRun
import proofs.«414264_j73976516706834_2_alg».proof.Proof.Inputs
import Idealize.ShloMosaic.Lib.StableHlo.Run
import Idealize.ShloMosaic.PureOps.Ideal.Laws

set_option maxRecDepth 16384

noncomputable section

namespace Cert.KernelIdeal.KParams2

open Cert.KernelIdeal Cert.KernelIdeal.Gen
open Idealize.ShloMosaic Idealize.ShloMosaic.TcCoe Idealize.ShloMosaic.StableHlo Idealize.ShloMosaic.ValueIdx
open Idealize.SL.Sem
open Gnn

/-! ## Reading a slice of a stacked parameter

The four residual layers' parameters arrive stacked along a leading axis of extent 4. Before layer `l`'s region the host
cuts slice `l` out (a slice of extent 1 on the leading axis, everything on the others) and reshapes it: a weight
[1, 256, 256] to [256, 256], a bias [1, 256] to [256] and on to [1, 256], the scalar [1] to rank 0 and on to [1, 1].
Reshapes keep the row-major position, so each result, read at an entry, is the stacked array at `l` and that entry. -/

/-- The scalar of a layer as the host makes it: slice, to rank 0, to [1, 1]. -/
def epsOf (off : Fin 1 → Nat) (h : S4.Slices off S1) (a : Arr1 4) : Arr 1 1 :=
  fun i => shapeCast S1x1 (fun i => shapeCast S_ (extractStridedSlice S1 off a h) shapeCasts_S1_S_ i) shapeCasts_S_S1x1 i

/-- A weight of a layer as the host makes it: slice, to [256, 256]. -/
def matOf (off : Fin 3 → Nat) (h : S4x256x256.Slices off S1x256x256) (a : Arr3 4 256 256) : Arr 256 256 :=
  fun i => shapeCast S256x256 (extractStridedSlice S1x256x256 off a h) shapeCasts_S1x256x256_S256x256 i

/-- A bias row of a layer as the host makes it: slice, to [256], to [1, 256]. -/
def rowOf (off : Fin 2 → Nat) (h : S4x256.Slices off S1x256) (a : Arr 4 256) : Arr 1 256 :=
  fun i => shapeCast S1x256 (fun i => shapeCast S256 (extractStridedSlice S1x256 off a h) shapeCasts_S1x256_S256 i) shapeCasts_S256_S1x256 i

theorem epsOf_at (a : Arr1 4) (off : Fin 1 → Nat) (h : S4.Slices off S1) (l : Fin 4) (h0 : off 0 = l.val) :
    epsOf off h a (ix2 0 0) = a (ix1 l) := by
  unfold epsOf
  refine (shapeCast_apply _ shapeCasts_S_S1x1 (ix2 0 0) ix0 (by decide)).trans ?_
  refine (shapeCast_apply _ shapeCasts_S1_S_ ix0 (ix1 0) (by decide)).trans ?_
  exact extractStridedSlice_apply off a h (ix1 0) (ix1 l) (fun d => match d with
    | ⟨0, _⟩ => by show l.val = off 0 + 0; omega)

theorem matOf_at (a : Arr3 4 256 256) (off : Fin 3 → Nat) (h : S4x256x256.Slices off S1x256x256) (l : Fin 4)
    (h0 : off 0 = l.val) (h1 : off 1 = 0) (h2 : off 2 = 0) (k j : Fin 256) :
    toM (matOf off h a) k j = a (ix3 l k j) := by
  show matOf off h a (ix2 k j) = _
  unfold matOf
  refine (shapeCast_apply _ shapeCasts_S1x256x256_S256x256 (ix2 k j) (ix3 0 k j) (by
    rw [Shape.rowMajor_val_three, Shape.rowMajor_val_two]
    show (0 * 256 + k.val) * 256 + j.val = k.val * 256 + j.val
    omega)).trans ?_
  exact extractStridedSlice_apply off a h (ix3 0 k j) (ix3 l k j) (fun d => match d with
    | ⟨0, _⟩ => by show l.val = off 0 + 0; omega
    | ⟨1, _⟩ => by show k.val = off 1 + k.val; omega
    | ⟨2, _⟩ => by show j.val = off 2 + j.val; omega)

theorem rowOf_at (a : Arr 4 256) (off : Fin 2 → Nat) (h : S4x256.Slices off S1x256) (l : Fin 4)
    (h0 : off 0 = l.val) (h1 : off 1 = 0) (j : Fin 256) :
    toRow1 (rowOf off h a) j = a (ix2 l j) := by
  show rowOf off h a (ix2 0 j) = _
  unfold rowOf
  refine (shapeCast_apply _ shapeCasts_S256_S1x256 (ix2 0 j) (ix1 j) (by
    rw [Shape.rowMajor_val_one, Shape.rowMajor_val_two]
    show j.val = 0 * 256 + j.val
    omega)).trans ?_
  refine (shapeCast_apply _ shapeCasts_S1x256_S256 (ix1 j) (ix2 0 j) (by
    rw [Shape.rowMajor_val_one, Shape.rowMajor_val_two]
    show 0 * 256 + j.val = j.val
    omega)).trans ?_
  exact extractStridedSlice_apply off a h (ix2 0 j) (ix2 l j) (fun d => match d with
    | ⟨0, _⟩ => by show l.val = off 0 + 0; omega
    | ⟨1, _⟩ => by show j.val = off 1 + j.val; omega)

/-! ## What each stretch before a residual layer's region leaves, over any contents before it -/

/-- The graph layer's scalar, as the stretch leaves it: entry 1 of the stacked scalars. -/
theorem h4_1_eps (Wp : Valuation τ sig (Elt Ideal)) :
    (StableHlo.after hostOps4_1 Wp (Proc.devRef .tc main_v67) : Arr 1 1) (ix2 0 0) = (Wp (Proc.devRef .tc main_arg14) : Arr1 4) (ix1 1) := by
  have h : StableHlo.after hostOps4_1 Wp (Proc.devRef .tc main_v67)
      = epsOf ![1] slices_S4_S1_1 (Wp (Proc.devRef .tc main_arg14)) := by
    simp only [hostOps4_1, List.flatten_cons, List.flatten_nil, List.append_nil, List.cons_append, List.nil_append]
    after_results_simp
    rfl
  rw [h]
  exact epsOf_at _ ![1] slices_S4_S1_1 1 rfl

/-- Its first weight: slice 1 of the stacked first weights. -/
theorem h4_1_w1 (Wp : Valuation τ sig (Elt Ideal)) :
    toM (StableHlo.after hostOps4_1 Wp (Proc.devRef .tc main_v60) : Arr 256 256) = fun k j => (Wp (Proc.devRef .tc main_arg15) : Arr3 4 256 256) (ix3 1 k j) := by
  have h : StableHlo.after hostOps4_1 Wp (Proc.devRef .tc main_v60)
      = matOf ![1, 0, 0] slices_S4x256x256_S1x256x256_1_0_0 (Wp (Proc.devRef .tc main_arg15)) := by
    simp only [hostOps4_1, List.flatten_cons, List.flatten_nil, List.append_nil, List.cons_append, List.nil_append]
    after_results_simp
    rfl
  rw [h]
  funext k j
  exact matOf_at _ ![1, 0, 0] slices_S4x256x256_S1x256x256_1_0_0 1 rfl rfl rfl k j

/-- Its first bias row: row 1 of the stacked first biases. -/
theorem h4_1_b1 (Wp : Valuation τ sig (Elt Ideal)) :
    toRow1 (StableHlo.after hostOps4_1 Wp (Proc.devRef .tc main_v68) : Arr 1 256) = fun j => (Wp (Proc.devRef .tc main_arg16) : Arr 4 256) (ix2 1 j) := by
  have h : StableHlo.after hostOps4_1 Wp (Proc.devRef .tc main_v68)
      = rowOf ![1, 0] slices_S4x256_S1x256_1_0 (Wp (Proc.devRef .tc main_arg16)) := by
    simp only [hostOps4_1, List.flatten_cons, List.flatten_nil, List.append_nil, List.cons_append, List.nil_append]
    after_results_simp
    rfl
  rw [h]
  funext j
  exact rowOf_at _ ![1, 0] slices_S4x256_S1x256_1_0 1 rfl rfl j

/-- Its second weight: slice 1 of the stacked second weights. -/
theorem h4_1_w2 (Wp : Valuation τ sig (Elt Ideal)) :
    toM (StableHlo.after hostOps4_1 Wp (Proc.devRef .tc main_v64) : Arr 256 256) = fun k j => (Wp (Proc.devRef .tc main_arg17) : Arr3 4 256 256) (ix3 1 k j) := by
  have h : StableHlo.after hostOps4_1 Wp (Proc.devRef .tc main_v64)
      = matOf ![1, 0, 0] slices_S4x256x256_S1x256x256_1_0_0 (Wp (Proc.devRef .tc main_arg17)) := by
    simp only [hostOps4_1, List.flatten_cons, List.flatten_nil, List.append_nil, List.cons_append, List.nil_append]
    after_results_simp
    rfl
  rw [h]
  funext k j
  exact matOf_at _ ![1, 0, 0] slices_S4x256x256_S1x256x256_1_0_0 1 rfl rfl rfl k j

/-- Its second bias row: row 1 of the stacked second biases. -/
theorem h4_1_b2 (Wp : Valuation τ sig (Elt Ideal)) :
    toRow1 (StableHlo.after hostOps4_1 Wp (Proc.devRef .tc main_v69) : Arr 1 256) = fun j => (Wp (Proc.devRef .tc main_arg18) : Arr 4 256) (ix2 1 j) := by
  have h : StableHlo.after hostOps4_1 Wp (Proc.devRef .tc main_v69)
      = rowOf ![1, 0] slices_S4x256_S1x256_1_0 (Wp (Proc.devRef .tc main_arg18)) := by
    simp only [hostOps4_1, List.flatten_cons, List.flatten_nil, List.append_nil, List.cons_append, List.nil_append]
    after_results_simp
    rfl
  rw [h]
  funext j
  exact rowOf_at _ ![1, 0] slices_S4x256_S1x256_1_0 1 rfl rfl j

/-- The graph layer's scalar, as the stretch leaves it: entry 2 of the stacked scalars. -/
theorem h5_1_eps (Wp : Valuation τ sig (Elt Ideal)) :
    (StableHlo.after hostOps5_1 Wp (Proc.devRef .tc main_v89) : Arr 1 1) (ix2 0 0) = (Wp (Proc.devRef .tc main_arg14) : Arr1 4) (ix1 2) := by
  have h : StableHlo.after hostOps5_1 Wp (Proc.devRef .tc main_v89)
      = epsOf ![2] slices_S4_S1_2 (Wp (Proc.devRef .tc main_arg14)) := by
    simp only [hostOps5_1, List.flatten_cons, List.flatten_nil, List.append_nil, List.cons_append, List.nil_append]
    after_results_simp
    rfl
  rw [h]
  exact epsOf_at _ ![2] slices_S4_S1_2 2 rfl

/-- Its first weight: slice 2 of the stacked first weights. -/
theorem h5_1_w1 (Wp : Valuation τ sig (Elt Ideal)) :
    toM (StableHlo.after hostOps5_1 Wp (Proc.devRef .tc main_v82) : Arr 256 256) = fun k j => (Wp (Proc.devRef .tc main_arg15) : Arr3 4 256 256) (ix3 2 k j) := by
  have h : StableHlo.after hostOps5_1 Wp (Proc.devRef .tc main_v82)
      = matOf ![2, 0, 0] slices_S4x256x256_S1x256x256_2_0_0 (Wp (Proc.devRef .tc main_arg15)) := by
    simp only [hostOps5_1, List.flatten_cons, List.flatten_nil, List.append_nil, List.cons_append, List.nil_append]
    after_results_simp
    rfl
  rw [h]
  funext k j
  exact matOf_at _ ![2, 0, 0] slices_S4x256x256_S1x256x256_2_0_0 2 rfl rfl rfl k j

/-- Its first bias row: row 2 of the stacked first biases. -/
theorem h5_1_b1 (Wp : Valuation τ sig (Elt Ideal)) :
    toRow1 (StableHlo.after hostOps5_1 Wp (Proc.devRef .tc main_v90) : Arr 1 256) = fun j => (Wp (Proc.devRef .tc main_arg16) : Arr 4 256) (ix2 2 j) := by
  have h : StableHlo.after hostOps5_1 Wp (Proc.devRef .tc main_v90)
      = rowOf ![2, 0] slices_S4x256_S1x256_2_0 (Wp (Proc.devRef .tc main_arg16)) := by
    simp only [hostOps5_1, List.flatten_cons, List.flatten_nil, List.append_nil, List.cons_append, List.nil_append]
    after_results_simp
    rfl
  rw [h]
  funext j
  exact rowOf_at _ ![2, 0] slices_S4x256_S1x256_2_0 2 rfl rfl j

/-- Its second weight: slice 2 of the stacked second weights. -/
theorem h5_1_w2 (Wp : Valuation τ sig (Elt Ideal)) :
    toM (StableHlo.after hostOps5_1 Wp (Proc.devRef .tc main_v86) : Arr 256 256) = fun k j => (Wp (Proc.devRef .tc main_arg17) : Arr3 4 256 256) (ix3 2 k j) := by
  have h : StableHlo.after hostOps5_1 Wp (Proc.devRef .tc main_v86)
      = matOf ![2, 0, 0] slices_S4x256x256_S1x256x256_2_0_0 (Wp (Proc.devRef .tc main_arg17)) := by
    simp only [hostOps5_1, List.flatten_cons, List.flatten_nil, List.append_nil, List.cons_append, List.nil_append]
    after_results_simp
    rfl
  rw [h]
  funext k j
  exact matOf_at _ ![2, 0, 0] slices_S4x256x256_S1x256x256_2_0_0 2 rfl rfl rfl k j

/-- Its second bias row: row 2 of the stacked second biases. -/
theorem h5_1_b2 (Wp : Valuation τ sig (Elt Ideal)) :
    toRow1 (StableHlo.after hostOps5_1 Wp (Proc.devRef .tc main_v91) : Arr 1 256) = fun j => (Wp (Proc.devRef .tc main_arg18) : Arr 4 256) (ix2 2 j) := by
  have h : StableHlo.after hostOps5_1 Wp (Proc.devRef .tc main_v91)
      = rowOf ![2, 0] slices_S4x256_S1x256_2_0 (Wp (Proc.devRef .tc main_arg18)) := by
    simp only [hostOps5_1, List.flatten_cons, List.flatten_nil, List.append_nil, List.cons_append, List.nil_append]
    after_results_simp
    rfl
  rw [h]
  funext j
  exact rowOf_at _ ![2, 0] slices_S4x256_S1x256_2_0 2 rfl rfl j

/-- The graph layer's scalar, as the stretch leaves it: entry 3 of the stacked scalars. -/
theorem h6_1_eps (Wp : Valuation τ sig (Elt Ideal)) :
    (StableHlo.after hostOps6_1 Wp (Proc.devRef .tc main_v111) : Arr 1 1) (ix2 0 0) = (Wp (Proc.devRef .tc main_arg14) : Arr1 4) (ix1 3) := by
  have h : StableHlo.after hostOps6_1 Wp (Proc.devRef .tc main_v111)
      = epsOf ![3] slices_S4_S1_3 (Wp (Proc.devRef .tc main_arg14)) := by
    simp only [hostOps6_1, List.flatten_cons, List.flatten_nil, List.append_nil, List.cons_append, List.nil_append]
    after_results_simp
    rfl
  rw [h]
  exact epsOf_at _ ![3] slices_S4_S1_3 3 rfl

/-- Its first weight: slice 3 of the stacked first weights. -/
theorem h6_1_w1 (Wp : Valuation τ sig (Elt Ideal)) :
    toM (StableHlo.after hostOps6_1 Wp (Proc.devRef .tc main_v104) : Arr 256 256) = fun k j => (Wp (Proc.devRef .tc main_arg15) : Arr3 4 256 256) (ix3 3 k j) := by
  have h : StableHlo.after hostOps6_1 Wp (Proc.devRef .tc main_v104)
      = matOf ![3, 0, 0] slices_S4x256x256_S1x256x256_3_0_0 (Wp (Proc.devRef .tc main_arg15)) := by
    simp only [hostOps6_1, List.flatten_cons, List.flatten_nil, List.append_nil, List.cons_append, List.nil_append]
    after_results_simp
    rfl
  rw [h]
  funext k j
  exact matOf_at _ ![3, 0, 0] slices_S4x256x256_S1x256x256_3_0_0 3 rfl rfl rfl k j

/-- Its first bias row: row 3 of the stacked first biases. -/
theorem h6_1_b1 (Wp : Valuation τ sig (Elt Ideal)) :
    toRow1 (StableHlo.after hostOps6_1 Wp (Proc.devRef .tc main_v112) : Arr 1 256) = fun j => (Wp (Proc.devRef .tc main_arg16) : Arr 4 256) (ix2 3 j) := by
  have h : StableHlo.after hostOps6_1 Wp (Proc.devRef .tc main_v112)
      = rowOf ![3, 0] slices_S4x256_S1x256_3_0 (Wp (Proc.devRef .tc main_arg16)) := by
    simp only [hostOps6_1, List.flatten_cons, List.flatten_nil, List.append_nil, List.cons_append, List.nil_append]
    after_results_simp
    rfl
  rw [h]
  funext j
  exact rowOf_at _ ![3, 0] slices_S4x256_S1x256_3_0 3 rfl rfl j

/-- Its second weight: slice 3 of the stacked second weights. -/
theorem h6_1_w2 (Wp : Valuation τ sig (Elt Ideal)) :
    toM (StableHlo.after hostOps6_1 Wp (Proc.devRef .tc main_v108) : Arr 256 256) = fun k j => (Wp (Proc.devRef .tc main_arg17) : Arr3 4 256 256) (ix3 3 k j) := by
  have h : StableHlo.after hostOps6_1 Wp (Proc.devRef .tc main_v108)
      = matOf ![3, 0, 0] slices_S4x256x256_S1x256x256_3_0_0 (Wp (Proc.devRef .tc main_arg17)) := by
    simp only [hostOps6_1, List.flatten_cons, List.flatten_nil, List.append_nil, List.cons_append, List.nil_append]
    after_results_simp
    rfl
  rw [h]
  funext k j
  exact matOf_at _ ![3, 0, 0] slices_S4x256x256_S1x256x256_3_0_0 3 rfl rfl rfl k j

/-- Its second bias row: row 3 of the stacked second biases. -/
theorem h6_1_b2 (Wp : Valuation τ sig (Elt Ideal)) :
    toRow1 (StableHlo.after hostOps6_1 Wp (Proc.devRef .tc main_v113) : Arr 1 256) = fun j => (Wp (Proc.devRef .tc main_arg18) : Arr 4 256) (ix2 3 j) := by
  have h : StableHlo.after hostOps6_1 Wp (Proc.devRef .tc main_v113)
      = rowOf ![3, 0] slices_S4x256_S1x256_3_0 (Wp (Proc.devRef .tc main_arg18)) := by
    simp only [hostOps6_1, List.flatten_cons, List.flatten_nil, List.append_nil, List.cons_append, List.nil_append]
    after_results_simp
    rfl
  rw [h]
  funext j
  exact rowOf_at _ ![3, 0] slices_S4x256_S1x256_3_0 3 rfl rfl j

/-! ## The head's padded weight and bias

Before the fourth region the host writes the head's weight [256, 10] into zeros [256, 128] and its bias [10] into zeros
[128], each with one scatter at start index 0 whose body returns the update; the last stretch reshapes the padded bias
[128] to [1, 128]. -/

/-- The head's weight written into the first 10 of 128 zero columns. -/
def whPad' (wh : Arr 256 10) : Arr 256 128 :=
  Host.scatter scatter_S256x128_S1_S256x10_01_n_1_0 (fun _ b => b)
    (broadcastInDim S256x128 ![] bcast_S_S256x128 (constant (F := Ideal) S_ .f32 0x00000000#32))
    (broadcastInDim S1 ![] bcast_S_S1 (constantI S_ 32 0#32)) wh

/-- The head's bias written into the first 10 of 128 zeros. -/
def bhPad' (bh : Arr1 10) : Arr1 128 :=
  Host.scatter scatter_S128_S1_S10_0_n_0_0 (fun _ b => b)
    (broadcastInDim S128 ![] bcast_S_S128 (constant (F := Ideal) S_ .f32 0x00000000#32))
    (broadcastInDim S1 ![] bcast_S_S1 (constantI S_ 32 0#32)) bh

theorem h3_v23 (Wp : Valuation τ sig (Elt Ideal)) :
    StableHlo.after hostOps3 Wp (Proc.devRef .tc main_v23) = whPad' (Wp (Proc.devRef .tc main_arg19)) := by
  simp only [hostOps3, List.flatten_cons, List.flatten_nil, List.append_nil, List.cons_append, List.nil_append]
  after_results_simp
  rfl

theorem h3_v26 (Wp : Valuation τ sig (Elt Ideal)) :
    StableHlo.after hostOps3 Wp (Proc.devRef .tc main_v26) = bhPad' (Wp (Proc.devRef .tc main_arg20)) := by
  simp only [hostOps3, List.flatten_cons, List.flatten_nil, List.append_nil, List.cons_append, List.nil_append]
  after_results_simp
  rfl

/-- The padded bias as a [1, 128] array reads as the padded bias. -/
theorem h6_1_v114 (Wp : Valuation τ sig (Elt Ideal)) :
    toRow1 (StableHlo.after hostOps6_1 Wp (Proc.devRef .tc main_v114) : Arr 1 128) = toRow (Wp (Proc.devRef .tc main_v26) : Arr1 128) := by
  have h : StableHlo.after hostOps6_1 Wp (Proc.devRef .tc main_v114)
      = fun i => shapeCast S1x128 (Wp (Proc.devRef .tc main_v26)) shapeCasts_S128_S1x128 i := by
    simp only [hostOps6_1, List.flatten_cons, List.flatten_nil, List.append_nil, List.cons_append, List.nil_append]
    after_results_simp
    rfl
  rw [h]
  funext j
  show shapeCast S1x128 (Wp (Proc.devRef .tc main_v26)) shapeCasts_S128_S1x128 (ix2 0 j) = (Wp (Proc.devRef .tc main_v26) : Arr1 128) (ix1 j)
  exact shapeCast_apply _ shapeCasts_S128_S1x128 (ix2 0 j) (ix1 j) (by
    rw [Shape.rowMajor_val_one, Shape.rowMajor_val_two]
    show j.val = 0 * 128 + j.val
    omega)

/-! ## Walking a buffer back through the run

The run is a fold over boundaries: a stretch of host operations leaves a buffer none of them writes as it was, and a
kernel region leaves every buffer that is not one of its arrays as it was. The argument arrays are written by nothing,
so at every boundary they hold what the launch memory holds; the padded head weight and bias are written once, before
the fourth region, and carried to the last. -/

/-- A stretch of host operations leaves a buffer none of them writes as it was. -/
local macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- From the third region's entry stretch back to the launch. -/
local macro "walk7" m:ident ρ:ident c:ident b:ident : term => `(
  (calc W7 (F := Ideal) $m $ρ $c (Proc.devRef .tc $b)
    _ = W6 (F := Ideal) $m $ρ $c (Proc.devRef .tc $b) := W7_of_ne $m $ρ $c $b (by decide)
    _ = W5 (F := Ideal) $m $ρ $c (Proc.devRef .tc $b) := by host_keeps hostOps2_1
    _ = W4 (F := Ideal) $m $ρ $c (Proc.devRef .tc $b) := by host_keeps hostOps2
    _ = W3 (F := Ideal) $m $ρ $c (Proc.devRef .tc $b) := W4_of_ne $m $ρ $c $b (by decide)
    _ = W2 (F := Ideal) $m $ρ $c (Proc.devRef .tc $b) := by host_keeps hostOps1
    _ = W1 (F := Ideal) $m $ρ $c (Proc.devRef .tc $b) := W2_of_ne $m $ρ $c $b (by decide)
    _ = W0 (F := Ideal) $m $ρ $c (Proc.devRef .tc $b) := by host_keeps hostOps0
    _ = $m (($c : Thread nD τ).loc $b) := rfl))

/-- From the fifth region's entry stretch back to the third region's exit. -/
local macro "walk12" m:ident ρ:ident c:ident b:ident h:term : term => `(
  (calc W12 (F := Ideal) $m $ρ $c (Proc.devRef .tc $b)
    _ = W11 (F := Ideal) $m $ρ $c (Proc.devRef .tc $b) := by host_keeps hostOps4
    _ = W10 (F := Ideal) $m $ρ $c (Proc.devRef .tc $b) := W11_of_ne $m $ρ $c $b (by decide)
    _ = W9 (F := Ideal) $m $ρ $c (Proc.devRef .tc $b) := by host_keeps hostOps3_2
    _ = W8 (F := Ideal) $m $ρ $c (Proc.devRef .tc $b) := by host_keeps hostOps3_1
    _ = W7 (F := Ideal) $m $ρ $c (Proc.devRef .tc $b) := by host_keeps hostOps3
    _ = _ := $h))

/-- From the sixth region's entry stretch back to the fifth's. -/
local macro "walk15" m:ident ρ:ident c:ident b:ident h:term : term => `(
  (calc W15 (F := Ideal) $m $ρ $c (Proc.devRef .tc $b)
    _ = W14 (F := Ideal) $m $ρ $c (Proc.devRef .tc $b) := by host_keeps hostOps5
    _ = W13 (F := Ideal) $m $ρ $c (Proc.devRef .tc $b) := W14_of_ne $m $ρ $c $b (by decide)
    _ = W12 (F := Ideal) $m $ρ $c (Proc.devRef .tc $b) := by host_keeps hostOps4_1
    _ = _ := $h))

/-- From the seventh region's entry stretch back to the sixth's. -/
local macro "walk18" m:ident ρ:ident c:ident b:ident h:term : term => `(
  (calc W18 (F := Ideal) $m $ρ $c (Proc.devRef .tc $b)
    _ = W17 (F := Ideal) $m $ρ $c (Proc.devRef .tc $b) := by host_keeps hostOps6
    _ = W16 (F := Ideal) $m $ρ $c (Proc.devRef .tc $b) := W17_of_ne $m $ρ $c $b (by decide)
    _ = W15 (F := Ideal) $m $ρ $c (Proc.devRef .tc $b) := by host_keeps hostOps5_1
    _ = _ := $h))

/-- A buffer made before the fourth region, carried to the seventh region's entry stretch. -/
local macro "carry18" m:ident ρ:ident c:ident b:ident : term => `(
  (calc W18 (F := Ideal) $m $ρ $c (Proc.devRef .tc $b)
    _ = W17 (F := Ideal) $m $ρ $c (Proc.devRef .tc $b) := by host_keeps hostOps6
    _ = W16 (F := Ideal) $m $ρ $c (Proc.devRef .tc $b) := W17_of_ne $m $ρ $c $b (by decide)
    _ = W15 (F := Ideal) $m $ρ $c (Proc.devRef .tc $b) := by host_keeps hostOps5_1
    _ = W14 (F := Ideal) $m $ρ $c (Proc.devRef .tc $b) := by host_keeps hostOps5
    _ = W13 (F := Ideal) $m $ρ $c (Proc.devRef .tc $b) := W14_of_ne $m $ρ $c $b (by decide)
    _ = W12 (F := Ideal) $m $ρ $c (Proc.devRef .tc $b) := by host_keeps hostOps4_1
    _ = W11 (F := Ideal) $m $ρ $c (Proc.devRef .tc $b) := by host_keeps hostOps4
    _ = W10 (F := Ideal) $m $ρ $c (Proc.devRef .tc $b) := W11_of_ne $m $ρ $c $b (by decide)
    _ = W9 (F := Ideal) $m $ρ $c (Proc.devRef .tc $b) := by host_keeps hostOps3_2
    _ = W8 (F := Ideal) $m $ρ $c (Proc.devRef .tc $b) := by host_keeps hostOps3_1))

variable (m : (ℓ : Loc nD τ sig) → Buf (Elt Ideal) ℓ) (ρ : Dev nD → PrngReg) (c : Dev nD)

theorem W7_arg14 : W7 (F := Ideal) m ρ c (Proc.devRef .tc main_arg14) = m ((c : Thread nD τ).loc main_arg14) := walk7 m ρ c main_arg14
theorem W7_arg15 : W7 (F := Ideal) m ρ c (Proc.devRef .tc main_arg15) = m ((c : Thread nD τ).loc main_arg15) := walk7 m ρ c main_arg15
theorem W7_arg16 : W7 (F := Ideal) m ρ c (Proc.devRef .tc main_arg16) = m ((c : Thread nD τ).loc main_arg16) := walk7 m ρ c main_arg16
theorem W7_arg17 : W7 (F := Ideal) m ρ c (Proc.devRef .tc main_arg17) = m ((c : Thread nD τ).loc main_arg17) := walk7 m ρ c main_arg17
theorem W7_arg18 : W7 (F := Ideal) m ρ c (Proc.devRef .tc main_arg18) = m ((c : Thread nD τ).loc main_arg18) := walk7 m ρ c main_arg18
theorem W7_arg19 : W7 (F := Ideal) m ρ c (Proc.devRef .tc main_arg19) = m ((c : Thread nD τ).loc main_arg19) := walk7 m ρ c main_arg19
theorem W7_arg20 : W7 (F := Ideal) m ρ c (Proc.devRef .tc main_arg20) = m ((c : Thread nD τ).loc main_arg20) := walk7 m ρ c main_arg20
theorem W12_arg14 : W12 (F := Ideal) m ρ c (Proc.devRef .tc main_arg14) = m ((c : Thread nD τ).loc main_arg14) := walk12 m ρ c main_arg14 (W7_arg14 m ρ c)
theorem W12_arg15 : W12 (F := Ideal) m ρ c (Proc.devRef .tc main_arg15) = m ((c : Thread nD τ).loc main_arg15) := walk12 m ρ c main_arg15 (W7_arg15 m ρ c)
theorem W12_arg16 : W12 (F := Ideal) m ρ c (Proc.devRef .tc main_arg16) = m ((c : Thread nD τ).loc main_arg16) := walk12 m ρ c main_arg16 (W7_arg16 m ρ c)
theorem W12_arg17 : W12 (F := Ideal) m ρ c (Proc.devRef .tc main_arg17) = m ((c : Thread nD τ).loc main_arg17) := walk12 m ρ c main_arg17 (W7_arg17 m ρ c)
theorem W12_arg18 : W12 (F := Ideal) m ρ c (Proc.devRef .tc main_arg18) = m ((c : Thread nD τ).loc main_arg18) := walk12 m ρ c main_arg18 (W7_arg18 m ρ c)
theorem W15_arg14 : W15 (F := Ideal) m ρ c (Proc.devRef .tc main_arg14) = m ((c : Thread nD τ).loc main_arg14) := walk15 m ρ c main_arg14 (W12_arg14 m ρ c)
theorem W15_arg15 : W15 (F := Ideal) m ρ c (Proc.devRef .tc main_arg15) = m ((c : Thread nD τ).loc main_arg15) := walk15 m ρ c main_arg15 (W12_arg15 m ρ c)
theorem W15_arg16 : W15 (F := Ideal) m ρ c (Proc.devRef .tc main_arg16) = m ((c : Thread nD τ).loc main_arg16) := walk15 m ρ c main_arg16 (W12_arg16 m ρ c)
theorem W15_arg17 : W15 (F := Ideal) m ρ c (Proc.devRef .tc main_arg17) = m ((c : Thread nD τ).loc main_arg17) := walk15 m ρ c main_arg17 (W12_arg17 m ρ c)
theorem W15_arg18 : W15 (F := Ideal) m ρ c (Proc.devRef .tc main_arg18) = m ((c : Thread nD τ).loc main_arg18) := walk15 m ρ c main_arg18 (W12_arg18 m ρ c)
theorem W18_arg14 : W18 (F := Ideal) m ρ c (Proc.devRef .tc main_arg14) = m ((c : Thread nD τ).loc main_arg14) := walk18 m ρ c main_arg14 (W15_arg14 m ρ c)
theorem W18_arg15 : W18 (F := Ideal) m ρ c (Proc.devRef .tc main_arg15) = m ((c : Thread nD τ).loc main_arg15) := walk18 m ρ c main_arg15 (W15_arg15 m ρ c)
theorem W18_arg16 : W18 (F := Ideal) m ρ c (Proc.devRef .tc main_arg16) = m ((c : Thread nD τ).loc main_arg16) := walk18 m ρ c main_arg16 (W15_arg16 m ρ c)
theorem W18_arg17 : W18 (F := Ideal) m ρ c (Proc.devRef .tc main_arg17) = m ((c : Thread nD τ).loc main_arg17) := walk18 m ρ c main_arg17 (W15_arg17 m ρ c)
theorem W18_arg18 : W18 (F := Ideal) m ρ c (Proc.devRef .tc main_arg18) = m ((c : Thread nD τ).loc main_arg18) := walk18 m ρ c main_arg18 (W15_arg18 m ρ c)
theorem W18_v23 : W18 (F := Ideal) m ρ c (Proc.devRef .tc main_v23) = W8 (F := Ideal) m ρ c (Proc.devRef .tc main_v23) := carry18 m ρ c main_v23
theorem W18_v26 : W18 (F := Ideal) m ρ c (Proc.devRef .tc main_v26) = W8 (F := Ideal) m ρ c (Proc.devRef .tc main_v26) := carry18 m ρ c main_v26
theorem W19_v23 : W19 (F := Ideal) m ρ c (Proc.devRef .tc main_v23) = W8 (F := Ideal) m ρ c (Proc.devRef .tc main_v23) :=
  (show W19 (F := Ideal) m ρ c (Proc.devRef .tc main_v23) = W18 (F := Ideal) m ρ c (Proc.devRef .tc main_v23) by host_keeps hostOps6_1).trans (W18_v23 m ρ c)

/-! ## The parameters at each region's entry -/

/-! ### Region 4: residual layer 1 -/

theorem eps4 : (W13 (F := Ideal) m ρ c (Proc.devRef .tc main_v67) : Arr 1 1) (ix2 0 0) = (m ((c : Thread nD τ).loc main_arg14) : Arr1 4) (ix1 1) :=
  (h4_1_eps (W12 (F := Ideal) m ρ c)).trans (congrFun (W12_arg14 m ρ c) (ix1 1))

theorem w1_4 : toM (W13 (F := Ideal) m ρ c (Proc.devRef .tc main_v60) : Arr 256 256) = fun k j => (m ((c : Thread nD τ).loc main_arg15) : Arr3 4 256 256) (ix3 1 k j) :=
  (h4_1_w1 (W12 (F := Ideal) m ρ c)).trans (by rw [W12_arg15])

theorem b1_4 : toRow1 (W13 (F := Ideal) m ρ c (Proc.devRef .tc main_v68) : Arr 1 256) = fun j => (m ((c : Thread nD τ).loc main_arg16) : Arr 4 256) (ix2 1 j) :=
  (h4_1_b1 (W12 (F := Ideal) m ρ c)).trans (by rw [W12_arg16])

theorem w2_4 : toM (W13 (F := Ideal) m ρ c (Proc.devRef .tc main_v64) : Arr 256 256) = fun k j => (m ((c : Thread nD τ).loc main_arg17) : Arr3 4 256 256) (ix3 1 k j) :=
  (h4_1_w2 (W12 (F := Ideal) m ρ c)).trans (by rw [W12_arg17])

theorem b2_4 : toRow1 (W13 (F := Ideal) m ρ c (Proc.devRef .tc main_v69) : Arr 1 256) = fun j => (m ((c : Thread nD τ).loc main_arg18) : Arr 4 256) (ix2 1 j) :=
  (h4_1_b2 (W12 (F := Ideal) m ρ c)).trans (by rw [W12_arg18])

/-! ### Region 5: residual layer 2 -/

theorem eps5 : (W16 (F := Ideal) m ρ c (Proc.devRef .tc main_v89) : Arr 1 1) (ix2 0 0) = (m ((c : Thread nD τ).loc main_arg14) : Arr1 4) (ix1 2) :=
  (h5_1_eps (W15 (F := Ideal) m ρ c)).trans (congrFun (W15_arg14 m ρ c) (ix1 2))

theorem w1_5 : toM (W16 (F := Ideal) m ρ c (Proc.devRef .tc main_v82) : Arr 256 256) = fun k j => (m ((c : Thread nD τ).loc main_arg15) : Arr3 4 256 256) (ix3 2 k j) :=
  (h5_1_w1 (W15 (F := Ideal) m ρ c)).trans (by rw [W15_arg15])

theorem b1_5 : toRow1 (W16 (F := Ideal) m ρ c (Proc.devRef .tc main_v90) : Arr 1 256) = fun j => (m ((c : Thread nD τ).loc main_arg16) : Arr 4 256) (ix2 2 j) :=
  (h5_1_b1 (W15 (F := Ideal) m ρ c)).trans (by rw [W15_arg16])

theorem w2_5 : toM (W16 (F := Ideal) m ρ c (Proc.devRef .tc main_v86) : Arr 256 256) = fun k j => (m ((c : Thread nD τ).loc main_arg17) : Arr3 4 256 256) (ix3 2 k j) :=
  (h5_1_w2 (W15 (F := Ideal) m ρ c)).trans (by rw [W15_arg17])

theorem b2_5 : toRow1 (W16 (F := Ideal) m ρ c (Proc.devRef .tc main_v91) : Arr 1 256) = fun j => (m ((c : Thread nD τ).loc main_arg18) : Arr 4 256) (ix2 2 j) :=
  (h5_1_b2 (W15 (F := Ideal) m ρ c)).trans (by rw [W15_arg18])

/-! ### Region 6: residual layer 3 -/

theorem eps6 : (W19 (F := Ideal) m ρ c (Proc.devRef .tc main_v111) : Arr 1 1) (ix2 0 0) = (m ((c : Thread nD τ).loc main_arg14) : Arr1 4) (ix1 3) :=
  (h6_1_eps (W18 (F := Ideal) m ρ c)).trans (congrFun (W18_arg14 m ρ c) (ix1 3))

theorem w1_6 : toM (W19 (F := Ideal) m ρ c (Proc.devRef .tc main_v104) : Arr 256 256) = fun k j => (m ((c : Thread nD τ).loc main_arg15) : Arr3 4 256 256) (ix3 3 k j) :=
  (h6_1_w1 (W18 (F := Ideal) m ρ c)).trans (by rw [W18_arg15])

theorem b1_6 : toRow1 (W19 (F := Ideal) m ρ c (Proc.devRef .tc main_v112) : Arr 1 256) = fun j => (m ((c : Thread nD τ).loc main_arg16) : Arr 4 256) (ix2 3 j) :=
  (h6_1_b1 (W18 (F := Ideal) m ρ c)).trans (by rw [W18_arg16])

theorem w2_6 : toM (W19 (F := Ideal) m ρ c (Proc.devRef .tc main_v108) : Arr 256 256) = fun k j => (m ((c : Thread nD τ).loc main_arg17) : Arr3 4 256 256) (ix3 3 k j) :=
  (h6_1_w2 (W18 (F := Ideal) m ρ c)).trans (by rw [W18_arg17])

theorem b2_6 : toRow1 (W19 (F := Ideal) m ρ c (Proc.devRef .tc main_v113) : Arr 1 256) = fun j => (m ((c : Thread nD τ).loc main_arg18) : Arr 4 256) (ix2 3 j) :=
  (h6_1_b2 (W18 (F := Ideal) m ρ c)).trans (by rw [W18_arg18])

/-! ### Region 6: the head -/

theorem wh6 : (W19 (F := Ideal) m ρ c (Proc.devRef .tc main_v23) : Arr 256 128) = whPad' (m ((c : Thread nD τ).loc main_arg19) : Arr 256 10) :=
  (W19_v23 m ρ c).trans ((h3_v23 (W7 (F := Ideal) m ρ c)).trans (congrArg whPad' (W7_arg19 m ρ c)))

theorem bh6 : toRow1 (W19 (F := Ideal) m ρ c (Proc.devRef .tc main_v114) : Arr 1 128) = toRow (bhPad' (m ((c : Thread nD τ).loc main_arg20) : Arr1 10)) :=
  (h6_1_v114 (W18 (F := Ideal) m ρ c)).trans (congrArg toRow
    ((W18_v26 m ρ c).trans ((h3_v26 (W7 (F := Ideal) m ρ c)).trans (congrArg bhPad' (W7_arg20 m ρ c)))))

end Cert.KernelIdeal.KParams2

end
-- ==== Proof.KCarry.lean ====
/-
  Which buffers of the kernel program pass unchanged from one boundary of its run to a later one.

  The run is a fold over boundaries: a stretch of host operations rewrites the buffers its operations name as results
  and leaves every other buffer alone; a kernel region rewrites its own arrays and leaves every other buffer alone.
  So a buffer written once stays as written until a later stretch names it as a result or a later region takes it as
  one of its arrays. For each stretch the result buffers are listed; a buffer outside the list is kept. The source and
  destination index rows, the edge encoding and each layer's node features are then carried from the boundary that
  made them to the boundaries that read them.
-/
import proofs.«414264_j73976516706834_2_alg».proof.Proof.KRun
import proofs.«414264_j73976516706834_2_alg».proof.Proof.Inputs
import Idealize.ShloMosaic.Lib.StableHlo.Run
import Idealize.ShloMosaic.PureOps.Ideal.Laws

set_option maxRecDepth 16384

noncomputable section

namespace Cert.KernelIdeal.KCarry

open Cert.KernelIdeal Cert.KernelIdeal.Gen
open Idealize.ShloMosaic Idealize.ShloMosaic.TcCoe Idealize.ShloMosaic.StableHlo Idealize.ShloMosaic.ValueIdx
open Idealize.SL.Sem Gnn

/-! ## A stretch of host operations keeps what it does not write -/

section Keep

variable {F : FTy → Type} [FloatOps F]

/-- Every operation of the named stretch writes one buffer, and that buffer is in the stretch's list: the list of
    operations is opened, each operation's written set is the singleton of its result, and the result is found in the
    list by comparing references. -/
local macro "writes_sub " ops:ident : tactic =>
  `(tactic| (
    simp only [$ops:ident, List.Forall, StableHlo.nullary_writes, StableHlo.unary_writes, StableHlo.binary_writes,
      StableHlo.ternary_writes, StableHlo.quaternary_writes, StableHlo.reshape_writes, StableHlo.binaryIndexed_writes,
      Finset.singleton_subset_iff, List.mem_toFinset]
    repeat' apply And.intro
    all_goals exact List.mem_map_of_mem (by decide)))

/-- The buffers the stretch `hostOps0` writes (the two rows of the edge index and two bias rows, sliced and reshaped). -/
abbrev writes0 : List (Ref sig .tc) :=
  [main_v0, main_v1, main_v2, main_v3, main_v4, main_v5]
/-- The stretch `hostOps0` leaves every buffer it does not write as it was. -/
theorem keep0 (V : Valuation τ sig (Elt F)) (b : Ref sig .tc) (hb : b ∉ writes0) :
    StableHlo.after (hostOps0 (F := F)) V (Proc.devRef .tc b) = V (Proc.devRef .tc b) :=
  StableHlo.after_of_writes_sub _ V (by writes_sub hostOps0) hb

/-- The buffers the stretch `hostOps1` writes (the edge encoder's bias row). -/
abbrev writes1 : List (Ref sig .tc) :=
  [main_v7]
/-- The stretch `hostOps1` leaves every buffer it does not write as it was. -/
theorem keep1 (V : Valuation τ sig (Elt F)) (b : Ref sig .tc) (hb : b ∉ writes1) :
    StableHlo.after (hostOps1 (F := F)) V (Proc.devRef .tc b) = V (Proc.devRef .tc b) :=
  StableHlo.after_of_writes_sub _ V (by writes_sub hostOps1) hb

/-- The buffers the stretch `hostOps2` writes (the first gather of node rows along the source indices). -/
abbrev writes2 : List (Ref sig .tc) :=
  [main_call0_c, main_call0_v0, main_call0_v1, main_call0_c_0, main_call0_v2, main_call0_v3,
   main_call0_v4, main_call0_v5, main_call0_c_1, main_call0_c_2, main_call0_v6, main_call0_v7,
   main_call0_v8, main_call0_v9, main_call0_v10, main_call0_v11, main_call0_c_3, main_call0_v12,
   main_call0_v13, main_call0_v14, main_call0_cst, main_call0_v15, main_v9]
/-- The stretch `hostOps2` leaves every buffer it does not write as it was. -/
theorem keep2 (V : Valuation τ sig (Elt F)) (b : Ref sig .tc) (hb : b ∉ writes2) :
    StableHlo.after (hostOps2 (F := F)) V (Proc.devRef .tc b) = V (Proc.devRef .tc b) :=
  StableHlo.after_of_writes_sub _ V (by writes_sub hostOps2) hb

/-- The buffers the stretch `hostOps2_1` writes (the first message, its scatter along the destination indices, and
    the first graph layer's rows). -/
abbrev writes2_1 : List (Ref sig .tc) :=
  [main_v10, main_v11, main_cst, main_v12, main_v13, main_cst_0, main_v14, main_v15, main_v16, main_v17,
   main_v18, main_v19]
/-- The stretch `hostOps2_1` leaves every buffer it does not write as it was. -/
theorem keep2_1 (V : Valuation τ sig (Elt F)) (b : Ref sig .tc) (hb : b ∉ writes2_1) :
    StableHlo.after (hostOps2_1 (F := F)) V (Proc.devRef .tc b) = V (Proc.devRef .tc b) :=
  StableHlo.after_of_writes_sub _ V (by writes_sub hostOps2_1) hb

/-- The buffers the stretch `hostOps3` writes (the head's weight and bias padded to the lane width). -/
abbrev writes3 : List (Ref sig .tc) :=
  [main_cst_1, main_v21, main_c, main_v22, main_v23, main_cst_2, main_v24, main_c_3, main_v25, main_v26]
/-- The stretch `hostOps3` leaves every buffer it does not write as it was. -/
theorem keep3 (V : Valuation τ sig (Elt F)) (b : Ref sig .tc) (hb : b ∉ writes3) :
    StableHlo.after (hostOps3 (F := F)) V (Proc.devRef .tc b) = V (Proc.devRef .tc b) :=
  StableHlo.after_of_writes_sub _ V (by writes_sub hostOps3) hb

/-- The buffers the stretch `hostOps3_1` writes (the second gather). -/
abbrev writes3_1 : List (Ref sig .tc) :=
  [main_call1_c, main_call1_v0, main_call1_v1, main_call1_c_0, main_call1_v2, main_call1_v3,
   main_call1_v4, main_call1_v5, main_call1_c_1, main_call1_c_2, main_call1_v6, main_call1_v7,
   main_call1_v8, main_call1_v9, main_call1_v10, main_call1_v11, main_call1_c_3, main_call1_v12,
   main_call1_v13, main_call1_v14, main_call1_cst, main_call1_v15, main_v27]
/-- The stretch `hostOps3_1` leaves every buffer it does not write as it was. -/
theorem keep3_1 (V : Valuation τ sig (Elt F)) (b : Ref sig .tc) (hb : b ∉ writes3_1) :
    StableHlo.after (hostOps3_1 (F := F)) V (Proc.devRef .tc b) = V (Proc.devRef .tc b) :=
  StableHlo.after_of_writes_sub _ V (by writes_sub hostOps3_1) hb

/-- The buffers the stretch `hostOps3_2` writes (the second message and scatter, and residual layer 0's parameters). -/
abbrev writes3_2 : List (Ref sig .tc) :=
  [main_v28, main_v29, main_cst_4, main_v30, main_v31, main_cst_5, main_v32, main_v33, main_v34, main_v35,
   main_v36, main_v37, main_v38, main_v39, main_v40, main_v41, main_v42, main_v43, main_v44, main_v45,
   main_v46, main_v47]
/-- The stretch `hostOps3_2` leaves every buffer it does not write as it was. -/
theorem keep3_2 (V : Valuation τ sig (Elt F)) (b : Ref sig .tc) (hb : b ∉ writes3_2) :
    StableHlo.after (hostOps3_2 (F := F)) V (Proc.devRef .tc b) = V (Proc.devRef .tc b) :=
  StableHlo.after_of_writes_sub _ V (by writes_sub hostOps3_2) hb

/-- The buffers the stretch `hostOps4` writes (the third gather). -/
abbrev writes4 : List (Ref sig .tc) :=
  [main_call2_c, main_call2_v0, main_call2_v1, main_call2_c_0, main_call2_v2, main_call2_v3,
   main_call2_v4, main_call2_v5, main_call2_c_1, main_call2_c_2, main_call2_v6, main_call2_v7,
   main_call2_v8, main_call2_v9, main_call2_v10, main_call2_v11, main_call2_c_3, main_call2_v12,
   main_call2_v13, main_call2_v14, main_call2_cst, main_call2_v15, main_v49]
/-- The stretch `hostOps4` leaves every buffer it does not write as it was. -/
theorem keep4 (V : Valuation τ sig (Elt F)) (b : Ref sig .tc) (hb : b ∉ writes4) :
    StableHlo.after (hostOps4 (F := F)) V (Proc.devRef .tc b) = V (Proc.devRef .tc b) :=
  StableHlo.after_of_writes_sub _ V (by writes_sub hostOps4) hb

/-- The buffers the stretch `hostOps4_1` writes (the third message and scatter, and residual layer 1's parameters). -/
abbrev writes4_1 : List (Ref sig .tc) :=
  [main_v50, main_v51, main_cst_6, main_v52, main_v53, main_cst_7, main_v54, main_v55, main_v56, main_v57,
   main_v58, main_v59, main_v60, main_v61, main_v62, main_v63, main_v64, main_v65, main_v66, main_v67,
   main_v68, main_v69]
/-- The stretch `hostOps4_1` leaves every buffer it does not write as it was. -/
theorem keep4_1 (V : Valuation τ sig (Elt F)) (b : Ref sig .tc) (hb : b ∉ writes4_1) :
    StableHlo.after (hostOps4_1 (F := F)) V (Proc.devRef .tc b) = V (Proc.devRef .tc b) :=
  StableHlo.after_of_writes_sub _ V (by writes_sub hostOps4_1) hb

/-- The buffers the stretch `hostOps5` writes (the fourth gather). -/
abbrev writes5 : List (Ref sig .tc) :=
  [main_call3_c, main_call3_v0, main_call3_v1, main_call3_c_0, main_call3_v2, main_call3_v3,
   main_call3_v4, main_call3_v5, main_call3_c_1, main_call3_c_2, main_call3_v6, main_call3_v7,
   main_call3_v8, main_call3_v9, main_call3_v10, main_call3_v11, main_call3_c_3, main_call3_v12,
   main_call3_v13, main_call3_v14, main_call3_cst, main_call3_v15, main_v71]
/-- The stretch `hostOps5` leaves every buffer it does not write as it was. -/
theorem keep5 (V : Valuation τ sig (Elt F)) (b : Ref sig .tc) (hb : b ∉ writes5) :
    StableHlo.after (hostOps5 (F := F)) V (Proc.devRef .tc b) = V (Proc.devRef .tc b) :=
  StableHlo.after_of_writes_sub _ V (by writes_sub hostOps5) hb

/-- The buffers the stretch `hostOps5_1` writes (the fourth message and scatter, and residual layer 2's parameters). -/
abbrev writes5_1 : List (Ref sig .tc) :=
  [main_v72, main_v73, main_cst_8, main_v74, main_v75, main_cst_9, main_v76, main_v77, main_v78, main_v79,
   main_v80, main_v81, main_v82, main_v83, main_v84, main_v85, main_v86, main_v87, main_v88, main_v89,
   main_v90, main_v91]
/-- The stretch `hostOps5_1` leaves every buffer it does not write as it was. -/
theorem keep5_1 (V : Valuation τ sig (Elt F)) (b : Ref sig .tc) (hb : b ∉ writes5_1) :
    StableHlo.after (hostOps5_1 (F := F)) V (Proc.devRef .tc b) = V (Proc.devRef .tc b) :=
  StableHlo.after_of_writes_sub _ V (by writes_sub hostOps5_1) hb

/-- The buffers the stretch `hostOps6` writes (the fifth gather). -/
abbrev writes6 : List (Ref sig .tc) :=
  [main_call4_c, main_call4_v0, main_call4_v1, main_call4_c_0, main_call4_v2, main_call4_v3,
   main_call4_v4, main_call4_v5, main_call4_c_1, main_call4_c_2, main_call4_v6, main_call4_v7,
   main_call4_v8, main_call4_v9, main_call4_v10, main_call4_v11, main_call4_c_3, main_call4_v12,
   main_call4_v13, main_call4_v14, main_call4_cst, main_call4_v15, main_v93]
/-- The stretch `hostOps6` leaves every buffer it does not write as it was. -/
theorem keep6 (V : Valuation τ sig (Elt F)) (b : Ref sig .tc) (hb : b ∉ writes6) :
    StableHlo.after (hostOps6 (F := F)) V (Proc.devRef .tc b) = V (Proc.devRef .tc b) :=
  StableHlo.after_of_writes_sub _ V (by writes_sub hostOps6) hb

/-- The buffers the stretch `hostOps6_1` writes (the fifth message and scatter, residual layer 3's parameters and the
    head's bias row). -/
abbrev writes6_1 : List (Ref sig .tc) :=
  [main_v94, main_v95, main_cst_10, main_v96, main_v97, main_cst_11, main_v98, main_v99, main_v100,
   main_v101, main_v102, main_v103, main_v104, main_v105, main_v106, main_v107, main_v108, main_v109,
   main_v110, main_v111, main_v112, main_v113, main_v114]
/-- The stretch `hostOps6_1` leaves every buffer it does not write as it was. -/
theorem keep6_1 (V : Valuation τ sig (Elt F)) (b : Ref sig .tc) (hb : b ∉ writes6_1) :
    StableHlo.after (hostOps6_1 (F := F)) V (Proc.devRef .tc b) = V (Proc.devRef .tc b) :=
  StableHlo.after_of_writes_sub _ V (by writes_sub hostOps6_1) hb

/-- The buffers the stretch `hostOps7` writes (the result's ten columns). -/
abbrev writes7 : List (Ref sig .tc) :=
  [main_v116]
/-- The stretch `hostOps7` leaves every buffer it does not write as it was. -/
theorem keep7 (V : Valuation τ sig (Elt F)) (b : Ref sig .tc) (hb : b ∉ writes7) :
    StableHlo.after (hostOps7 (F := F)) V (Proc.devRef .tc b) = V (Proc.devRef .tc b) :=
  StableHlo.after_of_writes_sub _ V (by writes_sub hostOps7) hb

end Keep

/-! ## From boundary to boundary -/

variable (m : (ℓ : Loc nD τ sig) → Buf (Elt Ideal) ℓ) (ρ : Dev nD → PrngReg) (c : Dev nD)

section Segments

variable (b : Ref sig .tc)

/-- Across region 0. -/
theorem seg_1_2 (hr : ∀ w, Pipeline.arrRef spec0 w ≠ b) :
    W2 (F := Ideal) m ρ c (Proc.devRef .tc b) = W1 (F := Ideal) m ρ c (Proc.devRef .tc b) :=
  W2_of_ne m ρ c b hr

/-- Across the stretch before region 1. -/
theorem seg_2_3 (h1 : b ∉ writes1) :
    W3 (F := Ideal) m ρ c (Proc.devRef .tc b) = W2 (F := Ideal) m ρ c (Proc.devRef .tc b) :=
  keep1 _ b h1

/-- Across region 1. -/
theorem seg_3_4 (hr : ∀ w, Pipeline.arrRef spec1 w ≠ b) :
    W4 (F := Ideal) m ρ c (Proc.devRef .tc b) = W3 (F := Ideal) m ρ c (Proc.devRef .tc b) :=
  W4_of_ne m ρ c b hr

theorem seg_2_4 (h1 : b ∉ writes1) (hr : ∀ w, Pipeline.arrRef spec1 w ≠ b) :
    W4 (F := Ideal) m ρ c (Proc.devRef .tc b) = W2 (F := Ideal) m ρ c (Proc.devRef .tc b) :=
  (seg_3_4 m ρ c b hr).trans (seg_2_3 m ρ c b h1)

/-- Across the two stretches before region 2. -/
theorem seg_4_6 (h2 : b ∉ writes2) (h21 : b ∉ writes2_1) :
    W6 (F := Ideal) m ρ c (Proc.devRef .tc b) = W4 (F := Ideal) m ρ c (Proc.devRef .tc b) :=
  (keep2_1 _ b h21).trans (keep2 _ b h2)

/-- Across region 2. -/
theorem seg_6_7 (hr : ∀ w, Pipeline.arrRef spec2 w ≠ b) :
    W7 (F := Ideal) m ρ c (Proc.devRef .tc b) = W6 (F := Ideal) m ρ c (Proc.devRef .tc b) :=
  W7_of_ne m ρ c b hr

theorem seg_4_7 (h2 : b ∉ writes2) (h21 : b ∉ writes2_1) (hr : ∀ w, Pipeline.arrRef spec2 w ≠ b) :
    W7 (F := Ideal) m ρ c (Proc.devRef .tc b) = W4 (F := Ideal) m ρ c (Proc.devRef .tc b) :=
  (seg_6_7 m ρ c b hr).trans (seg_4_6 m ρ c b h2 h21)

/-- Across the three stretches before region 3. -/
theorem seg_7_10 (h3 : b ∉ writes3) (h31 : b ∉ writes3_1) (h32 : b ∉ writes3_2) :
    W10 (F := Ideal) m ρ c (Proc.devRef .tc b) = W7 (F := Ideal) m ρ c (Proc.devRef .tc b) :=
  (keep3_2 _ b h32).trans ((keep3_1 _ b h31).trans (keep3 _ b h3))

/-- Across region 3. -/
theorem seg_10_11 (hr : ∀ w, Pipeline.arrRef spec3 w ≠ b) :
    W11 (F := Ideal) m ρ c (Proc.devRef .tc b) = W10 (F := Ideal) m ρ c (Proc.devRef .tc b) :=
  W11_of_ne m ρ c b hr

theorem seg_7_11 (h3 : b ∉ writes3) (h31 : b ∉ writes3_1) (h32 : b ∉ writes3_2) (hr : ∀ w, Pipeline.arrRef spec3 w ≠ b) :
    W11 (F := Ideal) m ρ c (Proc.devRef .tc b) = W7 (F := Ideal) m ρ c (Proc.devRef .tc b) :=
  (seg_10_11 m ρ c b hr).trans (seg_7_10 m ρ c b h3 h31 h32)

/-- Across the two stretches before region 4. -/
theorem seg_11_13 (h4 : b ∉ writes4) (h41 : b ∉ writes4_1) :
    W13 (F := Ideal) m ρ c (Proc.devRef .tc b) = W11 (F := Ideal) m ρ c (Proc.devRef .tc b) :=
  (keep4_1 _ b h41).trans (keep4 _ b h4)

/-- Across region 4. -/
theorem seg_13_14 (hr : ∀ w, Pipeline.arrRef spec4 w ≠ b) :
    W14 (F := Ideal) m ρ c (Proc.devRef .tc b) = W13 (F := Ideal) m ρ c (Proc.devRef .tc b) :=
  W14_of_ne m ρ c b hr

theorem seg_11_14 (h4 : b ∉ writes4) (h41 : b ∉ writes4_1) (hr : ∀ w, Pipeline.arrRef spec4 w ≠ b) :
    W14 (F := Ideal) m ρ c (Proc.devRef .tc b) = W11 (F := Ideal) m ρ c (Proc.devRef .tc b) :=
  (seg_13_14 m ρ c b hr).trans (seg_11_13 m ρ c b h4 h41)

/-- Across the two stretches before region 5. -/
theorem seg_14_16 (h5 : b ∉ writes5) (h51 : b ∉ writes5_1) :
    W16 (F := Ideal) m ρ c (Proc.devRef .tc b) = W14 (F := Ideal) m ρ c (Proc.devRef .tc b) :=
  (keep5_1 _ b h51).trans (keep5 _ b h5)

/-- Across region 5. -/
theorem seg_16_17 (hr : ∀ w, Pipeline.arrRef spec5 w ≠ b) :
    W17 (F := Ideal) m ρ c (Proc.devRef .tc b) = W16 (F := Ideal) m ρ c (Proc.devRef .tc b) :=
  W17_of_ne m ρ c b hr

theorem seg_14_17 (h5 : b ∉ writes5) (h51 : b ∉ writes5_1) (hr : ∀ w, Pipeline.arrRef spec5 w ≠ b) :
    W17 (F := Ideal) m ρ c (Proc.devRef .tc b) = W14 (F := Ideal) m ρ c (Proc.devRef .tc b) :=
  (seg_16_17 m ρ c b hr).trans (seg_14_16 m ρ c b h5 h51)

/-- Across the two stretches before region 6. -/
theorem seg_17_19 (h6 : b ∉ writes6) (h61 : b ∉ writes6_1) :
    W19 (F := Ideal) m ρ c (Proc.devRef .tc b) = W17 (F := Ideal) m ρ c (Proc.devRef .tc b) :=
  (keep6_1 _ b h61).trans (keep6 _ b h6)

/-- Across region 6. -/
theorem seg_19_20 (hr : ∀ w, Pipeline.arrRef spec6 w ≠ b) :
    W20 (F := Ideal) m ρ c (Proc.devRef .tc b) = W19 (F := Ideal) m ρ c (Proc.devRef .tc b) :=
  W20_of_ne m ρ c b hr

/-- Across the last stretch. -/
theorem seg_20_21 (h7 : b ∉ writes7) :
    W21 (F := Ideal) m ρ c (Proc.devRef .tc b) = W20 (F := Ideal) m ρ c (Proc.devRef .tc b) :=
  keep7 _ b h7

end Segments

/-! ## The source index row, written before region 0, at the later boundaries -/

theorem v1_at4 : W4 (F := Ideal) m ρ c (Proc.devRef .tc main_v1) = W1 (F := Ideal) m ρ c (Proc.devRef .tc main_v1) :=
  (seg_2_4 m ρ c main_v1 (by decide) (by decide)).trans (seg_1_2 m ρ c main_v1 (by decide))
theorem v1_at7 : W7 (F := Ideal) m ρ c (Proc.devRef .tc main_v1) = W1 (F := Ideal) m ρ c (Proc.devRef .tc main_v1) :=
  (seg_4_7 m ρ c main_v1 (by decide) (by decide) (by decide)).trans (v1_at4 m ρ c)
theorem v1_at11 : W11 (F := Ideal) m ρ c (Proc.devRef .tc main_v1) = W1 (F := Ideal) m ρ c (Proc.devRef .tc main_v1) :=
  (seg_7_11 m ρ c main_v1 (by decide) (by decide) (by decide) (by decide)).trans (v1_at7 m ρ c)
theorem v1_at14 : W14 (F := Ideal) m ρ c (Proc.devRef .tc main_v1) = W1 (F := Ideal) m ρ c (Proc.devRef .tc main_v1) :=
  (seg_11_14 m ρ c main_v1 (by decide) (by decide) (by decide)).trans (v1_at11 m ρ c)
theorem v1_at17 : W17 (F := Ideal) m ρ c (Proc.devRef .tc main_v1) = W1 (F := Ideal) m ρ c (Proc.devRef .tc main_v1) :=
  (seg_14_17 m ρ c main_v1 (by decide) (by decide) (by decide)).trans (v1_at14 m ρ c)

/-! ## The destination index row -/

theorem v3_at4 : W4 (F := Ideal) m ρ c (Proc.devRef .tc main_v3) = W1 (F := Ideal) m ρ c (Proc.devRef .tc main_v3) :=
  (seg_2_4 m ρ c main_v3 (by decide) (by decide)).trans (seg_1_2 m ρ c main_v3 (by decide))
theorem v3_at7 : W7 (F := Ideal) m ρ c (Proc.devRef .tc main_v3) = W1 (F := Ideal) m ρ c (Proc.devRef .tc main_v3) :=
  (seg_4_7 m ρ c main_v3 (by decide) (by decide) (by decide)).trans (v3_at4 m ρ c)
theorem v3_at11 : W11 (F := Ideal) m ρ c (Proc.devRef .tc main_v3) = W1 (F := Ideal) m ρ c (Proc.devRef .tc main_v3) :=
  (seg_7_11 m ρ c main_v3 (by decide) (by decide) (by decide) (by decide)).trans (v3_at7 m ρ c)
theorem v3_at14 : W14 (F := Ideal) m ρ c (Proc.devRef .tc main_v3) = W1 (F := Ideal) m ρ c (Proc.devRef .tc main_v3) :=
  (seg_11_14 m ρ c main_v3 (by decide) (by decide) (by decide)).trans (v3_at11 m ρ c)
theorem v3_at17 : W17 (F := Ideal) m ρ c (Proc.devRef .tc main_v3) = W1 (F := Ideal) m ρ c (Proc.devRef .tc main_v3) :=
  (seg_14_17 m ρ c main_v3 (by decide) (by decide) (by decide)).trans (v3_at14 m ρ c)

/-! ## The edge encoding, region 1's output -/

theorem e_at7 : W7 (F := Ideal) m ρ c (Proc.devRef .tc main_v8) = W4 (F := Ideal) m ρ c (Proc.devRef .tc main_v8) :=
  seg_4_7 m ρ c main_v8 (by decide) (by decide) (by decide)
theorem e_at11 : W11 (F := Ideal) m ρ c (Proc.devRef .tc main_v8) = W4 (F := Ideal) m ρ c (Proc.devRef .tc main_v8) :=
  (seg_7_11 m ρ c main_v8 (by decide) (by decide) (by decide) (by decide)).trans (e_at7 m ρ c)
theorem e_at14 : W14 (F := Ideal) m ρ c (Proc.devRef .tc main_v8) = W4 (F := Ideal) m ρ c (Proc.devRef .tc main_v8) :=
  (seg_11_14 m ρ c main_v8 (by decide) (by decide) (by decide)).trans (e_at11 m ρ c)
theorem e_at17 : W17 (F := Ideal) m ρ c (Proc.devRef .tc main_v8) = W4 (F := Ideal) m ρ c (Proc.devRef .tc main_v8) :=
  (seg_14_17 m ρ c main_v8 (by decide) (by decide) (by decide)).trans (e_at14 m ρ c)

/-! ## Node features, from the region that made them to where they are read next -/

theorem h0_at4 : W4 (F := Ideal) m ρ c (Proc.devRef .tc main_v6) = W2 (F := Ideal) m ρ c (Proc.devRef .tc main_v6) :=
  seg_2_4 m ρ c main_v6 (by decide) (by decide)
theorem h0_at6 : W6 (F := Ideal) m ρ c (Proc.devRef .tc main_v6) = W2 (F := Ideal) m ρ c (Proc.devRef .tc main_v6) :=
  (seg_4_6 m ρ c main_v6 (by decide) (by decide)).trans (h0_at4 m ρ c)
theorem h1_at10 : W10 (F := Ideal) m ρ c (Proc.devRef .tc main_v20) = W7 (F := Ideal) m ρ c (Proc.devRef .tc main_v20) :=
  seg_7_10 m ρ c main_v20 (by decide) (by decide) (by decide)
theorem h2_at13 : W13 (F := Ideal) m ρ c (Proc.devRef .tc main_v48) = W11 (F := Ideal) m ρ c (Proc.devRef .tc main_v48) :=
  seg_11_13 m ρ c main_v48 (by decide) (by decide)
theorem h3_at16 : W16 (F := Ideal) m ρ c (Proc.devRef .tc main_v70) = W14 (F := Ideal) m ρ c (Proc.devRef .tc main_v70) :=
  seg_14_16 m ρ c main_v70 (by decide) (by decide)
theorem h4_at19 : W19 (F := Ideal) m ρ c (Proc.devRef .tc main_v92) = W17 (F := Ideal) m ρ c (Proc.devRef .tc main_v92) :=
  seg_17_19 m ρ c main_v92 (by decide) (by decide)

end Cert.KernelIdeal.KCarry

end
-- ==== Proof.KChain.lean ====
/-
  The kernel program's run, composed into the specification's network.

  The run is a fold over boundaries: stretches of host operations and seven regions in turn. Each region leaves in its
  output array the specification's layer of the arrays it found at its entry; each stretch between two regions carries
  the features so far forward, builds the aggregate from them, the edge encoding and the edge index, and lays out the
  next layer's parameters from the arguments. Followed from the launch to the return, the result array holds the
  kernel network's output (three-pass layers throughout, the head against the padded weight and bias) on its first ten
  columns.
-/
import proofs.«414264_j73976516706834_2_alg».proof.Proof.KRun
import proofs.«414264_j73976516706834_2_alg».proof.Proof.Inputs
import proofs.«414264_j73976516706834_2_alg».proof.Proof.Reg0
import proofs.«414264_j73976516706834_2_alg».proof.Proof.Reg1
import proofs.«414264_j73976516706834_2_alg».proof.Proof.Reg2
import proofs.«414264_j73976516706834_2_alg».proof.Proof.Reg3
import proofs.«414264_j73976516706834_2_alg».proof.Proof.Reg4
import proofs.«414264_j73976516706834_2_alg».proof.Proof.Reg5
import proofs.«414264_j73976516706834_2_alg».proof.Proof.Reg6
import proofs.«414264_j73976516706834_2_alg».proof.Proof.Pad
import proofs.«414264_j73976516706834_2_alg».proof.Proof.KGlueAgg
import proofs.«414264_j73976516706834_2_alg».proof.Proof.KGlueParams
import proofs.«414264_j73976516706834_2_alg».proof.Proof.KGlueParams2
import proofs.«414264_j73976516706834_2_alg».proof.Proof.KCarry
import Idealize.ShloMosaic.Lib.StableHlo.Run
import Idealize.ShloMosaic.PureOps.Ideal.Laws

set_option maxRecDepth 16384

noncomputable section

namespace Cert.KernelIdeal.KChain

open Cert.KernelIdeal Cert.KernelIdeal.Gen
open Idealize.ShloMosaic Idealize.ShloMosaic.TcCoe Idealize.ShloMosaic.StableHlo Idealize.ShloMosaic.ValueIdx
open Idealize.SL.Sem
open Gnn

variable (m : (ℓ : Loc nD τ sig) → Buf (Elt Ideal) ℓ) (ρ : Dev nD → PrngReg) (c : Dev nD)

/-! ## The argument arrays as launched -/

/-- Argument 0: the node features. -/
abbrev a0 : Arr 20000 64 := m ((c : Thread nD τ).loc main_arg0)
/-- Argument 1: the edge attributes. -/
abbrev a1 : Arr 320000 16 := m ((c : Thread nD τ).loc main_arg1)
/-- Argument 2: the edge index. -/
abbrev a2 : EdgeIdx := m ((c : Thread nD τ).loc main_arg2)
/-- Argument 3: the node encoder's weight. -/
abbrev a3 : Arr 64 256 := m ((c : Thread nD τ).loc main_arg3)
/-- Argument 4: its bias. -/
abbrev a4 : Arr1 256 := m ((c : Thread nD τ).loc main_arg4)
/-- Argument 5: the edge encoder's weight. -/
abbrev a5 : Arr 16 256 := m ((c : Thread nD τ).loc main_arg5)
/-- Argument 6: its bias. -/
abbrev a6 : Arr1 256 := m ((c : Thread nD τ).loc main_arg6)
/-- Argument 7: the pre-message weight. -/
abbrev a7 : Arr 256 256 := m ((c : Thread nD τ).loc main_arg7)
/-- Argument 8: its bias. -/
abbrev a8 : Arr1 256 := m ((c : Thread nD τ).loc main_arg8)
/-- Argument 9: the first graph layer's eps. -/
abbrev a9 : Arr0 := m ((c : Thread nD τ).loc main_arg9)
/-- Argument 10: its first weight. -/
abbrev a10 : Arr 256 256 := m ((c : Thread nD τ).loc main_arg10)
/-- Argument 11: first bias. -/
abbrev a11 : Arr1 256 := m ((c : Thread nD τ).loc main_arg11)
/-- Argument 12: second weight. -/
abbrev a12 : Arr 256 256 := m ((c : Thread nD τ).loc main_arg12)
/-- Argument 13: second bias. -/
abbrev a13 : Arr1 256 := m ((c : Thread nD τ).loc main_arg13)
/-- Argument 14: the residual layers' eps, stacked. -/
abbrev a14 : Arr1 4 := m ((c : Thread nD τ).loc main_arg14)
/-- Argument 15: their first weights. -/
abbrev a15 : Arr3 4 256 256 := m ((c : Thread nD τ).loc main_arg15)
/-- Argument 16: first biases. -/
abbrev a16 : Arr 4 256 := m ((c : Thread nD τ).loc main_arg16)
/-- Argument 17: second weights. -/
abbrev a17 : Arr3 4 256 256 := m ((c : Thread nD τ).loc main_arg17)
/-- Argument 18: second biases. -/
abbrev a18 : Arr 4 256 := m ((c : Thread nD τ).loc main_arg18)
/-- Argument 19: the head's weight. -/
abbrev a19 : Arr 256 10 := m ((c : Thread nD τ).loc main_arg19)
/-- Argument 20: the head's bias. -/
abbrev a20 : Arr1 10 := m ((c : Thread nD τ).loc main_arg20)

/-- The network's parameters, read off the arguments. -/
abbrev P : Params := mkParams (a0 m c) (a1 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)
/-- The aggregation step, over the edge index. -/
abbrev AG : Agg := Cert.KernelIdeal.KGlue.aggK (a2 m c)
/-- The head's padded weight and bias. -/
abbrev whp : Mat 256 128 := toM (Cert.KernelIdeal.Pad.whPad (a19 m c))
abbrev bhp : Row 128 := toRow (Cert.KernelIdeal.Pad.bhPad (a20 m c))

/-! ## What the other modules give, at this module's spelling

The parameters each region finds at its entry are the arguments' (a bias as a row, the first layer's eps at its one
index, a residual layer's parameters as its slice of the stacked arguments, the head's as the padded ones); the
aggregate entering a graph layer is the aggregation step's array of the features and edge encoding at the previous
region's exit, over the two index vectors; and the buffers carried between boundaries are still what they were. -/

/-! ### Region 0's entry -/

theorem i0_x : (W1 (F := Ideal) m ρ c (Proc.devRef .tc main_arg0) : Arr 20000 64) = (a0 m c) :=
  KParams.r0_arg0 m ρ c
theorem i0_wne : (W1 (F := Ideal) m ρ c (Proc.devRef .tc main_arg3) : Arr 64 256) = (a3 m c) :=
  KParams.r0_arg3 m ρ c
theorem i0_bne : toRow1 (W1 (F := Ideal) m ρ c (Proc.devRef .tc main_v4) : Arr 1 256) = toRow (a4 m c) :=
  KParams.r0_v4 m ρ c
theorem i0_wpre : (W1 (F := Ideal) m ρ c (Proc.devRef .tc main_arg7) : Arr 256 256) = (a7 m c) :=
  KParams.r0_arg7 m ρ c
theorem i0_bpre : toRow1 (W1 (F := Ideal) m ρ c (Proc.devRef .tc main_v5) : Arr 1 256) = toRow (a8 m c) :=
  KParams.r0_v5 m ρ c
/-! ### Region 1's entry -/

theorem i1_ea : (W3 (F := Ideal) m ρ c (Proc.devRef .tc main_arg1) : Arr 320000 16) = (a1 m c) :=
  KParams.r1_arg1 m ρ c
theorem i1_wee : (W3 (F := Ideal) m ρ c (Proc.devRef .tc main_arg5) : Arr 16 256) = (a5 m c) :=
  KParams.r1_arg5 m ρ c
theorem i1_bee : toRow1 (W3 (F := Ideal) m ρ c (Proc.devRef .tc main_v7) : Arr 1 256) = toRow (a6 m c) :=
  KParams.r1_v7 m ρ c
/-! ### Region 2's entry -/

theorem i2_eps : (W6 (F := Ideal) m ρ c (Proc.devRef .tc main_v17) : Arr 1 1) (ix2 0 0) = (a9 m c) ix0 :=
  KParams.r2_v17 m ρ c
theorem i2_w1 : (W6 (F := Ideal) m ρ c (Proc.devRef .tc main_arg10) : Arr 256 256) = (a10 m c) :=
  KParams.r2_arg10 m ρ c
theorem i2_b1 : toRow1 (W6 (F := Ideal) m ρ c (Proc.devRef .tc main_v18) : Arr 1 256) = toRow (a11 m c) :=
  KParams.r2_v18 m ρ c
theorem i2_w2 : (W6 (F := Ideal) m ρ c (Proc.devRef .tc main_arg12) : Arr 256 256) = (a12 m c) :=
  KParams.r2_arg12 m ρ c
theorem i2_b2 : toRow1 (W6 (F := Ideal) m ρ c (Proc.devRef .tc main_v19) : Arr 1 256) = toRow (a13 m c) :=
  KParams.r2_v19 m ρ c
/-! ### Region 3's entry: residual layer 0 -/

theorem i3_eps : (W10 (F := Ideal) m ρ c (Proc.devRef .tc main_v45) : Arr 1 1) (ix2 0 0) = (a14 m c) (ix1 0) :=
  KParams.r3_v45 m ρ c
theorem i3_w1 : toM (W10 (F := Ideal) m ρ c (Proc.devRef .tc main_v38) : Arr 256 256) = fun k j => (a15 m c) (ix3 0 k j) :=
  KParams.r3_v38 m ρ c
theorem i3_b1 : toRow1 (W10 (F := Ideal) m ρ c (Proc.devRef .tc main_v46) : Arr 1 256) = fun j => (a16 m c) (ix2 0 j) :=
  KParams.r3_v46 m ρ c
theorem i3_w2 : toM (W10 (F := Ideal) m ρ c (Proc.devRef .tc main_v42) : Arr 256 256) = fun k j => (a17 m c) (ix3 0 k j) :=
  KParams.r3_v42 m ρ c
theorem i3_b2 : toRow1 (W10 (F := Ideal) m ρ c (Proc.devRef .tc main_v47) : Arr 1 256) = fun j => (a18 m c) (ix2 0 j) :=
  KParams.r3_v47 m ρ c
/-! ### Region 4's entry: residual layer 1 -/

theorem i4_eps : (W13 (F := Ideal) m ρ c (Proc.devRef .tc main_v67) : Arr 1 1) (ix2 0 0) = (a14 m c) (ix1 1) :=
  KParams2.eps4 m ρ c
theorem i4_w1 : toM (W13 (F := Ideal) m ρ c (Proc.devRef .tc main_v60) : Arr 256 256) = fun k j => (a15 m c) (ix3 1 k j) :=
  KParams2.w1_4 m ρ c
theorem i4_b1 : toRow1 (W13 (F := Ideal) m ρ c (Proc.devRef .tc main_v68) : Arr 1 256) = fun j => (a16 m c) (ix2 1 j) :=
  KParams2.b1_4 m ρ c
theorem i4_w2 : toM (W13 (F := Ideal) m ρ c (Proc.devRef .tc main_v64) : Arr 256 256) = fun k j => (a17 m c) (ix3 1 k j) :=
  KParams2.w2_4 m ρ c
theorem i4_b2 : toRow1 (W13 (F := Ideal) m ρ c (Proc.devRef .tc main_v69) : Arr 1 256) = fun j => (a18 m c) (ix2 1 j) :=
  KParams2.b2_4 m ρ c
/-! ### Region 5's entry: residual layer 2 -/

theorem i5_eps : (W16 (F := Ideal) m ρ c (Proc.devRef .tc main_v89) : Arr 1 1) (ix2 0 0) = (a14 m c) (ix1 2) :=
  KParams2.eps5 m ρ c
theorem i5_w1 : toM (W16 (F := Ideal) m ρ c (Proc.devRef .tc main_v82) : Arr 256 256) = fun k j => (a15 m c) (ix3 2 k j) :=
  KParams2.w1_5 m ρ c
theorem i5_b1 : toRow1 (W16 (F := Ideal) m ρ c (Proc.devRef .tc main_v90) : Arr 1 256) = fun j => (a16 m c) (ix2 2 j) :=
  KParams2.b1_5 m ρ c
theorem i5_w2 : toM (W16 (F := Ideal) m ρ c (Proc.devRef .tc main_v86) : Arr 256 256) = fun k j => (a17 m c) (ix3 2 k j) :=
  KParams2.w2_5 m ρ c
theorem i5_b2 : toRow1 (W16 (F := Ideal) m ρ c (Proc.devRef .tc main_v91) : Arr 1 256) = fun j => (a18 m c) (ix2 2 j) :=
  KParams2.b2_5 m ρ c
/-! ### Region 6's entry: residual layer 3 and the padded head -/

theorem i6_eps : (W19 (F := Ideal) m ρ c (Proc.devRef .tc main_v111) : Arr 1 1) (ix2 0 0) = (a14 m c) (ix1 3) :=
  KParams2.eps6 m ρ c
theorem i6_w1 : toM (W19 (F := Ideal) m ρ c (Proc.devRef .tc main_v104) : Arr 256 256) = fun k j => (a15 m c) (ix3 3 k j) :=
  KParams2.w1_6 m ρ c
theorem i6_b1 : toRow1 (W19 (F := Ideal) m ρ c (Proc.devRef .tc main_v112) : Arr 1 256) = fun j => (a16 m c) (ix2 3 j) :=
  KParams2.b1_6 m ρ c
theorem i6_w2 : toM (W19 (F := Ideal) m ρ c (Proc.devRef .tc main_v108) : Arr 256 256) = fun k j => (a17 m c) (ix3 3 k j) :=
  KParams2.w2_6 m ρ c
theorem i6_b2 : toRow1 (W19 (F := Ideal) m ρ c (Proc.devRef .tc main_v113) : Arr 1 256) = fun j => (a18 m c) (ix2 3 j) :=
  KParams2.b2_6 m ρ c
theorem i6_wh : (W19 (F := Ideal) m ρ c (Proc.devRef .tc main_v23) : Arr 256 128) = Cert.KernelIdeal.Pad.whPad (a19 m c) :=
  (KParams2.wh6 m ρ c).trans rfl
theorem i6_bh : toRow1 (W19 (F := Ideal) m ρ c (Proc.devRef .tc main_v114) : Arr 1 128) = toRow (Cert.KernelIdeal.Pad.bhPad (a20 m c)) :=
  (KParams2.bh6 m ρ c).trans rfl
/-! ### The result is the last region's output on its first ten columns -/

theorem i_slice : ∀ (i : Fin 20000) (j : Fin 10), (W21 (F := Ideal) m ρ c (Proc.devRef .tc main_v116) : Arr 20000 10) (ix2 i j) = (W20 (F := Ideal) m ρ c (Proc.devRef .tc main_v115) : Arr 20000 128) (ix2 i (Fin.castLE (by decide) j)) :=
  KParams.out_slice m ρ c
/-! ### The five aggregates -/

theorem g_agg0 : (W6 (F := Ideal) m ρ c (Proc.devRef .tc main_v16) : Arr 20000 256) = Cert.KernelIdeal.KGlue.aggVec (W4 (F := Ideal) m ρ c (Proc.devRef .tc main_v6)) (W4 (F := Ideal) m ρ c (Proc.devRef .tc main_v8)) (W4 (F := Ideal) m ρ c (Proc.devRef .tc main_v1)) (W4 (F := Ideal) m ρ c (Proc.devRef .tc main_v3)) :=
  KGlue.agg0 m ρ c
theorem g_agg1 : (W10 (F := Ideal) m ρ c (Proc.devRef .tc main_v34) : Arr 20000 256) = Cert.KernelIdeal.KGlue.aggVec (W7 (F := Ideal) m ρ c (Proc.devRef .tc main_v20)) (W7 (F := Ideal) m ρ c (Proc.devRef .tc main_v8)) (W7 (F := Ideal) m ρ c (Proc.devRef .tc main_v1)) (W7 (F := Ideal) m ρ c (Proc.devRef .tc main_v3)) :=
  KGlue.agg1 m ρ c
theorem g_agg2 : (W13 (F := Ideal) m ρ c (Proc.devRef .tc main_v56) : Arr 20000 256) = Cert.KernelIdeal.KGlue.aggVec (W11 (F := Ideal) m ρ c (Proc.devRef .tc main_v48)) (W11 (F := Ideal) m ρ c (Proc.devRef .tc main_v8)) (W11 (F := Ideal) m ρ c (Proc.devRef .tc main_v1)) (W11 (F := Ideal) m ρ c (Proc.devRef .tc main_v3)) :=
  KGlue.agg2 m ρ c
theorem g_agg3 : (W16 (F := Ideal) m ρ c (Proc.devRef .tc main_v78) : Arr 20000 256) = Cert.KernelIdeal.KGlue.aggVec (W14 (F := Ideal) m ρ c (Proc.devRef .tc main_v70)) (W14 (F := Ideal) m ρ c (Proc.devRef .tc main_v8)) (W14 (F := Ideal) m ρ c (Proc.devRef .tc main_v1)) (W14 (F := Ideal) m ρ c (Proc.devRef .tc main_v3)) :=
  KGlue.agg3 m ρ c
theorem g_agg4 : (W19 (F := Ideal) m ρ c (Proc.devRef .tc main_v100) : Arr 20000 256) = Cert.KernelIdeal.KGlue.aggVec (W17 (F := Ideal) m ρ c (Proc.devRef .tc main_v92)) (W17 (F := Ideal) m ρ c (Proc.devRef .tc main_v8)) (W17 (F := Ideal) m ρ c (Proc.devRef .tc main_v1)) (W17 (F := Ideal) m ρ c (Proc.devRef .tc main_v3)) :=
  KGlue.agg4 m ρ c
/-! ### The index vectors where the aggregates read them -/

theorem g_src4 : W4 (F := Ideal) m ρ c (Proc.devRef .tc main_v1) = Cert.KernelIdeal.KGlue.srcOf (a2 m c) :=
  (KCarry.v1_at4 m ρ c).trans (KGlue.src_eq m ρ c)
theorem g_dst4 : W4 (F := Ideal) m ρ c (Proc.devRef .tc main_v3) = Cert.KernelIdeal.KGlue.dstOf (a2 m c) :=
  (KCarry.v3_at4 m ρ c).trans (KGlue.dst_eq m ρ c)
theorem g_src7 : W7 (F := Ideal) m ρ c (Proc.devRef .tc main_v1) = Cert.KernelIdeal.KGlue.srcOf (a2 m c) :=
  (KCarry.v1_at7 m ρ c).trans (KGlue.src_eq m ρ c)
theorem g_dst7 : W7 (F := Ideal) m ρ c (Proc.devRef .tc main_v3) = Cert.KernelIdeal.KGlue.dstOf (a2 m c) :=
  (KCarry.v3_at7 m ρ c).trans (KGlue.dst_eq m ρ c)
theorem g_src11 : W11 (F := Ideal) m ρ c (Proc.devRef .tc main_v1) = Cert.KernelIdeal.KGlue.srcOf (a2 m c) :=
  (KCarry.v1_at11 m ρ c).trans (KGlue.src_eq m ρ c)
theorem g_dst11 : W11 (F := Ideal) m ρ c (Proc.devRef .tc main_v3) = Cert.KernelIdeal.KGlue.dstOf (a2 m c) :=
  (KCarry.v3_at11 m ρ c).trans (KGlue.dst_eq m ρ c)
theorem g_src14 : W14 (F := Ideal) m ρ c (Proc.devRef .tc main_v1) = Cert.KernelIdeal.KGlue.srcOf (a2 m c) :=
  (KCarry.v1_at14 m ρ c).trans (KGlue.src_eq m ρ c)
theorem g_dst14 : W14 (F := Ideal) m ρ c (Proc.devRef .tc main_v3) = Cert.KernelIdeal.KGlue.dstOf (a2 m c) :=
  (KCarry.v3_at14 m ρ c).trans (KGlue.dst_eq m ρ c)
theorem g_src17 : W17 (F := Ideal) m ρ c (Proc.devRef .tc main_v1) = Cert.KernelIdeal.KGlue.srcOf (a2 m c) :=
  (KCarry.v1_at17 m ρ c).trans (KGlue.src_eq m ρ c)
theorem g_dst17 : W17 (F := Ideal) m ρ c (Proc.devRef .tc main_v3) = Cert.KernelIdeal.KGlue.dstOf (a2 m c) :=
  (KCarry.v3_at17 m ρ c).trans (KGlue.dst_eq m ρ c)
/-! ### The edge encoding where the later aggregates read it -/

theorem g_e7 : W7 (F := Ideal) m ρ c (Proc.devRef .tc main_v8) = W4 (F := Ideal) m ρ c (Proc.devRef .tc main_v8) :=
  KCarry.e_at7 m ρ c
theorem g_e11 : W11 (F := Ideal) m ρ c (Proc.devRef .tc main_v8) = W4 (F := Ideal) m ρ c (Proc.devRef .tc main_v8) :=
  KCarry.e_at11 m ρ c
theorem g_e14 : W14 (F := Ideal) m ρ c (Proc.devRef .tc main_v8) = W4 (F := Ideal) m ρ c (Proc.devRef .tc main_v8) :=
  KCarry.e_at14 m ρ c
theorem g_e17 : W17 (F := Ideal) m ρ c (Proc.devRef .tc main_v8) = W4 (F := Ideal) m ρ c (Proc.devRef .tc main_v8) :=
  KCarry.e_at17 m ρ c
/-! ### Each region's output where the next stretch and region read it -/

theorem g_h0_4 : (W4 (F := Ideal) m ρ c (Proc.devRef .tc main_v6) : Arr 20000 256) = W2 (F := Ideal) m ρ c (Proc.devRef .tc main_v6) :=
  KCarry.h0_at4 m ρ c
theorem g_h0_6 : (W6 (F := Ideal) m ρ c (Proc.devRef .tc main_v6) : Arr 20000 256) = W2 (F := Ideal) m ρ c (Proc.devRef .tc main_v6) :=
  KCarry.h0_at6 m ρ c
theorem g_h1 : (W10 (F := Ideal) m ρ c (Proc.devRef .tc main_v20) : Arr 20000 256) = W7 (F := Ideal) m ρ c (Proc.devRef .tc main_v20) :=
  KCarry.h1_at10 m ρ c
theorem g_h2 : (W13 (F := Ideal) m ρ c (Proc.devRef .tc main_v48) : Arr 20000 256) = W11 (F := Ideal) m ρ c (Proc.devRef .tc main_v48) :=
  KCarry.h2_at13 m ρ c
theorem g_h3 : (W16 (F := Ideal) m ρ c (Proc.devRef .tc main_v70) : Arr 20000 256) = W14 (F := Ideal) m ρ c (Proc.devRef .tc main_v70) :=
  KCarry.h3_at16 m ρ c
theorem g_h4 : (W19 (F := Ideal) m ρ c (Proc.devRef .tc main_v92) : Arr 20000 256) = W17 (F := Ideal) m ρ c (Proc.devRef .tc main_v92) :=
  KCarry.h4_at19 m ρ c

/-! ## The chain

Each region leaves in its output array the specification's layer of the arrays it found at its entry; the host
stretches between regions carry the previous features forward, build the aggregate from them and the edge encoding,
and lay out the layer's parameters. Stage by stage, the arrays at the region boundaries are the specification's. -/

/-- The aggregate array of features `hv` and edge encoding `ev` is the aggregation step of their matrices. -/
theorem aggK_of (hv : Arr 20000 256) (ev : FVec Ideal S320000x256 .bf16) (ei : EdgeIdx) :
    toM (Cert.KernelIdeal.KGlue.aggVec hv ev (Cert.KernelIdeal.KGlue.srcOf ei) (Cert.KernelIdeal.KGlue.dstOf ei))
      = Cert.KernelIdeal.KGlue.aggK ei (toM hv) (toM (ev : Arr 320000 256)) := by
  show _ = toM (Cert.KernelIdeal.KGlue.aggVec (ofM (toM hv)) (ofM (toM (ev : Arr 320000 256))) (Cert.KernelIdeal.KGlue.srcOf ei) (Cert.KernelIdeal.KGlue.dstOf ei))
  rw [ofM_toM, ofM_toM]

/-- After region 0: the encoded node features. -/
theorem h0 : toM (W2 (F := Ideal) m ρ c (Proc.devRef .tc main_v6) : Arr 20000 256) = h0K (P m c) := by
  refine (congrArg toM ((W2_arr m ρ c 5).trans (Reg0.final (V1 m ρ) c))).trans ?_
  show encK (toM (W1 (F := Ideal) m ρ c (Proc.devRef .tc main_arg0) : Arr 20000 64)) (toM (W1 (F := Ideal) m ρ c (Proc.devRef .tc main_arg3) : Arr 64 256)) (toRow1 (W1 (F := Ideal) m ρ c (Proc.devRef .tc main_v4) : Arr 1 256))
      (toM (W1 (F := Ideal) m ρ c (Proc.devRef .tc main_arg7) : Arr 256 256)) (toRow1 (W1 (F := Ideal) m ρ c (Proc.devRef .tc main_v5) : Arr 1 256)) = _
  rw [i0_x, i0_wne, i0_bne, i0_wpre, i0_bpre]
  rfl

/-- After region 1: the edge encoding. -/
theorem e : toM (W4 (F := Ideal) m ρ c (Proc.devRef .tc main_v8) : Arr 320000 256) = eK (P m c) := by
  refine (congrArg toM ((W4_arr m ρ c 3).trans (Reg1.final (V3 m ρ) c))).trans ?_
  show linK (toM (W3 (F := Ideal) m ρ c (Proc.devRef .tc main_arg1) : Arr 320000 16)) (toM (W3 (F := Ideal) m ρ c (Proc.devRef .tc main_arg5) : Arr 16 256)) (toRow1 (W3 (F := Ideal) m ρ c (Proc.devRef .tc main_v7) : Arr 1 256)) = _
  rw [i1_ea, i1_wee, i1_bee]
  rfl

/-- Before region 2: the aggregate of the features so far and the edge encoding. -/
theorem ag0 : toM (W6 (F := Ideal) m ρ c (Proc.devRef .tc main_v16) : Arr 20000 256) = AG m c (h0K (P m c)) (eK (P m c)) := by
  rw [g_agg0, g_src4, g_dst4, g_h0_4, aggK_of, h0, e]

/-- After region 2: the first graph layer. -/
theorem h1 : toM (W7 (F := Ideal) m ρ c (Proc.devRef .tc main_v20) : Arr 20000 256) = h1K (P m c) (AG m c) := by
  refine (congrArg toM ((W7_arr m ρ c 7).trans (Reg2.final (V6 m ρ) c))).trans ?_
  show gineK (toM (W6 (F := Ideal) m ρ c (Proc.devRef .tc main_v6) : Arr 20000 256)) (toM (W6 (F := Ideal) m ρ c (Proc.devRef .tc main_v16) : Arr 20000 256)) ((W6 (F := Ideal) m ρ c (Proc.devRef .tc main_v17) : Arr 1 1) (ix2 0 0))
      (toM (W6 (F := Ideal) m ρ c (Proc.devRef .tc main_arg10) : Arr 256 256)) (toRow1 (W6 (F := Ideal) m ρ c (Proc.devRef .tc main_v18) : Arr 1 256)) (toM (W6 (F := Ideal) m ρ c (Proc.devRef .tc main_arg12) : Arr 256 256)) (toRow1 (W6 (F := Ideal) m ρ c (Proc.devRef .tc main_v19) : Arr 1 256)) = _
  rw [g_h0_6, h0, ag0, i2_eps, i2_w1, i2_b1, i2_w2, i2_b2]
  rfl

/-- Before region 3: the aggregate of the features so far and the edge encoding. -/
theorem ag1 : toM (W10 (F := Ideal) m ρ c (Proc.devRef .tc main_v34) : Arr 20000 256) = AG m c (h1K (P m c) (AG m c)) (eK (P m c)) := by
  rw [g_agg1, g_src7, g_dst7, g_e7, aggK_of, h1, e]

/-- After region 3: residual layer 0. -/
theorem h2 : toM (W11 (F := Ideal) m ρ c (Proc.devRef .tc main_v48) : Arr 20000 256) = layK (P m c) (AG m c) 0 (h1K (P m c) (AG m c)) := by
  refine (congrArg toM ((W11_arr m ρ c 7).trans (Reg3.final (V10 m ρ) c))).trans ?_
  show resK (toM (W10 (F := Ideal) m ρ c (Proc.devRef .tc main_v20) : Arr 20000 256)) (toM (W10 (F := Ideal) m ρ c (Proc.devRef .tc main_v34) : Arr 20000 256)) ((W10 (F := Ideal) m ρ c (Proc.devRef .tc main_v45) : Arr 1 1) (ix2 0 0))
      (toM (W10 (F := Ideal) m ρ c (Proc.devRef .tc main_v38) : Arr 256 256)) (toRow1 (W10 (F := Ideal) m ρ c (Proc.devRef .tc main_v46) : Arr 1 256)) (toM (W10 (F := Ideal) m ρ c (Proc.devRef .tc main_v42) : Arr 256 256)) (toRow1 (W10 (F := Ideal) m ρ c (Proc.devRef .tc main_v47) : Arr 1 256)) = _
  rw [g_h1, h1, ag1, i3_eps, i3_w1, i3_b1, i3_w2, i3_b2]
  rfl

/-- Before region 4: the aggregate of the features so far and the edge encoding. -/
theorem ag2 : toM (W13 (F := Ideal) m ρ c (Proc.devRef .tc main_v56) : Arr 20000 256) = AG m c (layK (P m c) (AG m c) 0 (h1K (P m c) (AG m c))) (eK (P m c)) := by
  rw [g_agg2, g_src11, g_dst11, g_e11, aggK_of, h2, e]

/-- After region 4: residual layer 1. -/
theorem h3 : toM (W14 (F := Ideal) m ρ c (Proc.devRef .tc main_v70) : Arr 20000 256) = layK (P m c) (AG m c) 1 (layK (P m c) (AG m c) 0 (h1K (P m c) (AG m c))) := by
  refine (congrArg toM ((W14_arr m ρ c 7).trans (Reg4.final (V13 m ρ) c))).trans ?_
  show resK (toM (W13 (F := Ideal) m ρ c (Proc.devRef .tc main_v48) : Arr 20000 256)) (toM (W13 (F := Ideal) m ρ c (Proc.devRef .tc main_v56) : Arr 20000 256)) ((W13 (F := Ideal) m ρ c (Proc.devRef .tc main_v67) : Arr 1 1) (ix2 0 0))
      (toM (W13 (F := Ideal) m ρ c (Proc.devRef .tc main_v60) : Arr 256 256)) (toRow1 (W13 (F := Ideal) m ρ c (Proc.devRef .tc main_v68) : Arr 1 256)) (toM (W13 (F := Ideal) m ρ c (Proc.devRef .tc main_v64) : Arr 256 256)) (toRow1 (W13 (F := Ideal) m ρ c (Proc.devRef .tc main_v69) : Arr 1 256)) = _
  rw [g_h2, h2, ag2, i4_eps, i4_w1, i4_b1, i4_w2, i4_b2]
  rfl

/-- Before region 5: the aggregate of the features so far and the edge encoding. -/
theorem ag3 : toM (W16 (F := Ideal) m ρ c (Proc.devRef .tc main_v78) : Arr 20000 256) = AG m c (layK (P m c) (AG m c) 1 (layK (P m c) (AG m c) 0 (h1K (P m c) (AG m c)))) (eK (P m c)) := by
  rw [g_agg3, g_src14, g_dst14, g_e14, aggK_of, h3, e]

/-- After region 5: residual layer 2. -/
theorem h4 : toM (W17 (F := Ideal) m ρ c (Proc.devRef .tc main_v92) : Arr 20000 256) = layK (P m c) (AG m c) 2 (layK (P m c) (AG m c) 1 (layK (P m c) (AG m c) 0 (h1K (P m c) (AG m c)))) := by
  refine (congrArg toM ((W17_arr m ρ c 7).trans (Reg5.final (V16 m ρ) c))).trans ?_
  show resK (toM (W16 (F := Ideal) m ρ c (Proc.devRef .tc main_v70) : Arr 20000 256)) (toM (W16 (F := Ideal) m ρ c (Proc.devRef .tc main_v78) : Arr 20000 256)) ((W16 (F := Ideal) m ρ c (Proc.devRef .tc main_v89) : Arr 1 1) (ix2 0 0))
      (toM (W16 (F := Ideal) m ρ c (Proc.devRef .tc main_v82) : Arr 256 256)) (toRow1 (W16 (F := Ideal) m ρ c (Proc.devRef .tc main_v90) : Arr 1 256)) (toM (W16 (F := Ideal) m ρ c (Proc.devRef .tc main_v86) : Arr 256 256)) (toRow1 (W16 (F := Ideal) m ρ c (Proc.devRef .tc main_v91) : Arr 1 256)) = _
  rw [g_h3, h3, ag3, i5_eps, i5_w1, i5_b1, i5_w2, i5_b2]
  rfl

/-- Before region 6: the aggregate of the features so far and the edge encoding. -/
theorem ag4 : toM (W19 (F := Ideal) m ρ c (Proc.devRef .tc main_v100) : Arr 20000 256) = AG m c (layK (P m c) (AG m c) 2 (layK (P m c) (AG m c) 1 (layK (P m c) (AG m c) 0 (h1K (P m c) (AG m c))))) (eK (P m c)) := by
  rw [g_agg4, g_src17, g_dst17, g_e17, aggK_of, h4, e]

/-- After region 6: the last residual layer and the head against the padded weight and bias. -/
theorem out : toM (W20 (F := Ideal) m ρ c (Proc.devRef .tc main_v115) : Arr 20000 128) = outK (P m c) (AG m c) (whp m c) (bhp m c) := by
  refine (congrArg toM ((W20_arr m ρ c 9).trans (Reg6.final (V19 m ρ) c))).trans ?_
  show linK (resK (toM (W19 (F := Ideal) m ρ c (Proc.devRef .tc main_v92) : Arr 20000 256)) (toM (W19 (F := Ideal) m ρ c (Proc.devRef .tc main_v100) : Arr 20000 256)) ((W19 (F := Ideal) m ρ c (Proc.devRef .tc main_v111) : Arr 1 1) (ix2 0 0))
      (toM (W19 (F := Ideal) m ρ c (Proc.devRef .tc main_v104) : Arr 256 256)) (toRow1 (W19 (F := Ideal) m ρ c (Proc.devRef .tc main_v112) : Arr 1 256)) (toM (W19 (F := Ideal) m ρ c (Proc.devRef .tc main_v108) : Arr 256 256)) (toRow1 (W19 (F := Ideal) m ρ c (Proc.devRef .tc main_v113) : Arr 1 256)))
      (toM (W19 (F := Ideal) m ρ c (Proc.devRef .tc main_v23) : Arr 256 128)) (toRow1 (W19 (F := Ideal) m ρ c (Proc.devRef .tc main_v114) : Arr 1 128)) = _
  rw [g_h4, h4, ag4, i6_eps, i6_w1, i6_b1, i6_w2, i6_b2, i6_wh, i6_bh]
  rfl

/-- The result array: the kernel network's output on the ten kept columns. -/
theorem result : (W21 (F := Ideal) m ρ c (Proc.devRef .tc main_v116) : Arr 20000 10)
    = ofM (fun i j => outK (mkParams (a0 m c) (a1 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c)) (Cert.KernelIdeal.KGlue.aggK (a2 m c)) (toM (Cert.KernelIdeal.Pad.whPad (a19 m c))) (toRow (Cert.KernelIdeal.Pad.bhPad (a20 m c))) i (Fin.castLE (by decide) j)) := by
  refine arr_ext (funext fun i => funext fun j => ?_)
  show (W21 (F := Ideal) m ρ c (Proc.devRef .tc main_v116) : Arr 20000 10) (ix2 i j) = outK (P m c) (AG m c) (whp m c) (bhp m c) i (Fin.castLE (by decide) j)
  rw [i_slice m ρ c i j]
  exact congrFun (congrFun (out m ρ c) i) (Fin.castLE (by decide) j)

end Cert.KernelIdeal.KChain

end
-- ==== Proof.RAgg.lean ====
/-
  The aggregation step of the reference network, as the reference's own host operations compose it.

  Every edge carries a message from its source node to its destination node: the source's feature row plus the
  edge's encoding, its positive part taken; a node's aggregate is the sum of the messages that arrive at it. A
  source index may count back from the end (a negative one has the number of nodes added); the rows are fetched by a
  gather at the wrapped indices and the messages are summed into rows of zeros by a scatter that adds.
-/
import proofs.«414264_j73976516706834_2_alg».proof.Proof.Gen.ReferenceIdeal
import proofs.«414264_j73976516706834_2_alg».proof.Proof.Inputs
import Idealize.ShloMosaic.Lib.ValueIdx
import Idealize.ShloMosaic.PureOps.Ideal.Laws

noncomputable section

namespace Cert.ReferenceIdeal.RChain

open Cert.ReferenceIdeal Cert.ReferenceIdeal.Gen Idealize.ShloMosaic Idealize.ShloMosaic.ValueIdx Gnn

/-- Row 0 of the edge index as a vector over the edges: the source node of each edge. -/
def srcOf (ei : EdgeIdx) : IVec S320000 32 :=
  shapeCast S320000 (extractStridedSlice S1x320000 ![0, 0] ei slices_S2x320000_S1x320000_0_0) shapeCasts_S1x320000_S320000

/-- Row 1 of the edge index as a vector over the edges: the destination node of each edge. -/
def dstOf (ei : EdgeIdx) : IVec S320000 32 :=
  shapeCast S320000 (extractStridedSlice S1x320000 ![1, 0] ei slices_S2x320000_S1x320000_1_0) shapeCasts_S1x320000_S320000

/-- A row index with a negative value counted back from the end: `i + 20000` where `i < 0`, else `i`; as a column. -/
def wrapIdx (src : IVec S320000 32) : IVec S320000x1 32 :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 20000#32)))
      src)

/-- The aggregation: per destination node, the sum over its incoming edges of `max (h[src] + e) 0`; the source
    rows are fetched by a gather at the wrapped indices and the messages summed into zeros by an adding scatter. -/
def aggVec (h : Arr 20000 256) (e : Arr 320000 256) (src dst : IVec S320000 32) : Arr 20000 256 :=
  Host.scatterAdd scatter_S20000x256_S320000x1_S320000x256_1_0_0_1
    (broadcastInDim S20000x256 ![] bcast_S_S20000x256 (constant (F := Ideal) S_ .f32 0x00000000#32))
    (broadcastInDim S320000x1 ![0] bcast_S320000_S320000x1_0 dst)
    (maximumf (φ := .f32)
      (addf (φ := .f32)
        (Host.gather gather_S20000x256_S320000x1_S320000x256_1_0_n_n_0_1_1256 (h : FVec Ideal S20000x256 .f32) (wrapIdx src))
        (e : FVec Ideal S320000x256 .f32))
      (broadcastInDim S320000x256 ![] bcast_S_S320000x256 (constant (F := Ideal) S_ .f32 0x00000000#32)))

/-- The aggregation step on matrices, at an edge index. -/
def aggR (ei : EdgeIdx) : Agg := fun h e => toM (aggVec (ofM h) (ofM e) (srcOf ei) (dstOf ei))

/-- The aggregate of two arrays is the aggregation step of their matrices. -/
theorem agg_fold (h : Arr 20000 256) (e : Arr 320000 256) (ei : EdgeIdx) :
    toM (aggVec h e (srcOf ei) (dstOf ei)) = aggR ei (toM h) (toM e) := by
  unfold aggR
  rw [ofM_toM, ofM_toM]

end Cert.ReferenceIdeal.RChain

end
-- ==== Proof.REnc.lean ====
/-
  The reference's two encoders, as the specification's layers.

  The reference takes the node features through a layer, a second layer and the positive part, and the edge attributes
  through one layer. Each layer is one matrix product and a bias row spread over the rows: read at entry (i, j) it is
  the sum over the contracted axis of the left operand along row i against the weight along column j, plus the bias's
  entry j. The positive part is the maximum with a block of zeros.
-/
import proofs.«414264_j73976516706834_2_alg».proof.Proof.Gen.ReferenceIdeal.Read
import proofs.«414264_j73976516706834_2_alg».proof.Proof.Inputs
import Idealize.ShloMosaic.PureOps.Ideal.Laws

noncomputable section

namespace Cert.ReferenceIdeal.REnc

open Cert.ReferenceIdeal Cert.ReferenceIdeal.Gen Cert.ReferenceIdeal.Read Idealize.ShloMosaic Idealize.ShloMosaic.ValueIdx Gnn

/-- Two rank-2 indices with the same coordinates are the same index. -/
theorem idx2_ext {A B : ℕ} {u v : (⟨2, ![A, B]⟩ : Shape).Idx} (h0 : (u 0).val = (v 0).val) (h1 : (u 1).val = (v 1).val) : u = v :=
  funext fun a => Fin.ext (match a with | ⟨0, _⟩ => h0 | ⟨1, _⟩ => h1)

/-- Two rank-1 indices with the same coordinate are the same index. -/
theorem idx1_ext {B : ℕ} {u v : (⟨1, ![B]⟩ : Shape).Idx} (h0 : (u 0).val = (v 0).val) : u = v :=
  funext fun a => Fin.ext (match a with | ⟨0, _⟩ => h0)

/-- The node encoder's first layer. -/
theorem lay1 (x0 : Arr 20000 64) (x3 : Arr 64 256) (x4 : Arr1 256) :
    toM (val_main_v7 (F := Ideal) x0 x3 x4) = linR (toM x0) (toM x3) (toRow x4) := by
  funext i j
  show val_main_v7 (F := Ideal) x0 x3 x4 (ix2 i j) = (∑ k : Fin 64, x0 (ix2 i k) * x3 (ix2 k j)) + x4 (ix1 j)
  rw [val_main_v7_apply, val_main_v4_apply, val_main_v6_apply, val_main_v5_apply]
  have hs : ∑ k : Fin 64, x0 (lidx_main_v4 (ix2 i j) k) * x3 (ridx_main_v4 (ix2 i j) k) = ∑ k : Fin 64, x0 (ix2 i k) * x3 (ix2 k j) :=
    Finset.sum_congr rfl fun k _ => by
      rw [show lidx_main_v4 (ix2 i j) k = ix2 i k from idx2_ext rfl rfl, show ridx_main_v4 (ix2 i j) k = ix2 k j from idx2_ext rfl rfl]
  have hb : idx_main_v5 (idx_main_v6 (ix2 i j)) = ix1 j := idx1_ext rfl
  rw [hs, hb]
  rfl

/-- The edge encoder: one layer of the edge attributes. -/
theorem e (x1 : Arr 320000 16) (x5 : Arr 16 256) (x6 : Arr1 256) :
    toM (val_main_v11 (F := Ideal) x1 x5 x6) = linR (toM x1) (toM x5) (toRow x6) := by
  funext i j
  show val_main_v11 (F := Ideal) x1 x5 x6 (ix2 i j) = (∑ k : Fin 16, x1 (ix2 i k) * x5 (ix2 k j)) + x6 (ix1 j)
  rw [val_main_v11_apply, val_main_v8_apply, val_main_v10_apply, val_main_v9_apply]
  have hs : ∑ k : Fin 16, x1 (lidx_main_v8 (ix2 i j) k) * x5 (ridx_main_v8 (ix2 i j) k) = ∑ k : Fin 16, x1 (ix2 i k) * x5 (ix2 k j) :=
    Finset.sum_congr rfl fun k _ => by
      rw [show lidx_main_v8 (ix2 i j) k = ix2 i k from idx2_ext rfl rfl, show ridx_main_v8 (ix2 i j) k = ix2 k j from idx2_ext rfl rfl]
  have hb : idx_main_v9 (idx_main_v10 (ix2 i j)) = ix1 j := idx1_ext rfl
  rw [hs, hb]
  rfl

/-- The node encoding: the positive part of the second layer of the first. -/
theorem h0 (x0 : Arr 20000 64) (x3 : Arr 64 256) (x4 : Arr1 256) (x7 : Arr 256 256) (x8 : Arr1 256) :
    toM (val_main_v16 (F := Ideal) x0 x3 x4 x7 x8) = encR (toM x0) (toM x3) (toRow x4) (toM x7) (toRow x8) := by
  funext i j
  show val_main_v16 (F := Ideal) x0 x3 x4 x7 x8 (ix2 i j)
    = max ((∑ k : Fin 256, linR (toM x0) (toM x3) (toRow x4) i k * x7 (ix2 k j)) + x8 (ix1 j)) 0
  rw [← lay1 x0 x3 x4, val_main_v16_apply, val_main_v15_apply, val_main_v12_apply, val_main_v14_apply, val_main_v13_apply,
    val_main_call0_v0_apply, val_main_call0_cst_apply]
  generalize val_main_v7 (F := Ideal) x0 x3 x4 = y
  have hs : ∑ k : Fin 256, y (lidx_main_v12 (ix2 i j) k) * x7 (ridx_main_v12 (ix2 i j) k) = ∑ k : Fin 256, y (ix2 i k) * x7 (ix2 k j) :=
    Finset.sum_congr rfl fun k _ => by
      rw [show lidx_main_v12 (ix2 i j) k = ix2 i k from idx2_ext rfl rfl, show ridx_main_v12 (ix2 i j) k = ix2 k j from idx2_ext rfl rfl]
  have hb : idx_main_v13 (idx_main_v14 (ix2 i j)) = ix1 j := idx1_ext rfl
  rw [hs, hb]
  show max ((∑ k : Fin 256, y (ix2 i k) * x7 (ix2 k j)) + x8 (ix1 j)) (Ideal.ofBits .f32 0x00000000#32)
    = max ((∑ k : Fin 256, y (ix2 i k) * x7 (ix2 k j)) + x8 (ix1 j)) 0
  rw [Ideal.ofBits_zero_f32]

end Cert.ReferenceIdeal.REnc

end
-- ==== Proof.RGine.lean ====
/-
  The reference's first graph layer, the one without a residual connection, as the specification's layer.

  From the node features h0 (the positive part of the pre-message layer) and the aggregate agg0 of the messages
  that arrive at each node, the reference forms (1 + eps) * h0 + agg0, applies a layer of 256 features, takes the
  positive part and applies a second layer. The scalar 1 + eps is computed once and repeated over the array; each
  bias is made a row and repeated down the rows; the positive part is the maximum with an array of zeros. Read
  entry by entry these are the specification's mix, linR and relu, so the whole is gineR.
-/
import proofs.«414264_j73976516706834_2_alg».proof.Proof.Gen.ReferenceIdeal.Read
import proofs.«414264_j73976516706834_2_alg».proof.Proof.Inputs
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.RGine

open Cert.ReferenceIdeal Cert.ReferenceIdeal.Gen Cert.ReferenceIdeal.Read Idealize.ShloMosaic Idealize.ShloMosaic.ValueIdx Gnn

/-! ## Host operations read entry by entry -/

/-- The product of two arrays is the matrix product, given the dot record's four index facts. -/
theorem dot_toM {A K B : ℕ} (d : DotDims (⟨2, ![A, K]⟩ : Shape) (⟨2, ![K, B]⟩ : Shape) (⟨2, ![A, B]⟩ : Shape))
    (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (a : FVec Ideal (⟨2, ![A, K]⟩ : Shape) .f32) (w : FVec Ideal (⟨2, ![K, B]⟩ : Shape) .f32) :
    toM (Host.dotGeneral d none a w) = mm (toM a) (toM w) := by
  funext p q
  show FloatOps.dotGeneral d none .single a w (ix2 p q) = ∑ k, a (ix2 p k) * w (ix2 k q)
  rw [Ideal.dotGeneral_apply]
  exact dot_sum d hr hs l0 l1 r0 r1 a w p q

/-- A bias of 256 entries, made a row and repeated down 20000 rows, reads the bias at the column. -/
theorem bias20000 (b : FVec Ideal S256 .f32) (p : Fin 20000) (q : Fin 256) :
    broadcastInDim S20000x256 ![0, 1] bcast_S1x256_S20000x256_0_1 (broadcastInDim S1x256 ![1] bcast_S256_S1x256_1 b) (ix2 p q)
      = b (ix1 q) :=
  (broadcastInDim_apply _ bcast_S1x256_S20000x256_0_1 (broadcastInDim S1x256 ![1] bcast_S256_S1x256_1 b) (ix2 p q) (ix2 0 q)
    (fun a => match a with
      | ⟨0, _⟩ => by show 0 = if (1 : Nat) = 1 then 0 else p.val; rw [if_pos rfl]
      | ⟨1, _⟩ => by show q.val = if (256 : Nat) = 1 then 0 else q.val; rw [if_neg (by decide)])).trans
  (broadcastInDim_apply _ bcast_S256_S1x256_1 b (ix2 0 q) (ix1 q) (fun a => match a with
      | ⟨0, _⟩ => by show q.val = if (256 : Nat) = 1 then 0 else q.val; rw [if_neg (by decide)]))

/-- A layer as the reference computes it, a product plus an array that holds the bias in every row, is the
    specification's layer. -/
theorem lin_toM {A K B : ℕ} (d : DotDims (⟨2, ![A, K]⟩ : Shape) (⟨2, ![K, B]⟩ : Shape) (⟨2, ![A, B]⟩ : Shape))
    (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (a : FVec Ideal (⟨2, ![A, K]⟩ : Shape) .f32) (w : FVec Ideal (⟨2, ![K, B]⟩ : Shape) .f32)
    (bb : FVec Ideal (⟨2, ![A, B]⟩ : Shape) .f32) (b : FVec Ideal (⟨1, ![B]⟩ : Shape) .f32) (hbb : ∀ p q, bb (ix2 p q) = b (ix1 q)) :
    toM (addf (Host.dotGeneral d none a w) bb) = linR (toM a) (toM w) (toRow b) := by
  funext p q
  have hd : Host.dotGeneral d none a w (ix2 p q) = mm (toM a) (toM w) p q :=
    congrFun (congrFun (dot_toM d hr hs l0 l1 r0 r1 a w) p) q
  show Host.dotGeneral d none a w (ix2 p q) + bb (ix2 p q) = mm (toM a) (toM w) p q + b (ix1 q)
  rw [hd, hbb]

/-- The positive part: the maximum with a splat of the zero pattern. -/
theorem relu_apply {s : Shape} (hb : S_.BroadcastsInDim s ![]) (a : FVec Ideal s .f32) (i : s.Idx) :
    maximumf a (broadcastInDim s ![] hb (constant (F := Ideal) S_ .f32 0x00000000#32)) i = max (a i) 0 := by
  show max (a i) (broadcastInDim s ![] hb (constant (F := Ideal) S_ .f32 0x00000000#32) i) = max (a i) 0
  rw [broadcastInDim_scalar_apply]
  show max (a i) (Ideal.ofBits .f32 0x00000000#32) = max (a i) 0
  rw [Ideal.ofBits_zero_f32]

/-! ## The layer's stages on arrays -/

/-- The positive part of an array of node features. -/
def reluV (a : FVec Ideal S20000x256 .f32) : FVec Ideal S20000x256 .f32 :=
  maximumf a (broadcastInDim S20000x256 ![] bcast_S_S20000x256 (constant S_ .f32 0x00000000#32))

theorem reluV_toM (a : FVec Ideal S20000x256 .f32) : toM (reluV a) = relu (toM a) := by
  funext p q
  exact relu_apply bcast_S_S20000x256 a (ix2 p q)

/-- What a graph layer feeds its products: the node features scaled by one plus `eps`, plus the aggregate. -/
def mixV (h agg : FVec Ideal S20000x256 .f32) (eps : FVec Ideal S_ .f32) : FVec Ideal S20000x256 .f32 :=
  addf (mulf (broadcastInDim S20000x256 ![] bcast_S_S20000x256 (addf (constant S_ .f32 0x3F800000#32) eps)) h) agg

theorem mixV_toM (h agg : FVec Ideal S20000x256 .f32) (eps : FVec Ideal S_ .f32) :
    toM (mixV h agg eps) = mix (toM h) (toM agg) (eps ix0) := by
  funext p q
  show broadcastInDim S20000x256 ![] bcast_S_S20000x256 (addf (constant S_ .f32 0x3F800000#32) eps) (ix2 p q) * h (ix2 p q) + agg (ix2 p q)
    = (1 + eps ix0) * h (ix2 p q) + agg (ix2 p q)
  rw [broadcastInDim_scalar_apply]
  show (Ideal.ofBits .f32 0x3F800000#32 + eps ix0) * h (ix2 p q) + agg (ix2 p q) = (1 + eps ix0) * h (ix2 p q) + agg (ix2 p q)
  rw [Ideal.ofBits_one_f32]

/-- A layer of 256 features to 256 features on the node array. -/
def linV (a : FVec Ideal S20000x256 .f32) (w : FVec Ideal S256x256 .f32) (b : FVec Ideal S256 .f32) : FVec Ideal S20000x256 .f32 :=
  addf (Host.dotGeneral dot_S20000x256_S256x256_S20000x256_1_0_0_1_n_n none a w)
    (broadcastInDim S20000x256 ![0, 1] bcast_S1x256_S20000x256_0_1 (broadcastInDim S1x256 ![1] bcast_S256_S1x256_1 b))

theorem linV_toM (a : FVec Ideal S20000x256 .f32) (w : FVec Ideal S256x256 .f32) (b : FVec Ideal S256 .f32) :
    toM (linV a w b) = linR (toM a) (toM w) (toRow b) :=
  lin_toM dot_S20000x256_S256x256_S20000x256_1_0_0_1_n_n rfl rfl lhs_main_v33_0 lhs_main_v33_1 rhs_main_v33_0 rhs_main_v33_1
    a w _ b (bias20000 b)

/-- A graph layer's two-product update of the node features `h` with the aggregate `agg`. -/
def gineV (h agg : FVec Ideal S20000x256 .f32) (eps : FVec Ideal S_ .f32) (w1 : FVec Ideal S256x256 .f32) (b1 : FVec Ideal S256 .f32)
    (w2 : FVec Ideal S256x256 .f32) (b2 : FVec Ideal S256 .f32) : FVec Ideal S20000x256 .f32 :=
  linV (reluV (linV (mixV h agg eps) w1 b1)) w2 b2

theorem gineV_toM (h agg : FVec Ideal S20000x256 .f32) (eps : FVec Ideal S_ .f32) (w1 : FVec Ideal S256x256 .f32)
    (b1 : FVec Ideal S256 .f32) (w2 : FVec Ideal S256x256 .f32) (b2 : FVec Ideal S256 .f32) :
    toM (gineV h agg eps w1 b1 w2 b2) = gineR (toM h) (toM agg) (eps ix0) (toM w1) (toRow b1) (toM w2) (toRow b2) := by
  unfold gineV gineR
  rw [linV_toM, reluV_toM, linV_toM, mixV_toM]

/-! ## The first graph layer -/

/-- The first graph layer's result is the two-product update of the pre-message features and their aggregate:
    the printed operations, from the sum `1 + eps` to the last bias added, are the stages above in order. -/
theorem h1_eq (x0 : (⟨S20000x64, .f32⟩ : BufTy).Contents (Elt Ideal)) (x1 : (⟨S320000x16, .f32⟩ : BufTy).Contents (Elt Ideal))
    (x2 : (⟨S2x320000, .i32⟩ : BufTy).Contents (Elt Ideal)) (x3 : (⟨S64x256, .f32⟩ : BufTy).Contents (Elt Ideal))
    (x4 : (⟨S256, .f32⟩ : BufTy).Contents (Elt Ideal)) (x5 : (⟨S16x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S_, .f32⟩ : BufTy).Contents (Elt Ideal))
    (x10 : (⟨S256x256, .f32⟩ : BufTy).Contents (Elt Ideal)) (x11 : (⟨S256, .f32⟩ : BufTy).Contents (Elt Ideal))
    (x12 : (⟨S256x256, .f32⟩ : BufTy).Contents (Elt Ideal)) (x13 : (⟨S256, .f32⟩ : BufTy).Contents (Elt Ideal)) :
    val_main_v41 (F := Ideal) x0 x1 x2 x3 x4 x5 x6 x7 x8 x9 x10 x11 x12 x13
      = gineV (val_main_v16 (F := Ideal) x0 x3 x4 x7 x8) (val_main_v28 (F := Ideal) x0 x1 x2 x3 x4 x5 x6 x7 x8)
          x9 x10 x11 x12 x13 := by
  unfold val_main_v41 val_main_v40 val_main_v39 val_main_v38 val_main_v37 val_main_call2_v0 val_main_call2_cst
    val_main_v36 val_main_v35 val_main_v34 val_main_v33 val_main_v32 val_main_v31 val_main_v30 val_main_v29
    val_main_cst_1 gineV linV reluV mixV
  rfl

theorem h1 (x0 : (⟨S20000x64, .f32⟩ : BufTy).Contents (Elt Ideal)) (x1 : (⟨S320000x16, .f32⟩ : BufTy).Contents (Elt Ideal))
    (x2 : (⟨S2x320000, .i32⟩ : BufTy).Contents (Elt Ideal)) (x3 : (⟨S64x256, .f32⟩ : BufTy).Contents (Elt Ideal))
    (x4 : (⟨S256, .f32⟩ : BufTy).Contents (Elt Ideal)) (x5 : (⟨S16x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S_, .f32⟩ : BufTy).Contents (Elt Ideal))
    (x10 : (⟨S256x256, .f32⟩ : BufTy).Contents (Elt Ideal)) (x11 : (⟨S256, .f32⟩ : BufTy).Contents (Elt Ideal))
    (x12 : (⟨S256x256, .f32⟩ : BufTy).Contents (Elt Ideal)) (x13 : (⟨S256, .f32⟩ : BufTy).Contents (Elt Ideal)) :
    toM (val_main_v41 (F := Ideal) x0 x1 x2 x3 x4 x5 x6 x7 x8 x9 x10 x11 x12 x13 : Arr 20000 256)
      = gineR (toM (val_main_v16 (F := Ideal) x0 x3 x4 x7 x8 : Arr 20000 256))
          (toM (val_main_v28 (F := Ideal) x0 x1 x2 x3 x4 x5 x6 x7 x8 : Arr 20000 256))
          ((x9 : Arr0) ix0) (toM (x10 : Arr 256 256)) (toRow (x11 : Arr1 256))
          (toM (x12 : Arr 256 256)) (toRow (x13 : Arr1 256)) := by
  rw [h1_eq]
  exact gineV_toM _ _ x9 x10 x11 x12 x13

end Cert.ReferenceIdeal.RGine

end
-- ==== Proof.RLayers.lean ====
/-
  The reference's four residual layers and its head, as the specification's functions of the stage before.

  After the first graph layer the reference repeats one step four times: from the node features `h` and their
  aggregate `agg` (kept here as one named array: how it is summed over the edges is not this file's matter) it forms
  `(1 + eps) · h + agg`, multiplies by the first weight, adds the first bias and takes the positive part, multiplies
  by the second weight, adds the second bias, and adds the result to `h`. The parameters of step `l` are slice `l` of
  the stacked parameter arrays. The head is one more product with a bias. Each theorem says that a stage's array, read
  as a matrix, is the specification's residual layer (or plain layer) of the stages it is computed from.

  The four steps are one arithmetic on other arrays, so it is done once, over variables: the slice of a stacked
  parameter at any offset, and the update `gineV` of any features and aggregate with any parameters. A step's theorem
  then only opens the names of its stages down to the stage before, the aggregate and the argument arrays.

  The argument arrays `x0 … x20` are the entry point's arguments in its order; every theorem takes, explicitly and in
  that order, the ones its statement names (`lay0 … lay3` take `x0 … x18`, `head` takes `x0 … x20`).
-/
import proofs.«414264_j73976516706834_2_alg».proof.Proof.Gen.ReferenceIdeal.Read
import proofs.«414264_j73976516706834_2_alg».proof.Proof.Inputs
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.RLayers

open Cert.ReferenceIdeal Cert.ReferenceIdeal.Gen Cert.ReferenceIdeal.Read
open Idealize.ShloMosaic Idealize.ShloMosaic.ValueIdx
open Gnn

/-! ## A stacked parameter's slice

The four residual layers' parameters are stacked along a leading axis of extent 4. Layer `o` reads the unit slice at
offset `o` of that axis and drops the axis: a scalar from the stacked scalars, a matrix from the stacked weights, a
row from the stacked bias rows. -/

/-- Slice `o` of the stacked scalars, made a scalar: their entry `o`. -/
theorem eps_slice (o : Fin 4) (x : Arr1 4) (hs : S4.Slices ![o.val] S1) :
    (shapeCast S_ (extractStridedSlice S1 ![o.val] x hs) shapeCasts_S1_S_ : Arr0) ix0 = x (ix1 o) := by
  refine (shapeCast_apply (extractStridedSlice S1 ![o.val] x hs) shapeCasts_S1_S_ ix0 (ix1 0) ?_).trans ?_
  · rw [Shape.rowMajor_val_one]
    have h := (S_.rowMajor ix0).isLt
    have h1 : S_.numel = 1 := Fin.prod_univ_zero _
    show 0 = (S_.rowMajor ix0).val
    omega
  · exact extractStridedSlice_apply ![o.val] x hs (ix1 0) (ix1 o) (fun a => match a with
      | ⟨0, _⟩ => by show o.val = o.val + 0; omega)

/-- Slice `o` of the stacked weights, made a matrix: the weight `o`. -/
theorem w_slice (o : Fin 4) (x : Arr3 4 256 256) (hs : S4x256x256.Slices ![o.val, 0, 0] S1x256x256) :
    toM (shapeCast S256x256 (extractStridedSlice S1x256x256 ![o.val, 0, 0] x hs) shapeCasts_S1x256x256_S256x256 : Arr 256 256)
      = fun k j => x (ix3 o k j) := by
  funext k j
  show shapeCast S256x256 (extractStridedSlice S1x256x256 ![o.val, 0, 0] x hs) shapeCasts_S1x256x256_S256x256 (ix2 k j) = x (ix3 o k j)
  refine (shapeCast_apply (extractStridedSlice S1x256x256 ![o.val, 0, 0] x hs) shapeCasts_S1x256x256_S256x256 (ix2 k j) (ix3 0 k j) ?_).trans ?_
  · rw [Shape.rowMajor_val_three, Shape.rowMajor_val_two]
    show (0 * 256 + k.val) * 256 + j.val = k.val * 256 + j.val
    omega
  · exact extractStridedSlice_apply ![o.val, 0, 0] x hs (ix3 0 k j) (ix3 o k j) (fun a => match a with
      | ⟨0, _⟩ => by show o.val = o.val + 0; omega
      | ⟨1, _⟩ => by show k.val = 0 + k.val; omega
      | ⟨2, _⟩ => by show j.val = 0 + j.val; omega)

/-- Slice `o` of the stacked bias rows, made a row: the row `o`. -/
theorem b_slice (o : Fin 4) (x : Arr 4 256) (hs : S4x256.Slices ![o.val, 0] S1x256) :
    toRow (shapeCast S256 (extractStridedSlice S1x256 ![o.val, 0] x hs) shapeCasts_S1x256_S256 : Arr1 256) = fun j => x (ix2 o j) := by
  funext j
  show shapeCast S256 (extractStridedSlice S1x256 ![o.val, 0] x hs) shapeCasts_S1x256_S256 (ix1 j) = x (ix2 o j)
  refine (shapeCast_apply (extractStridedSlice S1x256 ![o.val, 0] x hs) shapeCasts_S1x256_S256 (ix1 j) (ix2 0 j) ?_).trans ?_
  · rw [Shape.rowMajor_val_two, Shape.rowMajor_val_one]
    show 0 * 256 + j.val = j.val
    omega
  · exact extractStridedSlice_apply ![o.val, 0] x hs (ix2 0 j) (ix2 o j) (fun a => match a with
      | ⟨0, _⟩ => by show o.val = o.val + 0; omega
      | ⟨1, _⟩ => by show j.val = 0 + j.val; omega)

/-! ## The dense operations on matrices -/

/-- The product of two arrays is the matrix product, given the dot record's four index facts. -/
theorem dot_toM {A K B : ℕ} (d : DotDims (⟨2, ![A, K]⟩ : Shape) (⟨2, ![K, B]⟩ : Shape) (⟨2, ![A, B]⟩ : Shape))
    (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (a : FVec Ideal (⟨2, ![A, K]⟩ : Shape) .f32) (w : FVec Ideal (⟨2, ![K, B]⟩ : Shape) .f32) :
    toM (Host.dotGeneral d none a w) = mm (toM a) (toM w) := by
  funext p q
  show FloatOps.dotGeneral d none .single a w (ix2 p q) = ∑ k, a (ix2 p k) * w (ix2 k q)
  rw [Ideal.dotGeneral_apply]
  exact dot_sum d hr hs l0 l1 r0 r1 a w p q

/-- A product plus an array that holds a bias row in every row is the specification's layer. -/
theorem lin_toM {A K B : ℕ} (d : DotDims (⟨2, ![A, K]⟩ : Shape) (⟨2, ![K, B]⟩ : Shape) (⟨2, ![A, B]⟩ : Shape))
    (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (a : FVec Ideal (⟨2, ![A, K]⟩ : Shape) .f32) (w : FVec Ideal (⟨2, ![K, B]⟩ : Shape) .f32)
    (bb : FVec Ideal (⟨2, ![A, B]⟩ : Shape) .f32) (b : FVec Ideal (⟨1, ![B]⟩ : Shape) .f32) (hbb : ∀ p q, bb (ix2 p q) = b (ix1 q)) :
    toM (addf (Host.dotGeneral d none a w) bb) = linR (toM a) (toM w) (toRow b) := by
  funext p q
  have hd : Host.dotGeneral d none a w (ix2 p q) = mm (toM a) (toM w) p q :=
    congrFun (congrFun (dot_toM d hr hs l0 l1 r0 r1 a w) p) q
  show Host.dotGeneral d none a w (ix2 p q) + bb (ix2 p q) = mm (toM a) (toM w) p q + b (ix1 q)
  rw [hd, hbb]

/-- A bias of 256 entries, made a row and repeated down 20000 rows, reads the bias at the column. -/
theorem bias20000 (b : FVec Ideal S256 .f32) (p : Fin 20000) (q : Fin 256) :
    broadcastInDim S20000x256 ![0, 1] bcast_S1x256_S20000x256_0_1 (broadcastInDim S1x256 ![1] bcast_S256_S1x256_1 b) (ix2 p q)
      = b (ix1 q) :=
  (broadcastInDim_apply _ bcast_S1x256_S20000x256_0_1 (broadcastInDim S1x256 ![1] bcast_S256_S1x256_1 b) (ix2 p q) (ix2 0 q)
    (fun a => match a with
      | ⟨0, _⟩ => by show 0 = if (1 : Nat) = 1 then 0 else p.val; rw [if_pos rfl]
      | ⟨1, _⟩ => by show q.val = if (256 : Nat) = 1 then 0 else q.val; rw [if_neg (by decide)])).trans
  (broadcastInDim_apply _ bcast_S256_S1x256_1 b (ix2 0 q) (ix1 q) (fun a => match a with
      | ⟨0, _⟩ => by show q.val = if (256 : Nat) = 1 then 0 else q.val; rw [if_neg (by decide)]))

/-- A bias of 10 entries, made a row and repeated down 20000 rows, reads the bias at the column. -/
theorem bias10 (b : FVec Ideal S10 .f32) (p : Fin 20000) (q : Fin 10) :
    broadcastInDim S20000x10 ![0, 1] bcast_S1x10_S20000x10_0_1 (broadcastInDim S1x10 ![1] bcast_S10_S1x10_1 b) (ix2 p q)
      = b (ix1 q) :=
  (broadcastInDim_apply _ bcast_S1x10_S20000x10_0_1 (broadcastInDim S1x10 ![1] bcast_S10_S1x10_1 b) (ix2 p q) (ix2 0 q)
    (fun a => match a with
      | ⟨0, _⟩ => by show 0 = if (1 : Nat) = 1 then 0 else p.val; rw [if_pos rfl]
      | ⟨1, _⟩ => by show q.val = if (10 : Nat) = 1 then 0 else q.val; rw [if_neg (by decide)])).trans
  (broadcastInDim_apply _ bcast_S10_S1x10_1 b (ix2 0 q) (ix1 q) (fun a => match a with
      | ⟨0, _⟩ => by show q.val = if (10 : Nat) = 1 then 0 else q.val; rw [if_neg (by decide)]))

/-- The positive part of an array of node features: the maximum with a spread zero. -/
def reluV (a : FVec Ideal S20000x256 .f32) : FVec Ideal S20000x256 .f32 :=
  maximumf a (broadcastInDim S20000x256 ![] bcast_S_S20000x256 (constant S_ .f32 0x00000000#32))

theorem reluV_toM (a : FVec Ideal S20000x256 .f32) : toM (reluV a) = relu (toM a) := by
  funext p q
  show max (a (ix2 p q)) (broadcastInDim S20000x256 ![] bcast_S_S20000x256 (constant (F := Ideal) S_ .f32 0x00000000#32) (ix2 p q)) = max (a (ix2 p q)) 0
  rw [broadcastInDim_scalar_apply]
  show max (a (ix2 p q)) (Ideal.ofBits .f32 0x00000000#32) = max (a (ix2 p q)) 0
  rw [Ideal.ofBits_zero_f32]

/-- What a graph layer feeds its products: the node features scaled by one plus `eps`, plus the aggregate. -/
def mixV (h agg : FVec Ideal S20000x256 .f32) (eps : FVec Ideal S_ .f32) : FVec Ideal S20000x256 .f32 :=
  addf (mulf (broadcastInDim S20000x256 ![] bcast_S_S20000x256 (addf (constant S_ .f32 0x3F800000#32) eps)) h) agg

theorem mixV_toM (h agg : FVec Ideal S20000x256 .f32) (eps : FVec Ideal S_ .f32) :
    toM (mixV h agg eps) = mix (toM h) (toM agg) (eps ix0) := by
  funext p q
  show broadcastInDim S20000x256 ![] bcast_S_S20000x256 (addf (constant S_ .f32 0x3F800000#32) eps) (ix2 p q) * h (ix2 p q) + agg (ix2 p q)
    = (1 + eps ix0) * h (ix2 p q) + agg (ix2 p q)
  rw [broadcastInDim_scalar_apply]
  show (Ideal.ofBits .f32 0x3F800000#32 + eps ix0) * h (ix2 p q) + agg (ix2 p q) = (1 + eps ix0) * h (ix2 p q) + agg (ix2 p q)
  rw [Ideal.ofBits_one_f32]

/-- A layer of 256 features to 256 features on the node array. -/
def linV (a : FVec Ideal S20000x256 .f32) (w : FVec Ideal S256x256 .f32) (b : FVec Ideal S256 .f32) : FVec Ideal S20000x256 .f32 :=
  addf (Host.dotGeneral dot_S20000x256_S256x256_S20000x256_1_0_0_1_n_n none a w)
    (broadcastInDim S20000x256 ![0, 1] bcast_S1x256_S20000x256_0_1 (broadcastInDim S1x256 ![1] bcast_S256_S1x256_1 b))

theorem linV_toM (a : FVec Ideal S20000x256 .f32) (w : FVec Ideal S256x256 .f32) (b : FVec Ideal S256 .f32) :
    toM (linV a w b) = linR (toM a) (toM w) (toRow b) :=
  lin_toM dot_S20000x256_S256x256_S20000x256_1_0_0_1_n_n rfl rfl lhs_main_v68_0 lhs_main_v68_1 rhs_main_v68_0 rhs_main_v68_1
    a w _ b (bias20000 b)

/-- A graph layer's two-product update of the node features `h` with the aggregate `agg`. -/
def gineV (h agg : FVec Ideal S20000x256 .f32) (eps : FVec Ideal S_ .f32) (w1 : FVec Ideal S256x256 .f32) (b1 : FVec Ideal S256 .f32)
    (w2 : FVec Ideal S256x256 .f32) (b2 : FVec Ideal S256 .f32) : FVec Ideal S20000x256 .f32 :=
  linV (reluV (linV (mixV h agg eps) w1 b1)) w2 b2

theorem gineV_toM (h agg : FVec Ideal S20000x256 .f32) (eps : FVec Ideal S_ .f32) (w1 : FVec Ideal S256x256 .f32)
    (b1 : FVec Ideal S256 .f32) (w2 : FVec Ideal S256x256 .f32) (b2 : FVec Ideal S256 .f32) :
    toM (gineV h agg eps w1 b1 w2 b2) = gineR (toM h) (toM agg) (eps ix0) (toM w1) (toRow b1) (toM w2) (toRow b2) := by
  unfold gineV gineR
  rw [linV_toM, reluV_toM, linV_toM, mixV_toM]

/-- The node features plus their update, with the parameters named: the specification's residual layer. -/
theorem res_toM (h agg : FVec Ideal S20000x256 .f32) (e : FVec Ideal S_ .f32) (w1 : FVec Ideal S256x256 .f32) (b1 : FVec Ideal S256 .f32)
    (w2 : FVec Ideal S256x256 .f32) (b2 : FVec Ideal S256 .f32) {eps : EReal} {W1 W2 : Mat 256 256} {B1 B2 : Row 256}
    (he : e ix0 = eps) (hw1 : toM w1 = W1) (hb1 : toRow b1 = B1) (hw2 : toM w2 = W2) (hb2 : toRow b2 = B2) :
    toM (addf h (gineV h agg e w1 b1 w2 b2)) = resR (toM h) (toM agg) eps W1 B1 W2 B2 := by
  subst he hw1 hb1 hw2 hb2
  funext i j
  show h (ix2 i j) + gineV h agg e w1 b1 w2 b2 (ix2 i j)
    = toM h i j + gineR (toM h) (toM agg) (e ix0) (toM w1) (toRow b1) (toM w2) (toRow b2) i j
  exact congrArg (h (ix2 i j) + ·) (congrFun (congrFun (gineV_toM h agg e w1 b1 w2 b2) i) j)

/-! ## The four residual layers and the head -/

variable (x0 : (⟨S20000x64, .f32⟩ : BufTy).Contents (Elt Ideal)) (x1 : (⟨S320000x16, .f32⟩ : BufTy).Contents (Elt Ideal)) (x2 : (⟨S2x320000, .i32⟩ : BufTy).Contents (Elt Ideal)) (x3 : (⟨S64x256, .f32⟩ : BufTy).Contents (Elt Ideal))
  (x4 : (⟨S256, .f32⟩ : BufTy).Contents (Elt Ideal)) (x5 : (⟨S16x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))
  (x9 : (⟨S_, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal))
  (x14 : (⟨S4, .f32⟩ : BufTy).Contents (Elt Ideal)) (x15 : (⟨S4x256x256, .f32⟩ : BufTy).Contents (Elt Ideal)) (x16 : (⟨S4x256, .f32⟩ : BufTy).Contents (Elt Ideal)) (x17 : (⟨S4x256x256, .f32⟩ : BufTy).Contents (Elt Ideal)) (x18 : (⟨S4x256, .f32⟩ : BufTy).Contents (Elt Ideal))
  (x19 : (⟨S256x10, .f32⟩ : BufTy).Contents (Elt Ideal)) (x20 : (⟨S10, .f32⟩ : BufTy).Contents (Elt Ideal))

/-- The first residual layer: the stage after it is the residual layer of the stage before it and its aggregate,
    with slice 0 of the stacked parameters. -/
theorem lay0 :
    toM (val_main_v77 (F := Ideal) x0 x1 x2 x3 x4 x5 x6 x7 x8 x9 x10 x11 x12 x13 x14 x15 x16 x17 x18 : Arr 20000 256)
      = resR (toM (val_main_v41 (F := Ideal) x0 x1 x2 x3 x4 x5 x6 x7 x8 x9 x10 x11 x12 x13 : Arr 20000 256)) (toM (val_main_v63 (F := Ideal) x0 x1 x2 x3 x4 x5 x6 x7 x8 x9 x10 x11 x12 x13 : Arr 20000 256))
          ((x14 : Arr1 4) (ix1 0)) (fun k j => (x15 : Arr3 4 256 256) (ix3 0 k j)) (fun j => (x16 : Arr 4 256) (ix2 0 j))
          (fun k j => (x17 : Arr3 4 256 256) (ix3 0 k j)) (fun j => (x18 : Arr 4 256) (ix2 0 j)) := by
  unfold val_main_v77 val_main_v76 val_main_v75 val_main_v74 val_main_v73 val_main_v72 val_main_call4_v0 val_main_call4_cst
    val_main_v71 val_main_v70 val_main_v69 val_main_v68 val_main_v67 val_main_v66 val_main_v65 val_main_v64 val_main_cst_5
    val_main_v51 val_main_v50 val_main_v49 val_main_v48 val_main_v47 val_main_v46 val_main_v45 val_main_v44 val_main_v43 val_main_v42
  generalize val_main_v41 (F := Ideal) x0 x1 x2 x3 x4 x5 x6 x7 x8 x9 x10 x11 x12 x13 = H
  generalize val_main_v63 (F := Ideal) x0 x1 x2 x3 x4 x5 x6 x7 x8 x9 x10 x11 x12 x13 = A
  exact res_toM H A _ _ _ _ _ (eps_slice 0 x14 slices_S4_S1_0) (w_slice 0 x15 slices_S4x256x256_S1x256x256_0_0_0)
    (b_slice 0 x16 slices_S4x256_S1x256_0_0) (w_slice 0 x17 slices_S4x256x256_S1x256x256_0_0_0) (b_slice 0 x18 slices_S4x256_S1x256_0_0)

/-- The second residual layer: the stage after it is the residual layer of the stage before it and its aggregate,
    with slice 1 of the stacked parameters. -/
theorem lay1 :
    toM (val_main_v113 (F := Ideal) x0 x1 x2 x3 x4 x5 x6 x7 x8 x9 x10 x11 x12 x13 x14 x15 x16 x17 x18 : Arr 20000 256)
      = resR (toM (val_main_v77 (F := Ideal) x0 x1 x2 x3 x4 x5 x6 x7 x8 x9 x10 x11 x12 x13 x14 x15 x16 x17 x18 : Arr 20000 256)) (toM (val_main_v99 (F := Ideal) x0 x1 x2 x3 x4 x5 x6 x7 x8 x9 x10 x11 x12 x13 x14 x15 x16 x17 x18 : Arr 20000 256))
          ((x14 : Arr1 4) (ix1 1)) (fun k j => (x15 : Arr3 4 256 256) (ix3 1 k j)) (fun j => (x16 : Arr 4 256) (ix2 1 j))
          (fun k j => (x17 : Arr3 4 256 256) (ix3 1 k j)) (fun j => (x18 : Arr 4 256) (ix2 1 j)) := by
  unfold val_main_v113 val_main_v112 val_main_v111 val_main_v110 val_main_v109 val_main_v108 val_main_call6_v0 val_main_call6_cst
    val_main_v107 val_main_v106 val_main_v105 val_main_v104 val_main_v103 val_main_v102 val_main_v101 val_main_v100 val_main_cst_9
    val_main_v87 val_main_v86 val_main_v85 val_main_v84 val_main_v83 val_main_v82 val_main_v81 val_main_v80 val_main_v79 val_main_v78
  generalize val_main_v77 (F := Ideal) x0 x1 x2 x3 x4 x5 x6 x7 x8 x9 x10 x11 x12 x13 x14 x15 x16 x17 x18 = H
  generalize val_main_v99 (F := Ideal) x0 x1 x2 x3 x4 x5 x6 x7 x8 x9 x10 x11 x12 x13 x14 x15 x16 x17 x18 = A
  exact res_toM H A _ _ _ _ _ (eps_slice 1 x14 slices_S4_S1_1) (w_slice 1 x15 slices_S4x256x256_S1x256x256_1_0_0)
    (b_slice 1 x16 slices_S4x256_S1x256_1_0) (w_slice 1 x17 slices_S4x256x256_S1x256x256_1_0_0) (b_slice 1 x18 slices_S4x256_S1x256_1_0)

/-- The third residual layer: the stage after it is the residual layer of the stage before it and its aggregate,
    with slice 2 of the stacked parameters. -/
theorem lay2 :
    toM (val_main_v149 (F := Ideal) x0 x1 x2 x3 x4 x5 x6 x7 x8 x9 x10 x11 x12 x13 x14 x15 x16 x17 x18 : Arr 20000 256)
      = resR (toM (val_main_v113 (F := Ideal) x0 x1 x2 x3 x4 x5 x6 x7 x8 x9 x10 x11 x12 x13 x14 x15 x16 x17 x18 : Arr 20000 256)) (toM (val_main_v135 (F := Ideal) x0 x1 x2 x3 x4 x5 x6 x7 x8 x9 x10 x11 x12 x13 x14 x15 x16 x17 x18 : Arr 20000 256))
          ((x14 : Arr1 4) (ix1 2)) (fun k j => (x15 : Arr3 4 256 256) (ix3 2 k j)) (fun j => (x16 : Arr 4 256) (ix2 2 j))
          (fun k j => (x17 : Arr3 4 256 256) (ix3 2 k j)) (fun j => (x18 : Arr 4 256) (ix2 2 j)) := by
  unfold val_main_v149 val_main_v148 val_main_v147 val_main_v146 val_main_v145 val_main_v144 val_main_call8_v0 val_main_call8_cst
    val_main_v143 val_main_v142 val_main_v141 val_main_v140 val_main_v139 val_main_v138 val_main_v137 val_main_v136 val_main_cst_13
    val_main_v123 val_main_v122 val_main_v121 val_main_v120 val_main_v119 val_main_v118 val_main_v117 val_main_v116 val_main_v115 val_main_v114
  generalize val_main_v113 (F := Ideal) x0 x1 x2 x3 x4 x5 x6 x7 x8 x9 x10 x11 x12 x13 x14 x15 x16 x17 x18 = H
  generalize val_main_v135 (F := Ideal) x0 x1 x2 x3 x4 x5 x6 x7 x8 x9 x10 x11 x12 x13 x14 x15 x16 x17 x18 = A
  exact res_toM H A _ _ _ _ _ (eps_slice 2 x14 slices_S4_S1_2) (w_slice 2 x15 slices_S4x256x256_S1x256x256_2_0_0)
    (b_slice 2 x16 slices_S4x256_S1x256_2_0) (w_slice 2 x17 slices_S4x256x256_S1x256x256_2_0_0) (b_slice 2 x18 slices_S4x256_S1x256_2_0)

/-- The fourth residual layer: the stage after it is the residual layer of the stage before it and its aggregate,
    with slice 3 of the stacked parameters. -/
theorem lay3 :
    toM (val_main_v185 (F := Ideal) x0 x1 x2 x3 x4 x5 x6 x7 x8 x9 x10 x11 x12 x13 x14 x15 x16 x17 x18 : Arr 20000 256)
      = resR (toM (val_main_v149 (F := Ideal) x0 x1 x2 x3 x4 x5 x6 x7 x8 x9 x10 x11 x12 x13 x14 x15 x16 x17 x18 : Arr 20000 256)) (toM (val_main_v171 (F := Ideal) x0 x1 x2 x3 x4 x5 x6 x7 x8 x9 x10 x11 x12 x13 x14 x15 x16 x17 x18 : Arr 20000 256))
          ((x14 : Arr1 4) (ix1 3)) (fun k j => (x15 : Arr3 4 256 256) (ix3 3 k j)) (fun j => (x16 : Arr 4 256) (ix2 3 j))
          (fun k j => (x17 : Arr3 4 256 256) (ix3 3 k j)) (fun j => (x18 : Arr 4 256) (ix2 3 j)) := by
  unfold val_main_v185 val_main_v184 val_main_v183 val_main_v182 val_main_v181 val_main_v180 val_main_call10_v0 val_main_call10_cst
    val_main_v179 val_main_v178 val_main_v177 val_main_v176 val_main_v175 val_main_v174 val_main_v173 val_main_v172 val_main_cst_17
    val_main_v159 val_main_v158 val_main_v157 val_main_v156 val_main_v155 val_main_v154 val_main_v153 val_main_v152 val_main_v151 val_main_v150
  generalize val_main_v149 (F := Ideal) x0 x1 x2 x3 x4 x5 x6 x7 x8 x9 x10 x11 x12 x13 x14 x15 x16 x17 x18 = H
  generalize val_main_v171 (F := Ideal) x0 x1 x2 x3 x4 x5 x6 x7 x8 x9 x10 x11 x12 x13 x14 x15 x16 x17 x18 = A
  exact res_toM H A _ _ _ _ _ (eps_slice 3 x14 slices_S4_S1_3) (w_slice 3 x15 slices_S4x256x256_S1x256x256_3_0_0)
    (b_slice 3 x16 slices_S4x256_S1x256_3_0) (w_slice 3 x17 slices_S4x256x256_S1x256x256_3_0_0) (b_slice 3 x18 slices_S4x256_S1x256_3_0)

/-- The head: the result is the plain layer of the last residual layer's features. -/
theorem head :
    toM (val_main_v189 (F := Ideal) x0 x1 x2 x3 x4 x5 x6 x7 x8 x9 x10 x11 x12 x13 x14 x15 x16 x17 x18 x19 x20 : Arr 20000 10)
      = linR (toM (val_main_v185 (F := Ideal) x0 x1 x2 x3 x4 x5 x6 x7 x8 x9 x10 x11 x12 x13 x14 x15 x16 x17 x18 : Arr 20000 256)) (toM (x19 : Arr 256 10)) (toRow (x20 : Arr1 10)) := by
  unfold val_main_v189 val_main_v188 val_main_v187 val_main_v186
  generalize val_main_v185 (F := Ideal) x0 x1 x2 x3 x4 x5 x6 x7 x8 x9 x10 x11 x12 x13 x14 x15 x16 x17 x18 = H
  exact lin_toM dot_S20000x256_S256x10_S20000x10_1_0_0_1_n_n rfl rfl lhs_main_v186_0 lhs_main_v186_1 rhs_main_v186_0 rhs_main_v186_1
    H x19 _ x20 (bias10 x20)

end Cert.ReferenceIdeal.RLayers

end
-- ==== Proof.RChain.lean ====
/-
  The reference program's result as the specification's network.

  The reference computes, from its twenty-one argument arrays, the encoded node features and edge encoding, one graph
  layer without a residual and four with one, and a head. Stage by stage its named intermediate values are the
  specification's: the dense stages are proved in their own modules; here each layer's aggregate (the gather of source
  rows, the edge encoding added, the positive part, summed into the destination rows) is shown to be the one function
  `aggVec` of the layer's input and the edge encoding, by unfolding the names of the values in between and nothing else,
  and the stages are composed into the network `outR` of the parameters read off the arguments.
-/
import proofs.«414264_j73976516706834_2_alg».proof.Proof.Gen.ReferenceIdeal.Read
import proofs.«414264_j73976516706834_2_alg».proof.Proof.Inputs
import proofs.«414264_j73976516706834_2_alg».proof.Proof.RAgg
import proofs.«414264_j73976516706834_2_alg».proof.Proof.REnc
import proofs.«414264_j73976516706834_2_alg».proof.Proof.RGine
import proofs.«414264_j73976516706834_2_alg».proof.Proof.RLayers

noncomputable section

namespace Cert.ReferenceIdeal.RChain

open Cert.ReferenceIdeal Cert.ReferenceIdeal.Gen Cert.ReferenceIdeal.Read Idealize.ShloMosaic Idealize.ShloMosaic.TcCoe Idealize.SL.Sem
open Idealize.ShloMosaic.ValueIdx Gnn

/-! ## The five aggregation stages

Each graph layer's aggregate, as the reference's operations compose it, is `aggVec` of the layer's input node
features and the edge encoding at the edge index's two rows: the two terms are the same operations in the same
order, so each equation holds by unfolding the names of the intermediate values between the two stages and nothing
else; the input features and the edge encoding stay folded. -/

section Stages
variable (x0 : Arr 20000 64) (x1 : Arr 320000 16) (x2 : EdgeIdx) (x3 : Arr 64 256) (x4 : Arr1 256) (x5 : Arr 16 256) (x6 : Arr1 256)
  (x7 : Arr 256 256) (x8 : Arr1 256) (x9 : Arr0) (x10 : Arr 256 256) (x11 : Arr1 256) (x12 : Arr 256 256) (x13 : Arr1 256)
  (x14 : Arr1 4) (x15 : Arr3 4 256 256) (x16 : Arr 4 256) (x17 : Arr3 4 256 256) (x18 : Arr 4 256) (x19 : Arr 256 10) (x20 : Arr1 10)

/-- The first graph layer's aggregate. -/
theorem agg_v28 : val_main_v28 (F := Ideal) x0 x1 x2 x3 x4 x5 x6 x7 x8
    = aggVec (val_main_v16 (F := Ideal) x0 x3 x4 x7 x8) (val_main_v11 (F := Ideal) x1 x5 x6) (srcOf x2) (dstOf x2) := by
  unfold val_main_v28 val_main_v27 val_main_v26 val_main_cst val_main_v25 val_main_call1_v0 val_main_call1_cst val_main_v24
    val_main_v23 val_main_v22 val_main_v21 val_main_v20 val_main_v19 val_main_c_0 val_main_v18 val_main_v17 val_main_c
    val_main_v3 val_main_v2 val_main_v1 val_main_v0 aggVec wrapIdx srcOf dstOf
  rfl

/-- The first residual layer's aggregate. -/
theorem agg_v63 : val_main_v63 (F := Ideal) x0 x1 x2 x3 x4 x5 x6 x7 x8 x9 x10 x11 x12 x13
    = aggVec (val_main_v41 (F := Ideal) x0 x1 x2 x3 x4 x5 x6 x7 x8 x9 x10 x11 x12 x13) (val_main_v11 (F := Ideal) x1 x5 x6) (srcOf x2) (dstOf x2) := by
  unfold val_main_v63 val_main_v62 val_main_v61 val_main_cst_4 val_main_v60 val_main_call3_v0 val_main_call3_cst val_main_v59
    val_main_v58 val_main_v57 val_main_v56 val_main_v55 val_main_v54 val_main_c_3 val_main_v53 val_main_v52 val_main_c_2
    val_main_v3 val_main_v2 val_main_v1 val_main_v0 aggVec wrapIdx srcOf dstOf
  rfl

/-- The second residual layer's aggregate. -/
theorem agg_v99 : val_main_v99 (F := Ideal) x0 x1 x2 x3 x4 x5 x6 x7 x8 x9 x10 x11 x12 x13 x14 x15 x16 x17 x18
    = aggVec (val_main_v77 (F := Ideal) x0 x1 x2 x3 x4 x5 x6 x7 x8 x9 x10 x11 x12 x13 x14 x15 x16 x17 x18) (val_main_v11 (F := Ideal) x1 x5 x6) (srcOf x2) (dstOf x2) := by
  unfold val_main_v99 val_main_v98 val_main_v97 val_main_cst_8 val_main_v96 val_main_call5_v0 val_main_call5_cst val_main_v95
    val_main_v94 val_main_v93 val_main_v92 val_main_v91 val_main_v90 val_main_c_7 val_main_v89 val_main_v88 val_main_c_6
    val_main_v3 val_main_v2 val_main_v1 val_main_v0 aggVec wrapIdx srcOf dstOf
  rfl

/-- The third residual layer's aggregate. -/
theorem agg_v135 : val_main_v135 (F := Ideal) x0 x1 x2 x3 x4 x5 x6 x7 x8 x9 x10 x11 x12 x13 x14 x15 x16 x17 x18
    = aggVec (val_main_v113 (F := Ideal) x0 x1 x2 x3 x4 x5 x6 x7 x8 x9 x10 x11 x12 x13 x14 x15 x16 x17 x18) (val_main_v11 (F := Ideal) x1 x5 x6) (srcOf x2) (dstOf x2) := by
  unfold val_main_v135 val_main_v134 val_main_v133 val_main_cst_12 val_main_v132 val_main_call7_v0 val_main_call7_cst val_main_v131
    val_main_v130 val_main_v129 val_main_v128 val_main_v127 val_main_v126 val_main_c_11 val_main_v125 val_main_v124 val_main_c_10
    val_main_v3 val_main_v2 val_main_v1 val_main_v0 aggVec wrapIdx srcOf dstOf
  rfl

/-- The fourth residual layer's aggregate. -/
theorem agg_v171 : val_main_v171 (F := Ideal) x0 x1 x2 x3 x4 x5 x6 x7 x8 x9 x10 x11 x12 x13 x14 x15 x16 x17 x18
    = aggVec (val_main_v149 (F := Ideal) x0 x1 x2 x3 x4 x5 x6 x7 x8 x9 x10 x11 x12 x13 x14 x15 x16 x17 x18) (val_main_v11 (F := Ideal) x1 x5 x6) (srcOf x2) (dstOf x2) := by
  unfold val_main_v171 val_main_v170 val_main_v169 val_main_cst_16 val_main_v168 val_main_call9_v0 val_main_call9_cst val_main_v167
    val_main_v166 val_main_v165 val_main_v164 val_main_v163 val_main_v162 val_main_c_15 val_main_v161 val_main_v160 val_main_c_14
    val_main_v3 val_main_v2 val_main_v1 val_main_v0 aggVec wrapIdx srcOf dstOf
  rfl

/-! ## The stages composed

With the parameters read off the argument arrays and the aggregation step at the edge index, each named stage of
the reference is the specification's: the encoders, then the first graph layer on the encoders' results and their
aggregate, then each residual layer on the layer before and its aggregate, then the head. -/

local notation "P" => mkParams x0 x1 x3 x4 x5 x6 x7 x8 x9 x10 x11 x12 x13 x14 x15 x16 x17 x18 x19 x20
local notation "G" => aggR x2

/-- The encoded node features. -/
theorem st_h0 : toM (val_main_v16 (F := Ideal) x0 x3 x4 x7 x8) = h0R P := REnc.h0 x0 x3 x4 x7 x8

/-- The edge encoding. -/
theorem st_e : toM (val_main_v11 (F := Ideal) x1 x5 x6) = eR P := REnc.e x1 x5 x6

/-- The node features after the first graph layer. -/
theorem st_h1 : toM (val_main_v41 (F := Ideal) x0 x1 x2 x3 x4 x5 x6 x7 x8 x9 x10 x11 x12 x13) = h1R P G := by
  rw [RGine.h1, agg_v28, agg_fold, st_h0, st_e]
  rfl

/-- The node features after the first residual layer. -/
theorem st_h2 : toM (val_main_v77 (F := Ideal) x0 x1 x2 x3 x4 x5 x6 x7 x8 x9 x10 x11 x12 x13 x14 x15 x16 x17 x18) = layR P G 0 (h1R P G) := by
  rw [RLayers.lay0, agg_v63, agg_fold, st_h1, st_e]
  rfl

/-- After the second residual layer. -/
theorem st_h3 : toM (val_main_v113 (F := Ideal) x0 x1 x2 x3 x4 x5 x6 x7 x8 x9 x10 x11 x12 x13 x14 x15 x16 x17 x18) = layR P G 1 (layR P G 0 (h1R P G)) := by
  rw [RLayers.lay1, agg_v99, agg_fold, st_h2, st_e]
  rfl

/-- After the third residual layer. -/
theorem st_h4 : toM (val_main_v149 (F := Ideal) x0 x1 x2 x3 x4 x5 x6 x7 x8 x9 x10 x11 x12 x13 x14 x15 x16 x17 x18) = layR P G 2 (layR P G 1 (layR P G 0 (h1R P G))) := by
  rw [RLayers.lay2, agg_v135, agg_fold, st_h3, st_e]
  rfl

/-- After the fourth residual layer: the node features the head reads. -/
theorem st_h5 : toM (val_main_v185 (F := Ideal) x0 x1 x2 x3 x4 x5 x6 x7 x8 x9 x10 x11 x12 x13 x14 x15 x16 x17 x18) = h5R P G := by
  rw [RLayers.lay3, agg_v171, agg_fold, st_h4, st_e]
  rfl

/-- The reference's result, as a function of the argument arrays, is the specification's network. -/
theorem chain : toM (val_main_v189 (F := Ideal) x0 x1 x2 x3 x4 x5 x6 x7 x8 x9 x10 x11 x12 x13 x14 x15 x16 x17 x18 x19 x20) = outR P G := by
  rw [RLayers.head, st_h5]
  rfl

end Stages

/-- The buffer every execution of the reference ends with is the specification's network of the launch contents of
    the arguments: the parameters read off arguments 0, 1 and 3 to 20, the aggregation step at argument 2. -/
theorem result (m : (ℓ : Loc nD τ sig) → Buf (Elt Ideal) ℓ) (c : Dev nD) :
    (Cert.ReferenceIdeal.Value.res_main_v189 (F := Ideal) m c : Arr 20000 10)
      = ofM (outR (mkParams (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20)))
        (aggR (m ((c.tc : Thread nD τ).loc main_arg2)))) :=
  (val_main_v189_eq (F := Ideal) m c).trans (arr_ext ((chain _ _ _ _ _ _ _ _ _ _ _ _ _ _ _ _ _ _ _ _ _).trans (toM_ofM _).symm))

end Cert.ReferenceIdeal.RChain

end
-- ==== Proof.AggEq.lean ====
/-
  The two programs' aggregation steps are one function, and it keeps real arrays real.

  Both programs compute, from node features h, an edge encoding e and the edge index,

      agg = segment_sum (max (h[src'] + e) 0) dst,      src' = src + 20000 where src < 0, else src,

  with the same wrapped index src', the same gather (its start index read signed and clamped), the same positive
  part and the same adding scatter from zeros. The kernel program does one thing more: after the gather it keeps a
  gathered row only where 0 ≤ src' ≤ 19999 (two signed comparisons, and-ed, and-reduced over an axis of extent one
  from 1, spread along the row) and writes the word 0x7FC00000 elsewhere. When every source index lies in
  [-20000, 20000) the wrapped index lies in [0, 19999] (negative ones gain 20000 without leaving the 32-bit range),
  so both comparisons say yes on every row, the mask is 1 everywhere and the select is the gathered row. The kernel
  also widens e from bf16, which changes nothing on extended reals. What is left on the two sides is the same term.

  Realness: the adding scatter at an entry is the zero it starts from plus a finite sum of updates, each the larger
  of 0 and (an entry of h) + (an entry of e); sums, maxima and finite sums of real numbers are real.
-/
import proofs.«414264_j73976516706834_2_alg».proof.Proof.KGlueAgg
import proofs.«414264_j73976516706834_2_alg».proof.Proof.RAgg
import proofs.«414264_j73976516706834_2_alg».proof.Proof.Inputs
import Idealize.ShloMosaic.PureOps.Ideal.Laws
import Idealize.ShloMosaic.PureOps.Reduce
import Idealize.ShloMosaic.Lib.ValueIdx

set_option maxRecDepth 16384

noncomputable section

namespace Cert.AggEq

open Idealize.ShloMosaic Idealize.ShloMosaic.ValueIdx Gnn
open Cert.KernelIdeal.KGlue (aggK)
open Cert.ReferenceIdeal.RChain (aggR)

/-! ## The wrapped index is a row of the table -/

/-- A source index in [-20000, 20000), wrapped by adding 20000 where negative, lies in [0, 19999]: both of the
    kernel's range tests on it say yes. The sum does not leave the signed 32-bit range. -/
theorem wrap_in_range (s : BitVec 32) (h : -20000 ≤ s.toInt ∧ s.toInt < 20000) :
    IntOp.cmpi .sge (Scalar.select (IntOp.cmpi .slt s 0#32) (IntOp.addi s 20000#32) s) 0#32 = 1#1 ∧
    IntOp.cmpi .sle (Scalar.select (IntOp.cmpi .slt s 0#32) (IntOp.addi s 20000#32) s) 19999#32 = 1#1 := by
  have h0 : (0#32 : BitVec 32).toInt = 0 := by decide
  have h1 : (19999#32 : BitVec 32).toInt = 19999 := by decide
  have h2 : (20000#32 : BitVec 32).toInt = 20000 := by decide
  unfold IntOp.cmpi IntOp.addi
  simp only [BitVec.slt_eq_decide, BitVec.sle_eq_decide, h0, h1]
  by_cases hn : s.toInt < 0
  · have hs : (s + 20000#32).toInt = s.toInt + 20000 := by
      rw [BitVec.toInt_add, h2]
      exact Int.bmod_eq_of_le (by omega) (by omega)
    rw [decide_eq_true hn]
    show BitVec.ofBool (decide (0 ≤ (Scalar.select 1#1 (s + 20000#32) s).toInt)) = 1#1 ∧
      BitVec.ofBool (decide ((Scalar.select 1#1 (s + 20000#32) s).toInt ≤ 19999)) = 1#1
    rw [select_one, hs, decide_eq_true (by omega), decide_eq_true (by omega)]
    exact ⟨rfl, rfl⟩
  · rw [decide_eq_false hn]
    show BitVec.ofBool (decide (0 ≤ (Scalar.select 0#1 (s + 20000#32) s).toInt)) = 1#1 ∧
      BitVec.ofBool (decide ((Scalar.select 0#1 (s + 20000#32) s).toInt ≤ 19999)) = 1#1
    rw [select_zero, decide_eq_true (by omega), decide_eq_true (by omega)]
    exact ⟨rfl, rfl⟩

/-- An and-fold from 1 over ones is 1. -/
theorem foldl_andi_ones {ι : Type} (x : ι → BitVec 1) (hx : ∀ i, x i = 1#1) (L : List ι) :
    L.foldl (fun r i => IntOp.andi r (x i)) 1#1 = 1#1 := by
  induction L with
  | nil => rfl
  | cons a L ih => rw [List.foldl_cons, hx a, show IntOp.andi 1#1 1#1 = (1#1 : BitVec 1) from rfl]; exact ih

/-- An and-reduction from 1 of an array of ones is 1 at every result index. -/
theorem reduce_andi_ones {s t u : Shape} {axes : List (Fin s.rank)} (x : IVec s 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_ones x hx _

/-! ## Row 0 of the edge index -/

/-- An element of row 0 of the edge index is a source index. -/
theorem row0_range (ei : EdgeIdx) (hr : SrcRange ei) (i : (⟨2, ![2, 320000]⟩ : Shape).Idx) (h0 : (i 0).val = 0) :
    -20000 ≤ (ei i).toInt ∧ (ei i).toInt < 20000 := by
  have e : i = ix2 0 (i 1) := by
    rw [eq_ix2 i]
    exact congrArg (fun a => ix2 a (i 1)) (Fin.ext h0)
  rw [e]
  exact hr (i 1)

/-- Every entry of the kernel program's source vector is in the assumed range. -/
theorem srcK_range (ei : EdgeIdx) (hr : SrcRange ei) (k : Cert.KernelIdeal.S320000.Idx) :
    -20000 ≤ (Cert.KernelIdeal.KGlue.srcOf ei k).toInt ∧ (Cert.KernelIdeal.KGlue.srcOf ei k).toInt < 20000 := by
  refine row0_range ei hr _ ?_
  have hlt : ((Shape.reshapeEquiv Cert.KernelIdeal.Gen.shapeCasts_S1x320000_S320000 k) 0).val < 1 :=
    ((Shape.reshapeEquiv Cert.KernelIdeal.Gen.shapeCasts_S1x320000_S320000 k) 0).isLt
  show 0 + ((Shape.reshapeEquiv Cert.KernelIdeal.Gen.shapeCasts_S1x320000_S320000 k) 0).val = 0
  omega

/-! ## The kernel's masked gather is the gather -/

/-- Under the range assumption the kernel's mask is 1 on every row, so its select keeps the gathered row. -/
theorem takeVec_eq (h : Arr 20000 256) (src : IVec Cert.KernelIdeal.S320000 32)
    (hsrc : ∀ k, -20000 ≤ (src k).toInt ∧ (src k).toInt < 20000) :
    Cert.KernelIdeal.KGlue.takeVec h src =
      Host.gather Cert.KernelIdeal.gather_S20000x256_S320000x1_S320000x256_1_0_n_n_0_1_1256 h
        (Cert.KernelIdeal.KGlue.wrapIdx src) := by
  have hw : ∀ i, IntOp.cmpi .sge (Cert.KernelIdeal.KGlue.wrapIdx src i) 0#32 = 1#1 ∧
      IntOp.cmpi .sle (Cert.KernelIdeal.KGlue.wrapIdx src i) 19999#32 = 1#1 :=
    fun i => wrap_in_range (src _) (hsrc _)
  funext i
  unfold Cert.KernelIdeal.KGlue.takeVec
  rw [select_apply]
  have hm : ∀ j, Host.reduce IntOp.andi
        (andi
          (cmpi .sge (Cert.KernelIdeal.KGlue.wrapIdx src) (broadcastInDim Cert.KernelIdeal.S320000x1 ![] Cert.KernelIdeal.Gen.bcast_S_S320000x1 (constantI Cert.KernelIdeal.S_ 32 0#32)))
          (cmpi .sle (Cert.KernelIdeal.KGlue.wrapIdx src)
            (broadcastInDim Cert.KernelIdeal.S320000x1 ![0, 1] Cert.KernelIdeal.Gen.bcast_S1x1_S320000x1_0_1
              (broadcastInDim Cert.KernelIdeal.S1x1 ![1] Cert.KernelIdeal.Gen.bcast_S1_S1x1_1 (constantI Cert.KernelIdeal.S1 32 19999#32)))))
        (constantI Cert.KernelIdeal.S_ 1 1#1) Cert.KernelIdeal.Gen.reducesTo_S320000x1_S320000_d1 Cert.KernelIdeal.Gen.h_S_ j = 1#1 :=
    fun j => reduce_andi_ones _ (fun i' => by
      obtain ⟨a, b⟩ := hw i'
      show IntOp.andi (IntOp.cmpi .sge (Cert.KernelIdeal.KGlue.wrapIdx src i') 0#32)
        (IntOp.cmpi .sle (Cert.KernelIdeal.KGlue.wrapIdx src i') 19999#32) = 1#1
      rw [a, b]; rfl) _ _ j
  show Scalar.select (Host.reduce IntOp.andi _ _ _ _ _) _ _ = _
  rw [hm, select_one]

/-! ## The two aggregation steps -/

/-- Under the range assumption the two programs' aggregation steps are one function. -/
theorem agg_eq (ei : EdgeIdx) (hr : SrcRange ei) : aggK ei = aggR ei := by
  funext h e
  unfold Cert.KernelIdeal.KGlue.aggK Cert.ReferenceIdeal.RChain.aggR
  unfold Cert.KernelIdeal.KGlue.aggVec Cert.ReferenceIdeal.RChain.aggVec
  rw [takeVec_eq (ofM h) _ (srcK_range ei hr)]
  rfl

/-- The reference's aggregation step keeps real arrays real: each entry is a zero plus a finite sum of positive
    parts of sums of an entry of the node features and an entry of the edge encoding. -/
theorem aggR_re (ei : EdgeIdx) (h : Mat 20000 256) (e : Mat 320000 256) (hh : ReM h) (he : ReM e) :
    ReM (aggR ei h e) := by
  intro p q
  unfold Cert.ReferenceIdeal.RChain.aggR Cert.ReferenceIdeal.RChain.aggVec toM Host.scatterAdd
  rw [Ideal.hostScatterAdd_def]
  unfold Ideal.hostScatterAdd
  refine Re.add ?_ (Re.sum _ _ fun j _ => ?_)
  · show Re (Ideal.ofBits .f32 0x00000000#32)
    rw [Ideal.ofBits_zero_f32]; exact Re.zero
  · show Re (max (ofM h _ + ofM e j) (Ideal.ofBits .f32 0x00000000#32))
    refine Re.max (Re.add (reA_ofM hh _) (reA_ofM he j)) ?_
    rw [Ideal.ofBits_zero_f32]; exact Re.zero

end Cert.AggEq

end
-- ==== Proof.Value.lean ====
/-
  The one equation the value claim rests on: on each device the reference program's result and the kernel program's
  result are the same array.

  Each program's result is the specification's network of its own argument arrays: the reference's with plain products
  and its own aggregation step; the kernel's with three-pass products, its own aggregation step and a head padded to 128
  columns, read on the first ten. The two launch memories agree on the arguments. The precondition says that every float
  argument holds real numbers only and that every source index is in range. In range the two aggregation steps are one
  function, and it keeps real arrays real; the padded head weight is real, and the padded weight and bias hold the
  reference's on the kept columns. On real operands a three-pass product is the product (its remainders `x - x` are
  zero), and every layer's result is again real; so the two networks agree entry by entry.
-/
import proofs.«414264_j73976516706834_2_alg».proof.Defs
import proofs.«414264_j73976516706834_2_alg».proof.Proof.Gen.KernelIdeal.Frame
import proofs.«414264_j73976516706834_2_alg».proof.Proof.Gen.ReferenceIdeal.Run
import proofs.«414264_j73976516706834_2_alg».proof.Proof.Inputs
import proofs.«414264_j73976516706834_2_alg».proof.Proof.Pad
import proofs.«414264_j73976516706834_2_alg».proof.Proof.PreDecode
import proofs.«414264_j73976516706834_2_alg».proof.Proof.KChain
import proofs.«414264_j73976516706834_2_alg».proof.Proof.RChain
import proofs.«414264_j73976516706834_2_alg».proof.Proof.AggEq

noncomputable section

namespace Cert.Value

open Idealize.ShloMosaic Idealize.ShloMosaic.ValueIdx Idealize.SL.Sem Gnn

/-- The two networks, the reference's over one set of argument arrays and the kernel's over another equal to it, the
    kernel's read on the ten kept columns of its padded head. The arguments are real and the source indices in range; the
    two aggregation steps are then the same function and keep real arrays real; the padded weight and bias are real and
    hold the reference's on the kept columns. So layer by layer the three-pass products are the products, every layer's
    result is again real, and the results agree entry by entry. -/
theorem agree_core (a0' : Arr 20000 64) (a1' : Arr 320000 16) (a2' : EdgeIdx) (a3' : Arr 64 256) (a4' : Arr1 256) (a5' : Arr 16 256) (a6' : Arr1 256) (a7' : Arr 256 256) (a8' : Arr1 256) (a9' : Arr0) (a10' : Arr 256 256) (a11' : Arr1 256) (a12' : Arr 256 256) (a13' : Arr1 256) (a14' : Arr1 4) (a15' : Arr3 4 256 256) (a16' : Arr 4 256) (a17' : Arr3 4 256 256) (a18' : Arr 4 256) (a19' : Arr 256 10) (a20' : Arr1 10)
    (a0 : Arr 20000 64) (a1 : Arr 320000 16) (a2 : EdgeIdx) (a3 : Arr 64 256) (a4 : Arr1 256) (a5 : Arr 16 256) (a6 : Arr1 256) (a7 : Arr 256 256) (a8 : Arr1 256) (a9 : Arr0) (a10 : Arr 256 256) (a11 : Arr1 256) (a12 : Arr 256 256) (a13 : Arr1 256) (a14 : Arr1 4) (a15 : Arr3 4 256 256) (a16 : Arr 4 256) (a17 : Arr3 4 256 256) (a18 : Arr 4 256) (a19 : Arr 256 10) (a20 : Arr1 10)
    (aggK aggR : EdgeIdx → Agg) (whp : Arr 256 128) (bhp : Arr1 128)
    (heq : a0' = a0 ∧ a1' = a1 ∧ a2' = a2 ∧ a3' = a3 ∧ a4' = a4 ∧ a5' = a5 ∧ a6' = a6 ∧ a7' = a7 ∧ a8' = a8 ∧ a9' = a9 ∧ a10' = a10 ∧ a11' = a11 ∧ a12' = a12 ∧ a13' = a13 ∧ a14' = a14 ∧ a15' = a15 ∧ a16' = a16 ∧ a17' = a17 ∧ a18' = a18 ∧ a19' = a19 ∧ a20' = a20)
    (hre : ReA a0 ∧ ReA a1 ∧ ReA a3 ∧ ReA a4 ∧ ReA a5 ∧ ReA a6 ∧ ReA a7 ∧ ReA a8 ∧ ReA a9 ∧ ReA a10 ∧ ReA a11 ∧ ReA a12 ∧ ReA a13 ∧ ReA a14 ∧ ReA a15 ∧ ReA a16 ∧ ReA a17 ∧ ReA a18 ∧ ReA a19 ∧ ReA a20 ∧ SrcRange a2)
    (hagg : SrcRange a2 → aggK a2 = aggR a2)
    (haggre : ∀ h e, ReM h → ReM e → ReM (aggR a2 h e))
    (hwre : ReA a19 → ReA whp)
    (hwk : ∀ (k : Fin 256) (j : Fin 10), whp (ix2 k (Fin.castLE (by decide) j)) = a19 (ix2 k j))
    (hbk : ∀ j : Fin 10, bhp (ix1 (Fin.castLE (by decide) j)) = a20 (ix1 j)) :
    ofM (outR (mkParams a0' a1' a3' a4' a5' a6' a7' a8' a9' a10' a11' a12' a13' a14' a15' a16' a17' a18' a19' a20') (aggR a2'))
      = ofM (fun i j => outK (mkParams a0 a1 a3 a4 a5 a6 a7 a8 a9 a10 a11 a12 a13 a14 a15 a16 a17 a18 a19 a20) (aggK a2) (toM whp) (toRow bhp) i (Fin.castLE (by decide) j)) := by
  obtain ⟨e0, e1, e2, e3, e4, e5, e6, e7, e8, e9, e10, e11, e12, e13, e14, e15, e16, e17, e18, e19, e20⟩ := heq
  subst e0 e1 e2 e3 e4 e5 e6 e7 e8 e9 e10 e11 e12 e13 e14 e15 e16 e17 e18 e19 e20
  obtain ⟨h0, h1, h3, h4, h5, h6, h7, h8, h9, h10, h11, h12, h13, h14, h15, h16, h17, h18, h19, h20, hr⟩ := hre
  refine congrArg ofM (funext fun i => funext fun j => ?_)
  rw [hagg hr]
  exact (out_eq (mkParams a0' a1' a3' a4' a5' a6' a7' a8' a9' a10' a11' a12' a13' a14' a15' a16' a17' a18' a19' a20') (mkParams_real h0 h1 h3 h4 h5 h6 h7 h8 h9 h10 h11 h12 h13 h14 h15 h16 h17 h18 h19 h20) (aggR a2') haggre (toM whp) (toRow bhp)
    (reM_toM (hwre h19)) (fun k j => hwk k j) (fun j => hbk j) i j).symm

/-- On each device the reference's result is the kernel's result: each is its network of the argument arrays, the
    arguments are equal, real and in range, and there the two networks agree. -/
theorem results_agree [hKernelIdeal : Cert.KernelIdeal.Facts] [hReferenceIdeal : Cert.ReferenceIdeal.Facts] [hPre_finite_inputs : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    Cert.ReferenceIdeal.Value.res_main_v189 (F := Ideal) m' c = Cert.KernelIdeal.Gen.W21 (F := Ideal) m ρ c (Proc.devRef .tc Cert.KernelIdeal.main_v116) :=
  (Cert.ReferenceIdeal.RChain.result m' c).trans ((agree_core
      (m' ((c.tc : Thread Cert.ReferenceIdeal.nD Cert.ReferenceIdeal.τ).loc Cert.ReferenceIdeal.main_arg0) : Arr 20000 64) (m' ((c.tc : Thread Cert.ReferenceIdeal.nD Cert.ReferenceIdeal.τ).loc Cert.ReferenceIdeal.main_arg1) : Arr 320000 16) (m' ((c.tc : Thread Cert.ReferenceIdeal.nD Cert.ReferenceIdeal.τ).loc Cert.ReferenceIdeal.main_arg2) : EdgeIdx) (m' ((c.tc : Thread Cert.ReferenceIdeal.nD Cert.ReferenceIdeal.τ).loc Cert.ReferenceIdeal.main_arg3) : Arr 64 256) (m' ((c.tc : Thread Cert.ReferenceIdeal.nD Cert.ReferenceIdeal.τ).loc Cert.ReferenceIdeal.main_arg4) : Arr1 256) (m' ((c.tc : Thread Cert.ReferenceIdeal.nD Cert.ReferenceIdeal.τ).loc Cert.ReferenceIdeal.main_arg5) : Arr 16 256) (m' ((c.tc : Thread Cert.ReferenceIdeal.nD Cert.ReferenceIdeal.τ).loc Cert.ReferenceIdeal.main_arg6) : Arr1 256) (m' ((c.tc : Thread Cert.ReferenceIdeal.nD Cert.ReferenceIdeal.τ).loc Cert.ReferenceIdeal.main_arg7) : Arr 256 256) (m' ((c.tc : Thread Cert.ReferenceIdeal.nD Cert.ReferenceIdeal.τ).loc Cert.ReferenceIdeal.main_arg8) : Arr1 256) (m' ((c.tc : Thread Cert.ReferenceIdeal.nD Cert.ReferenceIdeal.τ).loc Cert.ReferenceIdeal.main_arg9) : Arr0) (m' ((c.tc : Thread Cert.ReferenceIdeal.nD Cert.ReferenceIdeal.τ).loc Cert.ReferenceIdeal.main_arg10) : Arr 256 256) (m' ((c.tc : Thread Cert.ReferenceIdeal.nD Cert.ReferenceIdeal.τ).loc Cert.ReferenceIdeal.main_arg11) : Arr1 256) (m' ((c.tc : Thread Cert.ReferenceIdeal.nD Cert.ReferenceIdeal.τ).loc Cert.ReferenceIdeal.main_arg12) : Arr 256 256) (m' ((c.tc : Thread Cert.ReferenceIdeal.nD Cert.ReferenceIdeal.τ).loc Cert.ReferenceIdeal.main_arg13) : Arr1 256) (m' ((c.tc : Thread Cert.ReferenceIdeal.nD Cert.ReferenceIdeal.τ).loc Cert.ReferenceIdeal.main_arg14) : Arr1 4) (m' ((c.tc : Thread Cert.ReferenceIdeal.nD Cert.ReferenceIdeal.τ).loc Cert.ReferenceIdeal.main_arg15) : Arr3 4 256 256) (m' ((c.tc : Thread Cert.ReferenceIdeal.nD Cert.ReferenceIdeal.τ).loc Cert.ReferenceIdeal.main_arg16) : Arr 4 256) (m' ((c.tc : Thread Cert.ReferenceIdeal.nD Cert.ReferenceIdeal.τ).loc Cert.ReferenceIdeal.main_arg17) : Arr3 4 256 256) (m' ((c.tc : Thread Cert.ReferenceIdeal.nD Cert.ReferenceIdeal.τ).loc Cert.ReferenceIdeal.main_arg18) : Arr 4 256) (m' ((c.tc : Thread Cert.ReferenceIdeal.nD Cert.ReferenceIdeal.τ).loc Cert.ReferenceIdeal.main_arg19) : Arr 256 10) (m' ((c.tc : Thread Cert.ReferenceIdeal.nD Cert.ReferenceIdeal.τ).loc Cert.ReferenceIdeal.main_arg20) : Arr1 10)
      (m ((c.tc : Thread Cert.KernelIdeal.nD Cert.KernelIdeal.τ).loc Cert.KernelIdeal.main_arg0) : Arr 20000 64) (m ((c.tc : Thread Cert.KernelIdeal.nD Cert.KernelIdeal.τ).loc Cert.KernelIdeal.main_arg1) : Arr 320000 16) (m ((c.tc : Thread Cert.KernelIdeal.nD Cert.KernelIdeal.τ).loc Cert.KernelIdeal.main_arg2) : EdgeIdx) (m ((c.tc : Thread Cert.KernelIdeal.nD Cert.KernelIdeal.τ).loc Cert.KernelIdeal.main_arg3) : Arr 64 256) (m ((c.tc : Thread Cert.KernelIdeal.nD Cert.KernelIdeal.τ).loc Cert.KernelIdeal.main_arg4) : Arr1 256) (m ((c.tc : Thread Cert.KernelIdeal.nD Cert.KernelIdeal.τ).loc Cert.KernelIdeal.main_arg5) : Arr 16 256) (m ((c.tc : Thread Cert.KernelIdeal.nD Cert.KernelIdeal.τ).loc Cert.KernelIdeal.main_arg6) : Arr1 256) (m ((c.tc : Thread Cert.KernelIdeal.nD Cert.KernelIdeal.τ).loc Cert.KernelIdeal.main_arg7) : Arr 256 256) (m ((c.tc : Thread Cert.KernelIdeal.nD Cert.KernelIdeal.τ).loc Cert.KernelIdeal.main_arg8) : Arr1 256) (m ((c.tc : Thread Cert.KernelIdeal.nD Cert.KernelIdeal.τ).loc Cert.KernelIdeal.main_arg9) : Arr0) (m ((c.tc : Thread Cert.KernelIdeal.nD Cert.KernelIdeal.τ).loc Cert.KernelIdeal.main_arg10) : Arr 256 256) (m ((c.tc : Thread Cert.KernelIdeal.nD Cert.KernelIdeal.τ).loc Cert.KernelIdeal.main_arg11) : Arr1 256) (m ((c.tc : Thread Cert.KernelIdeal.nD Cert.KernelIdeal.τ).loc Cert.KernelIdeal.main_arg12) : Arr 256 256) (m ((c.tc : Thread Cert.KernelIdeal.nD Cert.KernelIdeal.τ).loc Cert.KernelIdeal.main_arg13) : Arr1 256) (m ((c.tc : Thread Cert.KernelIdeal.nD Cert.KernelIdeal.τ).loc Cert.KernelIdeal.main_arg14) : Arr1 4) (m ((c.tc : Thread Cert.KernelIdeal.nD Cert.KernelIdeal.τ).loc Cert.KernelIdeal.main_arg15) : Arr3 4 256 256) (m ((c.tc : Thread Cert.KernelIdeal.nD Cert.KernelIdeal.τ).loc Cert.KernelIdeal.main_arg16) : Arr 4 256) (m ((c.tc : Thread Cert.KernelIdeal.nD Cert.KernelIdeal.τ).loc Cert.KernelIdeal.main_arg17) : Arr3 4 256 256) (m ((c.tc : Thread Cert.KernelIdeal.nD Cert.KernelIdeal.τ).loc Cert.KernelIdeal.main_arg18) : Arr 4 256) (m ((c.tc : Thread Cert.KernelIdeal.nD Cert.KernelIdeal.τ).loc Cert.KernelIdeal.main_arg19) : Arr 256 10) (m ((c.tc : Thread Cert.KernelIdeal.nD Cert.KernelIdeal.τ).loc Cert.KernelIdeal.main_arg20) : Arr1 10)
      Cert.KernelIdeal.KGlue.aggK Cert.ReferenceIdeal.RChain.aggR (Cert.KernelIdeal.Pad.whPad (m ((c.tc : Thread Cert.KernelIdeal.nD Cert.KernelIdeal.τ).loc Cert.KernelIdeal.main_arg19) : Arr 256 10)) (Cert.KernelIdeal.Pad.bhPad (m ((c.tc : Thread Cert.KernelIdeal.nD Cert.KernelIdeal.τ).loc Cert.KernelIdeal.main_arg20) : Arr1 10))
      (hagree c) (Cert.KernelIdeal.PreDecode.decode m hpre c) (Cert.AggEq.agg_eq _) (Cert.AggEq.aggR_re _)
      (Cert.KernelIdeal.Pad.whPad_re _) (Cert.KernelIdeal.Pad.whPad_kept _) (Cert.KernelIdeal.Pad.bhPad_kept _)).trans
    (Cert.KernelIdeal.KChain.result m ρ c).symm)

end Cert.Value

end
-- ==== Proof.lean ====
/-
  The claims, assembled.

  The three frames: the two kernel programs' by the generated frame certificates, the reference's by its generated
  run with the result dropped. The idealization's ledger: twenty-eight entries of one rule, a widening of a narrowing
  read as the identity. The value claim: the kernel program's run ends with its result at what the last boundary of
  the run names, the reference's at its composed term; both are the specification's network of the argument arrays
  (one over three-pass products and a padded head, one over plain products), and on real arguments with source
  indices in range these agree entry by entry.
-/
import proofs.«414264_j73976516706834_2_alg».proof.Defs
import proofs.«414264_j73976516706834_2_alg».proof.Proof.Gen.Kernel
import proofs.«414264_j73976516706834_2_alg».proof.Proof.Gen.KernelIdeal
import proofs.«414264_j73976516706834_2_alg».proof.Proof.Gen.KernelIdeal.Frame
import proofs.«414264_j73976516706834_2_alg».proof.Proof.Gen.ReferenceIdeal
import proofs.«414264_j73976516706834_2_alg».proof.Proof.Gen.Pre_finite_inputs
import proofs.«414264_j73976516706834_2_alg».proof.Proof.Gen.ReferenceIdeal.Read
import proofs.«414264_j73976516706834_2_alg».proof.Proof.Gen.Kernel.Frame
import proofs.«414264_j73976516706834_2_alg».proof.Proof.Gen.ReferenceIdeal.Run
import proofs.«414264_j73976516706834_2_alg».proof.Proof.KRun
import proofs.«414264_j73976516706834_2_alg».proof.Proof.Value

noncomputable section

open Idealize.ShloMosaic Idealize.ShloMosaic.TcCoe Idealize.SL.Sem

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- One conjunct per ledger entry, in the ledger's order: the rule's own statement at that shape. -/
theorem preserves : Cert.preserves_Kernel_KernelIdeal :=
  ⟨IdealRules.truncf_extf.statement Cert.KernelIdeal.S2000x64 .f32 .bf16,
   IdealRules.truncf_extf.statement Cert.KernelIdeal.S64x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S8000x16 .f32 .bf16,
   IdealRules.truncf_extf.statement Cert.KernelIdeal.S16x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S2000x256 .f32 .bf16,
   IdealRules.truncf_extf.statement Cert.KernelIdeal.S256x256 .f32 .bf16,
   IdealRules.truncf_extf.statement Cert.KernelIdeal.S2000x256 .f32 .bf16,
   IdealRules.truncf_extf.statement Cert.KernelIdeal.S256x128 .f32 .bf16⟩

/-- Both idealized programs end, from memories agreeing on the arguments, at the same result. -/
theorem algebraic : Cert.algebraic_KernelIdeal_ReferenceIdeal := by
  intro m ρ m' ρ' hpre hagree
  refine ⟨fun c => Cert.KernelIdeal.Gen.W21 (F := Ideal) m ρ c (Proc.devRef .tc Cert.KernelIdeal.main_v116),
    Cert.KernelIdeal.ValueRun.run_value m ρ, ?_⟩
  refine (θ_run Cert.ReferenceIdeal.defs _ _).mono (fun r h c => ⟨(h c).1.trans ?_, (h c).2⟩)
    (Cert.ReferenceIdeal.Value.run (F := Ideal) m' ρ')
  exact Cert.Value.results_agree m ρ m' hpre hagree c

end Cert.Proof.Claims

namespace Cert.Proof

/-- The certificate's claim: the programs' stated facts by the generated instances, then the five conjuncts. -/
theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
